-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S8x1x512x512 : Shape := ⟨4, ![8, 1, 512, 512]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel
  bcast_S_S8x1x512x512 : S_.BroadcastsInDim S8x1x512x512 (![] : Fin 0 → Fin S8x1x512x512.rank)
  reducesTo_S8x1x512x512_S_d0_1_2_3 : S8x1x512x512.ReducesTo [0, 1, 2, 3] S_

variable [Facts]

def fn {F : FTy → Type} [FloatOps F] (main_arg0 : FVec F S8x21x512x512 .f32) (main_arg1 : IVec S8x1x512x512 32) (main_arg2 : IVec S8x1x512x512 32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  let main_c_0 : IVec S_ 32 := constantI S_ 32 0#32
  let main_v4 : IVec S8x1x512x512 32 := broadcastInDim S8x1x512x512 ![] bcast_S_S8x1x512x512 main_c_0
  let main_v5 : IVec S8x1x512x512 1 := cmpi .sge main_arg1 main_v4
  let main_c_1 : IVec S_ 1 := constantI S_ 1 1#1
  let main_v6 : IVec S_ 1 := (fun x v => Host.reduce IntOp.andi x v reducesTo_S8x1x512x512_S_d0_1_2_3 h_S_) main_v5 main_c_1
  let main_v7 : IVec S_ 1 := andi main_v3 main_v6
  let main_c_2 : IVec S_ 32 := constantI S_ 32 16#32
  let main_v8 : IVec S8x1x512x512 32 := broadcastInDim S8x1x512x512 ![] bcast_S_S8x1x512x512 main_c_2
  let main_v9 : IVec S8x1x512x512 1 := cmpi .slt main_arg1 main_v8
  let main_c_3 : IVec S_ 1 := constantI S_ 1 1#1
  let main_v10 : IVec S_ 1 := (fun x v => Host.reduce IntOp.andi x v reducesTo_S8x1x512x512_S_d0_1_2_3 h_S_) main_v9 main_c_3
  let main_v11 : IVec S_ 1 := andi main_v7 main_v10
  main_v11
-- ==== Kernel.lean ====
abbrev S8x21x512x512 : Shape := ⟨4, ![8, 21, 512, 512]⟩
abbrev S8x1x512x512 : Shape := ⟨4, ![8, 1, 512, 512]⟩
abbrev S8x16x21 : Shape := ⟨3, ![8, 16, 21]⟩
abbrev S8x16x1 : Shape := ⟨3, ![8, 16, 1]⟩
abbrev S1x21x64x512 : Shape := ⟨4, ![1, 21, 64, 512]⟩
abbrev S1x1x64x512 : Shape := ⟨4, ![1, 1, 64, 512]⟩
abbrev S1x16x21 : Shape := ⟨3, ![1, 16, 21]⟩
abbrev S1x16x1 : Shape := ⟨3, ![1, 16, 1]⟩
abbrev S16x21 : Shape := ⟨2, ![16, 21]⟩
abbrev S16x1 : Shape := ⟨2, ![16, 1]⟩
abbrev S21x64x512 : Shape := ⟨3, ![21, 64, 512]⟩
abbrev S64x512 : Shape := ⟨2, ![64, 512]⟩
abbrev S1x64x512 : Shape := ⟨3, ![1, 64, 512]⟩
abbrev S21x64 : Shape := ⟨2, ![21, 64]⟩
abbrev S21 : Shape := ⟨1, ![21]⟩
abbrev S64 : Shape := ⟨1, ![64]⟩
abbrev S64x1 : Shape := ⟨2, ![64, 1]⟩
abbrev S1 : Shape := ⟨1, ![1]⟩
abbrev S1x21 : Shape := ⟨2, ![1, 21]⟩
abbrev S1x1 : Shape := ⟨2, ![1, 1]⟩
abbrev S8x16 : Shape := ⟨2, ![8, 16]⟩
abbrev S_ : Shape := ⟨0, ![]⟩
abbrev S8x262144 : Shape := ⟨2, ![8, 262144]⟩
abbrev S2097152 : Shape := ⟨1, ![2097152]⟩
abbrev S16 : Shape := ⟨1, ![16]⟩
abbrev S2097152x1 : Shape := ⟨2, ![2097152, 1]⟩
abbrev S16x2 : Shape := ⟨2, ![16, 2]⟩

abbrev nBuf : Space → Nat
  | .hbm => 107
  | .vmem => 13
  | .smem => 0
  | _ => 0

abbrev bufTy : (tb : Table) → Fin (tcTables nBuf tb) → BufTy
  | .hbm, ⟨0, _⟩ => ⟨S8x21x512x512, .f32⟩
  | .hbm, ⟨1, _⟩ => ⟨S8x1x512x512, .i32⟩
  | .hbm, ⟨2, _⟩ => ⟨S8x1x512x512, .i32⟩
  | .hbm, ⟨3, _⟩ => ⟨S8x16x21, .f32⟩
  | .hbm, ⟨4, _⟩ => ⟨S8x16x21, .f32⟩
  | .hbm, ⟨5, _⟩ => ⟨S8x16x1, .f32⟩
  | .hbm, ⟨6, _⟩ => ⟨S8x16, .f32⟩
  | .hbm, ⟨7, _⟩ => ⟨S_, .f32⟩
  | .hbm, ⟨8, _⟩ => ⟨S8x16, .f32⟩
  | .hbm, ⟨9, _⟩ => ⟨S8x16, .i1⟩
  | .hbm, ⟨10, _⟩ => ⟨S_, .f32⟩
  | .hbm, ⟨11, _⟩ => ⟨S_, .f32⟩
  | .hbm, ⟨12, _⟩ => ⟨S8x16, .f32⟩
  | .hbm, ⟨13, _⟩ => ⟨S8x16, .f32⟩
  | .hbm, ⟨14, _⟩ => ⟨S8x16x1, .i1⟩
  | .hbm, ⟨15, _⟩ => ⟨S8x16x1, .f32⟩
  | .hbm, ⟨16, _⟩ => ⟨S8x16x21, .f32⟩
  | .hbm, ⟨17, _⟩ => ⟨S8x16x21, .f32⟩
  | .hbm, ⟨18, _⟩ => ⟨S_, .f32⟩
  | .hbm, ⟨19, _⟩ => ⟨S_, .f32⟩
  | .hbm, ⟨20, _⟩ => ⟨S8x16x21, .i1⟩
  | .hbm, ⟨21, _⟩ => ⟨S8x16x21, .f32⟩
  | .hbm, ⟨22, _⟩ => ⟨S8x16x21, .f32⟩
  | .hbm, ⟨23, _⟩ => ⟨S8x262144, .i32⟩
  | .hbm, ⟨24, _⟩ => ⟨S8x262144, .i32⟩
  | .hbm, ⟨25, _⟩ => ⟨S2097152, .i32⟩
  | .hbm, ⟨26, _⟩ => ⟨S2097152, .i32⟩
  | .hbm, ⟨27, _⟩ => ⟨S_, .i32⟩
  | .hbm, ⟨28, _⟩ => ⟨S16, .i32⟩
  | .hbm, ⟨29, _⟩ => ⟨S2097152x1, .i32⟩
  | .hbm, ⟨30, _⟩ => ⟨S16, .i32⟩
  | .hbm, ⟨31, _⟩ => ⟨S16, .i32⟩
  | .hbm, ⟨32, _⟩ => ⟨S_, .i32⟩
  | .hbm, ⟨33, _⟩ => ⟨S16, .i32⟩
  | .hbm, ⟨34, _⟩ => ⟨S16, .i1⟩
  | .hbm, ⟨35, _⟩ => ⟨S_, .i32⟩
  | .hbm, ⟨36, _⟩ => ⟨S16, .i32⟩
  | .hbm, ⟨37, _⟩ => ⟨S16, .i32⟩
  | .hbm, ⟨38, _⟩ => ⟨S16, .i32⟩
  | .hbm, ⟨39, _⟩ => ⟨S_, .i32⟩
  | .hbm, ⟨40, _⟩ => ⟨S16, .i32⟩
  | .hbm, ⟨41, _⟩ => ⟨S16, .i1⟩
  | .hbm, ⟨42, _⟩ => ⟨S_, .i32⟩
  | .hbm, ⟨43, _⟩ => ⟨S16, .i32⟩
  | .hbm, ⟨44, _⟩ => ⟨S16, .i32⟩
  | .hbm, ⟨45, _⟩ => ⟨S16, .i32⟩
  | .hbm, ⟨46, _⟩ => ⟨S16x1, .i32⟩
  | .hbm, ⟨47, _⟩ => ⟨S16x1, .i32⟩
  | .hbm, ⟨48, _⟩ => ⟨S16x2, .i32⟩
  | .hbm, ⟨49, _⟩ => ⟨S8x16, .f32⟩
  | .hbm, ⟨50, _⟩ => ⟨S_, .f32⟩
  | .hbm, ⟨51, _⟩ => ⟨S_, .f32⟩
  | .hbm, ⟨52, _⟩ => ⟨S8x16, .f32⟩
  | .hbm, ⟨53, _⟩ => ⟨S8x16, .f32⟩
  | .hbm, ⟨54, _⟩ => ⟨S8x16, .f32⟩
  | .hbm, ⟨55, _⟩ => ⟨S8x16, .f32⟩
  | .hbm, ⟨56, _⟩ => ⟨S_, .f32⟩
  | .hbm, ⟨57, _⟩ => ⟨S_, .f32⟩
  | .hbm, ⟨58, _⟩ => ⟨S8x16, .f32⟩
  | .hbm, ⟨59, _⟩ => ⟨S8x16, .f32⟩
  | .hbm, ⟨60, _⟩ => ⟨S_, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S8x16x21, .f32⟩
  | .hbm, ⟨67, _⟩ => ⟨S8x16x21, .i1⟩
  | .hbm, ⟨68, _⟩ => ⟨S_, .f32⟩
  | .hbm, ⟨69, _⟩ => ⟨S8x16x21, .f32⟩
  | .hbm, ⟨70, _⟩ => ⟨S8x16x21, .i1⟩
  | .hbm, ⟨71, _⟩ => ⟨S_, .f32⟩
  | .hbm, ⟨72, _⟩ => ⟨S_, .f32⟩
  | .hbm, ⟨73, _⟩ => ⟨S8x16x21, .f32⟩
  | .hbm, ⟨74, _⟩ => ⟨S8x16x21, .f32⟩
  | .hbm, ⟨75, _⟩ => ⟨S8x16x21, .f32⟩
  | .hbm, ⟨76, _⟩ => ⟨S8x16x21, .f32⟩
  | .hbm, ⟨77, _⟩ => ⟨S_, .f32⟩
  | .hbm, ⟨78, _⟩ => ⟨S_, .f32⟩
  | .hbm, ⟨79, _⟩ => ⟨S8x16x21, .f32⟩
  | .hbm, ⟨80, _⟩ => ⟨S8x16x21, .f32⟩
  | .hbm, ⟨81, _⟩ => ⟨S_, .f32⟩
  | .hbm, ⟨82, _⟩ => ⟨S8x16, .f32⟩
  | .hbm, ⟨83, _⟩ => ⟨S8x16, .f32⟩
  | .hbm, ⟨84, _⟩ => ⟨S8x16x21, .f32⟩
  | .hbm, ⟨85, _⟩ => ⟨S_, .f32⟩
  | .hbm, ⟨86, _⟩ => ⟨S8x16, .f32⟩
  | .hbm, ⟨87, _⟩ => ⟨S8x16, .f32⟩
  | .hbm, ⟨88, _⟩ => ⟨S_, .f32⟩
  | .hbm, ⟨89, _⟩ => ⟨S16, .f32⟩
  | .hbm, ⟨90, _⟩ => ⟨S_, .f32⟩
  | .hbm, ⟨91, _⟩ => ⟨S16, .f32⟩
  | .hbm, ⟨92, _⟩ => ⟨S_, .f32⟩
  | .hbm, ⟨93, _⟩ => ⟨S16, .f32⟩
  | .hbm, ⟨94, _⟩ => ⟨S16, .f32⟩
  | .hbm, ⟨95, _⟩ => ⟨S16, .f32⟩
  | .hbm, ⟨96, _⟩ => ⟨S_, .f32⟩
  | .hbm, ⟨97, _⟩ => ⟨S16, .f32⟩
  | .hbm, ⟨98, _⟩ => ⟨S16, .f32⟩
  | .hbm, ⟨99, _⟩ => ⟨S_, .f32⟩
  | .hbm, ⟨100, _⟩ => ⟨S16, .f32⟩
  | .hbm, ⟨101, _⟩ => ⟨S16, .f32⟩
  | .hbm, ⟨102, _⟩ => ⟨S16, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .local _ .vmem, ⟨0, _⟩ => ⟨S1x21x64x512, .f32⟩
  | .local _ .vmem, ⟨1, _⟩ => ⟨S1x21x64x512, .f32⟩
  | .local _ .vmem, ⟨2, _⟩ => ⟨S1x1x64x512, .i32⟩
  | .local _ .vmem, ⟨3, _⟩ => ⟨S1x1x64x512, .i32⟩
  | .local _ .vmem, ⟨4, _⟩ => ⟨S1x16x21, .f32⟩
  | .local _ .vmem, ⟨5, _⟩ => ⟨S1x16x21, .f32⟩
  | .local _ .vmem, ⟨6, _⟩ => ⟨S1x16x21, .f32⟩
  | .local _ .vmem, ⟨7, _⟩ => ⟨S1x16x21, .f32⟩
  | .local _ .vmem, ⟨8, _⟩ => ⟨S1x16x1, .f32⟩
  | .local _ .vmem, ⟨9, _⟩ => ⟨S1x16x1, .f32⟩
  | .local _ .vmem, ⟨10, _⟩ => ⟨S16x21, .f32⟩
  | .local _ .vmem, ⟨11, _⟩ => ⟨S16x21, .f32⟩
  | .local _ .vmem, ⟨12, _⟩ => ⟨S16x1, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_call2_v0 : Ref sig .tc := ⟨.hbm, 51, rfl⟩
abbrev main_call2_v1 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_call3_v0 : Ref sig .tc := ⟨.hbm, 57, rfl⟩
abbrev main_call3_v1 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_cst_10 : Ref sig .tc := ⟨.hbm, 65, rfl⟩
abbrev main_v39 : Ref sig .tc := ⟨.hbm, 66, rfl⟩
abbrev main_v40 : Ref sig .tc := ⟨.hbm, 67, rfl⟩
abbrev main_cst_11 : Ref sig .tc := ⟨.hbm, 68, rfl⟩
abbrev main_v41 : Ref sig .tc := ⟨.hbm, 69, rfl⟩
abbrev main_v42 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_13 : Ref sig .tc := ⟨.hbm, 77, rfl⟩
abbrev main_call5_v0 : Ref sig .tc := ⟨.hbm, 78, rfl⟩
abbrev main_call5_v1 : Ref sig .tc := ⟨.hbm, 79, rfl⟩
abbrev main_v46 : Ref sig .tc := ⟨.hbm, 80, rfl⟩
abbrev main_cst_14 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_15 : Ref sig .tc := ⟨.hbm, 85, rfl⟩
abbrev main_v50 : Ref sig .tc := ⟨.hbm, 86, rfl⟩
abbrev main_v51 : Ref sig .tc := ⟨.hbm, 87, rfl⟩
abbrev main_cst_16 : Ref sig .tc := ⟨.hbm, 88, rfl⟩
abbrev main_v52 : Ref sig .tc := ⟨.hbm, 89, rfl⟩
abbrev main_cst_17 : Ref sig .tc := ⟨.hbm, 90, rfl⟩
abbrev main_v53 : Ref sig .tc := ⟨.hbm, 91, rfl⟩
abbrev main_cst_18 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_19 : Ref sig .tc := ⟨.hbm, 96, rfl⟩
abbrev main_v57 : Ref sig .tc := ⟨.hbm, 97, rfl⟩
abbrev main_v58 : Ref sig .tc := ⟨.hbm, 98, rfl⟩
abbrev main_cst_20 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_21 : Ref sig .tc := ⟨.hbm, 103, rfl⟩
abbrev main_v62 : Ref sig .tc := ⟨.hbm, 104, rfl⟩
abbrev main_cst_22 : Ref sig .tc := ⟨.hbm, 105, rfl⟩
abbrev main_v63 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S16x21_S16x21_0_0 : ∀ a, (![0, 0] : Fin 2 → Nat) a + S16x21.size a ≤ S16x21.size a
  h_S16x21 : 0 < S16x21.numel
  shapeCasts_S16x21_S16x21 : S16x21.ShapeCasts S16x21
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x21x64x512_S1x21x64x512_0_0_0_0 : ∀ a, (![0, 0, 0, 0] : Fin 4 → Nat) a + S1x21x64x512.size a ≤ S1x21x64x512.size a
  h_S1x21x64x512 : 0 < S1x21x64x512.numel
  shapeCasts_S1x21x64x512_S21x64x512 : S1x21x64x512.ShapeCasts S21x64x512
  inb_S1x1x64x512_S1x1x64x512_0_0_0_0 : ∀ a, (![0, 0, 0, 0] : Fin 4 → Nat) a + S1x1x64x512.size a ≤ S1x1x64x512.size a
  h_S1x1x64x512 : 0 < S1x1x64x512.numel
  shapeCasts_S1x1x64x512_S64x512 : S1x1x64x512.ShapeCasts S64x512
  reduces_S21x64x512_S64x512 : S21x64x512.Reduces [0] S64x512
  shapeCasts_S64x512_S1x64x512 : S64x512.ShapeCasts S1x64x512
  broadcasts_S1x64x512_S21x64x512 : S1x64x512.Broadcasts S21x64x512
  natLt_1_32 : 1 < 32
  reduces_S21x64x512_S21x64 : S21x64x512.Reduces [2] S21x64
  reduces_S21x64_S21 : S21x64.Reduces [1] S21
  reduces_S64x512_S64 : S64x512.Reduces [1] S64
  shapeCasts_S64_S64x1 : S64.ShapeCasts S64x1
  reduces_S64x1_S1 : S64x1.Reduces [0] S1
  inb_S16x21_S1x21_0_0 : ∀ a, (![0, 0] : Fin 2 → Nat) a + S1x21.size a ≤ S16x21.size a
  h_S1x21 : 0 < S1x21.numel
  shapeCasts_S1x21_S21 : S1x21.ShapeCasts S21
  shapeCasts_S21_S1x21 : S21.ShapeCasts S1x21
  inb_S16x1_S1x1_0_0 : ∀ a, (![0, 0] : Fin 2 → Nat) a + S1x1.size a ≤ S16x1.size a
  h_S1x1 : 0 < S1x1.numel
  shapeCasts_S1x1_S1 : S1x1.ShapeCasts S1
  shapeCasts_S1_S1x1 : S1.ShapeCasts S1x1
  inb_S16x21_S1x21_1_0 : ∀ a, (![1, 0] : Fin 2 → Nat) a + S1x21.size a ≤ S16x21.size a
  inb_S16x1_S1x1_1_0 : ∀ a, (![1, 0] : Fin 2 → Nat) a + S1x1.size a ≤ S16x1.size a
  inb_S16x21_S1x21_2_0 : ∀ a, (![2, 0] : Fin 2 → Nat) a + S1x21.size a ≤ S16x21.size a
  inb_S16x1_S1x1_2_0 : ∀ a, (![2, 0] : Fin 2 → Nat) a + S1x1.size a ≤ S16x1.size a
  inb_S16x21_S1x21_3_0 : ∀ a, (![3, 0] : Fin 2 → Nat) a + S1x21.size a ≤ S16x21.size a
  inb_S16x1_S1x1_3_0 : ∀ a, (![3, 0] : Fin 2 → Nat) a + S1x1.size a ≤ S16x1.size a
  inb_S16x21_S1x21_4_0 : ∀ a, (![4, 0] : Fin 2 → Nat) a + S1x21.size a ≤ S16x21.size a
  inb_S16x1_S1x1_4_0 : ∀ a, (![4, 0] : Fin 2 → Nat) a + S1x1.size a ≤ S16x1.size a
  inb_S16x21_S1x21_5_0 : ∀ a, (![5, 0] : Fin 2 → Nat) a + S1x21.size a ≤ S16x21.size a
  inb_S16x1_S1x1_5_0 : ∀ a, (![5, 0] : Fin 2 → Nat) a + S1x1.size a ≤ S16x1.size a
  inb_S16x21_S1x21_6_0 : ∀ a, (![6, 0] : Fin 2 → Nat) a + S1x21.size a ≤ S16x21.size a
  inb_S16x1_S1x1_6_0 : ∀ a, (![6, 0] : Fin 2 → Nat) a + S1x1.size a ≤ S16x1.size a
  inb_S16x21_S1x21_7_0 : ∀ a, (![7, 0] : Fin 2 → Nat) a + S1x21.size a ≤ S16x21.size a
  inb_S16x1_S1x1_7_0 : ∀ a, (![7, 0] : Fin 2 → Nat) a + S1x1.size a ≤ S16x1.size a
  inb_S16x21_S1x21_8_0 : ∀ a, (![8, 0] : Fin 2 → Nat) a + S1x21.size a ≤ S16x21.size a
  inb_S16x1_S1x1_8_0 : ∀ a, (![8, 0] : Fin 2 → Nat) a + S1x1.size a ≤ S16x1.size a
  inb_S16x21_S1x21_9_0 : ∀ a, (![9, 0] : Fin 2 → Nat) a + S1x21.size a ≤ S16x21.size a
  inb_S16x1_S1x1_9_0 : ∀ a, (![9, 0] : Fin 2 → Nat) a + S1x1.size a ≤ S16x1.size a
  inb_S16x21_S1x21_10_0 : ∀ a, (![10, 0] : Fin 2 → Nat) a + S1x21.size a ≤ S16x21.size a
  inb_S16x1_S1x1_10_0 : ∀ a, (![10, 0] : Fin 2 → Nat) a + S1x1.size a ≤ S16x1.size a
  inb_S16x21_S1x21_11_0 : ∀ a, (![11, 0] : Fin 2 → Nat) a + S1x21.size a ≤ S16x21.size a
  inb_S16x1_S1x1_11_0 : ∀ a, (![11, 0] : Fin 2 → Nat) a + S1x1.size a ≤ S16x1.size a
  inb_S16x21_S1x21_12_0 : ∀ a, (![12, 0] : Fin 2 → Nat) a + S1x21.size a ≤ S16x21.size a
  inb_S16x1_S1x1_12_0 : ∀ a, (![12, 0] : Fin 2 → Nat) a + S1x1.size a ≤ S16x1.size a
  inb_S16x21_S1x21_13_0 : ∀ a, (![13, 0] : Fin 2 → Nat) a + S1x21.size a ≤ S16x21.size a
  inb_S16x1_S1x1_13_0 : ∀ a, (![13, 0] : Fin 2 → Nat) a + S1x1.size a ≤ S16x1.size a
  inb_S16x21_S1x21_14_0 : ∀ a, (![14, 0] : Fin 2 → Nat) a + S1x21.size a ≤ S16x21.size a
  inb_S16x1_S1x1_14_0 : ∀ a, (![14, 0] : Fin 2 → Nat) a + S1x1.size a ≤ S16x1.size a
  inb_S16x21_S1x21_15_0 : ∀ a, (![15, 0] : Fin 2 → Nat) a + S1x21.size a ≤ S16x21.size a
  inb_S16x1_S1x1_15_0 : ∀ a, (![15, 0] : Fin 2 → Nat) a + S1x1.size a ≤ S16x1.size a
  inb_S1x16x21_S1x16x21_0_0_0 : ∀ a, (![0, 0, 0] : Fin 3 → Nat) a + S1x16x21.size a ≤ S1x16x21.size a
  h_S1x16x21 : 0 < S1x16x21.numel
  shapeCasts_S1x16x21_S16x21 : S1x16x21.ShapeCasts S16x21
  shapeCasts_S16x21_S1x16x21 : S16x21.ShapeCasts S1x16x21
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  shapeCasts_S8x16x1_S8x16 : S8x16x1.ShapeCasts S8x16
  bcast_S_S8x16 : S_.BroadcastsInDim S8x16 (![] : Fin 0 → Fin S8x16.rank)
  bcast_S8x16_S8x16x1_0_1 : S8x16.BroadcastsInDim S8x16x1 (![0, 1] : Fin 2 → Fin S8x16x1.rank)
  bcast_S8x16x1_S8x16x21_0_1_2 : S8x16x1.BroadcastsInDim S8x16x21 (![0, 1, 2] : Fin 3 → Fin S8x16x21.rank)
  bcast_S_S8x16x21 : S_.BroadcastsInDim S8x16x21 (![] : Fin 0 → Fin S8x16x21.rank)
  shapeCasts_S8x1x512x512_S8x262144 : S8x1x512x512.ShapeCasts S8x262144
  shapeCasts_S8x262144_S2097152 : S8x262144.ShapeCasts S2097152
  bcast_S_S16 : S_.BroadcastsInDim S16 (![] : Fin 0 → Fin S16.rank)
  bcast_S2097152_S2097152x1_0 : S2097152.BroadcastsInDim S2097152x1 (![0] : Fin 1 → Fin S2097152x1.rank)
  bcast_S16_S16x1_0 : S16.BroadcastsInDim S16x1 (![0] : Fin 1 → Fin S16x1.rank)
  concatenates_S16x1_S16x1_S16x2_d1 : Shape.Concatenates [S16x1, S16x1] S16x2 1
  reducesTo_S8x16_S16_d0 : S8x16.ReducesTo [0] S16
  h_S_ : 0 < S_.numel
  reducesTo_S8x16x21_S8x16_d2 : S8x16x21.ReducesTo [2] S8x16
  reducesTo_S16_S_d0 : S16.ReducesTo [0] S_
  scatter_S16_S2097152x1_S2097152_n_0_0_1_wf : ScatterDims.WF S16 S2097152x1 S2097152 [] [0] [0] 1
  gather_S8x16x21_S16x2_S8x16_0_12_n_n_12_1_811_wf : GatherDims.WF S8x16x21 S16x2 S8x16 [0] [1, 2] [] [1, 2] [] 1 ![8, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x64x512.size a ≤ S8x21x512x512.size a
  hwx0_0 : ∀ i : grid0.Coords, EltTy.bits .f32 = 32 ∨ (Rect.block (s := S8x21x512x512) S1x21x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x512.size a ≤ S8x1x512x512.size a
  hwx0_1 : ∀ i : grid0.Coords, EltTy.bits .i32 = 32 ∨ (Rect.block (s := S8x1x512x512) S1x1x64x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x21.size a ≤ S8x16x21.size a
  hwx0_2 : ∀ i : grid0.Coords, EltTy.bits .f32 = 32 ∨ (Rect.block (s := S8x16x21) S1x16x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x21.size a ≤ S8x16x21.size a
  hwx0_3 : ∀ i : grid0.Coords, EltTy.bits .f32 = 32 ∨ (Rect.block (s := S8x16x21) S1x16x21.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1.size a ≤ S8x16x1.size a
  hwx0_4 : ∀ i : grid0.Coords, EltTy.bits .f32 = 32 ∨ (Rect.block (s := S8x16x1) S1x16x1.size (cc0_transform_4 i) (hinb0_4 i)).WholeWords (EltTy.packing .f32)

variable [Facts₀]

def scatter_S16_S2097152x1_S2097152_n_0_0_1 : ScatterDims S16 S2097152x1 S2097152 where
  updateWindowDims := []
  insertedWindowDims := [0]
  scatterDimsToOperandDims := [0]
  indexVectorDim := 1
  wf := scatter_S16_S2097152x1_S2097152_n_0_0_1_wf
def gather_S8x16x21_S16x2_S8x16_0_12_n_n_12_1_811 : GatherDims S8x16x21 S16x2 S8x16 where
  offsetDims := [0]
  collapsedSliceDims := [1, 2]
  operandBatchingDims := []
  startIndicesBatchingDims := []
  startIndexMap := [1, 2]
  indexVectorDim := 1
  sliceSizes := ![8, 1, 1]
  wf := gather_S8x16x21_S16x2_S8x16_0_12_n_n_12_1_811_wf

abbrev win0_0 : Pipeline.Window sig grid0 :=
  Pipeline.Window.ofSpec (Memref.whole main_arg0) S1x21x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x16x21.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x16x21.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S8x1x512x512 : Shape := ⟨4, ![8, 1, 512, 512]⟩
abbrev S8x262144 : Shape := ⟨2, ![8, 262144]⟩
abbrev S8 : Shape := ⟨1, ![8]⟩
abbrev S8x1 : Shape := ⟨2, ![8, 1]⟩
abbrev S_ : Shape := ⟨0, ![]⟩
abbrev S2097152 : Shape := ⟨1, ![2097152]⟩
abbrev S8x512x512 : Shape := ⟨3, ![8, 512, 512]⟩
abbrev S8x512x512x21 : Shape := ⟨4, ![8, 512, 512, 21]⟩
abbrev S2097152x21 : Shape := ⟨2, ![2097152, 21]⟩
abbrev S128x21 : Shape := ⟨2, ![128, 21]⟩
abbrev S2097152x1 : Shape := ⟨2, ![2097152, 1]⟩
abbrev S8x16x21 : Shape := ⟨3, ![8, 16, 21]⟩
abbrev S128 : Shape := ⟨1, ![128]⟩
abbrev S8x16 : Shape := ⟨2, ![8, 16]⟩
abbrev S8x16x1 : Shape := ⟨3, ![8, 16, 1]⟩
abbrev S16 : Shape := ⟨1, ![16]⟩
abbrev S16x1 : Shape := ⟨2, ![16, 1]⟩
abbrev S16x2 : Shape := ⟨2, ![16, 2]⟩

abbrev nBuf : Space → Nat
  | .hbm => 145
  | .vmem => 0
  | .smem => 0
  | _ => 0

abbrev hbmTy0_0 (i : Nat) : BufTy := match i % 128 with
  | 0 => ⟨S8x21x512x512, .f32⟩
  | 1 => ⟨S8x1x512x512, .i32⟩
  | 2 => ⟨S8x1x512x512, .i32⟩
  | 3 => ⟨S8x262144, .i32⟩
  | 4 => ⟨S8x262144, .i32⟩
  | 5 => ⟨S8, .i32⟩
  | 6 => ⟨S8x1, .i32⟩
  | 7 => ⟨S_, .i32⟩
  | 8 => ⟨S8x1, .i32⟩
  | 9 => ⟨S8x1, .i32⟩
  | 10 => ⟨S8x262144, .i32⟩
  | 11 => ⟨S8x262144, .i32⟩
  | 12 => ⟨S2097152, .i32⟩
  | 13 => ⟨S_, .f32⟩
  | 14 => ⟨S8x512x512, .f32⟩
  | 15 => ⟨S_, .f32⟩
  | 16 => ⟨S8x512x512, .f32⟩
  | 17 => ⟨S8x512x512, .f32⟩
  | 18 => ⟨S8x1x512x512, .f32⟩
  | 19 => ⟨S8x21x512x512, .f32⟩
  | 20 => ⟨S8x21x512x512, .f32⟩
  | 21 => ⟨S8x21x512x512, .f32⟩
  | 22 => ⟨S_, .f32⟩
  | 23 => ⟨S8x512x512, .f32⟩
  | 24 => ⟨S8x1x512x512, .f32⟩
  | 25 => ⟨S8x21x512x512, .f32⟩
  | 26 => ⟨S8x21x512x512, .f32⟩
  | 27 => ⟨S8x512x512x21, .f32⟩
  | 28 => ⟨S2097152x21, .f32⟩
  | 29 => ⟨S2097152x21, .f32⟩
  | 30 => ⟨S_, .f32⟩
  | 31 => ⟨S128x21, .f32⟩
  | 32 => ⟨S2097152x1, .i32⟩
  | 33 => ⟨S128x21, .f32⟩
  | 34 => ⟨S8x16x21, .f32⟩
  | 35 => ⟨S_, .f32⟩
  | 36 => ⟨S128x21, .f32⟩
  | 37 => ⟨S2097152x1, .i32⟩
  | 38 => ⟨S128x21, .f32⟩
  | 39 => ⟨S8x16x21, .f32⟩
  | 40 => ⟨S_, .f32⟩
  | 41 => ⟨S2097152, .f32⟩
  | 42 => ⟨S_, .f32⟩
  | 43 => ⟨S128, .f32⟩
  | 44 => ⟨S2097152x1, .i32⟩
  | 45 => ⟨S128, .f32⟩
  | 46 => ⟨S8x16, .f32⟩
  | 47 => ⟨S_, .f32⟩
  | 48 => ⟨S8x16, .f32⟩
  | 49 => ⟨S8x16, .i1⟩
  | 50 => ⟨S_, .f32⟩
  | 51 => ⟨S_, .f32⟩
  | 52 => ⟨S8x16, .f32⟩
  | 53 => ⟨S8x16, .f32⟩
  | 54 => ⟨S8x16x1, .i1⟩
  | 55 => ⟨S8x16x1, .f32⟩
  | 56 => ⟨S8x16x21, .f32⟩
  | 57 => ⟨S8x16x21, .f32⟩
  | 58 => ⟨S_, .f32⟩
  | 59 => ⟨S_, .f32⟩
  | 60 => ⟨S8x16x21, .i1⟩
  | 61 => ⟨S8x16x21, .f32⟩
  | 62 => ⟨S8x16x21, .f32⟩
  | 63 => ⟨S2097152, .i32⟩
  | 64 => ⟨S2097152, .i32⟩
  | 65 => ⟨S_, .i32⟩
  | 66 => ⟨S16, .i32⟩
  | 67 => ⟨S2097152x1, .i32⟩
  | 68 => ⟨S16, .i32⟩
  | 69 => ⟨S16, .i32⟩
  | 70 => ⟨S_, .i32⟩
  | 71 => ⟨S16, .i32⟩
  | 72 => ⟨S16, .i1⟩
  | 73 => ⟨S_, .i32⟩
  | 74 => ⟨S16, .i32⟩
  | 75 => ⟨S16, .i32⟩
  | 76 => ⟨S16, .i32⟩
  | 77 => ⟨S_, .i32⟩
  | 78 => ⟨S16, .i32⟩
  | 79 => ⟨S16, .i1⟩
  | 80 => ⟨S_, .i32⟩
  | 81 => ⟨S16, .i32⟩
  | 82 => ⟨S16, .i32⟩
  | 83 => ⟨S16, .i32⟩
  | 84 => ⟨S16x1, .i32⟩
  | 85 => ⟨S16x1, .i32⟩
  | 86 => ⟨S16x2, .i32⟩
  | 87 => ⟨S8x16, .f32⟩
  | 88 => ⟨S_, .f32⟩
  | 89 => ⟨S_, .f32⟩
  | 90 => ⟨S8x16, .f32⟩
  | 91 => ⟨S8x16, .f32⟩
  | 92 => ⟨S8x16, .f32⟩
  | 93 => ⟨S8x16, .f32⟩
  | 94 => ⟨S_, .f32⟩
  | 95 => ⟨S_, .f32⟩
  | 96 => ⟨S8x16, .f32⟩
  | 97 => ⟨S8x16, .f32⟩
  | 98 => ⟨S_, .f32⟩
  | 99 => ⟨S16, .f32⟩
  | 100 => ⟨S_, .f32⟩
  | 101 => ⟨S16, .f32⟩
  | 102 => ⟨S16, .f32⟩
  | 103 => ⟨S_, .f32⟩
  | 104 => ⟨S8x16x21, .f32⟩
  | 105 => ⟨S8x16x21, .i1⟩
  | 106 => ⟨S_, .f32⟩
  | 107 => ⟨S8x16x21, .f32⟩
  | 108 => ⟨S8x16x21, .i1⟩
  | 109 => ⟨S_, .f32⟩
  | 110 => ⟨S_, .f32⟩
  | 111 => ⟨S8x16x21, .f32⟩
  | 112 => ⟨S8x16x21, .f32⟩
  | 113 => ⟨S8x16x21, .f32⟩
  | 114 => ⟨S8x16x21, .f32⟩
  | 115 => ⟨S_, .f32⟩
  | 116 => ⟨S_, .f32⟩
  | 117 => ⟨S8x16x21, .f32⟩
  | 118 => ⟨S8x16x21, .f32⟩
  | 119 => ⟨S_, .f32⟩
  | 120 => ⟨S8x16, .f32⟩
  | 121 => ⟨S8x16, .f32⟩
  | 122 => ⟨S8x16x21, .f32⟩
  | 123 => ⟨S_, .f32⟩
  | 124 => ⟨S8x16, .f32⟩
  | 125 => ⟨S8x16, .f32⟩
  | 126 => ⟨S_, .f32⟩
  | 127 => ⟨S16, .f32⟩
  | _ => ⟨S8x21x512x512, .f32⟩

abbrev hbmTy0_1 (i : Nat) : BufTy := match i % 128 with
  | 0 => ⟨S_, .f32⟩
  | 1 => ⟨S16, .f32⟩
  | 2 => ⟨S_, .f32⟩
  | 3 => ⟨S16, .f32⟩
  | 4 => ⟨S16, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S16, .f32⟩
  | 13 => ⟨S_, .f32⟩
  | 14 => ⟨S_, .f32⟩
  | 15 => ⟨S_, .f32⟩
  | 16 => ⟨S_, .f32⟩
  | _ => ⟨S8x21x512x512, .f32⟩

abbrev hbmTy (i : Nat) : BufTy := match i / 128 with
  | 0 => hbmTy0_0 i
  | 1 => hbmTy0_1 i
  | _ => ⟨S8x21x512x512, .f32⟩

abbrev bufTy : (tb : Table) → Fin (tcTables nBuf tb) → BufTy
  | .hbm, ⟨i, _⟩ => hbmTy i
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_call0_v0 : Ref sig .tc := ⟨.hbm, 51, rfl⟩
abbrev main_call0_v1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_call3_v0 : Ref sig .tc := ⟨.hbm, 95, rfl⟩
abbrev main_call3_v1 : Ref sig .tc := ⟨.hbm, 96, rfl⟩
abbrev main_v67 : Ref sig .tc := ⟨.hbm, 97, rfl⟩
abbrev main_cst_16 : Ref sig .tc := ⟨.hbm, 98, rfl⟩
abbrev main_v68 : Ref sig .tc := ⟨.hbm, 99, rfl⟩
abbrev main_cst_17 : Ref sig .tc := ⟨.hbm, 100, rfl⟩
abbrev main_v69 : Ref sig .tc := ⟨.hbm, 101, rfl⟩
abbrev main_v70 : Ref sig .tc := ⟨.hbm, 102, rfl⟩
abbrev main_cst_18 : Ref sig .tc := ⟨.hbm, 103, rfl⟩
abbrev main_v71 : Ref sig .tc := ⟨.hbm, 104, rfl⟩
abbrev main_v72 : Ref sig .tc := ⟨.hbm, 105, rfl⟩
abbrev main_cst_19 : Ref sig .tc := ⟨.hbm, 106, rfl⟩
abbrev main_v73 : Ref sig .tc := ⟨.hbm, 107, rfl⟩
abbrev main_v74 : Ref sig .tc := ⟨.hbm, 108, rfl⟩
abbrev main_cst_20 : Ref sig .tc := ⟨.hbm, 109, rfl⟩
abbrev main_call4_v0 : Ref sig .tc := ⟨.hbm, 110, rfl⟩
abbrev main_call4_v1 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_21 : Ref sig .tc := ⟨.hbm, 115, rfl⟩
abbrev main_call5_v0 : Ref sig .tc := ⟨.hbm, 116, rfl⟩
abbrev main_call5_v1 : Ref sig .tc := ⟨.hbm, 117, rfl⟩
abbrev main_v78 : Ref sig .tc := ⟨.hbm, 118, rfl⟩
abbrev main_cst_22 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_23 : Ref sig .tc := ⟨.hbm, 123, rfl⟩
abbrev main_v82 : Ref sig .tc := ⟨.hbm, 124, rfl⟩
abbrev main_v83 : Ref sig .tc := ⟨.hbm, 125, rfl⟩
abbrev main_cst_24 : Ref sig .tc := ⟨.hbm, 126, rfl⟩
abbrev main_v84 : Ref sig .tc := ⟨.hbm, 127, rfl⟩
abbrev main_cst_25 : Ref sig .tc := ⟨.hbm, 128, rfl⟩
abbrev main_v85 : Ref sig .tc := ⟨.hbm, 129, rfl⟩
abbrev main_cst_26 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_27 : Ref sig .tc := ⟨.hbm, 134, rfl⟩
abbrev main_v89 : Ref sig .tc := ⟨.hbm, 135, rfl⟩
abbrev main_v90 : Ref sig .tc := ⟨.hbm, 136, rfl⟩
abbrev main_cst_28 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_29 : Ref sig .tc := ⟨.hbm, 141, rfl⟩
abbrev main_v94 : Ref sig .tc := ⟨.hbm, 142, rfl⟩
abbrev main_cst_30 : Ref sig .tc := ⟨.hbm, 143, rfl⟩
abbrev main_v95 : Ref sig .tc := ⟨.hbm, 144, rfl⟩

abbrev nD : Nat := 1
abbrev τ : Topo := Topo.v7x

variable {F : FTy → Type} [FloatOps F]

class Facts₀ : Prop where
  shapeCasts_S8x1x512x512_S8x262144 : S8x1x512x512.ShapeCasts S8x262144
  bcast_S8_S8x1_0 : S8.BroadcastsInDim S8x1 (![0] : Fin 1 → Fin S8x1.rank)
  bcast_S_S8x1 : S_.BroadcastsInDim S8x1 (![] : Fin 0 → Fin S8x1.rank)
  bcast_S8x1_S8x262144_0_1 : S8x1.BroadcastsInDim S8x262144 (![0, 1] : Fin 2 → Fin S8x262144.rank)
  shapeCasts_S8x262144_S2097152 : S8x262144.ShapeCasts S2097152
  reducesTo_S8x21x512x512_S8x512x512_d1 : S8x21x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x21x512x512_0_1_2_3 : S8x1x512x512.BroadcastsInDim S8x21x512x512 (![0, 1, 2, 3] : Fin 4 → Fin S8x21x512x512.rank)
  transposes_S8x21x512x512_S8x512x512x21_0_2_3_1 : S8x21x512x512.Transposes [0, 2, 3, 1] S8x512x512x21
  shapeCasts_S8x512x512x21_S2097152x21 : S8x512x512x21.ShapeCasts S2097152x21
  bcast_S_S128x21 : S_.BroadcastsInDim S128x21 (![] : Fin 0 → Fin S128x21.rank)
  bcast_S2097152_S2097152x1_0 : S2097152.BroadcastsInDim S2097152x1 (![0] : Fin 1 → Fin S2097152x1.rank)
  shapeCasts_S128x21_S8x16x21 : S128x21.ShapeCasts S8x16x21
  bcast_S_S2097152 : S_.BroadcastsInDim S2097152 (![] : Fin 0 → Fin S2097152.rank)
  bcast_S_S128 : S_.BroadcastsInDim S128 (![] : Fin 0 → Fin S128.rank)
  shapeCasts_S128_S8x16 : S128.ShapeCasts S8x16
  bcast_S_S8x16 : S_.BroadcastsInDim S8x16 (![] : Fin 0 → Fin S8x16.rank)
  bcast_S8x16_S8x16x1_0_1 : S8x16.BroadcastsInDim S8x16x1 (![0, 1] : Fin 2 → Fin S8x16x1.rank)
  bcast_S8x16x1_S8x16x21_0_1_2 : S8x16x1.BroadcastsInDim S8x16x21 (![0, 1, 2] : Fin 3 → Fin S8x16x21.rank)
  bcast_S_S8x16x21 : S_.BroadcastsInDim S8x16x21 (![] : Fin 0 → Fin S8x16x21.rank)
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  reducesTo_S8x16_S16_d0 : S8x16.ReducesTo [0] S16
  reducesTo_S8x16x21_S8x16_d2 : S8x16x21.ReducesTo [2] S8x16
  reducesTo_S16_S_d0 : S16.ReducesTo [0] S_
  scatter_S128x21_S2097152x1_S2097152x21_1_0_0_1_wf : ScatterDims.WF S128x21 S2097152x1 S2097152x21 [1] [0] [0] 1
  scatter_S128_S2097152x1_S2097152_n_0_0_1_wf : ScatterDims.WF S128 S2097152x1 S2097152 [] [0] [0] 1
  scatter_S16_S2097152x1_S2097152_n_0_0_1_wf : ScatterDims.WF S16 S2097152x1 S2097152 [] [0] [0] 1
  gather_S8x16x21_S16x2_S8x16_0_12_n_n_12_1_811_wf : GatherDims.WF S8x16x21 S16x2 S8x16 [0] [1, 2] [] [1, 2] [] 1 ![8, 1, 1]

variable [Facts₀]

def scatter_S128x21_S2097152x1_S2097152x21_1_0_0_1 : ScatterDims S128x21 S2097152x1 S2097152x21 where
  updateWindowDims := [1]
  insertedWindowDims := [0]
  scatterDimsToOperandDims := [0]
  indexVectorDim := 1
  wf := scatter_S128x21_S2097152x1_S2097152x21_1_0_0_1_wf
def scatter_S128_S2097152x1_S2097152_n_0_0_1 : ScatterDims S128 S2097152x1 S2097152 where
  updateWindowDims := []
  insertedWindowDims := [0]
  scatterDimsToOperandDims := [0]
  indexVectorDim := 1
  wf := scatter_S128_S2097152x1_S2097152_n_0_0_1_wf
def scatter_S16_S2097152x1_S2097152_n_0_0_1 : ScatterDims S16 S2097152x1 S2097152 where
  updateWindowDims := []
  insertedWindowDims := [0]
  scatterDimsToOperandDims := [0]
  indexVectorDim := 1
  wf := scatter_S16_S2097152x1_S2097152_n_0_0_1_wf
def gather_S8x16x21_S16x2_S8x16_0_12_n_n_12_1_811 : GatherDims S8x16x21 S16x2 S8x16 where
  offsetDims := [0]
  collapsedSliceDims := [1, 2]
  operandBatchingDims := []
  startIndicesBatchingDims := []
  startIndexMap := [1, 2]
  indexVectorDim := 1
  sliceSizes := ![8, 1, 1]
  wf := gather_S8x16x21_S16x2_S8x16_0_12_n_n_12_1_811_wf

class Facts : Prop extends Facts₀ where

variable [Facts]
-- ==== Proof.KRuns.lean ====
/-
  The frame of the kernel program as printed (word level), first part: what the two runs of the kernel body share.

  @main is one pallas_call followed by host lines.  Here: the buffer contents the region is entered with,
  @main as "the region continued by the later lines", that the later lines touch only unscoped buffers,
  allocate nothing and write none of the argument arrays or of the pallas_call's result arrays; each
  window's block at a grid point; the frame claim read off a frame run; the one branch of the body
  (`program_id(1) == 0`: the first row tile of a sample) decided over the grid; and the staging, scratch
  and view names the body's runs are stated over.
-/
import proofs.«400420_j429496730161_3_alg».proof.Proof.Gen.Kernel.Launch
import proofs.«400420_j429496730161_3_alg».proof.Proof.Gen.Kernel.Skeleton
import proofs.«400420_j429496730161_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

/-- Core `c`'s buffer contents when the region is entered: nothing runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The buffers the later lines must leave alone: the three arguments and the three results of the pallas_call. -/
abbrev keptRefs : List (Ref sig .tc) := [main_arg0, main_arg1, main_arg2, main_v0_0, main_v0_1, main_v0_2]

theorem hostOps1_fresh : (hostOps1 : List (HloOp τ sig (Elt F))).Forall fun op => op.fresh = ∅ := by
  simp only [List.Forall]; repeat' constructor
/-- Each line of this stretch writes only its own result, which is none of the kept buffers. -/
theorem hostOps1_keeps : (hostOps1 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_1_fresh : (hostOps1_1 : List (HloOp τ sig (Elt F))).Forall fun op => op.fresh = ∅ := by
  simp only [List.Forall]; repeat' constructor
/-- Each line of this stretch writes only its own result, which is none of the kept buffers. -/
theorem hostOps1_1_keeps : (hostOps1_1 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_2_fresh : (hostOps1_2 : List (HloOp τ sig (Elt F))).Forall fun op => op.fresh = ∅ := by
  simp only [List.Forall]; repeat' constructor
/-- Each line of this stretch writes only its own result, which is none of the kept buffers. -/
theorem hostOps1_2_keeps : (hostOps1_2 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_3_fresh : (hostOps1_3 : List (HloOp τ sig (Elt F))).Forall fun op => op.fresh = ∅ := by
  simp only [List.Forall]; repeat' constructor
/-- Each line of this stretch writes only its own result, which is none of the kept buffers. -/
theorem hostOps1_3_keeps : (hostOps1_3 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_4_fresh : (hostOps1_4 : List (HloOp τ sig (Elt F))).Forall fun op => op.fresh = ∅ := by
  simp only [List.Forall]; repeat' constructor
/-- Each line of this stretch writes only its own result, which is none of the kept buffers. -/
theorem hostOps1_4_keeps : (hostOps1_4 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_5_fresh : (hostOps1_5 : List (HloOp τ sig (Elt F))).Forall fun op => op.fresh = ∅ := by
  simp only [List.Forall]; repeat' constructor
/-- Each line of this stretch writes only its own result, which is none of the kept buffers. -/
theorem hostOps1_5_keeps : (hostOps1_5 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_6_fresh : (hostOps1_6 : List (HloOp τ sig (Elt F))).Forall fun op => op.fresh = ∅ := by
  simp only [List.Forall]; repeat' constructor
/-- Each line of this stretch writes only its own result, which is none of the kept buffers. -/
theorem hostOps1_6_keeps : (hostOps1_6 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_7_fresh : (hostOps1_7 : List (HloOp τ sig (Elt F))).Forall fun op => op.fresh = ∅ := by
  simp only [List.Forall]; repeat' constructor
/-- Each line of this stretch writes only its own result, which is none of the kept buffers. -/
theorem hostOps1_7_keeps : (hostOps1_7 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_8_fresh : (hostOps1_8 : List (HloOp τ sig (Elt F))).Forall fun op => op.fresh = ∅ := by
  simp only [List.Forall]; repeat' constructor
/-- Each line of this stretch writes only its own result, which is none of the kept buffers. -/
theorem hostOps1_8_keeps : (hostOps1_8 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_9_fresh : (hostOps1_9 : List (HloOp τ sig (Elt F))).Forall fun op => op.fresh = ∅ := by
  simp only [List.Forall]; repeat' constructor
/-- Each line of this stretch writes only its own result, which is none of the kept buffers. -/
theorem hostOps1_9_keeps : (hostOps1_9 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_10_fresh : (hostOps1_10 : List (HloOp τ sig (Elt F))).Forall fun op => op.fresh = ∅ := by
  simp only [List.Forall]; repeat' constructor
/-- Each line of this stretch writes only its own result, which is none of the kept buffers. -/
theorem hostOps1_10_keeps : (hostOps1_10 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_11_fresh : (hostOps1_11 : List (HloOp τ sig (Elt F))).Forall fun op => op.fresh = ∅ := by
  simp only [List.Forall]; repeat' constructor
/-- Each line of this stretch writes only its own result, which is none of the kept buffers. -/
theorem hostOps1_11_keeps : (hostOps1_11 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_12_fresh : (hostOps1_12 : List (HloOp τ sig (Elt F))).Forall fun op => op.fresh = ∅ := by
  simp only [List.Forall]; repeat' constructor
/-- Each line of this stretch writes only its own result, which is none of the kept buffers. -/
theorem hostOps1_12_keeps : (hostOps1_12 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- A line of the later stretches, found in its stretch. -/
theorem tail_cases {p : HloOp τ sig (Elt F) → Prop}
    (h0 : (hostOps1 : List (HloOp τ sig (Elt F))).Forall p)
    (h1 : (hostOps1_1 : List (HloOp τ sig (Elt F))).Forall p)
    (h2 : (hostOps1_2 : List (HloOp τ sig (Elt F))).Forall p)
    (h3 : (hostOps1_3 : List (HloOp τ sig (Elt F))).Forall p)
    (h4 : (hostOps1_4 : List (HloOp τ sig (Elt F))).Forall p)
    (h5 : (hostOps1_5 : List (HloOp τ sig (Elt F))).Forall p)
    (h6 : (hostOps1_6 : List (HloOp τ sig (Elt F))).Forall p)
    (h7 : (hostOps1_7 : List (HloOp τ sig (Elt F))).Forall p)
    (h8 : (hostOps1_8 : List (HloOp τ sig (Elt F))).Forall p)
    (h9 : (hostOps1_9 : List (HloOp τ sig (Elt F))).Forall p)
    (h10 : (hostOps1_10 : List (HloOp τ sig (Elt F))).Forall p)
    (h11 : (hostOps1_11 : List (HloOp τ sig (Elt F))).Forall p)
    (h12 : (hostOps1_12 : List (HloOp τ sig (Elt F))).Forall p) :
    ∀ ops ∈ (tailOps : List (List (HloOp τ sig (Elt F)))), ∀ op ∈ ops, p op := by
  intro ops hops op hop
  simp only [tailOps, List.mem_cons, List.mem_nil_iff, or_false] at hops
  rcases hops with rfl | rfl | rfl | rfl | rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop
  · exact (List.forall_iff_forall_mem.mp h9) op hop
  · exact (List.forall_iff_forall_mem.mp h10) op hop
  · exact (List.forall_iff_forall_mem.mp h11) op hop
  · exact (List.forall_iff_forall_mem.mp h12) op hop

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_cases (p := fun op => op.bufs ⊆ Pipeline.ucRefs τ sig)
    (List.forall_iff_forall_mem.mpr fun op hop => Pipeline.sub_ucRefs op ((List.forall_iff_forall_mem.mp hostOps1_sub) op hop))
    (List.forall_iff_forall_mem.mpr fun op hop => Pipeline.sub_ucRefs op ((List.forall_iff_forall_mem.mp hostOps1_1_sub) op hop))
    (List.forall_iff_forall_mem.mpr fun op hop => Pipeline.sub_ucRefs op ((List.forall_iff_forall_mem.mp hostOps1_2_sub) op hop))
    (List.forall_iff_forall_mem.mpr fun op hop => Pipeline.sub_ucRefs op ((List.forall_iff_forall_mem.mp hostOps1_3_sub) op hop))
    (List.forall_iff_forall_mem.mpr fun op hop => Pipeline.sub_ucRefs op ((List.forall_iff_forall_mem.mp hostOps1_4_sub) op hop))
    (List.forall_iff_forall_mem.mpr fun op hop => Pipeline.sub_ucRefs op ((List.forall_iff_forall_mem.mp hostOps1_5_sub) op hop))
    (List.forall_iff_forall_mem.mpr fun op hop => Pipeline.sub_ucRefs op ((List.forall_iff_forall_mem.mp hostOps1_6_sub) op hop))
    (List.forall_iff_forall_mem.mpr fun op hop => Pipeline.sub_ucRefs op ((List.forall_iff_forall_mem.mp hostOps1_7_sub) op hop))
    (List.forall_iff_forall_mem.mpr fun op hop => Pipeline.sub_ucRefs op ((List.forall_iff_forall_mem.mp hostOps1_8_sub) op hop))
    (List.forall_iff_forall_mem.mpr fun op hop => Pipeline.sub_ucRefs op ((List.forall_iff_forall_mem.mp hostOps1_9_sub) op hop))
    (List.forall_iff_forall_mem.mpr fun op hop => Pipeline.sub_ucRefs op ((List.forall_iff_forall_mem.mp hostOps1_10_sub) op hop))
    (List.forall_iff_forall_mem.mpr fun op hop => Pipeline.sub_ucRefs op ((List.forall_iff_forall_mem.mp hostOps1_11_sub) op hop))
    (List.forall_iff_forall_mem.mpr fun op hop => Pipeline.sub_ucRefs op ((List.forall_iff_forall_mem.mp hostOps1_12_sub) op hop))
/-- They allocate nothing. -/
theorem sfx_fresh : ∀ ops ∈ (tailOps : List (List (HloOp τ sig (Elt F)))), ∀ op ∈ ops, op.fresh = ∅ :=
  tail_cases hostOps1_fresh hostOps1_1_fresh hostOps1_2_fresh hostOps1_3_fresh hostOps1_4_fresh hostOps1_5_fresh hostOps1_6_fresh hostOps1_7_fresh hostOps1_8_fresh hostOps1_9_fresh hostOps1_10_fresh hostOps1_11_fresh hostOps1_12_fresh
/-- They write none of the kept buffers. -/
theorem sfx_kept : ∀ ops ∈ (tailOps : List (List (HloOp τ sig (Elt F)))), ∀ op ∈ ops,
    ∀ b ∈ keptRefs, Proc.devRef (τ := τ) .tc b ∉ op.writes :=
  tail_cases hostOps1_keeps hostOps1_1_keeps hostOps1_2_keeps hostOps1_3_keeps hostOps1_4_keeps hostOps1_5_keeps hostOps1_6_keeps hostOps1_7_keeps hostOps1_8_keeps hostOps1_9_keeps hostOps1_10_keeps hostOps1_11_keeps hostOps1_12_keeps
/-- In particular they write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := sfx_kept ops hops op hop
  fin_cases w
  · exact h main_arg0 (by decide)
  · exact h main_arg1 (by decide)
  · exact h main_v0_0 (by decide)
  · exact h main_v0_1 (by decide)
  · exact h main_v0_2 (by decide)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The score window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The blob-id window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the later lines leave in a buffer they do not write -/

/-- A kept buffer that no window stages is, after the later lines, what @main started with. -/
theorem afterTail_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c.tc : Thread nD τ).loc main_arg2) := by
  unfold Pipeline.afterTail₀
  rw [StableHlo.after_of_forall_not_mem _ _ fun op hop hw => ?_, Pipeline.withArrays_of_ne _ c (V0 m c) _ main_arg2 (by decide)]
  · rfl
  · obtain ⟨ops, hops, hop'⟩ := List.mem_flatten.mp hop
    exact sfx_kept ops hops op hop' main_arg2 (by decide) hw

/-! ## The frame claim's post from the frame run's -/

/-- The frame claim from a frame run: the two staged arguments by the library's reading of an input array after the
    run, the third argument by the post's clause for the buffers that bypass the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).2 main_arg2 (by decide)).trans (afterTail_arg2 m dats c)⟩) h

/-! ## The body's branch -/

/-- The body's one branch: is this the first row tile of its sample? -/
abbrev cond0_0 (i : grid0.Coords) : Prop := (Scalar.cmpi .ne (Scalar.extui (Scalar.cmpi .eq (BitVec.ofNat 32 (i 1).val) 0#32)) 0#32) = 1#1
/-- It is so at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## The names the runs are stated over -/

/-- One staging buffer of each output window, through which its contents are stated. -/
abbrev VO0_2 : View sig .tc .vmem S1x16x21 .f32 := (Memref.whole cc0_stg2_0 : Memref sig .tc .vmem S1x16x21 .f32).view
abbrev VO0_3 : View sig .tc .vmem S1x16x21 .f32 := (Memref.whole cc0_stg3_0 : Memref sig .tc .vmem S1x16x21 .f32).view
abbrev VO0_4 : View sig .tc .vmem S1x16x1 .f32 := (Memref.whole cc0_stg4_0 : Memref sig .tc .vmem S1x16x1 .f32).view
/-- Each window's current staging memref at point `t`, and its wholeness. -/
abbrev ms0_0 (t : Fin cfg0.N) : Memref sig .tc .vmem S1x21x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x21 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x21 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x1 .f32 := win0_4.stage (cfg0.slots t 4)
abbrev hs0_4 (t : Fin cfg0.N) : (ms0_4 t).IsWhole := hstage0_4 ((cfg0.slots t 4).cast nbuf0_4)
/-- The three accumulators: whole scoped buffers of the kernel's own. -/
abbrev scM0_0 : Memref sig .tc .vmem S16x21 .f32 := Memref.whole cc0_scratch0
abbrev scM0_1 : Memref sig .tc .vmem S16x21 .f32 := Memref.whole cc0_scratch1
abbrev scM0_2 : Memref sig .tc .vmem S16x1 .f32 := Memref.whole cc0_scratch2
abbrev VS0_0 : View sig .tc .vmem S16x21 .f32 := scM0_0.view
abbrev VS0_1 : View sig .tc .vmem S16x21 .f32 := scM0_1.view
abbrev VS0_2 : View sig .tc .vmem S16x1 .f32 := scM0_2.view

/-- The region's invariant with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KRunA.lean ====
/-
  The frame of the kernel program as printed (word level): the whole kernel body run once at the first row tile of a sample (the branch taken).

  On whole staging buffers — the two inputs at their blocks, the three outputs at anything, the three
  accumulators at anything (this case resets them) — the body runs to its end holding the inputs
  as they were and every output and accumulator with the pieces its stores wrote; the lists of pieces are the
  witness the run finds.
-/
import proofs.«400420_j429496730161_3_alg».proof.Proof.KRuns

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the three outputs (`L2 L3 L4`) and the three accumulators (`LS0 LS1 LS2`) at a first
    tile, with the body's triple. -/
noncomputable def kernelRun0_A (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i)
    (x0 : Vec F S1x21x64x512 .f32) (x1 : Vec F S1x1x64x512 .i32) :
    Σ' (L2 : List (View.Piece (Elt F) S1x16x21 .f32)) (L3 : List (View.Piece (Elt F) S1x16x21 .f32)) (L4 : List (View.Piece (Elt F) S1x16x1 .f32))
       (LS0 : List (View.Piece (Elt F) S16x21 .f32)) (LS1 : List (View.Piece (Elt F) S16x21 .f32)), { LS2 : List (View.Piece (Elt F) S16x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__segment_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__segment_kernel_eq_skeleton]; unfold cc0__segment_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Gen

end
-- ==== Proof.KRunB.lean ====
/-
  The frame of the kernel program as printed (word level): the whole kernel body run once at a later row tile of a sample (the branch not taken).

  On whole staging buffers — the two inputs at their blocks, the three outputs at anything, the three
  accumulators at what the point before left — the body runs to its end holding the inputs
  as they were and every output and accumulator with the pieces its stores wrote; the lists of pieces are the
  witness the run finds.
-/
import proofs.«400420_j429496730161_3_alg».proof.Proof.KRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the three outputs and the three accumulators at a later tile, the accumulators
    starting from `xs0 xs1 xs2`, with the body's triple. -/
noncomputable def kernelRun0_B (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i)
    (x0 : Vec F S1x21x64x512 .f32) (x1 : Vec F S1x1x64x512 .i32) (xs0 : Vec F S16x21 .f32) (xs1 : Vec F S16x21 .f32) (xs2 : Vec F S16x1 .f32) :
    Σ' (L2 : List (View.Piece (Elt F) S1x16x21 .f32)) (L3 : List (View.Piece (Elt F) S1x16x21 .f32)) (L4 : List (View.Piece (Elt F) S1x16x1 .f32))
       (LS0 : List (View.Piece (Elt F) S16x21 .f32)) (LS1 : List (View.Piece (Elt F) S16x21 .f32)), { LS2 : List (View.Piece (Elt F) S16x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__segment_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__segment_kernel_eq_skeleton]; unfold cc0__segment_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg7.eq_unread hfs0; obtain rfl := harg8.eq_unread hfs1; obtain rfl := harg9.eq_unread hfs2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.Kernel.Gen

end
-- ==== Proof.KFrame.lean ====
/-
  The frame of the kernel program as printed (word level), last part.

  What the three outputs and the three accumulators hold after each grid point (`outsAt0`, by recursion on
  the point: a first row tile of a sample resets the accumulators, a later tile continues from what the tile
  before left), the pipeline's proof data over it, the body's obligation at every point (the case the point
  is in, its run applied), the run of @main — the region, then the later host lines — and the frame claim.
-/
import proofs.«400420_j429496730161_3_alg».proof.Proof.KRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces this case leaves in output window 2 cover it. -/
theorem cover0_A_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) (y : S1x16x21.Idx) :
    ∃ pc ∈ (kernelRun0_A c i arg2 harg2 arg3 harg3 arg4 harg4 arg5 harg5 arg6 harg6 arg7 harg7 arg8 harg8 arg9 harg9 hc0 x0 x1).1, y ∈ pc.1.set :=
  View.cover_of_tiledL (kernelRun0_A c i arg2 harg2 arg3 harg3 arg4 harg4 arg5 harg5 arg6 harg6 arg7 harg7 arg8 harg8 arg9 harg9 hc0 x0 x1).1 S1x16x21.size (by sl_kernel_rfl) y
/-- What this case leaves there: its pieces read back. -/
def out0_A_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) : Vec F S1x16x21 .f32 :=
  VO0_2.read (Elt F) (VO0_2.writes (Elt F) VO0_2.junk (kernelRun0_A c i arg2 harg2 arg3 harg3 arg4 harg4 arg5 harg5 arg6 harg6 arg7 harg7 arg8 harg8 arg9 harg9 hc0 x0 x1).1)
/-- The pieces this case leaves in output window 3 cover it. -/
theorem cover0_A_3 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) (y : S1x16x21.Idx) :
    ∃ pc ∈ (kernelRun0_A c i arg2 harg2 arg3 harg3 arg4 harg4 arg5 harg5 arg6 harg6 arg7 harg7 arg8 harg8 arg9 harg9 hc0 x0 x1).2.1, y ∈ pc.1.set :=
  View.cover_of_tiledL (kernelRun0_A c i arg2 harg2 arg3 harg3 arg4 harg4 arg5 harg5 arg6 harg6 arg7 harg7 arg8 harg8 arg9 harg9 hc0 x0 x1).2.1 S1x16x21.size (by sl_kernel_rfl) y
/-- What this case leaves there: its pieces read back. -/
def out0_A_3 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) : Vec F S1x16x21 .f32 :=
  VO0_3.read (Elt F) (VO0_3.writes (Elt F) VO0_3.junk (kernelRun0_A c i arg2 harg2 arg3 harg3 arg4 harg4 arg5 harg5 arg6 harg6 arg7 harg7 arg8 harg8 arg9 harg9 hc0 x0 x1).2.1)
/-- The pieces this case leaves in output window 4 cover it. -/
theorem cover0_A_4 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) (y : S1x16x1.Idx) :
    ∃ pc ∈ (kernelRun0_A c i arg2 harg2 arg3 harg3 arg4 harg4 arg5 harg5 arg6 harg6 arg7 harg7 arg8 harg8 arg9 harg9 hc0 x0 x1).2.2.1, y ∈ pc.1.set :=
  View.cover_of_tiledL (kernelRun0_A c i arg2 harg2 arg3 harg3 arg4 harg4 arg5 harg5 arg6 harg6 arg7 harg7 arg8 harg8 arg9 harg9 hc0 x0 x1).2.2.1 S1x16x1.size (by sl_kernel_rfl) y
/-- What this case leaves there: its pieces read back. -/
def out0_A_4 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) : Vec F S1x16x1 .f32 :=
  VO0_4.read (Elt F) (VO0_4.writes (Elt F) VO0_4.junk (kernelRun0_A c i arg2 harg2 arg3 harg3 arg4 harg4 arg5 harg5 arg6 harg6 arg7 harg7 arg8 harg8 arg9 harg9 hc0 x0 x1).2.2.1)
/-- The pieces this case leaves in accumulator 0 cover it. -/
theorem scover0_A_0 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) (y : S16x21.Idx) :
    ∃ pc ∈ (kernelRun0_A c i arg2 harg2 arg3 harg3 arg4 harg4 arg5 harg5 arg6 harg6 arg7 harg7 arg8 harg8 arg9 harg9 hc0 x0 x1).2.2.2.1, y ∈ pc.1.set :=
  View.cover_of_tiledL (kernelRun0_A c i arg2 harg2 arg3 harg3 arg4 harg4 arg5 harg5 arg6 harg6 arg7 harg7 arg8 harg8 arg9 harg9 hc0 x0 x1).2.2.2.1 S1x21.size (by sl_kernel_rfl) y
/-- What this case leaves there: its pieces read back. -/
def sout0_A_0 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) : Vec F S16x21 .f32 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1).2.2.2.1)
/-- The pieces this case leaves in accumulator 1 cover it. -/
theorem scover0_A_1 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) (y : S16x21.Idx) :
    ∃ pc ∈ (kernelRun0_A c i arg2 harg2 arg3 harg3 arg4 harg4 arg5 harg5 arg6 harg6 arg7 harg7 arg8 harg8 arg9 harg9 hc0 x0 x1).2.2.2.2.1, y ∈ pc.1.set :=
  View.cover_of_tiledL (kernelRun0_A c i arg2 harg2 arg3 harg3 arg4 harg4 arg5 harg5 arg6 harg6 arg7 harg7 arg8 harg8 arg9 harg9 hc0 x0 x1).2.2.2.2.1 S1x21.size (by sl_kernel_rfl) y
/-- What this case leaves there: its pieces read back. -/
def sout0_A_1 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) : Vec F S16x21 .f32 :=
  VS0_1.read (Elt F) (VS0_1.writes (Elt F) VS0_1.junk (kernelRun0_A c i arg2 harg2 arg3 harg3 arg4 harg4 arg5 harg5 arg6 harg6 arg7 harg7 arg8 harg8 arg9 harg9 hc0 x0 x1).2.2.2.2.1)
/-- The pieces this case leaves in accumulator 2 cover it. -/
theorem scover0_A_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) (y : S16x1.Idx) :
    ∃ pc ∈ (kernelRun0_A c i arg2 harg2 arg3 harg3 arg4 harg4 arg5 harg5 arg6 harg6 arg7 harg7 arg8 harg8 arg9 harg9 hc0 x0 x1).2.2.2.2.2.1, y ∈ pc.1.set :=
  View.cover_of_tiledL (kernelRun0_A c i arg2 harg2 arg3 harg3 arg4 harg4 arg5 harg5 arg6 harg6 arg7 harg7 arg8 harg8 arg9 harg9 hc0 x0 x1).2.2.2.2.2.1 S1x1.size (by sl_kernel_rfl) y
/-- What this case leaves there: its pieces read back. -/
def sout0_A_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) : Vec F S16x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 x0 x1).2.2.2.2.2.1)

/-- The pieces this case leaves in output window 2 cover it. -/
theorem cover0_B_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) (y : S1x16x21.Idx) :
    ∃ pc ∈ (kernelRun0_B c i arg2 harg2 arg3 harg3 arg4 harg4 arg5 harg5 arg6 harg6 arg7 harg7 arg8 harg8 arg9 harg9 hc0 x0 x1 xs0 xs1 xs2).1, y ∈ pc.1.set :=
  View.cover_of_tiledL (kernelRun0_B c i arg2 harg2 arg3 harg3 arg4 harg4 arg5 harg5 arg6 harg6 arg7 harg7 arg8 harg8 arg9 harg9 hc0 x0 x1 xs0 xs1 xs2).1 S1x16x21.size (by sl_kernel_rfl) y
/-- What this case leaves there: its pieces read back. -/
def out0_B_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) : Vec F S1x16x21 .f32 :=
  VO0_2.read (Elt F) (VO0_2.writes (Elt F) VO0_2.junk (kernelRun0_B c i arg2 harg2 arg3 harg3 arg4 harg4 arg5 harg5 arg6 harg6 arg7 harg7 arg8 harg8 arg9 harg9 hc0 x0 x1 xs0 xs1 xs2).1)
/-- The pieces this case leaves in output window 3 cover it. -/
theorem cover0_B_3 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) (y : S1x16x21.Idx) :
    ∃ pc ∈ (kernelRun0_B c i arg2 harg2 arg3 harg3 arg4 harg4 arg5 harg5 arg6 harg6 arg7 harg7 arg8 harg8 arg9 harg9 hc0 x0 x1 xs0 xs1 xs2).2.1, y ∈ pc.1.set :=
  View.cover_of_tiledL (kernelRun0_B c i arg2 harg2 arg3 harg3 arg4 harg4 arg5 harg5 arg6 harg6 arg7 harg7 arg8 harg8 arg9 harg9 hc0 x0 x1 xs0 xs1 xs2).2.1 S1x16x21.size (by sl_kernel_rfl) y
/-- What this case leaves there: its pieces read back. -/
def out0_B_3 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) : Vec F S1x16x21 .f32 :=
  VO0_3.read (Elt F) (VO0_3.writes (Elt F) VO0_3.junk (kernelRun0_B c i arg2 harg2 arg3 harg3 arg4 harg4 arg5 harg5 arg6 harg6 arg7 harg7 arg8 harg8 arg9 harg9 hc0 x0 x1 xs0 xs1 xs2).2.1)
/-- The pieces this case leaves in output window 4 cover it. -/
theorem cover0_B_4 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) (y : S1x16x1.Idx) :
    ∃ pc ∈ (kernelRun0_B c i arg2 harg2 arg3 harg3 arg4 harg4 arg5 harg5 arg6 harg6 arg7 harg7 arg8 harg8 arg9 harg9 hc0 x0 x1 xs0 xs1 xs2).2.2.1, y ∈ pc.1.set :=
  View.cover_of_tiledL (kernelRun0_B c i arg2 harg2 arg3 harg3 arg4 harg4 arg5 harg5 arg6 harg6 arg7 harg7 arg8 harg8 arg9 harg9 hc0 x0 x1 xs0 xs1 xs2).2.2.1 S1x16x1.size (by sl_kernel_rfl) y
/-- What this case leaves there: its pieces read back. -/
def out0_B_4 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) : Vec F S1x16x1 .f32 :=
  VO0_4.read (Elt F) (VO0_4.writes (Elt F) VO0_4.junk (kernelRun0_B c i arg2 harg2 arg3 harg3 arg4 harg4 arg5 harg5 arg6 harg6 arg7 harg7 arg8 harg8 arg9 harg9 hc0 x0 x1 xs0 xs1 xs2).2.2.1)
/-- The pieces this case leaves in accumulator 0 cover it. -/
theorem scover0_B_0 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) (y : S16x21.Idx) :
    ∃ pc ∈ (kernelRun0_B c i arg2 harg2 arg3 harg3 arg4 harg4 arg5 harg5 arg6 harg6 arg7 harg7 arg8 harg8 arg9 harg9 hc0 x0 x1 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 x0 x1 xs0 xs1 xs2).2.2.2.1 S1x21.size (by sl_kernel_rfl) y
/-- What this case leaves there: its pieces read back. -/
def sout0_B_0 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) : Vec F S16x21 .f32 :=
  VS0_0.read (Elt F) (VS0_0.writes (Elt F) VS0_0.junk (kernelRun0_B c i arg2 harg2 arg3 harg3 arg4 harg4 arg5 harg5 arg6 harg6 arg7 harg7 arg8 harg8 arg9 harg9 hc0 x0 x1 xs0 xs1 xs2).2.2.2.1)
/-- The pieces this case leaves in accumulator 1 cover it. -/
theorem scover0_B_1 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) (y : S16x21.Idx) :
    ∃ pc ∈ (kernelRun0_B c i arg2 harg2 arg3 harg3 arg4 harg4 arg5 harg5 arg6 harg6 arg7 harg7 arg8 harg8 arg9 harg9 hc0 x0 x1 xs0 xs1 xs2).2.2.2.2.1, y ∈ pc.1.set :=
  View.cover_of_tiledL (kernelRun0_B c i arg2 harg2 arg3 harg3 arg4 harg4 arg5 harg5 arg6 harg6 arg7 harg7 arg8 harg8 arg9 harg9 hc0 x0 x1 xs0 xs1 xs2).2.2.2.2.1 S1x21.size (by sl_kernel_rfl) y
/-- What this case leaves there: its pieces read back. -/
def sout0_B_1 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) : Vec F S16x21 .f32 :=
  VS0_1.read (Elt F) (VS0_1.writes (Elt F) VS0_1.junk (kernelRun0_B c i arg2 harg2 arg3 harg3 arg4 harg4 arg5 harg5 arg6 harg6 arg7 harg7 arg8 harg8 arg9 harg9 hc0 x0 x1 xs0 xs1 xs2).2.2.2.2.1)
/-- The pieces this case leaves in accumulator 2 cover it. -/
theorem scover0_B_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) (y : S16x1.Idx) :
    ∃ pc ∈ (kernelRun0_B c i arg2 harg2 arg3 harg3 arg4 harg4 arg5 harg5 arg6 harg6 arg7 harg7 arg8 harg8 arg9 harg9 hc0 x0 x1 xs0 xs1 xs2).2.2.2.2.2.1, y ∈ pc.1.set :=
  View.cover_of_tiledL (kernelRun0_B c i arg2 harg2 arg3 harg3 arg4 harg4 arg5 harg5 arg6 harg6 arg7 harg7 arg8 harg8 arg9 harg9 hc0 x0 x1 xs0 xs1 xs2).2.2.2.2.2.1 S1x1.size (by sl_kernel_rfl) y
/-- What this case leaves there: its pieces read back. -/
def sout0_B_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) : Vec F S16x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 x0 x1 xs0 xs1 xs2).2.2.2.2.2.1)

/-! ## What the outputs and the accumulators hold after each point -/

/-- The three outputs, then the three accumulators. -/
abbrev Tup (F : FTy → Type) [FloatOps F] : Type := Vec F S1x16x21 .f32 × Vec F S1x16x21 .f32 × Vec F S1x16x1 .f32 × Vec F S16x21 .f32 × Vec F S16x21 .f32 × Vec F S16x1 .f32

/-- After a first row tile: the reset case at the point's buffers and blocks. -/
def tupA (c : Dev nD) (t : Fin cfg0.N) (h0 : t.val % 8 = 0) : Tup F :=
  (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t),
   out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t),
   out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t),
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t),
   sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t),
   sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t))

/-- After a later row tile: the continuing case, the accumulators starting from `xs0 xs1 xs2`. -/
def tupB (c : Dev nD) (t : Fin cfg0.N) (h0 : ¬t.val % 8 = 0) (xs0 : Vec F S16x21 .f32) (xs1 : Vec F S16x21 .f32) (xs2 : Vec F S16x1 .f32) : Tup F :=
  (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2,
   out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2,
   out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2,
   sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2,
   sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2,
   sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2)

/-- THE ACCUMULATION, point by point. -/
def outsAt0 (c : Dev nD) : (n : ℕ) → n < cfg0.N → Tup F
  | 0, hn => tupA m c ⟨0, hn⟩ (Nat.zero_mod _)
  | n + 1, hn =>
    if h0 : (n + 1) % 8 = 0 then tupA m c ⟨n + 1, hn⟩ h0
    else tupB m c ⟨n + 1, hn⟩ h0 (outsAt0 c n (Nat.lt_of_succ_lt hn)).2.2.2.1 (outsAt0 c n (Nat.lt_of_succ_lt hn)).2.2.2.2.1 (outsAt0 c n (Nat.lt_of_succ_lt hn)).2.2.2.2.2

theorem outsAt0_A (c : Dev nD) (t : Fin cfg0.N) (h0 : t.val % 8 = 0) :
    outsAt0 m c t.val t.isLt = tupA m c t h0 := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = tupB m c t h0
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans rfl

/-- The region's invariant before position `n`: at the start the class's; afterwards the three accumulators at what
    the point before left and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point is a first tile or a later one; that case's
    run applies; the invariant hands over the accumulators (at anything at a first tile, at what the point before left
    otherwise) and takes them back at this point's contents; every output's buffer is left with its pieces written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 8 = 0
  · rw [outsAt0_A m c t h0]
    unfold tupA out0_A_2 out0_A_3 out0_A_4 sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (iblk m c 0 t) (iblk m c 1 t)).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      iintro ⟨H0, H1, ⟨%e2, H2⟩, ⟨%e3, H3⟩, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _ _ _ _ _)
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (iblk m c 0 t) (iblk m c 1 t)).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexists _; iexact HS0
      isplitl [HS1]; · iexists _; iexact HS1
      isplitl [HS2]; · iexists _; iexact HS2
      iintro ⟨H0, H1, ⟨%e2, H2⟩, ⟨%e3, H3⟩, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _ _ _ _ _)
  · rw [outsAt0_B m c t h0]
    unfold tupB out0_B_2 out0_B_3 out0_B_4 sout0_B_0 sout0_B_1 sout0_B_2; (try dsimp only)
    have hz : t.val ≠ 0 := fun hz => h0 (by rw [hz])
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ _ _ (fun h => h0 ((hcond0_0 t).mp h)) (iblk m c 0 t) (iblk m c 1 t) _ _ _).2.2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, ⟨%e2, H2⟩, ⟨%e3, H3⟩, ⟨%e4, H4⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _)
        unfold owns; iexists _; isplitr
        swap; · iexact HS2
        ipureintro; exact View.read_writes_of_cover _ _ _ _ _ (scover0_B_2 c _ _ _ _ _ _ _ _ _ _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the pipeline at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: the program runs to its end, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Gen

end
-- ==== Proof.KiRuns.lean ====
/-
  The frame of the idealized kernel program, first part: what the two runs of the kernel body share.

  @main is one pallas_call followed by host lines.  Here: the buffer contents the region is entered with,
  @main as "the region continued by the later lines", that the later lines touch only unscoped buffers,
  allocate nothing and write none of the argument arrays or of the pallas_call's result arrays; each
  window's block at a grid point; the frame claim read off a frame run; the one branch of the body
  (`program_id(1) == 0`: the first row tile of a sample) decided over the grid; and the staging, scratch
  and view names the body's runs are stated over.
-/
import proofs.«400420_j429496730161_3_alg».proof.Proof.Gen.KernelIdeal.Launch
import proofs.«400420_j429496730161_3_alg».proof.Proof.Gen.KernelIdeal.Skeleton
import proofs.«400420_j429496730161_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

/-- Core `c`'s buffer contents when the region is entered: nothing runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The buffers the later lines must leave alone: the three arguments and the three results of the pallas_call. -/
abbrev keptRefs : List (Ref sig .tc) := [main_arg0, main_arg1, main_arg2, main_v0_0, main_v0_1, main_v0_2]

theorem hostOps1_fresh : (hostOps1 : List (HloOp τ sig (Elt F))).Forall fun op => op.fresh = ∅ := by
  simp only [List.Forall]; repeat' constructor
/-- Each line of this stretch writes only its own result, which is none of the kept buffers. -/
theorem hostOps1_keeps : (hostOps1 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_1_fresh : (hostOps1_1 : List (HloOp τ sig (Elt F))).Forall fun op => op.fresh = ∅ := by
  simp only [List.Forall]; repeat' constructor
/-- Each line of this stretch writes only its own result, which is none of the kept buffers. -/
theorem hostOps1_1_keeps : (hostOps1_1 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_2_fresh : (hostOps1_2 : List (HloOp τ sig (Elt F))).Forall fun op => op.fresh = ∅ := by
  simp only [List.Forall]; repeat' constructor
/-- Each line of this stretch writes only its own result, which is none of the kept buffers. -/
theorem hostOps1_2_keeps : (hostOps1_2 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_3_fresh : (hostOps1_3 : List (HloOp τ sig (Elt F))).Forall fun op => op.fresh = ∅ := by
  simp only [List.Forall]; repeat' constructor
/-- Each line of this stretch writes only its own result, which is none of the kept buffers. -/
theorem hostOps1_3_keeps : (hostOps1_3 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_4_fresh : (hostOps1_4 : List (HloOp τ sig (Elt F))).Forall fun op => op.fresh = ∅ := by
  simp only [List.Forall]; repeat' constructor
/-- Each line of this stretch writes only its own result, which is none of the kept buffers. -/
theorem hostOps1_4_keeps : (hostOps1_4 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_5_fresh : (hostOps1_5 : List (HloOp τ sig (Elt F))).Forall fun op => op.fresh = ∅ := by
  simp only [List.Forall]; repeat' constructor
/-- Each line of this stretch writes only its own result, which is none of the kept buffers. -/
theorem hostOps1_5_keeps : (hostOps1_5 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_6_fresh : (hostOps1_6 : List (HloOp τ sig (Elt F))).Forall fun op => op.fresh = ∅ := by
  simp only [List.Forall]; repeat' constructor
/-- Each line of this stretch writes only its own result, which is none of the kept buffers. -/
theorem hostOps1_6_keeps : (hostOps1_6 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_7_fresh : (hostOps1_7 : List (HloOp τ sig (Elt F))).Forall fun op => op.fresh = ∅ := by
  simp only [List.Forall]; repeat' constructor
/-- Each line of this stretch writes only its own result, which is none of the kept buffers. -/
theorem hostOps1_7_keeps : (hostOps1_7 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_8_fresh : (hostOps1_8 : List (HloOp τ sig (Elt F))).Forall fun op => op.fresh = ∅ := by
  simp only [List.Forall]; repeat' constructor
/-- Each line of this stretch writes only its own result, which is none of the kept buffers. -/
theorem hostOps1_8_keeps : (hostOps1_8 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_9_fresh : (hostOps1_9 : List (HloOp τ sig (Elt F))).Forall fun op => op.fresh = ∅ := by
  simp only [List.Forall]; repeat' constructor
/-- Each line of this stretch writes only its own result, which is none of the kept buffers. -/
theorem hostOps1_9_keeps : (hostOps1_9 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_10_fresh : (hostOps1_10 : List (HloOp τ sig (Elt F))).Forall fun op => op.fresh = ∅ := by
  simp only [List.Forall]; repeat' constructor
/-- Each line of this stretch writes only its own result, which is none of the kept buffers. -/
theorem hostOps1_10_keeps : (hostOps1_10 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_11_fresh : (hostOps1_11 : List (HloOp τ sig (Elt F))).Forall fun op => op.fresh = ∅ := by
  simp only [List.Forall]; repeat' constructor
/-- Each line of this stretch writes only its own result, which is none of the kept buffers. -/
theorem hostOps1_11_keeps : (hostOps1_11 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)
theorem hostOps1_12_fresh : (hostOps1_12 : List (HloOp τ sig (Elt F))).Forall fun op => op.fresh = ∅ := by
  simp only [List.Forall]; repeat' constructor
/-- Each line of this stretch writes only its own result, which is none of the kept buffers. -/
theorem hostOps1_12_keeps : (hostOps1_12 : List (HloOp τ sig (Elt F))).Forall fun op => ∀ b ∈ keptRefs, Proc.devRef (τ := τ) .tc b ∉ op.writes := by
  simp only [List.Forall, keptRefs, List.mem_cons, List.mem_nil_iff, or_false, forall_eq_or_imp, forall_eq,
    StableHlo.nullary_writes, StableHlo.unary_writes, StableHlo.binary_writes, StableHlo.ternary_writes,
    StableHlo.reshape_writes, Finset.mem_singleton]
  (repeat' constructor) <;> exact StableHlo.devRef_ne_of_ne (by decide)

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- A line of the later stretches, found in its stretch. -/
theorem tail_cases {p : HloOp τ sig (Elt F) → Prop}
    (h0 : (hostOps1 : List (HloOp τ sig (Elt F))).Forall p)
    (h1 : (hostOps1_1 : List (HloOp τ sig (Elt F))).Forall p)
    (h2 : (hostOps1_2 : List (HloOp τ sig (Elt F))).Forall p)
    (h3 : (hostOps1_3 : List (HloOp τ sig (Elt F))).Forall p)
    (h4 : (hostOps1_4 : List (HloOp τ sig (Elt F))).Forall p)
    (h5 : (hostOps1_5 : List (HloOp τ sig (Elt F))).Forall p)
    (h6 : (hostOps1_6 : List (HloOp τ sig (Elt F))).Forall p)
    (h7 : (hostOps1_7 : List (HloOp τ sig (Elt F))).Forall p)
    (h8 : (hostOps1_8 : List (HloOp τ sig (Elt F))).Forall p)
    (h9 : (hostOps1_9 : List (HloOp τ sig (Elt F))).Forall p)
    (h10 : (hostOps1_10 : List (HloOp τ sig (Elt F))).Forall p)
    (h11 : (hostOps1_11 : List (HloOp τ sig (Elt F))).Forall p)
    (h12 : (hostOps1_12 : List (HloOp τ sig (Elt F))).Forall p) :
    ∀ ops ∈ (tailOps : List (List (HloOp τ sig (Elt F)))), ∀ op ∈ ops, p op := by
  intro ops hops op hop
  simp only [tailOps, List.mem_cons, List.mem_nil_iff, or_false] at hops
  rcases hops with rfl | rfl | rfl | rfl | rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop
  · exact (List.forall_iff_forall_mem.mp h9) op hop
  · exact (List.forall_iff_forall_mem.mp h10) op hop
  · exact (List.forall_iff_forall_mem.mp h11) op hop
  · exact (List.forall_iff_forall_mem.mp h12) op hop

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_cases (p := fun op => op.bufs ⊆ Pipeline.ucRefs τ sig)
    (List.forall_iff_forall_mem.mpr fun op hop => Pipeline.sub_ucRefs op ((List.forall_iff_forall_mem.mp hostOps1_sub) op hop))
    (List.forall_iff_forall_mem.mpr fun op hop => Pipeline.sub_ucRefs op ((List.forall_iff_forall_mem.mp hostOps1_1_sub) op hop))
    (List.forall_iff_forall_mem.mpr fun op hop => Pipeline.sub_ucRefs op ((List.forall_iff_forall_mem.mp hostOps1_2_sub) op hop))
    (List.forall_iff_forall_mem.mpr fun op hop => Pipeline.sub_ucRefs op ((List.forall_iff_forall_mem.mp hostOps1_3_sub) op hop))
    (List.forall_iff_forall_mem.mpr fun op hop => Pipeline.sub_ucRefs op ((List.forall_iff_forall_mem.mp hostOps1_4_sub) op hop))
    (List.forall_iff_forall_mem.mpr fun op hop => Pipeline.sub_ucRefs op ((List.forall_iff_forall_mem.mp hostOps1_5_sub) op hop))
    (List.forall_iff_forall_mem.mpr fun op hop => Pipeline.sub_ucRefs op ((List.forall_iff_forall_mem.mp hostOps1_6_sub) op hop))
    (List.forall_iff_forall_mem.mpr fun op hop => Pipeline.sub_ucRefs op ((List.forall_iff_forall_mem.mp hostOps1_7_sub) op hop))
    (List.forall_iff_forall_mem.mpr fun op hop => Pipeline.sub_ucRefs op ((List.forall_iff_forall_mem.mp hostOps1_8_sub) op hop))
    (List.forall_iff_forall_mem.mpr fun op hop => Pipeline.sub_ucRefs op ((List.forall_iff_forall_mem.mp hostOps1_9_sub) op hop))
    (List.forall_iff_forall_mem.mpr fun op hop => Pipeline.sub_ucRefs op ((List.forall_iff_forall_mem.mp hostOps1_10_sub) op hop))
    (List.forall_iff_forall_mem.mpr fun op hop => Pipeline.sub_ucRefs op ((List.forall_iff_forall_mem.mp hostOps1_11_sub) op hop))
    (List.forall_iff_forall_mem.mpr fun op hop => Pipeline.sub_ucRefs op ((List.forall_iff_forall_mem.mp hostOps1_12_sub) op hop))
/-- They allocate nothing. -/
theorem sfx_fresh : ∀ ops ∈ (tailOps : List (List (HloOp τ sig (Elt F)))), ∀ op ∈ ops, op.fresh = ∅ :=
  tail_cases hostOps1_fresh hostOps1_1_fresh hostOps1_2_fresh hostOps1_3_fresh hostOps1_4_fresh hostOps1_5_fresh hostOps1_6_fresh hostOps1_7_fresh hostOps1_8_fresh hostOps1_9_fresh hostOps1_10_fresh hostOps1_11_fresh hostOps1_12_fresh
/-- They write none of the kept buffers. -/
theorem sfx_kept : ∀ ops ∈ (tailOps : List (List (HloOp τ sig (Elt F)))), ∀ op ∈ ops,
    ∀ b ∈ keptRefs, Proc.devRef (τ := τ) .tc b ∉ op.writes :=
  tail_cases hostOps1_keeps hostOps1_1_keeps hostOps1_2_keeps hostOps1_3_keeps hostOps1_4_keeps hostOps1_5_keeps hostOps1_6_keeps hostOps1_7_keeps hostOps1_8_keeps hostOps1_9_keeps hostOps1_10_keeps hostOps1_11_keeps hostOps1_12_keeps
/-- In particular they write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := sfx_kept ops hops op hop
  fin_cases w
  · exact h main_arg0 (by decide)
  · exact h main_arg1 (by decide)
  · exact h main_v0_0 (by decide)
  · exact h main_v0_1 (by decide)
  · exact h main_v0_2 (by decide)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The score window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The blob-id window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the later lines leave in a buffer they do not write -/

/-- A kept buffer that no window stages is, after the later lines, what @main started with. -/
theorem afterTail_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c.tc : Thread nD τ).loc main_arg2) := by
  unfold Pipeline.afterTail₀
  rw [StableHlo.after_of_forall_not_mem _ _ fun op hop hw => ?_, Pipeline.withArrays_of_ne _ c (V0 m c) _ main_arg2 (by decide)]
  · rfl
  · obtain ⟨ops, hops, hop'⟩ := List.mem_flatten.mp hop
    exact sfx_kept ops hops op hop' main_arg2 (by decide) hw

/-! ## The frame claim's post from the frame run's -/

/-- The frame claim from a frame run: the two staged arguments by the library's reading of an input array after the
    run, the third argument by the post's clause for the buffers that bypass the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).2 main_arg2 (by decide)).trans (afterTail_arg2 m dats c)⟩) h

/-! ## The body's branch -/

/-- The body's one branch: is this the first row tile of its sample? -/
abbrev cond0_0 (i : grid0.Coords) : Prop := (Scalar.cmpi .ne (Scalar.extui (Scalar.cmpi .eq (BitVec.ofNat 32 (i 1).val) 0#32)) 0#32) = 1#1
/-- It is so at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## The names the runs are stated over -/

/-- One staging buffer of each output window, through which its contents are stated. -/
abbrev VO0_2 : View sig .tc .vmem S1x16x21 .f32 := (Memref.whole cc0_stg2_0 : Memref sig .tc .vmem S1x16x21 .f32).view
abbrev VO0_3 : View sig .tc .vmem S1x16x21 .f32 := (Memref.whole cc0_stg3_0 : Memref sig .tc .vmem S1x16x21 .f32).view
abbrev VO0_4 : View sig .tc .vmem S1x16x1 .f32 := (Memref.whole cc0_stg4_0 : Memref sig .tc .vmem S1x16x1 .f32).view
/-- Each window's current staging memref at point `t`, and its wholeness. -/
abbrev ms0_0 (t : Fin cfg0.N) : Memref sig .tc .vmem S1x21x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x21 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x21 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x1 .f32 := win0_4.stage (cfg0.slots t 4)
abbrev hs0_4 (t : Fin cfg0.N) : (ms0_4 t).IsWhole := hstage0_4 ((cfg0.slots t 4).cast nbuf0_4)
/-- The three accumulators: whole scoped buffers of the kernel's own. -/
abbrev scM0_0 : Memref sig .tc .vmem S16x21 .f32 := Memref.whole cc0_scratch0
abbrev scM0_1 : Memref sig .tc .vmem S16x21 .f32 := Memref.whole cc0_scratch1
abbrev scM0_2 : Memref sig .tc .vmem S16x1 .f32 := Memref.whole cc0_scratch2
abbrev VS0_0 : View sig .tc .vmem S16x21 .f32 := scM0_0.view
abbrev VS0_1 : View sig .tc .vmem S16x21 .f32 := scM0_1.view
abbrev VS0_2 : View sig .tc .vmem S16x1 .f32 := scM0_2.view

/-- The region's invariant with the accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KiRunA.lean ====
/-
  The frame of the idealized kernel program: the whole kernel body run once at the first row tile of a sample (the branch taken).

  On whole staging buffers — the two inputs at their blocks, the three outputs at anything, the three
  accumulators at anything (this case resets them) — the body runs to its end holding the inputs
  as they were and every output and accumulator with the pieces its stores wrote; the lists of pieces are the
  witness the run finds.
-/
import proofs.«400420_j429496730161_3_alg».proof.Proof.KiRuns

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the three outputs (`L2 L3 L4`) and the three accumulators (`LS0 LS1 LS2`) at a first
    tile, with the body's triple. -/
noncomputable def kernelRun0_A (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i)
    (x0 : Vec F S1x21x64x512 .f32) (x1 : Vec F S1x1x64x512 .i32) :
    Σ' (L2 : List (View.Piece (Elt F) S1x16x21 .f32)) (L3 : List (View.Piece (Elt F) S1x16x21 .f32)) (L4 : List (View.Piece (Elt F) S1x16x1 .f32))
       (LS0 : List (View.Piece (Elt F) S16x21 .f32)) (LS1 : List (View.Piece (Elt F) S16x21 .f32)), { LS2 : List (View.Piece (Elt F) S16x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__segment_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__segment_kernel_eq_skeleton]; unfold cc0__segment_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Gen

end
-- ==== Proof.KiRunB.lean ====
/-
  The frame of the idealized kernel program: the whole kernel body run once at a later row tile of a sample (the branch not taken).

  On whole staging buffers — the two inputs at their blocks, the three outputs at anything, the three
  accumulators at what the point before left — the body runs to its end holding the inputs
  as they were and every output and accumulator with the pieces its stores wrote; the lists of pieces are the
  witness the run finds.
-/
import proofs.«400420_j429496730161_3_alg».proof.Proof.KiRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body leaves in the three outputs and the three accumulators at a later tile, the accumulators
    starting from `xs0 xs1 xs2`, with the body's triple. -/
noncomputable def kernelRun0_B (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i)
    (x0 : Vec F S1x21x64x512 .f32) (x1 : Vec F S1x1x64x512 .i32) (xs0 : Vec F S16x21 .f32) (xs1 : Vec F S16x21 .f32) (xs2 : Vec F S16x1 .f32) :
    Σ' (L2 : List (View.Piece (Elt F) S1x16x21 .f32)) (L3 : List (View.Piece (Elt F) S1x16x21 .f32)) (L4 : List (View.Piece (Elt F) S1x16x1 .f32))
       (LS0 : List (View.Piece (Elt F) S16x21 .f32)) (LS1 : List (View.Piece (Elt F) S16x21 .f32)), { LS2 : List (View.Piece (Elt F) S16x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__segment_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__segment_kernel_eq_skeleton]; unfold cc0__segment_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg7.eq_unread hfs0; obtain rfl := harg8.eq_unread hfs1; obtain rfl := harg9.eq_unread hfs2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Gen

end
-- ==== Proof.KiFrame.lean ====
/-
  The frame of the idealized kernel program, last part.

  What the three outputs and the three accumulators hold after each grid point (`outsAt0`, by recursion on
  the point: a first row tile of a sample resets the accumulators, a later tile continues from what the tile
  before left), the pipeline's proof data over it, the body's obligation at every point (the case the point
  is in, its run applied), the run of @main — the region, then the later host lines — and the frame claim.
-/
import proofs.«400420_j429496730161_3_alg».proof.Proof.KiRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces this case leaves in output window 2 cover it. -/
theorem cover0_A_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) (y : S1x16x21.Idx) :
    ∃ pc ∈ (kernelRun0_A c i arg2 harg2 arg3 harg3 arg4 harg4 arg5 harg5 arg6 harg6 arg7 harg7 arg8 harg8 arg9 harg9 hc0 x0 x1).1, y ∈ pc.1.set :=
  View.cover_of_tiledL (kernelRun0_A c i arg2 harg2 arg3 harg3 arg4 harg4 arg5 harg5 arg6 harg6 arg7 harg7 arg8 harg8 arg9 harg9 hc0 x0 x1).1 S1x16x21.size (by sl_kernel_rfl) y
/-- What this case leaves there: its pieces read back. -/
def out0_A_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) : Vec F S1x16x21 .f32 :=
  VO0_2.read (Elt F) (VO0_2.writes (Elt F) VO0_2.junk (kernelRun0_A c i arg2 harg2 arg3 harg3 arg4 harg4 arg5 harg5 arg6 harg6 arg7 harg7 arg8 harg8 arg9 harg9 hc0 x0 x1).1)
/-- The pieces this case leaves in output window 3 cover it. -/
theorem cover0_A_3 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) (y : S1x16x21.Idx) :
    ∃ pc ∈ (kernelRun0_A c i arg2 harg2 arg3 harg3 arg4 harg4 arg5 harg5 arg6 harg6 arg7 harg7 arg8 harg8 arg9 harg9 hc0 x0 x1).2.1, y ∈ pc.1.set :=
  View.cover_of_tiledL (kernelRun0_A c i arg2 harg2 arg3 harg3 arg4 harg4 arg5 harg5 arg6 harg6 arg7 harg7 arg8 harg8 arg9 harg9 hc0 x0 x1).2.1 S1x16x21.size (by sl_kernel_rfl) y
/-- What this case leaves there: its pieces read back. -/
def out0_A_3 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) : Vec F S1x16x21 .f32 :=
  VO0_3.read (Elt F) (VO0_3.writes (Elt F) VO0_3.junk (kernelRun0_A c i arg2 harg2 arg3 harg3 arg4 harg4 arg5 harg5 arg6 harg6 arg7 harg7 arg8 harg8 arg9 harg9 hc0 x0 x1).2.1)
/-- The pieces this case leaves in output window 4 cover it. -/
theorem cover0_A_4 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) (y : S1x16x1.Idx) :
    ∃ pc ∈ (kernelRun0_A c i arg2 harg2 arg3 harg3 arg4 harg4 arg5 harg5 arg6 harg6 arg7 harg7 arg8 harg8 arg9 harg9 hc0 x0 x1).2.2.1, y ∈ pc.1.set :=
  View.cover_of_tiledL (kernelRun0_A c i arg2 harg2 arg3 harg3 arg4 harg4 arg5 harg5 arg6 harg6 arg7 harg7 arg8 harg8 arg9 harg9 hc0 x0 x1).2.2.1 S1x16x1.size (by sl_kernel_rfl) y
/-- What this case leaves there: its pieces read back. -/
def out0_A_4 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) : Vec F S1x16x1 .f32 :=
  VO0_4.read (Elt F) (VO0_4.writes (Elt F) VO0_4.junk (kernelRun0_A c i arg2 harg2 arg3 harg3 arg4 harg4 arg5 harg5 arg6 harg6 arg7 harg7 arg8 harg8 arg9 harg9 hc0 x0 x1).2.2.1)
/-- The pieces this case leaves in accumulator 0 cover it. -/
theorem scover0_A_0 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) (y : S16x21.Idx) :
    ∃ pc ∈ (kernelRun0_A c i arg2 harg2 arg3 harg3 arg4 harg4 arg5 harg5 arg6 harg6 arg7 harg7 arg8 harg8 arg9 harg9 hc0 x0 x1).2.2.2.1, y ∈ pc.1.set :=
  View.cover_of_tiledL (kernelRun0_A c i arg2 harg2 arg3 harg3 arg4 harg4 arg5 harg5 arg6 harg6 arg7 harg7 arg8 harg8 arg9 harg9 hc0 x0 x1).2.2.2.1 S1x21.size (by sl_kernel_rfl) y
/-- What this case leaves there: its pieces read back. -/
def sout0_A_0 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) : Vec F S16x21 .f32 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1).2.2.2.1)
/-- The pieces this case leaves in accumulator 1 cover it. -/
theorem scover0_A_1 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) (y : S16x21.Idx) :
    ∃ pc ∈ (kernelRun0_A c i arg2 harg2 arg3 harg3 arg4 harg4 arg5 harg5 arg6 harg6 arg7 harg7 arg8 harg8 arg9 harg9 hc0 x0 x1).2.2.2.2.1, y ∈ pc.1.set :=
  View.cover_of_tiledL (kernelRun0_A c i arg2 harg2 arg3 harg3 arg4 harg4 arg5 harg5 arg6 harg6 arg7 harg7 arg8 harg8 arg9 harg9 hc0 x0 x1).2.2.2.2.1 S1x21.size (by sl_kernel_rfl) y
/-- What this case leaves there: its pieces read back. -/
def sout0_A_1 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) : Vec F S16x21 .f32 :=
  VS0_1.read (Elt F) (VS0_1.writes (Elt F) VS0_1.junk (kernelRun0_A c i arg2 harg2 arg3 harg3 arg4 harg4 arg5 harg5 arg6 harg6 arg7 harg7 arg8 harg8 arg9 harg9 hc0 x0 x1).2.2.2.2.1)
/-- The pieces this case leaves in accumulator 2 cover it. -/
theorem scover0_A_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) (y : S16x1.Idx) :
    ∃ pc ∈ (kernelRun0_A c i arg2 harg2 arg3 harg3 arg4 harg4 arg5 harg5 arg6 harg6 arg7 harg7 arg8 harg8 arg9 harg9 hc0 x0 x1).2.2.2.2.2.1, y ∈ pc.1.set :=
  View.cover_of_tiledL (kernelRun0_A c i arg2 harg2 arg3 harg3 arg4 harg4 arg5 harg5 arg6 harg6 arg7 harg7 arg8 harg8 arg9 harg9 hc0 x0 x1).2.2.2.2.2.1 S1x1.size (by sl_kernel_rfl) y
/-- What this case leaves there: its pieces read back. -/
def sout0_A_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec F S1x21x64x512 .f32) (x1 : Vec F S1x1x64x512 .i32) : Vec F S16x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 x0 x1).2.2.2.2.2.1)

/-- The pieces this case leaves in output window 2 cover it. -/
theorem cover0_B_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) (y : S1x16x21.Idx) :
    ∃ pc ∈ (kernelRun0_B c i arg2 harg2 arg3 harg3 arg4 harg4 arg5 harg5 arg6 harg6 arg7 harg7 arg8 harg8 arg9 harg9 hc0 x0 x1 xs0 xs1 xs2).1, y ∈ pc.1.set :=
  View.cover_of_tiledL (kernelRun0_B c i arg2 harg2 arg3 harg3 arg4 harg4 arg5 harg5 arg6 harg6 arg7 harg7 arg8 harg8 arg9 harg9 hc0 x0 x1 xs0 xs1 xs2).1 S1x16x21.size (by sl_kernel_rfl) y
/-- What this case leaves there: its pieces read back. -/
def out0_B_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) : Vec F S1x16x21 .f32 :=
  VO0_2.read (Elt F) (VO0_2.writes (Elt F) VO0_2.junk (kernelRun0_B c i arg2 harg2 arg3 harg3 arg4 harg4 arg5 harg5 arg6 harg6 arg7 harg7 arg8 harg8 arg9 harg9 hc0 x0 x1 xs0 xs1 xs2).1)
/-- The pieces this case leaves in output window 3 cover it. -/
theorem cover0_B_3 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) (y : S1x16x21.Idx) :
    ∃ pc ∈ (kernelRun0_B c i arg2 harg2 arg3 harg3 arg4 harg4 arg5 harg5 arg6 harg6 arg7 harg7 arg8 harg8 arg9 harg9 hc0 x0 x1 xs0 xs1 xs2).2.1, y ∈ pc.1.set :=
  View.cover_of_tiledL (kernelRun0_B c i arg2 harg2 arg3 harg3 arg4 harg4 arg5 harg5 arg6 harg6 arg7 harg7 arg8 harg8 arg9 harg9 hc0 x0 x1 xs0 xs1 xs2).2.1 S1x16x21.size (by sl_kernel_rfl) y
/-- What this case leaves there: its pieces read back. -/
def out0_B_3 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) : Vec F S1x16x21 .f32 :=
  VO0_3.read (Elt F) (VO0_3.writes (Elt F) VO0_3.junk (kernelRun0_B c i arg2 harg2 arg3 harg3 arg4 harg4 arg5 harg5 arg6 harg6 arg7 harg7 arg8 harg8 arg9 harg9 hc0 x0 x1 xs0 xs1 xs2).2.1)
/-- The pieces this case leaves in output window 4 cover it. -/
theorem cover0_B_4 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) (y : S1x16x1.Idx) :
    ∃ pc ∈ (kernelRun0_B c i arg2 harg2 arg3 harg3 arg4 harg4 arg5 harg5 arg6 harg6 arg7 harg7 arg8 harg8 arg9 harg9 hc0 x0 x1 xs0 xs1 xs2).2.2.1, y ∈ pc.1.set :=
  View.cover_of_tiledL (kernelRun0_B c i arg2 harg2 arg3 harg3 arg4 harg4 arg5 harg5 arg6 harg6 arg7 harg7 arg8 harg8 arg9 harg9 hc0 x0 x1 xs0 xs1 xs2).2.2.1 S1x16x1.size (by sl_kernel_rfl) y
/-- What this case leaves there: its pieces read back. -/
def out0_B_4 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) : Vec F S1x16x1 .f32 :=
  VO0_4.read (Elt F) (VO0_4.writes (Elt F) VO0_4.junk (kernelRun0_B c i arg2 harg2 arg3 harg3 arg4 harg4 arg5 harg5 arg6 harg6 arg7 harg7 arg8 harg8 arg9 harg9 hc0 x0 x1 xs0 xs1 xs2).2.2.1)
/-- The pieces this case leaves in accumulator 0 cover it. -/
theorem scover0_B_0 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) (y : S16x21.Idx) :
    ∃ pc ∈ (kernelRun0_B c i arg2 harg2 arg3 harg3 arg4 harg4 arg5 harg5 arg6 harg6 arg7 harg7 arg8 harg8 arg9 harg9 hc0 x0 x1 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 x0 x1 xs0 xs1 xs2).2.2.2.1 S1x21.size (by sl_kernel_rfl) y
/-- What this case leaves there: its pieces read back. -/
def sout0_B_0 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) : Vec F S16x21 .f32 :=
  VS0_0.read (Elt F) (VS0_0.writes (Elt F) VS0_0.junk (kernelRun0_B c i arg2 harg2 arg3 harg3 arg4 harg4 arg5 harg5 arg6 harg6 arg7 harg7 arg8 harg8 arg9 harg9 hc0 x0 x1 xs0 xs1 xs2).2.2.2.1)
/-- The pieces this case leaves in accumulator 1 cover it. -/
theorem scover0_B_1 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) (y : S16x21.Idx) :
    ∃ pc ∈ (kernelRun0_B c i arg2 harg2 arg3 harg3 arg4 harg4 arg5 harg5 arg6 harg6 arg7 harg7 arg8 harg8 arg9 harg9 hc0 x0 x1 xs0 xs1 xs2).2.2.2.2.1, y ∈ pc.1.set :=
  View.cover_of_tiledL (kernelRun0_B c i arg2 harg2 arg3 harg3 arg4 harg4 arg5 harg5 arg6 harg6 arg7 harg7 arg8 harg8 arg9 harg9 hc0 x0 x1 xs0 xs1 xs2).2.2.2.2.1 S1x21.size (by sl_kernel_rfl) y
/-- What this case leaves there: its pieces read back. -/
def sout0_B_1 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) : Vec F S16x21 .f32 :=
  VS0_1.read (Elt F) (VS0_1.writes (Elt F) VS0_1.junk (kernelRun0_B c i arg2 harg2 arg3 harg3 arg4 harg4 arg5 harg5 arg6 harg6 arg7 harg7 arg8 harg8 arg9 harg9 hc0 x0 x1 xs0 xs1 xs2).2.2.2.2.1)
/-- The pieces this case leaves in accumulator 2 cover it. -/
theorem scover0_B_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) (y : S16x1.Idx) :
    ∃ pc ∈ (kernelRun0_B c i arg2 harg2 arg3 harg3 arg4 harg4 arg5 harg5 arg6 harg6 arg7 harg7 arg8 harg8 arg9 harg9 hc0 x0 x1 xs0 xs1 xs2).2.2.2.2.2.1, y ∈ pc.1.set :=
  View.cover_of_tiledL (kernelRun0_B c i arg2 harg2 arg3 harg3 arg4 harg4 arg5 harg5 arg6 harg6 arg7 harg7 arg8 harg8 arg9 harg9 hc0 x0 x1 xs0 xs1 xs2).2.2.2.2.2.1 S1x1.size (by sl_kernel_rfl) y
/-- What this case leaves there: its pieces read back. -/
def sout0_B_2 (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec F S1x21x64x512 .f32) (x1 : Vec F S1x1x64x512 .i32) (xs0 : Vec F S16x21 .f32) (xs1 : Vec F S16x21 .f32) (xs2 : Vec F S16x1 .f32) : Vec F S16x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 x0 x1 xs0 xs1 xs2).2.2.2.2.2.1)

/-! ## What the outputs and the accumulators hold after each point -/

/-- The three outputs, then the three accumulators. -/
abbrev Tup (F : FTy → Type) [FloatOps F] : Type := Vec F S1x16x21 .f32 × Vec F S1x16x21 .f32 × Vec F S1x16x1 .f32 × Vec F S16x21 .f32 × Vec F S16x21 .f32 × Vec F S16x1 .f32

/-- After a first row tile: the reset case at the point's buffers and blocks. -/
def tupA (c : Dev nD) (t : Fin cfg0.N) (h0 : t.val % 8 = 0) : Tup F :=
  (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t),
   out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t),
   out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t),
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t),
   sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t),
   sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t))

/-- After a later row tile: the continuing case, the accumulators starting from `xs0 xs1 xs2`. -/
def tupB (c : Dev nD) (t : Fin cfg0.N) (h0 : ¬t.val % 8 = 0) (xs0 : Vec F S16x21 .f32) (xs1 : Vec F S16x21 .f32) (xs2 : Vec F S16x1 .f32) : Tup F :=
  (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2,
   out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2,
   out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2,
   sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2,
   sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2,
   sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2)

/-- THE ACCUMULATION, point by point. -/
def outsAt0 (c : Dev nD) : (n : ℕ) → n < cfg0.N → Tup F
  | 0, hn => tupA m c ⟨0, hn⟩ (Nat.zero_mod _)
  | n + 1, hn =>
    if h0 : (n + 1) % 8 = 0 then tupA m c ⟨n + 1, hn⟩ h0
    else tupB m c ⟨n + 1, hn⟩ h0 (outsAt0 c n (Nat.lt_of_succ_lt hn)).2.2.2.1 (outsAt0 c n (Nat.lt_of_succ_lt hn)).2.2.2.2.1 (outsAt0 c n (Nat.lt_of_succ_lt hn)).2.2.2.2.2

theorem outsAt0_A (c : Dev nD) (t : Fin cfg0.N) (h0 : t.val % 8 = 0) :
    outsAt0 m c t.val t.isLt = tupA m c t h0 := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = tupB m c t h0
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans rfl

/-- The region's invariant before position `n`: at the start the class's; afterwards the three accumulators at what
    the point before left and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point is a first tile or a later one; that case's
    run applies; the invariant hands over the accumulators (at anything at a first tile, at what the point before left
    otherwise) and takes them back at this point's contents; every output's buffer is left with its pieces written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 8 = 0
  · rw [outsAt0_A m c t h0]
    unfold tupA out0_A_2 out0_A_3 out0_A_4 sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (iblk m c 0 t) (iblk m c 1 t)).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      iintro ⟨H0, H1, ⟨%e2, H2⟩, ⟨%e3, H3⟩, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _ _ _ _ _)
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ ((hcond0_0 t).mpr h0) (iblk m c 0 t) (iblk m c 1 t)).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexists _; iexact HS0
      isplitl [HS1]; · iexists _; iexact HS1
      isplitl [HS2]; · iexists _; iexact HS2
      iintro ⟨H0, H1, ⟨%e2, H2⟩, ⟨%e3, H3⟩, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _ _ _ _ _)
  · rw [outsAt0_B m c t h0]
    unfold tupB out0_B_2 out0_B_3 out0_B_4 sout0_B_0 sout0_B_1 sout0_B_2; (try dsimp only)
    have hz : t.val ≠ 0 := fun hz => h0 (by rw [hz])
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ _ _ (fun h => h0 ((hcond0_0 t).mp h)) (iblk m c 0 t) (iblk m c 1 t) _ _ _).2.2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, ⟨%e2, H2⟩, ⟨%e3, H3⟩, ⟨%e4, H4⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _)
        unfold owns; iexists _; isplitr
        swap; · iexact HS2
        ipureintro; exact View.read_writes_of_cover _ _ _ _ _ (scover0_B_2 c _ _ _ _ _ _ _ _ _ _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the pipeline at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: the program runs to its end, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Gen

end
-- ==== Proof.KiPiecesPre.lean ====
/-
  Small facts the accumulator lemmas share: the all-zero offset vectors, and that the three reset values are zero.
-/
import proofs.«400420_j429496730161_3_alg».proof.Proof.KiFrame
import Idealize.ShloMosaic.Lib.Pipeline.Value
import Idealize.ShloMosaic.PureOps.Ideal
import Idealize.ShloMosaic.PureOps.Ideal.Laws

noncomputable section

namespace Cert.KernelIdeal.Gen

open Idealize.ShloMosaic Idealize.ShloMosaic.TcCoe

theorem hz4 : (![0, 0, 0, 0] : Fin 4 → ℕ) = fun _ => 0 := by funext a; fin_cases a <;> rfl
theorem hz3 : (![0, 0, 0] : Fin 3 → ℕ) = fun _ => 0 := by funext a; fin_cases a <;> rfl
theorem hz2 : (![0, 0] : Fin 2 → ℕ) = fun _ => 0 := by funext a; fin_cases a <;> rfl

/-- The reset values are zero. -/
theorem pay1_apply (y : S16x21.Idx) : k0_pay1 (F := Ideal) y = 0 := by
  unfold k0_pay1
  rw [shapeCast_self]
  exact Ideal.ofBits_zero_f32
theorem pay2_apply (y : S16x21.Idx) : k0_pay2 (F := Ideal) y = 0 := by
  unfold k0_pay2
  rw [shapeCast_self]
  exact Ideal.ofBits_zero_f32
theorem pay3_apply (y : S16x1.Idx) : k0_pay3 (F := Ideal) y = 0 := by
  unfold k0_pay3
  rw [shapeCast_self]
  exact Ideal.ofBits_zero_f32

end Cert.KernelIdeal.Gen

end
-- ==== Proof.Spec.lean ====
/-
  The mathematics both programs compute, stated once over the extended reals.

  A batch of 8 images, each pixel carrying 21 class scores and a blob id.  For a pixel's column of
  scores `col`, `smProb col c` is its softmax probability of class `c` (shifted by the column's
  largest score) and `smLogp col c` the logarithm of that probability in the shifted form
  `(col c - max) - log (∑ exp (col c' - max))`.  For sample `n`, blob `s` and class `c`,
  `sumsAt` adds the probabilities of class `c` over the pixels of sample `n` whose blob id is `s`,
  `slogpAt` adds the log-probabilities over the same pixels, and `cntAt` counts those pixels.
-/
import Idealize.ShloMosaic.PureOps.Ideal
import Idealize.ShloMosaic.Lib.ValueIdx

noncomputable section

namespace Cert.SegSpec

open Idealize.ShloMosaic Idealize.ShloMosaic.ValueIdx

abbrev SX : Shape := ⟨4, ![8, 21, 512, 512]⟩
abbrev SB : Shape := ⟨4, ![8, 1, 512, 512]⟩
abbrev SO : Shape := ⟨3, ![8, 16, 21]⟩
abbrev SC3 : Shape := ⟨3, ![8, 16, 1]⟩
abbrev SC : Shape := ⟨2, ![8, 16]⟩

/-- The largest of a pixel's 21 class scores. -/
def colMax (col : Fin 21 → EReal) : EReal := Finset.univ.sup' ⟨0, Finset.mem_univ _⟩ col

/-- The softmax denominator of a pixel: the sum of the exponentials of its shifted scores. -/
def colDen (col : Fin 21 → EReal) : EReal := ∑ c : Fin 21, Ideal.exp (col c - colMax col)

/-- The softmax probability of class `c` at a pixel. -/
def smProb (col : Fin 21 → EReal) (c : Fin 21) : EReal :=
  Ideal.div (Ideal.exp (col c - colMax col)) (colDen col)

/-- The logarithm of that probability, in the shifted form. -/
def smLogp (col : Fin 21 → EReal) (c : Fin 21) : EReal :=
  (col c - colMax col) - Ideal.log (colDen col)

/-- The indicator, as a number, that a blob-id word is the blob `s`. -/
def maskf (v : BitVec 32) (s : Fin 16) : EReal := if v = BitVec.ofNat 32 s.val then 1 else 0

/-- The 21 class scores of pixel `(y, w)` of sample `n`. -/
def colOf (x : SX.Idx → EReal) (n : Fin 8) (y w : Fin 512) : Fin 21 → EReal :=
  fun c => x (ix4 n c y w)

/-- The blob-id word of pixel `(y, w)` of sample `n`. -/
def blobOf (b : SB.Idx → BitVec 32) (n : Fin 8) (y w : Fin 512) : BitVec 32 := b (ix4 n (0 : Fin 1) y w)

/-- Sum over blob `s` of sample `n` of the probabilities of class `c`. -/
def sumsAt (x : SX.Idx → EReal) (b : SB.Idx → BitVec 32) (n : Fin 8) (s : Fin 16) (c : Fin 21) : EReal :=
  ∑ y : Fin 512, ∑ w : Fin 512, smProb (colOf x n y w) c * maskf (blobOf b n y w) s

/-- Sum over blob `s` of sample `n` of the log-probabilities of class `c`. -/
def slogpAt (x : SX.Idx → EReal) (b : SB.Idx → BitVec 32) (n : Fin 8) (s : Fin 16) (c : Fin 21) : EReal :=
  ∑ y : Fin 512, ∑ w : Fin 512, smLogp (colOf x n y w) c * maskf (blobOf b n y w) s

/-- The number of pixels of sample `n` in blob `s`. -/
def cntAt (b : SB.Idx → BitVec 32) (n : Fin 8) (s : Fin 16) : EReal :=
  ∑ y : Fin 512, ∑ w : Fin 512, maskf (blobOf b n y w) s

/-- The three per-blob statistics as arrays. -/
def sumsArr (x : SX.Idx → EReal) (b : SB.Idx → BitVec 32) : SO.Idx → EReal :=
  fun j => sumsAt x b (j 0) (j 1) (j 2)
def slogpArr (x : SX.Idx → EReal) (b : SB.Idx → BitVec 32) : SO.Idx → EReal :=
  fun j => slogpAt x b (j 0) (j 1) (j 2)
def cntArr3 (b : SB.Idx → BitVec 32) : SC3.Idx → EReal :=
  fun j => cntAt b (j 0) (j 1)
def cntArr (b : SB.Idx → BitVec 32) : SC.Idx → EReal :=
  fun j => cntAt b (j 0) (j 1)

/-- The position of pixel `(y, w)` of sample `n` in the row-major list of all pixels. -/
def pix (n : Fin 8) (y w : Fin 512) : Fin 2097152 :=
  ⟨(n.val * 512 + y.val) * 512 + w.val, by have := n.isLt; have := y.isLt; have := w.isLt; omega⟩

/-- The segment of blob `s` of sample `n` among the 128 segments. -/
def seg (n : Fin 8) (s : Fin 16) : Fin 128 := ⟨n.val * 16 + s.val, by have := n.isLt; have := s.isLt; omega⟩

/-- Every score is a real number. -/
def FiniteX (x : SX.Idx → EReal) : Prop := ∀ i, ∃ r : ℝ, x i = (r : EReal)

/-- Every blob id, read signed, lies in `[0, 16)`. -/
def BlobInRange (b : SB.Idx → BitVec 32) : Prop := ∀ i, 0 ≤ (b i).toInt ∧ (b i).toInt < 16

end Cert.SegSpec

end
-- ==== Proof.KerSpec.lean ====
/-
  What one grid point of the kernel adds to its accumulators, as mathematics.

  A grid point sees one tile of a sample: 64 rows of 512 pixels, each pixel with its 21 class values
  (probabilities, or log-probabilities) and its blob-id word.  For blob `s` and class `c`, `tileSum`
  adds the class-`c` values of the tile's pixels whose blob id is `s`; `tileCnt` counts those pixels.
-/
import proofs.«400420_j429496730161_3_alg».proof.Proof.Spec

noncomputable section

namespace Cert.KerTile

open Idealize.ShloMosaic Idealize.ShloMosaic.ValueIdx Cert.SegSpec

/-- The shape of a tile's per-class values, and of its blob ids. -/
abbrev ST : Shape := ⟨3, ![21, 64, 512]⟩
abbrev SM : Shape := ⟨2, ![64, 512]⟩

/-- Sum over the tile's pixels in blob `s` of the class-`c` value. -/
def tileSum (P : ST.Idx → EReal) (B : SM.Idx → BitVec 32) (s : Fin 16) (c : Fin 21) : EReal :=
  ∑ th : Fin 64, ∑ w : Fin 512, P (ix3 c th w) * maskf (B (ix2 th w)) s

/-- The number of the tile's pixels in blob `s`. -/
def tileCnt (B : SM.Idx → BitVec 32) (s : Fin 16) : EReal :=
  ∑ th : Fin 64, ∑ w : Fin 512, maskf (B (ix2 th w)) s

end Cert.KerTile

end
-- ==== Proof.KerIter0.lean ====
/-
  What the unrolled iterations for the blob ids 0 … 5 leave in the three accumulators, as mathematics.

  One grid point holds a tile of 64 rows of 512 pixels: per pixel a blob-id word and, per class, a probability and a
  log-probability.  The iteration for blob `s` forms the indicator of "the pixel's blob id is `s`" as a number (1 or 0),
  multiplies each class value by it, sums over the pixels of a row and then over the rows, and adds the 21 sums to row
  `s` of an accumulator; it sums the indicator itself the same way and adds that to row `s` of the count accumulator.
  So after the iteration, entry `c` of row `s` is the old entry plus `tileSum` of the class values at blob `s` and class
  `c` (the sum over the tile's pixels in blob `s` of the class-`c` value), and the count entry is the old one plus
  `tileCnt` at blob `s` (the number of the tile's pixels in blob `s`).  No finiteness is used: over the extended reals
  a product with 0 is 0 and with 1 is the value itself, and a sum of a one-axis sum over the other axis is the double
  sum.  The first part states four laws once, over arbitrary arrays — the indicator, the double sum of a product with
  a per-pixel factor, the double sum of a per-pixel number, the update of a row — and the second reads each of the
  eighteen stored rows (three accumulators, blobs 0 … 5) through them.
-/
import proofs.«400420_j429496730161_3_alg».proof.Proof.KerSpec
import proofs.«400420_j429496730161_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KerIter0

open Cert.SegSpec Cert.KerTile Cert.KernelIdeal Cert.KernelIdeal.Gen Idealize.ShloMosaic Idealize.ShloMosaic.ValueIdx

variable [Cert.KernelIdeal.Facts]

/-- The blob-id comparison with the literal word of blob `s`, widened and read as a number, is the indicator of blob `s`. -/
theorem mask_apply (v6 : IVec S64x512 32) (k : BitVec 32) (s : Fin 16) (hk : k = BitVec.ofNat 32 s.val)
    (th : Fin 64) (w : Fin 512) :
    (sitofp .f32 (extui 32 (cmpi .eq v6 (broadcast S64x512 k)) natLt_1_32) : FVec Ideal S64x512 .f32) (ix2 th w)
      = maskf (v6 (ix2 th w)) s := by
  subst hk
  show ((((BitVec.ofBool (v6 (ix2 th w) == BitVec.ofNat 32 s.val)).setWidth 32).toInt : ℝ) : EReal)
      = if v6 (ix2 th w) = BitVec.ofNat 32 s.val then 1 else 0
  by_cases h : v6 (ix2 th w) = BitVec.ofNat 32 s.val
  · rw [if_pos h, h]
    simp
  · rw [if_neg h]
    have hb : (v6 (ix2 th w) == BitVec.ofNat 32 s.val) = false := by simpa using h
    rw [hb]
    simp

/-- Summing a product with a per-pixel factor over the pixels of a row, then over the rows: at class `c` the double sum
    over the tile's pixels of the class-`c` value times the pixel's factor. -/
theorem sumTW_apply (P : FVec Ideal S21x64x512 .f32) (M3 : FVec Ideal S1x64x512 .f32) (c : Fin 21) :
    multiReduction (F := Ideal) .add [1] S21
        (multiReduction (F := Ideal) .add [2] S21x64
          (mulf P (broadcastTo S21x64x512 M3 broadcasts_S1x64x512_S21x64x512))
          0x00000000#32 reduces_S21x64x512_S21x64 (.inl rfl) rfl)
        0x00000000#32 reduces_S21x64_S21 (.inl rfl) rfl (ix1 c)
      = ∑ th : Fin 64, ∑ w : Fin 512, P (ix3 c th w) * M3 (ix3 (0 : Fin 1) th w) := by
  refine (Ideal.multiReduction_add_single _ _ reduces_S21x64_S21 _ _ (ix1 c)).trans ?_
  refine Finset.sum_congr rfl fun (th : Fin 64) _ => ?_
  refine (Ideal.multiReduction_add_single _ _ reduces_S21x64x512_S21x64 _ _ _).trans ?_
  refine Finset.sum_congr rfl fun (w : Fin 512) _ => ?_
  have e : reduces_S21x64x512_S21x64.lift (reduces_S21x64_S21.lift (ix1 c) th) w = ix3 c th w := by
    funext a
    match a with
    | ⟨0, _⟩ => rfl
    | ⟨1, _⟩ => rfl
    | ⟨2, _⟩ => rfl
  rw [e]
  show P (ix3 c th w) * broadcastTo S21x64x512 M3 broadcasts_S1x64x512_S21x64x512 (ix3 c th w) = _
  refine congrArg (P (ix3 c th w) * ·) ?_
  exact broadcastTo_apply M3 _ (ix3 c th w) (ix3 (0 : Fin 1) th w) fun a =>
    match a with
    | ⟨0, _⟩ => rfl
    | ⟨1, _⟩ => rfl
    | ⟨2, _⟩ => rfl

/-- Summing a per-pixel number over the pixels of a row, then over the rows (kept as a column in between): the double
    sum over the tile's pixels. -/
theorem cnt_apply (M : FVec Ideal S64x512 .f32) :
    multiReduction (F := Ideal) .add [0] S1
        (shapeCast S64x1
          (multiReduction (F := Ideal) .add [1] S64 M 0x00000000#32 reduces_S64x512_S64 (.inl rfl) rfl)
          shapeCasts_S64_S64x1)
        0x00000000#32 reduces_S64x1_S1 (.inl rfl) rfl (ix1 (0 : Fin 1))
      = ∑ th : Fin 64, ∑ w : Fin 512, M (ix2 th w) := by
  refine (Ideal.multiReduction_add_single _ _ reduces_S64x1_S1 _ _ (ix1 (0 : Fin 1))).trans ?_
  refine Finset.sum_congr rfl fun (th : Fin 64) _ => ?_
  have e : reduces_S64x1_S1.lift (ix1 (0 : Fin 1)) th = ix2 th (0 : Fin 1) := by
    funext a
    match a with
    | ⟨0, _⟩ => rfl
    | ⟨1, _⟩ => rfl
  rw [e]
  refine (shapeCast_apply _ shapeCasts_S64_S64x1 (ix2 th (0 : Fin 1)) (ix1 th) ?_).trans ?_
  · rw [Shape.rowMajor_val_two, Shape.rowMajor_val_one]
    show th.val = th.val * 1 + 0
    omega
  refine (Ideal.multiReduction_add_single _ _ reduces_S64x512_S64 _ _ (ix1 th)).trans ?_
  refine Finset.sum_congr rfl fun (w : Fin 512) _ => ?_
  refine congrArg M ?_
  funext a
  match a with
  | ⟨0, _⟩ => rfl
  | ⟨1, _⟩ => rfl

/-- A row of 21 numbers, flattened, added to 21 numbers and put back as a row: entry `c` is the old entry plus the
    `c`-th addend. -/
theorem row21_apply (old : Vec Ideal S1x21 .f32) (sp : FVec Ideal S21 .f32) (c : Fin 21) :
    (shapeCast S1x21 (addf (shapeCast S21 old shapeCasts_S1x21_S21) sp) shapeCasts_S21_S1x21 : FVec Ideal S1x21 .f32)
        (ix2 (0 : Fin 1) c)
      = old (ix2 (0 : Fin 1) c) + sp (ix1 c) := by
  refine (shapeCast_a_1a_apply _ shapeCasts_S21_S1x21 (0 : Fin 1) c).trans ?_
  rw [addf_apply]
  exact congrArg (· + sp (ix1 c)) (shapeCast_1a_a_apply old shapeCasts_S1x21_S21 c)

/-- The same for a row of one number. -/
theorem row1_apply (old : Vec Ideal S1x1 .f32) (cs : FVec Ideal S1 .f32) :
    (shapeCast S1x1 (addf (shapeCast S1 old shapeCasts_S1x1_S1) cs) shapeCasts_S1_S1x1 : FVec Ideal S1x1 .f32)
        (ix2 (0 : Fin 1) (0 : Fin 1))
      = old (ix2 (0 : Fin 1) (0 : Fin 1)) + cs (ix1 (0 : Fin 1)) := by
  refine (shapeCast_a_1a_apply _ shapeCasts_S1_S1x1 (0 : Fin 1) (0 : Fin 1)).trans ?_
  rw [addf_apply]
  exact congrArg (· + cs (ix1 (0 : Fin 1))) (shapeCast_1a_a_apply old shapeCasts_S1x1_S1 (0 : Fin 1))

/-- The two-step sum of a class value times the blob-`s` indicator, at class `c`: the tile's sum over blob `s`. -/
theorem maskedSum_apply (P : FVec Ideal S21x64x512 .f32) (v6 : IVec S64x512 32) (k : BitVec 32) (s : Fin 16)
    (hk : k = BitVec.ofNat 32 s.val) (c : Fin 21) :
    multiReduction (F := Ideal) .add [1] S21
        (multiReduction (F := Ideal) .add [2] S21x64
          (mulf P (broadcastTo S21x64x512
            (shapeCast S1x64x512
              (sitofp .f32 (extui 32 (cmpi .eq v6 (broadcast S64x512 k)) natLt_1_32) : FVec Ideal S64x512 .f32)
              shapeCasts_S64x512_S1x64x512)
            broadcasts_S1x64x512_S21x64x512))
          0x00000000#32 reduces_S21x64x512_S21x64 (.inl rfl) rfl)
        0x00000000#32 reduces_S21x64_S21 (.inl rfl) rfl (ix1 c)
      = tileSum P v6 s c := by
  refine (sumTW_apply P _ c).trans ?_
  unfold tileSum
  refine Finset.sum_congr rfl fun th _ => Finset.sum_congr rfl fun w _ => ?_
  refine congrArg (P (ix3 c th w) * ·) ?_
  refine (shapeCast_ab_1ab_apply _ shapeCasts_S64x512_S1x64x512 (0 : Fin 1) th w).trans ?_
  exact mask_apply v6 k s hk th w

/-- The two-step sum of the blob-`s` indicator: the tile's count of blob `s`. -/
theorem maskedCnt_apply (v6 : IVec S64x512 32) (k : BitVec 32) (s : Fin 16) (hk : k = BitVec.ofNat 32 s.val) :
    multiReduction (F := Ideal) .add [0] S1
        (shapeCast S64x1
          (multiReduction (F := Ideal) .add [1] S64
            (sitofp .f32 (extui 32 (cmpi .eq v6 (broadcast S64x512 k)) natLt_1_32) : FVec Ideal S64x512 .f32)
            0x00000000#32 reduces_S64x512_S64 (.inl rfl) rfl)
          shapeCasts_S64_S64x1)
        0x00000000#32 reduces_S64x1_S1 (.inl rfl) rfl (ix1 (0 : Fin 1))
      = tileCnt v6 s := by
  refine (cnt_apply _).trans ?_
  unfold tileCnt
  exact Finset.sum_congr rfl fun th _ => Finset.sum_congr rfl fun w _ => mask_apply v6 k s hk th w

/-! ## Blob 0 -/

/-- Row 0 of the probability accumulator after the tile: the old row plus the tile's sums over blob 0. -/
theorem acc7_0 (v3 : Vec Ideal S1x21x64x512 .f32) (v5 : Vec Ideal S1x1x64x512 .i32) (old7 : Vec Ideal S1x21 .f32) (c : Fin 21) :
    k0_pay15 (k0_pay12 v3 v5) old7 (ix2 (0 : Fin 1) c)
      = old7 (ix2 (0 : Fin 1) c) + tileSum (k0_pay8 v3) (k0_pay4 v5) ⟨0, by decide⟩ c := by
  refine (row21_apply old7 _ c).trans ?_
  exact congrArg (old7 (ix2 (0 : Fin 1) c) + ·) (maskedSum_apply (k0_pay8 v3) (k0_pay4 v5) 0#32 ⟨0, by decide⟩ rfl c)

/-- Row 0 of the log-probability accumulator after the tile: the old row plus the tile's sums over blob 0. -/
theorem acc8_0 (v3 : Vec Ideal S1x21x64x512 .f32) (v5 : Vec Ideal S1x1x64x512 .i32) (old8 : Vec Ideal S1x21 .f32) (c : Fin 21) :
    k0_pay16 (k0_pay13 v3 v5) old8 (ix2 (0 : Fin 1) c)
      = old8 (ix2 (0 : Fin 1) c) + tileSum (k0_pay9 v3) (k0_pay4 v5) ⟨0, by decide⟩ c := by
  refine (row21_apply old8 _ c).trans ?_
  exact congrArg (old8 (ix2 (0 : Fin 1) c) + ·) (maskedSum_apply (k0_pay9 v3) (k0_pay4 v5) 0#32 ⟨0, by decide⟩ rfl c)

/-- Row 0 of the count accumulator after the tile: the old count plus the tile's count of blob 0. -/
theorem acc9_0 (v5 : Vec Ideal S1x1x64x512 .i32) (old9 : Vec Ideal S1x1 .f32) :
    k0_pay17 (k0_pay14 v5) old9 (ix2 (0 : Fin 1) (0 : Fin 1))
      = old9 (ix2 (0 : Fin 1) (0 : Fin 1)) + tileCnt (k0_pay4 v5) ⟨0, by decide⟩ := by
  refine (row1_apply old9 _).trans ?_
  exact congrArg (old9 (ix2 (0 : Fin 1) (0 : Fin 1)) + ·) (maskedCnt_apply (k0_pay4 v5) 0#32 ⟨0, by decide⟩ rfl)

/-! ## Blob 1 -/

/-- Row 1 of the probability accumulator after the tile: the old row plus the tile's sums over blob 1. -/
theorem acc7_1 (v6 : IVec S64x512 32) (v15 : FVec Ideal S21x64x512 .f32) (old7 : Vec Ideal S1x21 .f32) (c : Fin 21) :
    k0_pay23 (k0_pay22 v6 v15 old7) (ix2 (0 : Fin 1) c)
      = old7 (ix2 (0 : Fin 1) c) + tileSum v15 v6 ⟨1, by decide⟩ c := by
  refine (row21_apply old7 _ c).trans ?_
  exact congrArg (old7 (ix2 (0 : Fin 1) c) + ·) (maskedSum_apply v15 v6 1#32 ⟨1, by decide⟩ rfl c)

/-- Row 1 of the log-probability accumulator after the tile: the old row plus the tile's sums over blob 1. -/
theorem acc8_1 (v6 : IVec S64x512 32) (v18 : FVec Ideal S21x64x512 .f32) (old8 : Vec Ideal S1x21 .f32) (c : Fin 21) :
    k0_pay24 (k0_pay20 v6 v18) old8 (ix2 (0 : Fin 1) c)
      = old8 (ix2 (0 : Fin 1) c) + tileSum v18 v6 ⟨1, by decide⟩ c := by
  refine (row21_apply old8 _ c).trans ?_
  exact congrArg (old8 (ix2 (0 : Fin 1) c) + ·) (maskedSum_apply v18 v6 1#32 ⟨1, by decide⟩ rfl c)

/-- Row 1 of the count accumulator after the tile: the old count plus the tile's count of blob 1. -/
theorem acc9_1 (v6 : IVec S64x512 32) (old9 : Vec Ideal S1x1 .f32) :
    k0_pay25 (k0_pay21 v6) old9 (ix2 (0 : Fin 1) (0 : Fin 1))
      = old9 (ix2 (0 : Fin 1) (0 : Fin 1)) + tileCnt v6 ⟨1, by decide⟩ := by
  refine (row1_apply old9 _).trans ?_
  exact congrArg (old9 (ix2 (0 : Fin 1) (0 : Fin 1)) + ·) (maskedCnt_apply v6 1#32 ⟨1, by decide⟩ rfl)

/-! ## Blob 2 -/

/-- Row 2 of the probability accumulator after the tile: the old row plus the tile's sums over blob 2. -/
theorem acc7_2 (v6 : IVec S64x512 32) (v15 : FVec Ideal S21x64x512 .f32) (old7 : Vec Ideal S1x21 .f32) (c : Fin 21) :
    k0_pay30 v6 v15 old7 (ix2 (0 : Fin 1) c)
      = old7 (ix2 (0 : Fin 1) c) + tileSum v15 v6 ⟨2, by decide⟩ c := by
  refine (row21_apply old7 _ c).trans ?_
  exact congrArg (old7 (ix2 (0 : Fin 1) c) + ·) (maskedSum_apply v15 v6 2#32 ⟨2, by decide⟩ rfl c)

/-- Row 2 of the log-probability accumulator after the tile: the old row plus the tile's sums over blob 2. -/
theorem acc8_2 (v6 : IVec S64x512 32) (v18 : FVec Ideal S21x64x512 .f32) (old8 : Vec Ideal S1x21 .f32) (c : Fin 21) :
    k0_pay31 (k0_pay28 v6 v18) old8 (ix2 (0 : Fin 1) c)
      = old8 (ix2 (0 : Fin 1) c) + tileSum v18 v6 ⟨2, by decide⟩ c := by
  refine (row21_apply old8 _ c).trans ?_
  exact congrArg (old8 (ix2 (0 : Fin 1) c) + ·) (maskedSum_apply v18 v6 2#32 ⟨2, by decide⟩ rfl c)

/-- Row 2 of the count accumulator after the tile: the old count plus the tile's count of blob 2. -/
theorem acc9_2 (v6 : IVec S64x512 32) (old9 : Vec Ideal S1x1 .f32) :
    k0_pay32 (k0_pay29 v6) old9 (ix2 (0 : Fin 1) (0 : Fin 1))
      = old9 (ix2 (0 : Fin 1) (0 : Fin 1)) + tileCnt v6 ⟨2, by decide⟩ := by
  refine (row1_apply old9 _).trans ?_
  exact congrArg (old9 (ix2 (0 : Fin 1) (0 : Fin 1)) + ·) (maskedCnt_apply v6 2#32 ⟨2, by decide⟩ rfl)

/-! ## Blob 3 -/

/-- Row 3 of the probability accumulator after the tile: the old row plus the tile's sums over blob 3. -/
theorem acc7_3 (v6 : IVec S64x512 32) (v15 : FVec Ideal S21x64x512 .f32) (old7 : Vec Ideal S1x21 .f32) (c : Fin 21) :
    k0_pay37 v6 v15 old7 (ix2 (0 : Fin 1) c)
      = old7 (ix2 (0 : Fin 1) c) + tileSum v15 v6 ⟨3, by decide⟩ c := by
  refine (row21_apply old7 _ c).trans ?_
  exact congrArg (old7 (ix2 (0 : Fin 1) c) + ·) (maskedSum_apply v15 v6 3#32 ⟨3, by decide⟩ rfl c)

/-- Row 3 of the log-probability accumulator after the tile: the old row plus the tile's sums over blob 3. -/
theorem acc8_3 (v6 : IVec S64x512 32) (v18 : FVec Ideal S21x64x512 .f32) (old8 : Vec Ideal S1x21 .f32) (c : Fin 21) :
    k0_pay39 (k0_pay35 v6 v18) (k0_pay38 old8) (ix2 (0 : Fin 1) c)
      = old8 (ix2 (0 : Fin 1) c) + tileSum v18 v6 ⟨3, by decide⟩ c := by
  refine (row21_apply old8 _ c).trans ?_
  exact congrArg (old8 (ix2 (0 : Fin 1) c) + ·) (maskedSum_apply v18 v6 3#32 ⟨3, by decide⟩ rfl c)

/-- Row 3 of the count accumulator after the tile: the old count plus the tile's count of blob 3. -/
theorem acc9_3 (v6 : IVec S64x512 32) (old9 : Vec Ideal S1x1 .f32) :
    k0_pay40 (k0_pay36 v6) old9 (ix2 (0 : Fin 1) (0 : Fin 1))
      = old9 (ix2 (0 : Fin 1) (0 : Fin 1)) + tileCnt v6 ⟨3, by decide⟩ := by
  refine (row1_apply old9 _).trans ?_
  exact congrArg (old9 (ix2 (0 : Fin 1) (0 : Fin 1)) + ·) (maskedCnt_apply v6 3#32 ⟨3, by decide⟩ rfl)

/-! ## Blob 4 -/

/-- Row 4 of the probability accumulator after the tile: the old row plus the tile's sums over blob 4. -/
theorem acc7_4 (v6 : IVec S64x512 32) (v15 : FVec Ideal S21x64x512 .f32) (old7 : Vec Ideal S1x21 .f32) (c : Fin 21) :
    k0_pay44 v6 v15 old7 (ix2 (0 : Fin 1) c)
      = old7 (ix2 (0 : Fin 1) c) + tileSum v15 v6 ⟨4, by decide⟩ c := by
  refine (row21_apply old7 _ c).trans ?_
  exact congrArg (old7 (ix2 (0 : Fin 1) c) + ·) (maskedSum_apply v15 v6 4#32 ⟨4, by decide⟩ rfl c)

/-- Row 4 of the log-probability accumulator after the tile: the old row plus the tile's sums over blob 4. -/
theorem acc8_4 (v6 : IVec S64x512 32) (v18 : FVec Ideal S21x64x512 .f32) (old8 : Vec Ideal S1x21 .f32) (c : Fin 21) :
    k0_pay46 (k0_pay45 v6 v18 old8) (ix2 (0 : Fin 1) c)
      = old8 (ix2 (0 : Fin 1) c) + tileSum v18 v6 ⟨4, by decide⟩ c := by
  refine (row21_apply old8 _ c).trans ?_
  exact congrArg (old8 (ix2 (0 : Fin 1) c) + ·) (maskedSum_apply v18 v6 4#32 ⟨4, by decide⟩ rfl c)

/-- Row 4 of the count accumulator after the tile: the old count plus the tile's count of blob 4. -/
theorem acc9_4 (v6 : IVec S64x512 32) (old9 : Vec Ideal S1x1 .f32) :
    k0_pay47 (k0_pay43 v6) old9 (ix2 (0 : Fin 1) (0 : Fin 1))
      = old9 (ix2 (0 : Fin 1) (0 : Fin 1)) + tileCnt v6 ⟨4, by decide⟩ := by
  refine (row1_apply old9 _).trans ?_
  exact congrArg (old9 (ix2 (0 : Fin 1) (0 : Fin 1)) + ·) (maskedCnt_apply v6 4#32 ⟨4, by decide⟩ rfl)

/-! ## Blob 5 -/

/-- Row 5 of the probability accumulator after the tile: the old row plus the tile's sums over blob 5. -/
theorem acc7_5 (v6 : IVec S64x512 32) (v15 : FVec Ideal S21x64x512 .f32) (old7 : Vec Ideal S1x21 .f32) (c : Fin 21) :
    k0_pay51 v6 v15 old7 (ix2 (0 : Fin 1) c)
      = old7 (ix2 (0 : Fin 1) c) + tileSum v15 v6 ⟨5, by decide⟩ c := by
  refine (row21_apply old7 _ c).trans ?_
  exact congrArg (old7 (ix2 (0 : Fin 1) c) + ·) (maskedSum_apply v15 v6 5#32 ⟨5, by decide⟩ rfl c)

/-- Row 5 of the log-probability accumulator after the tile: the old row plus the tile's sums over blob 5. -/
theorem acc8_5 (v6 : IVec S64x512 32) (v18 : FVec Ideal S21x64x512 .f32) (old8 : Vec Ideal S1x21 .f32) (c : Fin 21) :
    k0_pay52 v6 v18 old8 (ix2 (0 : Fin 1) c)
      = old8 (ix2 (0 : Fin 1) c) + tileSum v18 v6 ⟨5, by decide⟩ c := by
  refine (row21_apply old8 _ c).trans ?_
  exact congrArg (old8 (ix2 (0 : Fin 1) c) + ·) (maskedSum_apply v18 v6 5#32 ⟨5, by decide⟩ rfl c)

/-- Row 5 of the count accumulator after the tile: the old count plus the tile's count of blob 5. -/
theorem acc9_5 (v6 : IVec S64x512 32) (old9 : Vec Ideal S1x1 .f32) :
    k0_pay53 (k0_pay50 v6) old9 (ix2 (0 : Fin 1) (0 : Fin 1))
      = old9 (ix2 (0 : Fin 1) (0 : Fin 1)) + tileCnt v6 ⟨5, by decide⟩ := by
  refine (row1_apply old9 _).trans ?_
  exact congrArg (old9 (ix2 (0 : Fin 1) (0 : Fin 1)) + ·) (maskedCnt_apply v6 5#32 ⟨5, by decide⟩ rfl)

end Cert.KerIter0

end
-- ==== Proof.KerIter6.lean ====
/-
  What the iterations of the blob ids 6 … 10 add to the three accumulators, row by row.

  One iteration of blob `s` makes the mask of the tile's pixels whose blob id is `s` (1 on them, 0
  elsewhere), multiplies the per-class values by it, sums over the 512 pixels of a row and then over
  the 64 rows, and adds the 21 sums to row `s` of a per-class accumulator; it sums the mask itself the
  same way and adds that count to row `s` of the pixel counter.  So row `s` of the probability
  accumulator becomes its old value plus `tileSum` of the probabilities, row `s` of the
  log-probability accumulator its old value plus `tileSum` of the log-probabilities, and row `s` of
  the counter its old value plus `tileCnt`.

  First the pieces every iteration repeats, over abstract arguments: the mask at a pixel; a sum over
  one axis read at an index given by coordinates; the views that add or drop an axis of extent one;
  the two chains (class values times mask summed twice, mask summed twice); the row update.  Then,
  for each blob id 6 … 10, the three stored values as closed expressions of the blob ids, the class
  values and the row loaded before the store.
-/
import proofs.«400420_j429496730161_3_alg».proof.Proof.Spec
import proofs.«400420_j429496730161_3_alg».proof.Proof.KerSpec
import proofs.«400420_j429496730161_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KerIter6

open Cert.SegSpec Cert.KerTile Cert.KernelIdeal Cert.KernelIdeal.Gen Idealize.ShloMosaic Idealize.ShloMosaic.ValueIdx

variable [Cert.KernelIdeal.Facts]

/-- One word of the mask: the comparison bit, widened and read as a signed integer, is 1 where the
    two words agree and 0 elsewhere. -/
theorem maskWord (x k : BitVec 32) :
    (FloatOps.sitofp (F := Ideal) .f32 ((IntOp.cmpi .eq x k).setWidth 32) : EReal) = if x = k then 1 else 0 := by
  show (((((IntOp.cmpi .eq x k).setWidth 32).toInt : ℝ)) : EReal) = _
  by_cases h : x = k
  · have e : IntOp.cmpi .eq x k = 1#1 := by simp [IntOp.cmpi, h]
    rw [e, if_pos h]
    have e1 : ((1#1 : BitVec 1).setWidth 32).toInt = 1 := by decide
    rw [e1]; simp
  · have e : IntOp.cmpi .eq x k = 0#1 := by
      show BitVec.ofBool (x == k) = 0#1
      rw [beq_eq_false_iff_ne.mpr h]; rfl
    rw [e, if_neg h]
    have e0 : ((0#1 : BitVec 1).setWidth 32).toInt = 0 := by decide
    rw [e0]; simp

/-- The mask of blob `s` at pixel `(th, w)` of the tile. -/
theorem mask_apply (v6 : IVec S64x512 32) (k : BitVec 32) (hlt : 1 < 32) (s : Fin 16)
    (hk : k = BitVec.ofNat 32 s.val) (th : Fin 64) (w : Fin 512) :
    (sitofp (F := Ideal) .f32 (extui 32 (cmpi .eq v6 (broadcast S64x512 k)) hlt) : FVec Ideal S64x512 .f32) (ix2 th w)
      = maskf (v6 (ix2 th w)) s := by
  subst hk
  exact maskWord _ _

/-! The sums over one axis of the tile, read at an index given by coordinates. -/

/-- A sum over the 512 pixels of a row, per class and row. -/
theorem red_w (X : FVec Ideal S21x64x512 .f32) (h2 : S21x64x512.Reduces [2] S21x64) (hφ : FKind.Formats .f32)
    (hacc : (0x00000000#32 : BitVec 32) = FKind.add.neutral .f32 hφ) (c : Fin 21) (th : Fin 64) :
    multiReduction .add [2] S21x64 X 0x00000000#32 h2 hφ hacc (ix2 c th) = ∑ w : Fin 512, X (ix3 c th w) :=
  (Ideal.multiReduction_add_single X _ h2 hφ hacc (ix2 c th)).trans
    (Finset.sum_congr rfl fun w _ => congrArg X (funext fun d => match d with
      | ⟨0, _⟩ => rfl | ⟨1, _⟩ => rfl | ⟨2, _⟩ => rfl))

/-- A sum over the 64 rows, per class. -/
theorem red_th (Y : FVec Ideal S21x64 .f32) (h1 : S21x64.Reduces [1] S21) (hφ : FKind.Formats .f32)
    (hacc : (0x00000000#32 : BitVec 32) = FKind.add.neutral .f32 hφ) (c : Fin 21) :
    multiReduction .add [1] S21 Y 0x00000000#32 h1 hφ hacc (ix1 c) = ∑ th : Fin 64, Y (ix2 c th) :=
  (Ideal.multiReduction_add_single Y _ h1 hφ hacc (ix1 c)).trans
    (Finset.sum_congr rfl fun th _ => congrArg Y (funext fun d => match d with
      | ⟨0, _⟩ => rfl | ⟨1, _⟩ => rfl))

/-- A sum over the 512 pixels of a row of the mask. -/
theorem red_row (M : FVec Ideal S64x512 .f32) (h : S64x512.Reduces [1] S64) (hφ : FKind.Formats .f32)
    (hacc : (0x00000000#32 : BitVec 32) = FKind.add.neutral .f32 hφ) (th : Fin 64) :
    multiReduction .add [1] S64 M 0x00000000#32 h hφ hacc (ix1 th) = ∑ w : Fin 512, M (ix2 th w) :=
  (Ideal.multiReduction_add_single M _ h hφ hacc (ix1 th)).trans
    (Finset.sum_congr rfl fun w _ => congrArg M (funext fun d => match d with
      | ⟨0, _⟩ => rfl | ⟨1, _⟩ => rfl))

/-- A sum down the one column of a 64-row array. -/
theorem red_col (Y : FVec Ideal S64x1 .f32) (h : S64x1.Reduces [0] S1) (hφ : FKind.Formats .f32)
    (hacc : (0x00000000#32 : BitVec 32) = FKind.add.neutral .f32 hφ) :
    multiReduction .add [0] S1 Y 0x00000000#32 h hφ hacc (ix1 (0 : Fin 1)) = ∑ th : Fin 64, Y (ix2 th (0 : Fin 1)) :=
  (Ideal.multiReduction_add_single Y _ h hφ hacc (ix1 (0 : Fin 1))).trans
    (Finset.sum_congr rfl fun th _ => congrArg Y (funext fun d => match d with
      | ⟨0, _⟩ => rfl | ⟨1, _⟩ => rfl))

/-! The layout steps between them. -/

/-- A 64-vector viewed as a 64 x 1 column reads, at `(th, 0)`, the vector at `th`. -/
theorem col_apply (Y : FVec Ideal S64 .f32) (h : S64.ShapeCasts S64x1) (th : Fin 64) :
    shapeCast S64x1 Y h (ix2 th (0 : Fin 1)) = Y (ix1 th) :=
  shapeCast_apply Y h _ _ (by
    rw [Shape.rowMajor_val_one, Shape.rowMajor_val_two]
    show th.val = th.val * 1 + 0
    omega)

/-- The mask viewed as 1 x 64 x 512 and copied to every class reads, at `(c, th, w)`, the mask at `(th, w)`. -/
theorem bcast_apply (M3 : FVec Ideal S1x64x512 .f32) (hb : S1x64x512.Broadcasts S21x64x512)
    (c : Fin 21) (th : Fin 64) (w : Fin 512) :
    broadcastTo S21x64x512 M3 hb (ix3 c th w) = M3 (ix3 (0 : Fin 1) th w) :=
  broadcastTo_apply M3 hb (ix3 c th w) (ix3 (0 : Fin 1) th w) fun a => match a with
    | ⟨0, _⟩ => rfl | ⟨1, _⟩ => rfl | ⟨2, _⟩ => rfl

/-! The three chains of one iteration. -/

/-- Class values times a 1 x 64 x 512 mask, summed over the pixels of a row and then over the rows. -/
theorem sum_chain (P : FVec Ideal S21x64x512 .f32) (M3 : FVec Ideal S1x64x512 .f32)
    (hb : S1x64x512.Broadcasts S21x64x512) (h2 : S21x64x512.Reduces [2] S21x64) (h1 : S21x64.Reduces [1] S21)
    (hφ hφ' : FKind.Formats .f32) (hacc : (0x00000000#32 : BitVec 32) = FKind.add.neutral .f32 hφ)
    (hacc' : (0x00000000#32 : BitVec 32) = FKind.add.neutral .f32 hφ') (c : Fin 21) :
    multiReduction .add [1] S21
        (multiReduction .add [2] S21x64 (mulf P (broadcastTo S21x64x512 M3 hb)) 0x00000000#32 h2 hφ hacc)
        0x00000000#32 h1 hφ' hacc' (ix1 c)
      = ∑ th : Fin 64, ∑ w : Fin 512, P (ix3 c th w) * M3 (ix3 (0 : Fin 1) th w) :=
  (red_th _ h1 hφ' hacc' c).trans (Finset.sum_congr rfl fun th _ =>
    (red_w _ h2 hφ hacc c th).trans (Finset.sum_congr rfl fun w _ =>
      congrArg (P (ix3 c th w) * ·) (bcast_apply M3 hb c th w)))

/-- The same with the mask of blob `s` made from the blob ids: the tile's sum for blob `s` and class `c`. -/
theorem sum_mask (P : FVec Ideal S21x64x512 .f32) (v6 : IVec S64x512 32) (k : BitVec 32) (s : Fin 16)
    (hk : k = BitVec.ofNat 32 s.val) (hlt : 1 < 32) (hc : S64x512.ShapeCasts S1x64x512)
    (hb : S1x64x512.Broadcasts S21x64x512) (h2 : S21x64x512.Reduces [2] S21x64) (h1 : S21x64.Reduces [1] S21)
    (hφ hφ' : FKind.Formats .f32) (hacc : (0x00000000#32 : BitVec 32) = FKind.add.neutral .f32 hφ)
    (hacc' : (0x00000000#32 : BitVec 32) = FKind.add.neutral .f32 hφ') (c : Fin 21) :
    multiReduction .add [1] S21
        (multiReduction .add [2] S21x64
          (mulf P (broadcastTo S21x64x512
            (shapeCast S1x64x512 (sitofp (F := Ideal) .f32 (extui 32 (cmpi .eq v6 (broadcast S64x512 k)) hlt)) hc) hb))
          0x00000000#32 h2 hφ hacc)
        0x00000000#32 h1 hφ' hacc' (ix1 c)
      = tileSum P v6 s c :=
  (sum_chain P _ hb h2 h1 hφ hφ' hacc hacc' c).trans (Finset.sum_congr rfl fun th _ =>
    Finset.sum_congr rfl fun w _ => congrArg (P (ix3 c th w) * ·)
      ((shapeCast_ab_1ab_apply _ hc (0 : Fin 1) th w).trans (mask_apply v6 k hlt s hk th w)))

/-- A 64 x 512 array summed over the pixels of a row, then down the column of row sums. -/
theorem cnt_chain (M : FVec Ideal S64x512 .f32) (hr : S64x512.Reduces [1] S64) (hc : S64.ShapeCasts S64x1)
    (h0 : S64x1.Reduces [0] S1) (hφ hφ' : FKind.Formats .f32)
    (hacc : (0x00000000#32 : BitVec 32) = FKind.add.neutral .f32 hφ)
    (hacc' : (0x00000000#32 : BitVec 32) = FKind.add.neutral .f32 hφ') :
    multiReduction .add [0] S1 (shapeCast S64x1 (multiReduction .add [1] S64 M 0x00000000#32 hr hφ hacc) hc)
        0x00000000#32 h0 hφ' hacc' (ix1 (0 : Fin 1))
      = ∑ th : Fin 64, ∑ w : Fin 512, M (ix2 th w) :=
  (red_col _ h0 hφ' hacc').trans (Finset.sum_congr rfl fun th _ =>
    (col_apply _ hc th).trans (red_row M hr hφ hacc th))

/-- The same of the mask of blob `s`: the number of the tile's pixels in blob `s`. -/
theorem cnt_mask (v6 : IVec S64x512 32) (k : BitVec 32) (s : Fin 16) (hk : k = BitVec.ofNat 32 s.val) (hlt : 1 < 32)
    (hr : S64x512.Reduces [1] S64) (hc : S64.ShapeCasts S64x1)
    (h0 : S64x1.Reduces [0] S1) (hφ hφ' : FKind.Formats .f32)
    (hacc : (0x00000000#32 : BitVec 32) = FKind.add.neutral .f32 hφ)
    (hacc' : (0x00000000#32 : BitVec 32) = FKind.add.neutral .f32 hφ') :
    multiReduction .add [0] S1
        (shapeCast S64x1
          (multiReduction .add [1] S64 (sitofp (F := Ideal) .f32 (extui 32 (cmpi .eq v6 (broadcast S64x512 k)) hlt))
            0x00000000#32 hr hφ hacc) hc)
        0x00000000#32 h0 hφ' hacc' (ix1 (0 : Fin 1))
      = tileCnt v6 s :=
  (cnt_chain _ hr hc h0 hφ hφ' hacc hacc').trans (Finset.sum_congr rfl fun th _ =>
    Finset.sum_congr rfl fun w _ => mask_apply v6 k hlt s hk th w)

/-! The update of one accumulator row. -/

/-- A 1 x 21 row plus a 21-vector, as a 1 x 21 row. -/
theorem row_upd (old : Vec Ideal S1x21 .f32) (sp : FVec Ideal S21 .f32) (h : S1x21.ShapeCasts S21)
    (h' : S21.ShapeCasts S1x21) (c : Fin 21) :
    shapeCast S1x21 (addf (shapeCast S21 old h) sp) h' (ix2 (0 : Fin 1) c) = old (ix2 (0 : Fin 1) c) + sp (ix1 c) :=
  (shapeCast_a_1a_apply _ h' (0 : Fin 1) c).trans
    (congrArg (· + sp (ix1 c)) (shapeCast_1a_a_apply old h c))

/-- A 1 x 1 row plus a 1-vector, as a 1 x 1 row. -/
theorem one_upd (old : Vec Ideal S1x1 .f32) (cs : FVec Ideal S1 .f32) (h : S1x1.ShapeCasts S1)
    (h' : S1.ShapeCasts S1x1) :
    shapeCast S1x1 (addf (shapeCast S1 old h) cs) h' (ix2 (0 : Fin 1) (0 : Fin 1))
      = old (ix2 (0 : Fin 1) (0 : Fin 1)) + cs (ix1 (0 : Fin 1)) :=
  (shapeCast_a_1a_apply _ h' (0 : Fin 1) (0 : Fin 1)).trans
    (congrArg (· + cs (ix1 (0 : Fin 1))) (shapeCast_1a_a_apply old h (0 : Fin 1)))

/-! What one iteration stores into a row of each accumulator. -/

/-- The row of a per-class accumulator after the iteration of blob `s`: the old row plus the tile's sum. -/
theorem store_sum (P : FVec Ideal S21x64x512 .f32) (v6 : IVec S64x512 32) (old : Vec Ideal S1x21 .f32)
    (k : BitVec 32) (s : Fin 16) (hk : k = BitVec.ofNat 32 s.val) (hlt : 1 < 32)
    (hc : S64x512.ShapeCasts S1x64x512) (hb : S1x64x512.Broadcasts S21x64x512)
    (h2 : S21x64x512.Reduces [2] S21x64) (h1 : S21x64.Reduces [1] S21)
    (hφ hφ' : FKind.Formats .f32) (hacc : (0x00000000#32 : BitVec 32) = FKind.add.neutral .f32 hφ)
    (hacc' : (0x00000000#32 : BitVec 32) = FKind.add.neutral .f32 hφ')
    (h : S1x21.ShapeCasts S21) (h' : S21.ShapeCasts S1x21) (c : Fin 21) :
    shapeCast S1x21 (addf (shapeCast S21 old h)
        (multiReduction .add [1] S21
          (multiReduction .add [2] S21x64
            (mulf P (broadcastTo S21x64x512
              (shapeCast S1x64x512 (sitofp (F := Ideal) .f32 (extui 32 (cmpi .eq v6 (broadcast S64x512 k)) hlt)) hc) hb))
            0x00000000#32 h2 hφ hacc)
          0x00000000#32 h1 hφ' hacc')) h' (ix2 (0 : Fin 1) c)
      = old (ix2 (0 : Fin 1) c) + tileSum P v6 s c :=
  (row_upd old _ h h' c).trans
    (congrArg (old (ix2 (0 : Fin 1) c) + ·) (sum_mask P v6 k s hk hlt hc hb h2 h1 hφ hφ' hacc hacc' c))

/-- The row of the pixel counter after the iteration of blob `s`: the old count plus the tile's count. -/
theorem store_cnt (v6 : IVec S64x512 32) (old : Vec Ideal S1x1 .f32)
    (k : BitVec 32) (s : Fin 16) (hk : k = BitVec.ofNat 32 s.val) (hlt : 1 < 32)
    (hr : S64x512.Reduces [1] S64) (hc : S64.ShapeCasts S64x1) (h0 : S64x1.Reduces [0] S1)
    (hφ hφ' : FKind.Formats .f32) (hacc : (0x00000000#32 : BitVec 32) = FKind.add.neutral .f32 hφ)
    (hacc' : (0x00000000#32 : BitVec 32) = FKind.add.neutral .f32 hφ')
    (h : S1x1.ShapeCasts S1) (h' : S1.ShapeCasts S1x1) :
    shapeCast S1x1 (addf (shapeCast S1 old h)
        (multiReduction .add [0] S1
          (shapeCast S64x1
            (multiReduction .add [1] S64 (sitofp (F := Ideal) .f32 (extui 32 (cmpi .eq v6 (broadcast S64x512 k)) hlt))
              0x00000000#32 hr hφ hacc) hc)
          0x00000000#32 h0 hφ' hacc')) h' (ix2 (0 : Fin 1) (0 : Fin 1))
      = old (ix2 (0 : Fin 1) (0 : Fin 1)) + tileCnt v6 s :=
  (one_upd old _ h h').trans
    (congrArg (old (ix2 (0 : Fin 1) (0 : Fin 1)) + ·) (cnt_mask v6 k s hk hlt hr hc h0 hφ hφ' hacc hacc'))

/-! Blob 6. -/

theorem acc7_6 (v6 : IVec S64x512 32) (v15 : FVec Ideal S21x64x512 .f32) (old7 : Vec Ideal S1x21 .f32) (c : Fin 21) :
    k0_pay56 v6 v15 old7 (ix2 (0 : Fin 1) c) = old7 (ix2 (0 : Fin 1) c) + tileSum v15 v6 ⟨6, by decide⟩ c := by
  unfold k0_pay56 k0_pay55 k0_pay54
  exact store_sum v15 v6 old7 6#32 ⟨6, by decide⟩ rfl _ _ _ _ _ _ _ _ _ _ _ c

theorem acc8_6 (v6 : IVec S64x512 32) (v18 : FVec Ideal S21x64x512 .f32) (old8 : Vec Ideal S1x21 .f32) (c : Fin 21) :
    k0_pay57 v6 v18 old8 (ix2 (0 : Fin 1) c) = old8 (ix2 (0 : Fin 1) c) + tileSum v18 v6 ⟨6, by decide⟩ c := by
  unfold k0_pay57 k0_pay55 k0_pay54
  exact store_sum v18 v6 old8 6#32 ⟨6, by decide⟩ rfl _ _ _ _ _ _ _ _ _ _ _ c

theorem acc9_6 (v6 : IVec S64x512 32) (old9 : Vec Ideal S1x1 .f32) :
    k0_pay59 (k0_pay58 v6 old9) (ix2 (0 : Fin 1) (0 : Fin 1))
      = old9 (ix2 (0 : Fin 1) (0 : Fin 1)) + tileCnt v6 ⟨6, by decide⟩ := by
  unfold k0_pay59 k0_pay58 k0_pay54
  exact store_cnt v6 old9 6#32 ⟨6, by decide⟩ rfl _ _ _ _ _ _ _ _ _ _

/-! Blob 7. -/

theorem acc7_7 (v6 : IVec S64x512 32) (v15 : FVec Ideal S21x64x512 .f32) (old7 : Vec Ideal S1x21 .f32) (c : Fin 21) :
    k0_pay62 v6 v15 old7 (ix2 (0 : Fin 1) c) = old7 (ix2 (0 : Fin 1) c) + tileSum v15 v6 ⟨7, by decide⟩ c := by
  unfold k0_pay62 k0_pay61 k0_pay60
  exact store_sum v15 v6 old7 7#32 ⟨7, by decide⟩ rfl _ _ _ _ _ _ _ _ _ _ _ c

theorem acc8_7 (v6 : IVec S64x512 32) (v18 : FVec Ideal S21x64x512 .f32) (old8 : Vec Ideal S1x21 .f32) (c : Fin 21) :
    k0_pay63 v6 v18 old8 (ix2 (0 : Fin 1) c) = old8 (ix2 (0 : Fin 1) c) + tileSum v18 v6 ⟨7, by decide⟩ c := by
  unfold k0_pay63 k0_pay61 k0_pay60
  exact store_sum v18 v6 old8 7#32 ⟨7, by decide⟩ rfl _ _ _ _ _ _ _ _ _ _ _ c

theorem acc9_7 (v6 : IVec S64x512 32) (old9 : Vec Ideal S1x1 .f32) :
    k0_pay65 (k0_pay64 v6 old9) (ix2 (0 : Fin 1) (0 : Fin 1))
      = old9 (ix2 (0 : Fin 1) (0 : Fin 1)) + tileCnt v6 ⟨7, by decide⟩ := by
  unfold k0_pay65 k0_pay64 k0_pay60
  exact store_cnt v6 old9 7#32 ⟨7, by decide⟩ rfl _ _ _ _ _ _ _ _ _ _

/-! Blob 8. -/

theorem acc7_8 (v6 : IVec S64x512 32) (v15 : FVec Ideal S21x64x512 .f32) (old7 : Vec Ideal S1x21 .f32) (c : Fin 21) :
    k0_pay68 v6 v15 old7 (ix2 (0 : Fin 1) c) = old7 (ix2 (0 : Fin 1) c) + tileSum v15 v6 ⟨8, by decide⟩ c := by
  unfold k0_pay68 k0_pay67 k0_pay66
  exact store_sum v15 v6 old7 8#32 ⟨8, by decide⟩ rfl _ _ _ _ _ _ _ _ _ _ _ c

theorem acc8_8 (v6 : IVec S64x512 32) (v18 : FVec Ideal S21x64x512 .f32) (old8 : Vec Ideal S1x21 .f32) (c : Fin 21) :
    k0_pay69 v6 v18 old8 (ix2 (0 : Fin 1) c) = old8 (ix2 (0 : Fin 1) c) + tileSum v18 v6 ⟨8, by decide⟩ c := by
  unfold k0_pay69 k0_pay67 k0_pay66
  exact store_sum v18 v6 old8 8#32 ⟨8, by decide⟩ rfl _ _ _ _ _ _ _ _ _ _ _ c

theorem acc9_8 (v6 : IVec S64x512 32) (old9 : Vec Ideal S1x1 .f32) :
    k0_pay70 v6 old9 (ix2 (0 : Fin 1) (0 : Fin 1))
      = old9 (ix2 (0 : Fin 1) (0 : Fin 1)) + tileCnt v6 ⟨8, by decide⟩ := by
  unfold k0_pay70 k0_pay66
  exact store_cnt v6 old9 8#32 ⟨8, by decide⟩ rfl _ _ _ _ _ _ _ _ _ _

/-! Blob 9: the array of nines the blob ids are compared with is a value of its own. -/

theorem acc7_9 (v6 : IVec S64x512 32) (v15 : FVec Ideal S21x64x512 .f32) (old7 : Vec Ideal S1x21 .f32) (c : Fin 21) :
    k0_pay74 v6 v15 k0_pay71 old7 (ix2 (0 : Fin 1) c)
      = old7 (ix2 (0 : Fin 1) c) + tileSum v15 v6 ⟨9, by decide⟩ c := by
  unfold k0_pay74 k0_pay73 k0_pay72 k0_pay71
  exact store_sum v15 v6 old7 9#32 ⟨9, by decide⟩ rfl _ _ _ _ _ _ _ _ _ _ _ c

theorem acc8_9 (v6 : IVec S64x512 32) (v18 : FVec Ideal S21x64x512 .f32) (old8 : Vec Ideal S1x21 .f32) (c : Fin 21) :
    k0_pay75 v6 v18 k0_pay71 old8 (ix2 (0 : Fin 1) c)
      = old8 (ix2 (0 : Fin 1) c) + tileSum v18 v6 ⟨9, by decide⟩ c := by
  unfold k0_pay75 k0_pay73 k0_pay72 k0_pay71
  exact store_sum v18 v6 old8 9#32 ⟨9, by decide⟩ rfl _ _ _ _ _ _ _ _ _ _ _ c

theorem acc9_9 (v6 : IVec S64x512 32) (old9 : Vec Ideal S1x1 .f32) :
    k0_pay76 v6 k0_pay71 old9 (ix2 (0 : Fin 1) (0 : Fin 1))
      = old9 (ix2 (0 : Fin 1) (0 : Fin 1)) + tileCnt v6 ⟨9, by decide⟩ := by
  unfold k0_pay76 k0_pay72 k0_pay71
  exact store_cnt v6 old9 9#32 ⟨9, by decide⟩ rfl _ _ _ _ _ _ _ _ _ _

/-! Blob 10: the mask, and the mask as 1 x 64 x 512, are values of their own. -/

theorem acc7_10 (v6 : IVec S64x512 32) (v15 : FVec Ideal S21x64x512 .f32) (old7 : Vec Ideal S1x21 .f32) (c : Fin 21) :
    k0_pay79 v15 (k0_pay78 v6) old7 (ix2 (0 : Fin 1) c)
      = old7 (ix2 (0 : Fin 1) c) + tileSum v15 v6 ⟨10, by decide⟩ c := by
  unfold k0_pay79 k0_pay78 k0_pay77
  exact store_sum v15 v6 old7 10#32 ⟨10, by decide⟩ rfl _ _ _ _ _ _ _ _ _ _ _ c

theorem acc8_10 (v6 : IVec S64x512 32) (v18 : FVec Ideal S21x64x512 .f32) (old8 : Vec Ideal S1x21 .f32) (c : Fin 21) :
    k0_pay80 v18 (k0_pay78 v6) old8 (ix2 (0 : Fin 1) c)
      = old8 (ix2 (0 : Fin 1) c) + tileSum v18 v6 ⟨10, by decide⟩ c := by
  unfold k0_pay80 k0_pay78 k0_pay77
  exact store_sum v18 v6 old8 10#32 ⟨10, by decide⟩ rfl _ _ _ _ _ _ _ _ _ _ _ c

theorem acc9_10 (v6 : IVec S64x512 32) (old9 : Vec Ideal S1x1 .f32) :
    k0_pay81 (k0_pay77 v6) old9 (ix2 (0 : Fin 1) (0 : Fin 1))
      = old9 (ix2 (0 : Fin 1) (0 : Fin 1)) + tileCnt v6 ⟨10, by decide⟩ := by
  unfold k0_pay81 k0_pay77
  exact store_cnt v6 old9 10#32 ⟨10, by decide⟩ rfl _ _ _ _ _ _ _ _ _ _

end Cert.KerIter6

end
-- ==== Proof.KerIter11.lean ====
/-
  What the unrolled iterations for the blob ids 11 … 15 leave in the three accumulators.

  For blob `s` the kernel forms, over the tile's 64 × 512 pixels, the indicator that the pixel's blob id is `s`;
  multiplies the 21 × 64 × 512 block of class values (probabilities, or log-probabilities) by it; sums over the 512
  pixels of a row and then over the 64 rows; and adds the 21 sums to row `s` of the accumulator.  The count
  accumulator receives the sum of the indicator itself, row by row and then down the column of row sums.  Read at an
  entry, each stored row is the row that was there plus `tileSum` (for the count, `tileCnt`) of the tile: every sum is
  a finite sum of extended reals taken term by term, the indicator is 0 or 1, and no finiteness is needed.
-/
import proofs.«400420_j429496730161_3_alg».proof.Proof.KerSpec
import proofs.«400420_j429496730161_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KerIter11

open Cert.SegSpec Cert.KerTile Cert.KernelIdeal Cert.KernelIdeal.Gen Idealize.ShloMosaic Idealize.ShloMosaic.ValueIdx

variable [Cert.KernelIdeal.Facts]

/-! ## The chains every iteration repeats, over abstract arguments -/

/-- The indicator of blob `s` as the kernel builds it: the blob-id word compared for equality with the
    literal word of `s`, the one-bit answer widened to a word (0 or 1) and read as a signed integer. -/
theorem mask_apply (B : IVec S64x512 32) (k : BitVec 32) (s : Fin 16) (hk : k = BitVec.ofNat 32 s.val)
    (h : 1 < 32) (th : Fin 64) (w : Fin 512) :
    (sitofp .f32 (extui 32 (cmpi .eq B (broadcast S64x512 k)) h) : FVec Ideal S64x512 .f32) (ix2 th w)
      = maskf (B (ix2 th w)) s := by
  show ((((IntOp.cmpi .eq (B (ix2 th w)) k).setWidth 32).toInt : ℝ) : EReal) = _
  unfold maskf
  subst hk
  by_cases e : B (ix2 th w) = BitVec.ofNat 32 s.val
  · rw [if_pos e, IntOp.cmpi_eq.2 e]
    simp
  · rw [if_neg e, eq_zero_of_ne_one (mt IntOp.cmpi_eq.1 e)]
    simp

/-- The indicator laid over the 21 classes (a leading unit axis added, then repeated along it) reads, at
    class `c` and pixel `(th, w)`, the indicator at the pixel. -/
theorem bmask_apply (M : FVec Ideal S64x512 .f32) (hc : S64x512.ShapeCasts S1x64x512)
    (hb : S1x64x512.Broadcasts S21x64x512) (c : Fin 21) (th : Fin 64) (w : Fin 512) :
    broadcastTo S21x64x512 (shapeCast S1x64x512 M hc) hb (ix3 c th w) = M (ix2 th w) := by
  refine (broadcastTo_apply _ hb (ix3 c th w) (ix3 (0 : Fin 1) th w) fun a => ?_).trans ?_
  · match a with
    | ⟨0, _⟩ => rfl
    | ⟨1, _⟩ => rfl
    | ⟨2, _⟩ => rfl
  · exact shapeCast_ab_1ab_apply M hc 0 th w

/-- The sum over the pixels of a row: the lane reduction of a `[21, 64, 512]` block at `(c, th)`. -/
theorem redW_apply (X : FVec Ideal S21x64x512 .f32) (h : S21x64x512.Reduces [2] S21x64)
    (hφ : FKind.Formats .f32) (hacc : (0x00000000#32 : BitVec 32) = FKind.add.neutral .f32 hφ)
    (c : Fin 21) (th : Fin 64) :
    multiReduction .add [2] S21x64 X 0x00000000#32 h hφ hacc (ix2 c th) = ∑ w : Fin 512, X (ix3 c th w) := by
  refine (Ideal.multiReduction_add_single X _ h hφ hacc (ix2 c th)).trans ?_
  refine Finset.sum_congr rfl fun w _ => congrArg X (funext fun a => Fin.ext ?_)
  match a with
  | ⟨0, _⟩ => rfl
  | ⟨1, _⟩ => rfl
  | ⟨2, _⟩ => rfl

/-- The sum over the rows: the reduction of a `[21, 64]` block at class `c`. -/
theorem redT_apply (Y : FVec Ideal S21x64 .f32) (h : S21x64.Reduces [1] S21)
    (hφ : FKind.Formats .f32) (hacc : (0x00000000#32 : BitVec 32) = FKind.add.neutral .f32 hφ) (c : Fin 21) :
    multiReduction .add [1] S21 Y 0x00000000#32 h hφ hacc (ix1 c) = ∑ th : Fin 64, Y (ix2 c th) := by
  refine (Ideal.multiReduction_add_single Y _ h hφ hacc (ix1 c)).trans ?_
  refine Finset.sum_congr rfl fun th _ => congrArg Y (funext fun a => Fin.ext ?_)
  match a with
  | ⟨0, _⟩ => rfl
  | ⟨1, _⟩ => rfl

/-- The sum over the pixels of a row of a `[64, 512]` block. -/
theorem redRow_apply (M : FVec Ideal S64x512 .f32) (h : S64x512.Reduces [1] S64)
    (hφ : FKind.Formats .f32) (hacc : (0x00000000#32 : BitVec 32) = FKind.add.neutral .f32 hφ) (th : Fin 64) :
    multiReduction .add [1] S64 M 0x00000000#32 h hφ hacc (ix1 th) = ∑ w : Fin 512, M (ix2 th w) := by
  refine (Ideal.multiReduction_add_single M _ h hφ hacc (ix1 th)).trans ?_
  refine Finset.sum_congr rfl fun w _ => congrArg M (funext fun a => Fin.ext ?_)
  match a with
  | ⟨0, _⟩ => rfl
  | ⟨1, _⟩ => rfl

/-- A vector of 64 entries stood up as a column reads, at `(th, 0)`, its entry `th`. -/
theorem col_apply (v : FVec Ideal S64 .f32) (h : S64.ShapeCasts S64x1) (th : Fin 64) (u : Fin 1) :
    shapeCast S64x1 v h (ix2 th u) = v (ix1 th) :=
  shapeCast_apply v h _ _ (by
    have hu : u.val = 0 := by omega
    rw [Shape.rowMajor_val_two, Shape.rowMajor_val_one]
    show th.val = th.val * 1 + u.val
    rw [hu, Nat.mul_one, Nat.add_zero])

/-- The sum down a column of 64 entries. -/
theorem redCol_apply (Z : FVec Ideal S64x1 .f32) (h : S64x1.Reduces [0] S1)
    (hφ : FKind.Formats .f32) (hacc : (0x00000000#32 : BitVec 32) = FKind.add.neutral .f32 hφ) (u : Fin 1) :
    multiReduction .add [0] S1 Z 0x00000000#32 h hφ hacc (ix1 u) = ∑ th : Fin 64, Z (ix2 th u) := by
  refine (Ideal.multiReduction_add_single Z _ h hφ hacc (ix1 u)).trans ?_
  refine Finset.sum_congr rfl fun th _ => congrArg Z (funext fun a => Fin.ext ?_)
  match a with
  | ⟨0, _⟩ => rfl
  | ⟨1, _⟩ => rfl

/-- A row of 21 entries with a vector added to it entrywise: at `(0, c)`, the old entry plus the vector's. -/
theorem rowAdd_apply (old : Vec Ideal S1x21 .f32) (sp : FVec Ideal S21 .f32) (h1 : S1x21.ShapeCasts S21)
    (h2 : S21.ShapeCasts S1x21) (c : Fin 21) :
    shapeCast S1x21 (addf (shapeCast S21 old h1) sp) h2 (ix2 (0 : Fin 1) c) = old (ix2 (0 : Fin 1) c) + sp (ix1 c) := by
  refine (shapeCast_a_1a_apply _ h2 0 c).trans ?_
  refine (addf_apply _ _ _).trans ?_
  exact congrArg (· + sp (ix1 c)) (shapeCast_1a_a_apply old h1 c)

/-- The one-entry row with a one-entry vector added to it. -/
theorem cellAdd_apply (old : Vec Ideal S1x1 .f32) (cs : FVec Ideal S1 .f32) (h1 : S1x1.ShapeCasts S1)
    (h2 : S1.ShapeCasts S1x1) :
    shapeCast S1x1 (addf (shapeCast S1 old h1) cs) h2 (ix2 (0 : Fin 1) (0 : Fin 1))
      = old (ix2 (0 : Fin 1) (0 : Fin 1)) + cs (ix1 (0 : Fin 1)) := by
  refine (shapeCast_a_1a_apply _ h2 0 0).trans ?_
  refine (addf_apply _ _ _).trans ?_
  exact congrArg (· + cs (ix1 (0 : Fin 1))) (shapeCast_1a_a_apply old h1 0)

/-- The whole chain of a per-class statistic, from the blob-id block to the updated row: at `(0, c)` the old
    entry plus the sum, over the tile's pixels whose blob id is `s`, of the class-`c` value. -/
theorem rowChain_apply (P : FVec Ideal S21x64x512 .f32) (B : IVec S64x512 32) (k : BitVec 32) (s : Fin 16)
    (hk : k = BitVec.ofNat 32 s.val) (old : Vec Ideal S1x21 .f32)
    (hlt : 1 < 32) (hc : S64x512.ShapeCasts S1x64x512) (hb : S1x64x512.Broadcasts S21x64x512)
    (hr2 : S21x64x512.Reduces [2] S21x64) (hφ2 : FKind.Formats .f32)
    (ha2 : (0x00000000#32 : BitVec 32) = FKind.add.neutral .f32 hφ2)
    (hr1 : S21x64.Reduces [1] S21) (hφ1 : FKind.Formats .f32)
    (ha1 : (0x00000000#32 : BitVec 32) = FKind.add.neutral .f32 hφ1)
    (h1 : S1x21.ShapeCasts S21) (h2 : S21.ShapeCasts S1x21) (c : Fin 21) :
    shapeCast S1x21 (addf (shapeCast S21 old h1)
        (multiReduction .add [1] S21
          (multiReduction .add [2] S21x64
            (mulf P (broadcastTo S21x64x512
              (shapeCast S1x64x512
                (sitofp .f32 (extui 32 (cmpi .eq B (broadcast S64x512 k)) hlt) : FVec Ideal S64x512 .f32) hc) hb))
            0x00000000#32 hr2 hφ2 ha2)
          0x00000000#32 hr1 hφ1 ha1)) h2 (ix2 (0 : Fin 1) c)
      = old (ix2 (0 : Fin 1) c) + tileSum P B s c := by
  refine (rowAdd_apply old _ h1 h2 c).trans (congrArg (old (ix2 (0 : Fin 1) c) + ·) ?_)
  refine (redT_apply _ hr1 hφ1 ha1 c).trans ?_
  unfold tileSum
  refine Finset.sum_congr rfl fun th _ => ?_
  refine (redW_apply _ hr2 hφ2 ha2 c th).trans ?_
  refine Finset.sum_congr rfl fun w _ => ?_
  refine (mulf_apply _ _ _).trans ?_
  refine congrArg (P (ix3 c th w) * ·) ?_
  refine (bmask_apply _ hc hb c th w).trans ?_
  exact mask_apply B k s hk hlt th w

/-- The whole chain of the pixel count, from the blob-id block to the updated cell: the old entry plus the
    number of the tile's pixels whose blob id is `s`. -/
theorem cntChain_apply (B : IVec S64x512 32) (k : BitVec 32) (s : Fin 16)
    (hk : k = BitVec.ofNat 32 s.val) (old : Vec Ideal S1x1 .f32)
    (hlt : 1 < 32) (hr : S64x512.Reduces [1] S64) (hφ : FKind.Formats .f32)
    (ha : (0x00000000#32 : BitVec 32) = FKind.add.neutral .f32 hφ)
    (hc : S64.ShapeCasts S64x1)
    (hr0 : S64x1.Reduces [0] S1) (hφ0 : FKind.Formats .f32)
    (ha0 : (0x00000000#32 : BitVec 32) = FKind.add.neutral .f32 hφ0)
    (h1 : S1x1.ShapeCasts S1) (h2 : S1.ShapeCasts S1x1) :
    shapeCast S1x1 (addf (shapeCast S1 old h1)
        (multiReduction .add [0] S1
          (shapeCast S64x1
            (multiReduction .add [1] S64
              (sitofp .f32 (extui 32 (cmpi .eq B (broadcast S64x512 k)) hlt) : FVec Ideal S64x512 .f32)
              0x00000000#32 hr hφ ha) hc)
          0x00000000#32 hr0 hφ0 ha0)) h2 (ix2 (0 : Fin 1) (0 : Fin 1))
      = old (ix2 (0 : Fin 1) (0 : Fin 1)) + tileCnt B s := by
  refine (cellAdd_apply old _ h1 h2).trans (congrArg (old (ix2 (0 : Fin 1) (0 : Fin 1)) + ·) ?_)
  refine (redCol_apply _ hr0 hφ0 ha0 0).trans ?_
  unfold tileCnt
  refine Finset.sum_congr rfl fun th _ => ?_
  refine (col_apply _ hc th 0).trans ?_
  refine (redRow_apply _ hr hφ ha th).trans ?_
  exact Finset.sum_congr rfl fun w _ => mask_apply B k s hk hlt th w

/-! ## Blob 11 -/

/-- Row 11 of the probability accumulator after the tile: the old row plus the tile's sum for blob 11. -/
theorem acc7_11 (v6 : IVec S64x512 32) (v15 : FVec Ideal S21x64x512 .f32) (old7 : Vec Ideal S1x21 .f32) (c : Fin 21) :
    k0_pay85 (F := Ideal) (k0_pay84 v6 v15) old7 (ix2 (0 : Fin 1) c)
      = old7 (ix2 (0 : Fin 1) c) + tileSum v15 v6 ⟨11, by decide⟩ c :=
  rowChain_apply v15 v6 11#32 ⟨11, by decide⟩ rfl old7 natLt_1_32 shapeCasts_S64x512_S1x64x512 broadcasts_S1x64x512_S21x64x512
    reduces_S21x64x512_S21x64 (.inl rfl) rfl reduces_S21x64_S21 (.inl rfl) rfl shapeCasts_S1x21_S21 shapeCasts_S21_S1x21 c

/-- Row 11 of the log-probability accumulator after the tile. -/
theorem acc8_11 (v6 : IVec S64x512 32) (v18 : FVec Ideal S21x64x512 .f32) (old8 : Vec Ideal S1x21 .f32) (c : Fin 21) :
    k0_pay86 (F := Ideal) v18 (k0_pay83 (F := Ideal) v6) old8 (ix2 (0 : Fin 1) c)
      = old8 (ix2 (0 : Fin 1) c) + tileSum v18 v6 ⟨11, by decide⟩ c :=
  rowChain_apply v18 v6 11#32 ⟨11, by decide⟩ rfl old8 natLt_1_32 shapeCasts_S64x512_S1x64x512 broadcasts_S1x64x512_S21x64x512
    reduces_S21x64x512_S21x64 (.inl rfl) rfl reduces_S21x64_S21 (.inl rfl) rfl shapeCasts_S1x21_S21 shapeCasts_S21_S1x21 c

/-- Row 11 of the count accumulator after the tile: the old count plus the tile's pixels in blob 11. -/
theorem acc9_11 (v6 : IVec S64x512 32) (old9 : Vec Ideal S1x1 .f32) :
    k0_pay87 (F := Ideal) (k0_pay82 (F := Ideal) v6) old9 (ix2 (0 : Fin 1) (0 : Fin 1))
      = old9 (ix2 (0 : Fin 1) (0 : Fin 1)) + tileCnt v6 ⟨11, by decide⟩ :=
  cntChain_apply v6 11#32 ⟨11, by decide⟩ rfl old9 natLt_1_32 reduces_S64x512_S64 (.inl rfl) rfl shapeCasts_S64_S64x1
    reduces_S64x1_S1 (.inl rfl) rfl shapeCasts_S1x1_S1 shapeCasts_S1_S1x1

/-! ## Blob 12 -/

/-- Row 12 of the probability accumulator after the tile: the old row plus the tile's sum for blob 12. -/
theorem acc7_12 (v6 : IVec S64x512 32) (v15 : FVec Ideal S21x64x512 .f32) (old7 : Vec Ideal S1x21 .f32) (c : Fin 21) :
    k0_pay92 (F := Ideal) (k0_pay90 v6 v15) old7 (ix2 (0 : Fin 1) c)
      = old7 (ix2 (0 : Fin 1) c) + tileSum v15 v6 ⟨12, by decide⟩ c :=
  rowChain_apply v15 v6 12#32 ⟨12, by decide⟩ rfl old7 natLt_1_32 shapeCasts_S64x512_S1x64x512 broadcasts_S1x64x512_S21x64x512
    reduces_S21x64x512_S21x64 (.inl rfl) rfl reduces_S21x64_S21 (.inl rfl) rfl shapeCasts_S1x21_S21 shapeCasts_S21_S1x21 c

/-- Row 12 of the log-probability accumulator after the tile. -/
theorem acc8_12 (v6 : IVec S64x512 32) (v18 : FVec Ideal S21x64x512 .f32) (old8 : Vec Ideal S1x21 .f32) (c : Fin 21) :
    k0_pay93 (F := Ideal) (k0_pay91 v6 v18) old8 (ix2 (0 : Fin 1) c)
      = old8 (ix2 (0 : Fin 1) c) + tileSum v18 v6 ⟨12, by decide⟩ c :=
  rowChain_apply v18 v6 12#32 ⟨12, by decide⟩ rfl old8 natLt_1_32 shapeCasts_S64x512_S1x64x512 broadcasts_S1x64x512_S21x64x512
    reduces_S21x64x512_S21x64 (.inl rfl) rfl reduces_S21x64_S21 (.inl rfl) rfl shapeCasts_S1x21_S21 shapeCasts_S21_S1x21 c

/-- Row 12 of the count accumulator after the tile: the old count plus the tile's pixels in blob 12. -/
theorem acc9_12 (v6 : IVec S64x512 32) (old9 : Vec Ideal S1x1 .f32) :
    k0_pay94 (F := Ideal) (k0_pay88 (F := Ideal) v6) old9 (ix2 (0 : Fin 1) (0 : Fin 1))
      = old9 (ix2 (0 : Fin 1) (0 : Fin 1)) + tileCnt v6 ⟨12, by decide⟩ :=
  cntChain_apply v6 12#32 ⟨12, by decide⟩ rfl old9 natLt_1_32 reduces_S64x512_S64 (.inl rfl) rfl shapeCasts_S64_S64x1
    reduces_S64x1_S1 (.inl rfl) rfl shapeCasts_S1x1_S1 shapeCasts_S1_S1x1

/-! ## Blob 13 -/

/-- Row 13 of the probability accumulator after the tile: the old row plus the tile's sum for blob 13. -/
theorem acc7_13 (v6 : IVec S64x512 32) (v15 : FVec Ideal S21x64x512 .f32) (old7 : Vec Ideal S1x21 .f32) (c : Fin 21) :
    k0_pay99 (F := Ideal) (k0_pay97 v6 v15) old7 (ix2 (0 : Fin 1) c)
      = old7 (ix2 (0 : Fin 1) c) + tileSum v15 v6 ⟨13, by decide⟩ c :=
  rowChain_apply v15 v6 13#32 ⟨13, by decide⟩ rfl old7 natLt_1_32 shapeCasts_S64x512_S1x64x512 broadcasts_S1x64x512_S21x64x512
    reduces_S21x64x512_S21x64 (.inl rfl) rfl reduces_S21x64_S21 (.inl rfl) rfl shapeCasts_S1x21_S21 shapeCasts_S21_S1x21 c

/-- Row 13 of the log-probability accumulator after the tile. -/
theorem acc8_13 (v6 : IVec S64x512 32) (v18 : FVec Ideal S21x64x512 .f32) (old8 : Vec Ideal S1x21 .f32) (c : Fin 21) :
    k0_pay100 (F := Ideal) (k0_pay98 v6 v18) old8 (ix2 (0 : Fin 1) c)
      = old8 (ix2 (0 : Fin 1) c) + tileSum v18 v6 ⟨13, by decide⟩ c :=
  rowChain_apply v18 v6 13#32 ⟨13, by decide⟩ rfl old8 natLt_1_32 shapeCasts_S64x512_S1x64x512 broadcasts_S1x64x512_S21x64x512
    reduces_S21x64x512_S21x64 (.inl rfl) rfl reduces_S21x64_S21 (.inl rfl) rfl shapeCasts_S1x21_S21 shapeCasts_S21_S1x21 c

/-- Row 13 of the count accumulator after the tile: the old count plus the tile's pixels in blob 13. -/
theorem acc9_13 (v6 : IVec S64x512 32) (old9 : Vec Ideal S1x1 .f32) :
    k0_pay101 (F := Ideal) (k0_pay95 (F := Ideal) v6) old9 (ix2 (0 : Fin 1) (0 : Fin 1))
      = old9 (ix2 (0 : Fin 1) (0 : Fin 1)) + tileCnt v6 ⟨13, by decide⟩ :=
  cntChain_apply v6 13#32 ⟨13, by decide⟩ rfl old9 natLt_1_32 reduces_S64x512_S64 (.inl rfl) rfl shapeCasts_S64_S64x1
    reduces_S64x1_S1 (.inl rfl) rfl shapeCasts_S1x1_S1 shapeCasts_S1_S1x1

/-! ## Blob 14 -/

/-- Row 14 of the probability accumulator after the tile: the old row plus the tile's sum for blob 14. -/
theorem acc7_14 (v6 : IVec S64x512 32) (v15 : FVec Ideal S21x64x512 .f32) (old7 : Vec Ideal S1x21 .f32) (c : Fin 21) :
    k0_pay107 (F := Ideal) (k0_pay104 v6 v15) old7 (ix2 (0 : Fin 1) c)
      = old7 (ix2 (0 : Fin 1) c) + tileSum v15 v6 ⟨14, by decide⟩ c :=
  rowChain_apply v15 v6 14#32 ⟨14, by decide⟩ rfl old7 natLt_1_32 shapeCasts_S64x512_S1x64x512 broadcasts_S1x64x512_S21x64x512
    reduces_S21x64x512_S21x64 (.inl rfl) rfl reduces_S21x64_S21 (.inl rfl) rfl shapeCasts_S1x21_S21 shapeCasts_S21_S1x21 c

/-- Row 14 of the log-probability accumulator after the tile. -/
theorem acc8_14 (v6 : IVec S64x512 32) (v18 : FVec Ideal S21x64x512 .f32) (old8 : Vec Ideal S1x21 .f32) (c : Fin 21) :
    k0_pay108 (F := Ideal) (k0_pay105 v6 v18) old8 (ix2 (0 : Fin 1) c)
      = old8 (ix2 (0 : Fin 1) c) + tileSum v18 v6 ⟨14, by decide⟩ c :=
  rowChain_apply v18 v6 14#32 ⟨14, by decide⟩ rfl old8 natLt_1_32 shapeCasts_S64x512_S1x64x512 broadcasts_S1x64x512_S21x64x512
    reduces_S21x64x512_S21x64 (.inl rfl) rfl reduces_S21x64_S21 (.inl rfl) rfl shapeCasts_S1x21_S21 shapeCasts_S21_S1x21 c

/-- Row 14 of the count accumulator after the tile: the old count plus the tile's pixels in blob 14. -/
theorem acc9_14 (v6 : IVec S64x512 32) (old9 : Vec Ideal S1x1 .f32) :
    k0_pay109 (F := Ideal) (k0_pay106 (F := Ideal) v6) old9 (ix2 (0 : Fin 1) (0 : Fin 1))
      = old9 (ix2 (0 : Fin 1) (0 : Fin 1)) + tileCnt v6 ⟨14, by decide⟩ :=
  cntChain_apply v6 14#32 ⟨14, by decide⟩ rfl old9 natLt_1_32 reduces_S64x512_S64 (.inl rfl) rfl shapeCasts_S64_S64x1
    reduces_S64x1_S1 (.inl rfl) rfl shapeCasts_S1x1_S1 shapeCasts_S1_S1x1

/-! ## Blob 15 -/

/-- Row 15 of the probability accumulator after the tile: the old row plus the tile's sum for blob 15. -/
theorem acc7_15 (v6 : IVec S64x512 32) (v15 : FVec Ideal S21x64x512 .f32) (old7 : Vec Ideal S1x21 .f32) (c : Fin 21) :
    k0_pay115 (F := Ideal) (k0_pay112 v6 v15) old7 (ix2 (0 : Fin 1) c)
      = old7 (ix2 (0 : Fin 1) c) + tileSum v15 v6 ⟨15, by decide⟩ c :=
  rowChain_apply v15 v6 15#32 ⟨15, by decide⟩ rfl old7 natLt_1_32 shapeCasts_S64x512_S1x64x512 broadcasts_S1x64x512_S21x64x512
    reduces_S21x64x512_S21x64 (.inl rfl) rfl reduces_S21x64_S21 (.inl rfl) rfl shapeCasts_S1x21_S21 shapeCasts_S21_S1x21 c

/-- Row 15 of the log-probability accumulator after the tile. -/
theorem acc8_15 (v6 : IVec S64x512 32) (v18 : FVec Ideal S21x64x512 .f32) (old8 : Vec Ideal S1x21 .f32) (c : Fin 21) :
    k0_pay116 (F := Ideal) (k0_pay113 v6 v18) old8 (ix2 (0 : Fin 1) c)
      = old8 (ix2 (0 : Fin 1) c) + tileSum v18 v6 ⟨15, by decide⟩ c :=
  rowChain_apply v18 v6 15#32 ⟨15, by decide⟩ rfl old8 natLt_1_32 shapeCasts_S64x512_S1x64x512 broadcasts_S1x64x512_S21x64x512
    reduces_S21x64x512_S21x64 (.inl rfl) rfl reduces_S21x64_S21 (.inl rfl) rfl shapeCasts_S1x21_S21 shapeCasts_S21_S1x21 c

/-- Row 15 of the count accumulator after the tile: the old count plus the tile's pixels in blob 15. -/
theorem acc9_15 (v6 : IVec S64x512 32) (old9 : Vec Ideal S1x1 .f32) :
    k0_pay117 (F := Ideal) (k0_pay114 (F := Ideal) v6) old9 (ix2 (0 : Fin 1) (0 : Fin 1))
      = old9 (ix2 (0 : Fin 1) (0 : Fin 1)) + tileCnt v6 ⟨15, by decide⟩ :=
  cntChain_apply v6 15#32 ⟨15, by decide⟩ rfl old9 natLt_1_32 reduces_S64x512_S64 (.inl rfl) rfl shapeCasts_S64_S64x1
    reduces_S64x1_S1 (.inl rfl) rfl shapeCasts_S1x1_S1 shapeCasts_S1_S1x1

end Cert.KerIter11

end
-- ==== Proof.KiPiecesA0a.lean ====
/- The reset case of the kernel body, accumulator by accumulator, store by store: a table of 3 x 16 steps laid out from ONE hand-written step.
   A first row tile zeroes the three accumulators and then, for blob s = 0 … 15 in turn, loads row s, adds the tile's sum for blob s and stores
   it back. After k of these stores: every entry is covered by some store (Cov), the rows k … 15 still hold zero (Z), and the rows 0 … k-1
   hold the tile's sum for their blob and class (CA). Step k + 1: the load of row k reads zero (Z at k), so the stored row is the tile's sum. -/
import proofs.«400420_j429496730161_3_alg».proof.Proof.KiPiecesPre
import proofs.«400420_j429496730161_3_alg».proof.Proof.KerIter0
import proofs.«400420_j429496730161_3_alg».proof.Proof.KerIter6
import proofs.«400420_j429496730161_3_alg».proof.Proof.KerIter11

set_option maxRecDepth 16384

noncomputable section

namespace Cert.KernelIdeal.Gen

open Idealize.ShloMosaic Idealize.ShloMosaic.TcCoe Idealize.ShloMosaic.Tactic Idealize.ShloMosaic.ValueIdx
open Cert.SegSpec Cert.KerTile

/-! ## Accumulator 0 at a first tile, store by store -/

theorem Cov0_1 : ∀ y : S16x21.Idx, ∃ p ∈ kernelRun0_A.sl.HS0_1 (F := Ideal), y ∈ p.1.set := by
  unfold kernelRun0_A.sl.HS0_1
  exact fun y => ⟨_, List.mem_singleton_self _, View.mem_set_unit_zero hz2 inb_S16x21_S16x21_0_0 y⟩
theorem Z0_1 : ∀ y : S16x21.Idx, 0 ≤ (y 0).val → View.canon (kernelRun0_A.sl.HS0_1 (F := Ideal)) y = 0 := by
  unfold kernelRun0_A.sl.HS0_1
  intro y _
  rw [View.canon_unit_zero hz2]
  exact pay1_apply y
theorem CA0_1 (x0 : Vec Ideal S1x21x64x512 .f32) (x1 : Vec Ideal S1x1x64x512 .i32) : ∀ y : S16x21.Idx, (y 0).val < 0 → View.canon (kernelRun0_A.sl.HS0_1 (F := Ideal)) y = tileSum (k0_pay8 (F := Ideal) x0) (k0_pay4 (F := Ideal) x1) (y 0) (y 1) :=
  fun y h => absurd h (Nat.not_lt_zero _)

theorem Cov0_2 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_2 (F := Ideal) c arg2 harg2 arg3 harg3 arg7 x0 x1, y ∈ p.1.set := by
  unfold kernelRun0_A.sl.HS0_2
  intro y
  obtain ⟨p, hp, hy⟩ := Cov0_1 y
  exact ⟨p, List.mem_cons_of_mem _ hp, hy⟩
theorem Z0_2 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 1 ≤ (y 0).val → View.canon (kernelRun0_A.sl.HS0_2 (F := Ideal) c arg2 harg2 arg3 harg3 arg7 x0 x1) y = 0 := by
  unfold kernelRun0_A.sl.HS0_2
  intro y hy
  rw [View.canon_cons_of_not_mem _ _ (fun hm => by
    rw [Rect.mem_set_unit] at hm
    have h0 : 0 ≤ (y 0).val ∧ (y 0).val < 0 + 1 := hm 0
    omega)]
  exact Z0_1 y (by omega)
set_option maxHeartbeats 4000000 in
theorem CA0_2 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 1 → View.canon (kernelRun0_A.sl.HS0_2 (F := Ideal) c arg2 harg2 arg3 harg3 arg7 x0 x1) y = tileSum (k0_pay8 (F := Ideal) x0) (k0_pay4 (F := Ideal) x1) (y 0) (y 1) := by
  unfold kernelRun0_A.sl.HS0_2
  intro y hy
  by_cases hm : y ∈ (Rect.unit (s := S16x21) ![0, 0] S1x21.size inb_S16x21_S1x21_0_0).set
  · obtain ⟨x, rfl⟩ := (Rect.unit (s := S16x21) ![0, 0] S1x21.size inb_S16x21_S1x21_0_0).exists_idx_of_mem hm
    rw [show (Rect.unit (s := S16x21) ![0, 0] S1x21.size inb_S16x21_S1x21_0_0).idx x = (Rect.unit (s := S16x21) ![0, 0] S1x21.size inb_S16x21_S1x21_0_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_3]
    simp only [View.readAt_eq_ld, harg3.read_unread, harg2.read_unread, View.ld_unit_zero (S := S1x21x64x512) hz4, View.ld_unit_zero (S := S1x1x64x512) hz4]
    refine (Cert.KerIter0.acc7_0 _ _ _ q).trans ?_
    unfold kernelRun0_A.sl.v35
    rw [View.readCov_eq_canon_ld _ _ _ (Cov0_1)]
    dsimp only [View.ld]
    rw [Z0_1 _ (by show 0 ≤ 0 + 1 * 0; omega), zero_add]
    exact congrArg₂ (tileSum _ _) (Fin.ext rfl) (Fin.ext (by show q.val = 0 + 1 * q.val; omega))
  · rw [View.canon_cons_of_not_mem _ _ hm]
    refine CA0_1 x0 x1 y ?_
    by_contra hcon
    apply hm
    rw [Rect.mem_set_unit]
    intro b
    match b with
    | ⟨0, _⟩ => show 0 ≤ (y 0).val ∧ (y 0).val < 0 + 1; omega
    | ⟨1, _⟩ => show 0 ≤ (y 1).val ∧ (y 1).val < 0 + 21; have h1 : (y 1).val < 21 := (y 1).isLt; omega

theorem Cov0_3 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_3 (F := Ideal) c arg2 harg2 arg3 harg3 arg7 x0 x1, y ∈ p.1.set := by
  unfold kernelRun0_A.sl.HS0_3
  intro y
  obtain ⟨p, hp, hy⟩ := Cov0_2 c arg2 harg2 arg3 harg3 arg7 x0 x1 y
  exact ⟨p, List.mem_cons_of_mem _ hp, hy⟩
theorem Z0_3 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 2 ≤ (y 0).val → View.canon (kernelRun0_A.sl.HS0_3 (F := Ideal) c arg2 harg2 arg3 harg3 arg7 x0 x1) y = 0 := by
  unfold kernelRun0_A.sl.HS0_3
  intro y hy
  rw [View.canon_cons_of_not_mem _ _ (fun hm => by
    rw [Rect.mem_set_unit] at hm
    have h0 : 1 ≤ (y 0).val ∧ (y 0).val < 1 + 1 := hm 0
    omega)]
  exact Z0_2 c arg2 harg2 arg3 harg3 arg7 x0 x1 y (by omega)
set_option maxHeartbeats 4000000 in
theorem CA0_3 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 2 → View.canon (kernelRun0_A.sl.HS0_3 (F := Ideal) c arg2 harg2 arg3 harg3 arg7 x0 x1) y = tileSum (k0_pay8 (F := Ideal) x0) (k0_pay4 (F := Ideal) x1) (y 0) (y 1) := by
  unfold kernelRun0_A.sl.HS0_3
  intro y hy
  by_cases hm : y ∈ (Rect.unit (s := S16x21) ![1, 0] S1x21.size inb_S16x21_S1x21_1_0).set
  · obtain ⟨x, rfl⟩ := (Rect.unit (s := S16x21) ![1, 0] S1x21.size inb_S16x21_S1x21_1_0).exists_idx_of_mem hm
    rw [show (Rect.unit (s := S16x21) ![1, 0] S1x21.size inb_S16x21_S1x21_1_0).idx x = (Rect.unit (s := S16x21) ![1, 0] S1x21.size inb_S16x21_S1x21_1_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_8, kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter0.acc7_1 _ _ _ q).trans ?_
    unfold kernelRun0_A.sl.v69
    rw [View.readCov_eq_canon_ld _ _ _ (Cov0_2 c arg2 harg2 arg3 harg3 arg7 x0 x1)]
    dsimp only [View.ld]
    rw [Z0_2 c arg2 harg2 arg3 harg3 arg7 x0 x1 _ (by show 1 ≤ 1 + 1 * 0; omega), zero_add]
    exact congrArg₂ (tileSum _ _) (Fin.ext rfl) (Fin.ext (by show q.val = 0 + 1 * q.val; omega))
  · rw [View.canon_cons_of_not_mem _ _ hm]
    refine CA0_2 c arg2 harg2 arg3 harg3 arg7 x0 x1 y ?_
    by_contra hcon
    apply hm
    rw [Rect.mem_set_unit]
    intro b
    match b with
    | ⟨0, _⟩ => show 1 ≤ (y 0).val ∧ (y 0).val < 1 + 1; omega
    | ⟨1, _⟩ => show 0 ≤ (y 1).val ∧ (y 1).val < 0 + 21; have h1 : (y 1).val < 21 := (y 1).isLt; omega

theorem Cov0_4 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_4 (F := Ideal) c arg2 harg2 arg3 harg3 arg7 x0 x1, y ∈ p.1.set := by
  unfold kernelRun0_A.sl.HS0_4
  intro y
  obtain ⟨p, hp, hy⟩ := Cov0_3 c arg2 harg2 arg3 harg3 arg7 x0 x1 y
  exact ⟨p, List.mem_cons_of_mem _ hp, hy⟩
theorem Z0_4 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 3 ≤ (y 0).val → View.canon (kernelRun0_A.sl.HS0_4 (F := Ideal) c arg2 harg2 arg3 harg3 arg7 x0 x1) y = 0 := by
  unfold kernelRun0_A.sl.HS0_4
  intro y hy
  rw [View.canon_cons_of_not_mem _ _ (fun hm => by
    rw [Rect.mem_set_unit] at hm
    have h0 : 2 ≤ (y 0).val ∧ (y 0).val < 2 + 1 := hm 0
    omega)]
  exact Z0_3 c arg2 harg2 arg3 harg3 arg7 x0 x1 y (by omega)
set_option maxHeartbeats 4000000 in
theorem CA0_4 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 3 → View.canon (kernelRun0_A.sl.HS0_4 (F := Ideal) c arg2 harg2 arg3 harg3 arg7 x0 x1) y = tileSum (k0_pay8 (F := Ideal) x0) (k0_pay4 (F := Ideal) x1) (y 0) (y 1) := by
  unfold kernelRun0_A.sl.HS0_4
  intro y hy
  by_cases hm : y ∈ (Rect.unit (s := S16x21) ![2, 0] S1x21.size inb_S16x21_S1x21_2_0).set
  · obtain ⟨x, rfl⟩ := (Rect.unit (s := S16x21) ![2, 0] S1x21.size inb_S16x21_S1x21_2_0).exists_idx_of_mem hm
    rw [show (Rect.unit (s := S16x21) ![2, 0] S1x21.size inb_S16x21_S1x21_2_0).idx x = (Rect.unit (s := S16x21) ![2, 0] S1x21.size inb_S16x21_S1x21_2_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter0.acc7_2 _ _ _ q).trans ?_
    unfold kernelRun0_A.sl.v103
    rw [View.readCov_eq_canon_ld _ _ _ (Cov0_3 c arg2 harg2 arg3 harg3 arg7 x0 x1)]
    dsimp only [View.ld]
    rw [Z0_3 c arg2 harg2 arg3 harg3 arg7 x0 x1 _ (by show 2 ≤ 2 + 1 * 0; omega), zero_add]
    exact congrArg₂ (tileSum _ _) (Fin.ext rfl) (Fin.ext (by show q.val = 0 + 1 * q.val; omega))
  · rw [View.canon_cons_of_not_mem _ _ hm]
    refine CA0_3 c arg2 harg2 arg3 harg3 arg7 x0 x1 y ?_
    by_contra hcon
    apply hm
    rw [Rect.mem_set_unit]
    intro b
    match b with
    | ⟨0, _⟩ => show 2 ≤ (y 0).val ∧ (y 0).val < 2 + 1; omega
    | ⟨1, _⟩ => show 0 ≤ (y 1).val ∧ (y 1).val < 0 + 21; have h1 : (y 1).val < 21 := (y 1).isLt; omega

theorem Cov0_5 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_5 (F := Ideal) c arg2 harg2 arg3 harg3 arg7 x0 x1, y ∈ p.1.set := by
  unfold kernelRun0_A.sl.HS0_5
  intro y
  obtain ⟨p, hp, hy⟩ := Cov0_4 c arg2 harg2 arg3 harg3 arg7 x0 x1 y
  exact ⟨p, List.mem_cons_of_mem _ hp, hy⟩
theorem Z0_5 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 4 ≤ (y 0).val → View.canon (kernelRun0_A.sl.HS0_5 (F := Ideal) c arg2 harg2 arg3 harg3 arg7 x0 x1) y = 0 := by
  unfold kernelRun0_A.sl.HS0_5
  intro y hy
  rw [View.canon_cons_of_not_mem _ _ (fun hm => by
    rw [Rect.mem_set_unit] at hm
    have h0 : 3 ≤ (y 0).val ∧ (y 0).val < 3 + 1 := hm 0
    omega)]
  exact Z0_4 c arg2 harg2 arg3 harg3 arg7 x0 x1 y (by omega)
set_option maxHeartbeats 4000000 in
theorem CA0_5 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 4 → View.canon (kernelRun0_A.sl.HS0_5 (F := Ideal) c arg2 harg2 arg3 harg3 arg7 x0 x1) y = tileSum (k0_pay8 (F := Ideal) x0) (k0_pay4 (F := Ideal) x1) (y 0) (y 1) := by
  unfold kernelRun0_A.sl.HS0_5
  intro y hy
  by_cases hm : y ∈ (Rect.unit (s := S16x21) ![3, 0] S1x21.size inb_S16x21_S1x21_3_0).set
  · obtain ⟨x, rfl⟩ := (Rect.unit (s := S16x21) ![3, 0] S1x21.size inb_S16x21_S1x21_3_0).exists_idx_of_mem hm
    rw [show (Rect.unit (s := S16x21) ![3, 0] S1x21.size inb_S16x21_S1x21_3_0).idx x = (Rect.unit (s := S16x21) ![3, 0] S1x21.size inb_S16x21_S1x21_3_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter0.acc7_3 _ _ _ q).trans ?_
    unfold kernelRun0_A.sl.v137
    rw [View.readCov_eq_canon_ld _ _ _ (Cov0_4 c arg2 harg2 arg3 harg3 arg7 x0 x1)]
    dsimp only [View.ld]
    rw [Z0_4 c arg2 harg2 arg3 harg3 arg7 x0 x1 _ (by show 3 ≤ 3 + 1 * 0; omega), zero_add]
    exact congrArg₂ (tileSum _ _) (Fin.ext rfl) (Fin.ext (by show q.val = 0 + 1 * q.val; omega))
  · rw [View.canon_cons_of_not_mem _ _ hm]
    refine CA0_4 c arg2 harg2 arg3 harg3 arg7 x0 x1 y ?_
    by_contra hcon
    apply hm
    rw [Rect.mem_set_unit]
    intro b
    match b with
    | ⟨0, _⟩ => show 3 ≤ (y 0).val ∧ (y 0).val < 3 + 1; omega
    | ⟨1, _⟩ => show 0 ≤ (y 1).val ∧ (y 1).val < 0 + 21; have h1 : (y 1).val < 21 := (y 1).isLt; omega

theorem Cov0_6 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_6 (F := Ideal) c arg2 harg2 arg3 harg3 arg7 x0 x1, y ∈ p.1.set := by
  unfold kernelRun0_A.sl.HS0_6
  intro y
  obtain ⟨p, hp, hy⟩ := Cov0_5 c arg2 harg2 arg3 harg3 arg7 x0 x1 y
  exact ⟨p, List.mem_cons_of_mem _ hp, hy⟩
theorem Z0_6 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 5 ≤ (y 0).val → View.canon (kernelRun0_A.sl.HS0_6 (F := Ideal) c arg2 harg2 arg3 harg3 arg7 x0 x1) y = 0 := by
  unfold kernelRun0_A.sl.HS0_6
  intro y hy
  rw [View.canon_cons_of_not_mem _ _ (fun hm => by
    rw [Rect.mem_set_unit] at hm
    have h0 : 4 ≤ (y 0).val ∧ (y 0).val < 4 + 1 := hm 0
    omega)]
  exact Z0_5 c arg2 harg2 arg3 harg3 arg7 x0 x1 y (by omega)
set_option maxHeartbeats 4000000 in
theorem CA0_6 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 5 → View.canon (kernelRun0_A.sl.HS0_6 (F := Ideal) c arg2 harg2 arg3 harg3 arg7 x0 x1) y = tileSum (k0_pay8 (F := Ideal) x0) (k0_pay4 (F := Ideal) x1) (y 0) (y 1) := by
  unfold kernelRun0_A.sl.HS0_6
  intro y hy
  by_cases hm : y ∈ (Rect.unit (s := S16x21) ![4, 0] S1x21.size inb_S16x21_S1x21_4_0).set
  · obtain ⟨x, rfl⟩ := (Rect.unit (s := S16x21) ![4, 0] S1x21.size inb_S16x21_S1x21_4_0).exists_idx_of_mem hm
    rw [show (Rect.unit (s := S16x21) ![4, 0] S1x21.size inb_S16x21_S1x21_4_0).idx x = (Rect.unit (s := S16x21) ![4, 0] S1x21.size inb_S16x21_S1x21_4_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter0.acc7_4 _ _ _ q).trans ?_
    unfold kernelRun0_A.sl.v171
    rw [View.readCov_eq_canon_ld _ _ _ (Cov0_5 c arg2 harg2 arg3 harg3 arg7 x0 x1)]
    dsimp only [View.ld]
    rw [Z0_5 c arg2 harg2 arg3 harg3 arg7 x0 x1 _ (by show 4 ≤ 4 + 1 * 0; omega), zero_add]
    exact congrArg₂ (tileSum _ _) (Fin.ext rfl) (Fin.ext (by show q.val = 0 + 1 * q.val; omega))
  · rw [View.canon_cons_of_not_mem _ _ hm]
    refine CA0_5 c arg2 harg2 arg3 harg3 arg7 x0 x1 y ?_
    by_contra hcon
    apply hm
    rw [Rect.mem_set_unit]
    intro b
    match b with
    | ⟨0, _⟩ => show 4 ≤ (y 0).val ∧ (y 0).val < 4 + 1; omega
    | ⟨1, _⟩ => show 0 ≤ (y 1).val ∧ (y 1).val < 0 + 21; have h1 : (y 1).val < 21 := (y 1).isLt; omega

theorem Cov0_7 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_7 (F := Ideal) c arg2 harg2 arg3 harg3 arg7 x0 x1, y ∈ p.1.set := by
  unfold kernelRun0_A.sl.HS0_7
  intro y
  obtain ⟨p, hp, hy⟩ := Cov0_6 c arg2 harg2 arg3 harg3 arg7 x0 x1 y
  exact ⟨p, List.mem_cons_of_mem _ hp, hy⟩
theorem Z0_7 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 6 ≤ (y 0).val → View.canon (kernelRun0_A.sl.HS0_7 (F := Ideal) c arg2 harg2 arg3 harg3 arg7 x0 x1) y = 0 := by
  unfold kernelRun0_A.sl.HS0_7
  intro y hy
  rw [View.canon_cons_of_not_mem _ _ (fun hm => by
    rw [Rect.mem_set_unit] at hm
    have h0 : 5 ≤ (y 0).val ∧ (y 0).val < 5 + 1 := hm 0
    omega)]
  exact Z0_6 c arg2 harg2 arg3 harg3 arg7 x0 x1 y (by omega)
set_option maxHeartbeats 4000000 in
theorem CA0_7 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 6 → View.canon (kernelRun0_A.sl.HS0_7 (F := Ideal) c arg2 harg2 arg3 harg3 arg7 x0 x1) y = tileSum (k0_pay8 (F := Ideal) x0) (k0_pay4 (F := Ideal) x1) (y 0) (y 1) := by
  unfold kernelRun0_A.sl.HS0_7
  intro y hy
  by_cases hm : y ∈ (Rect.unit (s := S16x21) ![5, 0] S1x21.size inb_S16x21_S1x21_5_0).set
  · obtain ⟨x, rfl⟩ := (Rect.unit (s := S16x21) ![5, 0] S1x21.size inb_S16x21_S1x21_5_0).exists_idx_of_mem hm
    rw [show (Rect.unit (s := S16x21) ![5, 0] S1x21.size inb_S16x21_S1x21_5_0).idx x = (Rect.unit (s := S16x21) ![5, 0] S1x21.size inb_S16x21_S1x21_5_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter0.acc7_5 _ _ _ q).trans ?_
    unfold kernelRun0_A.sl.v205
    rw [View.readCov_eq_canon_ld _ _ _ (Cov0_6 c arg2 harg2 arg3 harg3 arg7 x0 x1)]
    dsimp only [View.ld]
    rw [Z0_6 c arg2 harg2 arg3 harg3 arg7 x0 x1 _ (by show 5 ≤ 5 + 1 * 0; omega), zero_add]
    exact congrArg₂ (tileSum _ _) (Fin.ext rfl) (Fin.ext (by show q.val = 0 + 1 * q.val; omega))
  · rw [View.canon_cons_of_not_mem _ _ hm]
    refine CA0_6 c arg2 harg2 arg3 harg3 arg7 x0 x1 y ?_
    by_contra hcon
    apply hm
    rw [Rect.mem_set_unit]
    intro b
    match b with
    | ⟨0, _⟩ => show 5 ≤ (y 0).val ∧ (y 0).val < 5 + 1; omega
    | ⟨1, _⟩ => show 0 ≤ (y 1).val ∧ (y 1).val < 0 + 21; have h1 : (y 1).val < 21 := (y 1).isLt; omega

theorem Cov0_8 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_8 (F := Ideal) c arg2 harg2 arg3 harg3 arg7 x0 x1, y ∈ p.1.set := by
  unfold kernelRun0_A.sl.HS0_8
  intro y
  obtain ⟨p, hp, hy⟩ := Cov0_7 c arg2 harg2 arg3 harg3 arg7 x0 x1 y
  exact ⟨p, List.mem_cons_of_mem _ hp, hy⟩
theorem Z0_8 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 7 ≤ (y 0).val → View.canon (kernelRun0_A.sl.HS0_8 (F := Ideal) c arg2 harg2 arg3 harg3 arg7 x0 x1) y = 0 := by
  unfold kernelRun0_A.sl.HS0_8
  intro y hy
  rw [View.canon_cons_of_not_mem _ _ (fun hm => by
    rw [Rect.mem_set_unit] at hm
    have h0 : 6 ≤ (y 0).val ∧ (y 0).val < 6 + 1 := hm 0
    omega)]
  exact Z0_7 c arg2 harg2 arg3 harg3 arg7 x0 x1 y (by omega)
set_option maxHeartbeats 4000000 in
theorem CA0_8 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 7 → View.canon (kernelRun0_A.sl.HS0_8 (F := Ideal) c arg2 harg2 arg3 harg3 arg7 x0 x1) y = tileSum (k0_pay8 (F := Ideal) x0) (k0_pay4 (F := Ideal) x1) (y 0) (y 1) := by
  unfold kernelRun0_A.sl.HS0_8
  intro y hy
  by_cases hm : y ∈ (Rect.unit (s := S16x21) ![6, 0] S1x21.size inb_S16x21_S1x21_6_0).set
  · obtain ⟨x, rfl⟩ := (Rect.unit (s := S16x21) ![6, 0] S1x21.size inb_S16x21_S1x21_6_0).exists_idx_of_mem hm
    rw [show (Rect.unit (s := S16x21) ![6, 0] S1x21.size inb_S16x21_S1x21_6_0).idx x = (Rect.unit (s := S16x21) ![6, 0] S1x21.size inb_S16x21_S1x21_6_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter6.acc7_6 _ _ _ q).trans ?_
    unfold kernelRun0_A.sl.v239
    rw [View.readCov_eq_canon_ld _ _ _ (Cov0_7 c arg2 harg2 arg3 harg3 arg7 x0 x1)]
    dsimp only [View.ld]
    rw [Z0_7 c arg2 harg2 arg3 harg3 arg7 x0 x1 _ (by show 6 ≤ 6 + 1 * 0; omega), zero_add]
    exact congrArg₂ (tileSum _ _) (Fin.ext rfl) (Fin.ext (by show q.val = 0 + 1 * q.val; omega))
  · rw [View.canon_cons_of_not_mem _ _ hm]
    refine CA0_7 c arg2 harg2 arg3 harg3 arg7 x0 x1 y ?_
    by_contra hcon
    apply hm
    rw [Rect.mem_set_unit]
    intro b
    match b with
    | ⟨0, _⟩ => show 6 ≤ (y 0).val ∧ (y 0).val < 6 + 1; omega
    | ⟨1, _⟩ => show 0 ≤ (y 1).val ∧ (y 1).val < 0 + 21; have h1 : (y 1).val < 21 := (y 1).isLt; omega

theorem Cov0_9 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_9 (F := Ideal) c arg2 harg2 arg3 harg3 arg7 x0 x1, y ∈ p.1.set := by
  unfold kernelRun0_A.sl.HS0_9
  intro y
  obtain ⟨p, hp, hy⟩ := Cov0_8 c arg2 harg2 arg3 harg3 arg7 x0 x1 y
  exact ⟨p, List.mem_cons_of_mem _ hp, hy⟩
theorem Z0_9 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 8 ≤ (y 0).val → View.canon (kernelRun0_A.sl.HS0_9 (F := Ideal) c arg2 harg2 arg3 harg3 arg7 x0 x1) y = 0 := by
  unfold kernelRun0_A.sl.HS0_9
  intro y hy
  rw [View.canon_cons_of_not_mem _ _ (fun hm => by
    rw [Rect.mem_set_unit] at hm
    have h0 : 7 ≤ (y 0).val ∧ (y 0).val < 7 + 1 := hm 0
    omega)]
  exact Z0_8 c arg2 harg2 arg3 harg3 arg7 x0 x1 y (by omega)
set_option maxHeartbeats 4000000 in
theorem CA0_9 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 8 → View.canon (kernelRun0_A.sl.HS0_9 (F := Ideal) c arg2 harg2 arg3 harg3 arg7 x0 x1) y = tileSum (k0_pay8 (F := Ideal) x0) (k0_pay4 (F := Ideal) x1) (y 0) (y 1) := by
  unfold kernelRun0_A.sl.HS0_9
  intro y hy
  by_cases hm : y ∈ (Rect.unit (s := S16x21) ![7, 0] S1x21.size inb_S16x21_S1x21_7_0).set
  · obtain ⟨x, rfl⟩ := (Rect.unit (s := S16x21) ![7, 0] S1x21.size inb_S16x21_S1x21_7_0).exists_idx_of_mem hm
    rw [show (Rect.unit (s := S16x21) ![7, 0] S1x21.size inb_S16x21_S1x21_7_0).idx x = (Rect.unit (s := S16x21) ![7, 0] S1x21.size inb_S16x21_S1x21_7_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter6.acc7_7 _ _ _ q).trans ?_
    unfold kernelRun0_A.sl.v273
    rw [View.readCov_eq_canon_ld _ _ _ (Cov0_8 c arg2 harg2 arg3 harg3 arg7 x0 x1)]
    dsimp only [View.ld]
    rw [Z0_8 c arg2 harg2 arg3 harg3 arg7 x0 x1 _ (by show 7 ≤ 7 + 1 * 0; omega), zero_add]
    exact congrArg₂ (tileSum _ _) (Fin.ext rfl) (Fin.ext (by show q.val = 0 + 1 * q.val; omega))
  · rw [View.canon_cons_of_not_mem _ _ hm]
    refine CA0_8 c arg2 harg2 arg3 harg3 arg7 x0 x1 y ?_
    by_contra hcon
    apply hm
    rw [Rect.mem_set_unit]
    intro b
    match b with
    | ⟨0, _⟩ => show 7 ≤ (y 0).val ∧ (y 0).val < 7 + 1; omega
    | ⟨1, _⟩ => show 0 ≤ (y 1).val ∧ (y 1).val < 0 + 21; have h1 : (y 1).val < 21 := (y 1).isLt; omega

end Cert.KernelIdeal.Gen

end
-- ==== Proof.KiPiecesA0b.lean ====
/- The reset case of the kernel body, accumulator by accumulator, store by store: a table of 3 x 16 steps laid out from ONE hand-written step.
   A first row tile zeroes the three accumulators and then, for blob s = 0 … 15 in turn, loads row s, adds the tile's sum for blob s and stores
   it back. After k of these stores: every entry is covered by some store (Cov), the rows k … 15 still hold zero (Z), and the rows 0 … k-1
   hold the tile's sum for their blob and class (CA). Step k + 1: the load of row k reads zero (Z at k), so the stored row is the tile's sum. -/
import proofs.«400420_j429496730161_3_alg».proof.Proof.KiPiecesA0a
import proofs.«400420_j429496730161_3_alg».proof.Proof.KerIter0
import proofs.«400420_j429496730161_3_alg».proof.Proof.KerIter6
import proofs.«400420_j429496730161_3_alg».proof.Proof.KerIter11

set_option maxRecDepth 16384

noncomputable section

namespace Cert.KernelIdeal.Gen

open Idealize.ShloMosaic Idealize.ShloMosaic.TcCoe Idealize.ShloMosaic.Tactic Idealize.ShloMosaic.ValueIdx
open Cert.SegSpec Cert.KerTile

/-! ## Accumulator 0 at a first tile, store by store -/

theorem Cov0_10 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_10 (F := Ideal) c arg2 harg2 arg3 harg3 arg7 x0 x1, y ∈ p.1.set := by
  unfold kernelRun0_A.sl.HS0_10
  intro y
  obtain ⟨p, hp, hy⟩ := Cov0_9 c arg2 harg2 arg3 harg3 arg7 x0 x1 y
  exact ⟨p, List.mem_cons_of_mem _ hp, hy⟩
theorem Z0_10 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 9 ≤ (y 0).val → View.canon (kernelRun0_A.sl.HS0_10 (F := Ideal) c arg2 harg2 arg3 harg3 arg7 x0 x1) y = 0 := by
  unfold kernelRun0_A.sl.HS0_10
  intro y hy
  rw [View.canon_cons_of_not_mem _ _ (fun hm => by
    rw [Rect.mem_set_unit] at hm
    have h0 : 8 ≤ (y 0).val ∧ (y 0).val < 8 + 1 := hm 0
    omega)]
  exact Z0_9 c arg2 harg2 arg3 harg3 arg7 x0 x1 y (by omega)
set_option maxHeartbeats 4000000 in
theorem CA0_10 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 9 → View.canon (kernelRun0_A.sl.HS0_10 (F := Ideal) c arg2 harg2 arg3 harg3 arg7 x0 x1) y = tileSum (k0_pay8 (F := Ideal) x0) (k0_pay4 (F := Ideal) x1) (y 0) (y 1) := by
  unfold kernelRun0_A.sl.HS0_10
  intro y hy
  by_cases hm : y ∈ (Rect.unit (s := S16x21) ![8, 0] S1x21.size inb_S16x21_S1x21_8_0).set
  · obtain ⟨x, rfl⟩ := (Rect.unit (s := S16x21) ![8, 0] S1x21.size inb_S16x21_S1x21_8_0).exists_idx_of_mem hm
    rw [show (Rect.unit (s := S16x21) ![8, 0] S1x21.size inb_S16x21_S1x21_8_0).idx x = (Rect.unit (s := S16x21) ![8, 0] S1x21.size inb_S16x21_S1x21_8_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter6.acc7_8 _ _ _ q).trans ?_
    unfold kernelRun0_A.sl.v307
    rw [View.readCov_eq_canon_ld _ _ _ (Cov0_9 c arg2 harg2 arg3 harg3 arg7 x0 x1)]
    dsimp only [View.ld]
    rw [Z0_9 c arg2 harg2 arg3 harg3 arg7 x0 x1 _ (by show 8 ≤ 8 + 1 * 0; omega), zero_add]
    exact congrArg₂ (tileSum _ _) (Fin.ext rfl) (Fin.ext (by show q.val = 0 + 1 * q.val; omega))
  · rw [View.canon_cons_of_not_mem _ _ hm]
    refine CA0_9 c arg2 harg2 arg3 harg3 arg7 x0 x1 y ?_
    by_contra hcon
    apply hm
    rw [Rect.mem_set_unit]
    intro b
    match b with
    | ⟨0, _⟩ => show 8 ≤ (y 0).val ∧ (y 0).val < 8 + 1; omega
    | ⟨1, _⟩ => show 0 ≤ (y 1).val ∧ (y 1).val < 0 + 21; have h1 : (y 1).val < 21 := (y 1).isLt; omega

theorem Cov0_11 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_11 (F := Ideal) c arg2 harg2 arg3 harg3 arg7 x0 x1, y ∈ p.1.set := by
  unfold kernelRun0_A.sl.HS0_11
  intro y
  obtain ⟨p, hp, hy⟩ := Cov0_10 c arg2 harg2 arg3 harg3 arg7 x0 x1 y
  exact ⟨p, List.mem_cons_of_mem _ hp, hy⟩
theorem Z0_11 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 10 ≤ (y 0).val → View.canon (kernelRun0_A.sl.HS0_11 (F := Ideal) c arg2 harg2 arg3 harg3 arg7 x0 x1) y = 0 := by
  unfold kernelRun0_A.sl.HS0_11
  intro y hy
  rw [View.canon_cons_of_not_mem _ _ (fun hm => by
    rw [Rect.mem_set_unit] at hm
    have h0 : 9 ≤ (y 0).val ∧ (y 0).val < 9 + 1 := hm 0
    omega)]
  exact Z0_10 c arg2 harg2 arg3 harg3 arg7 x0 x1 y (by omega)
set_option maxHeartbeats 4000000 in
theorem CA0_11 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 10 → View.canon (kernelRun0_A.sl.HS0_11 (F := Ideal) c arg2 harg2 arg3 harg3 arg7 x0 x1) y = tileSum (k0_pay8 (F := Ideal) x0) (k0_pay4 (F := Ideal) x1) (y 0) (y 1) := by
  unfold kernelRun0_A.sl.HS0_11
  intro y hy
  by_cases hm : y ∈ (Rect.unit (s := S16x21) ![9, 0] S1x21.size inb_S16x21_S1x21_9_0).set
  · obtain ⟨x, rfl⟩ := (Rect.unit (s := S16x21) ![9, 0] S1x21.size inb_S16x21_S1x21_9_0).exists_idx_of_mem hm
    rw [show (Rect.unit (s := S16x21) ![9, 0] S1x21.size inb_S16x21_S1x21_9_0).idx x = (Rect.unit (s := S16x21) ![9, 0] S1x21.size inb_S16x21_S1x21_9_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter6.acc7_9 _ _ _ q).trans ?_
    unfold kernelRun0_A.sl.v341
    rw [View.readCov_eq_canon_ld _ _ _ (Cov0_10 c arg2 harg2 arg3 harg3 arg7 x0 x1)]
    dsimp only [View.ld]
    rw [Z0_10 c arg2 harg2 arg3 harg3 arg7 x0 x1 _ (by show 9 ≤ 9 + 1 * 0; omega), zero_add]
    exact congrArg₂ (tileSum _ _) (Fin.ext rfl) (Fin.ext (by show q.val = 0 + 1 * q.val; omega))
  · rw [View.canon_cons_of_not_mem _ _ hm]
    refine CA0_10 c arg2 harg2 arg3 harg3 arg7 x0 x1 y ?_
    by_contra hcon
    apply hm
    rw [Rect.mem_set_unit]
    intro b
    match b with
    | ⟨0, _⟩ => show 9 ≤ (y 0).val ∧ (y 0).val < 9 + 1; omega
    | ⟨1, _⟩ => show 0 ≤ (y 1).val ∧ (y 1).val < 0 + 21; have h1 : (y 1).val < 21 := (y 1).isLt; omega

theorem Cov0_12 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_12 (F := Ideal) c arg2 harg2 arg3 harg3 arg7 x0 x1, y ∈ p.1.set := by
  unfold kernelRun0_A.sl.HS0_12
  intro y
  obtain ⟨p, hp, hy⟩ := Cov0_11 c arg2 harg2 arg3 harg3 arg7 x0 x1 y
  exact ⟨p, List.mem_cons_of_mem _ hp, hy⟩
theorem Z0_12 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 11 ≤ (y 0).val → View.canon (kernelRun0_A.sl.HS0_12 (F := Ideal) c arg2 harg2 arg3 harg3 arg7 x0 x1) y = 0 := by
  unfold kernelRun0_A.sl.HS0_12
  intro y hy
  rw [View.canon_cons_of_not_mem _ _ (fun hm => by
    rw [Rect.mem_set_unit] at hm
    have h0 : 10 ≤ (y 0).val ∧ (y 0).val < 10 + 1 := hm 0
    omega)]
  exact Z0_11 c arg2 harg2 arg3 harg3 arg7 x0 x1 y (by omega)
set_option maxHeartbeats 4000000 in
theorem CA0_12 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 11 → View.canon (kernelRun0_A.sl.HS0_12 (F := Ideal) c arg2 harg2 arg3 harg3 arg7 x0 x1) y = tileSum (k0_pay8 (F := Ideal) x0) (k0_pay4 (F := Ideal) x1) (y 0) (y 1) := by
  unfold kernelRun0_A.sl.HS0_12
  intro y hy
  by_cases hm : y ∈ (Rect.unit (s := S16x21) ![10, 0] S1x21.size inb_S16x21_S1x21_10_0).set
  · obtain ⟨x, rfl⟩ := (Rect.unit (s := S16x21) ![10, 0] S1x21.size inb_S16x21_S1x21_10_0).exists_idx_of_mem hm
    rw [show (Rect.unit (s := S16x21) ![10, 0] S1x21.size inb_S16x21_S1x21_10_0).idx x = (Rect.unit (s := S16x21) ![10, 0] S1x21.size inb_S16x21_S1x21_10_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_1, kernelRun0_A.sl.r_20, kernelRun0_A.sl.r]
    simp only [View.readAt_eq_ld, harg3.read_unread, harg2.read_unread, View.ld_unit_zero (S := S1x21x64x512) hz4, View.ld_unit_zero (S := S1x1x64x512) hz4]
    refine (Cert.KerIter6.acc7_10 _ _ _ q).trans ?_
    unfold kernelRun0_A.sl.v375
    rw [View.readCov_eq_canon_ld _ _ _ (Cov0_11 c arg2 harg2 arg3 harg3 arg7 x0 x1)]
    dsimp only [View.ld]
    rw [Z0_11 c arg2 harg2 arg3 harg3 arg7 x0 x1 _ (by show 10 ≤ 10 + 1 * 0; omega), zero_add]
    exact congrArg₂ (tileSum _ _) (Fin.ext rfl) (Fin.ext (by show q.val = 0 + 1 * q.val; omega))
  · rw [View.canon_cons_of_not_mem _ _ hm]
    refine CA0_11 c arg2 harg2 arg3 harg3 arg7 x0 x1 y ?_
    by_contra hcon
    apply hm
    rw [Rect.mem_set_unit]
    intro b
    match b with
    | ⟨0, _⟩ => show 10 ≤ (y 0).val ∧ (y 0).val < 10 + 1; omega
    | ⟨1, _⟩ => show 0 ≤ (y 1).val ∧ (y 1).val < 0 + 21; have h1 : (y 1).val < 21 := (y 1).isLt; omega

theorem Cov0_13 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_13 (F := Ideal) c arg2 harg2 arg3 harg3 arg7 x0 x1, y ∈ p.1.set := by
  unfold kernelRun0_A.sl.HS0_13
  intro y
  obtain ⟨p, hp, hy⟩ := Cov0_12 c arg2 harg2 arg3 harg3 arg7 x0 x1 y
  exact ⟨p, List.mem_cons_of_mem _ hp, hy⟩
theorem Z0_13 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 12 ≤ (y 0).val → View.canon (kernelRun0_A.sl.HS0_13 (F := Ideal) c arg2 harg2 arg3 harg3 arg7 x0 x1) y = 0 := by
  unfold kernelRun0_A.sl.HS0_13
  intro y hy
  rw [View.canon_cons_of_not_mem _ _ (fun hm => by
    rw [Rect.mem_set_unit] at hm
    have h0 : 11 ≤ (y 0).val ∧ (y 0).val < 11 + 1 := hm 0
    omega)]
  exact Z0_12 c arg2 harg2 arg3 harg3 arg7 x0 x1 y (by omega)
set_option maxHeartbeats 4000000 in
theorem CA0_13 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 12 → View.canon (kernelRun0_A.sl.HS0_13 (F := Ideal) c arg2 harg2 arg3 harg3 arg7 x0 x1) y = tileSum (k0_pay8 (F := Ideal) x0) (k0_pay4 (F := Ideal) x1) (y 0) (y 1) := by
  unfold kernelRun0_A.sl.HS0_13
  intro y hy
  by_cases hm : y ∈ (Rect.unit (s := S16x21) ![11, 0] S1x21.size inb_S16x21_S1x21_11_0).set
  · obtain ⟨x, rfl⟩ := (Rect.unit (s := S16x21) ![11, 0] S1x21.size inb_S16x21_S1x21_11_0).exists_idx_of_mem hm
    rw [show (Rect.unit (s := S16x21) ![11, 0] S1x21.size inb_S16x21_S1x21_11_0).idx x = (Rect.unit (s := S16x21) ![11, 0] S1x21.size inb_S16x21_S1x21_11_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_23, kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter11.acc7_11 _ _ _ q).trans ?_
    unfold kernelRun0_A.sl.v409
    rw [View.readCov_eq_canon_ld _ _ _ (Cov0_12 c arg2 harg2 arg3 harg3 arg7 x0 x1)]
    dsimp only [View.ld]
    rw [Z0_12 c arg2 harg2 arg3 harg3 arg7 x0 x1 _ (by show 11 ≤ 11 + 1 * 0; omega), zero_add]
    exact congrArg₂ (tileSum _ _) (Fin.ext rfl) (Fin.ext (by show q.val = 0 + 1 * q.val; omega))
  · rw [View.canon_cons_of_not_mem _ _ hm]
    refine CA0_12 c arg2 harg2 arg3 harg3 arg7 x0 x1 y ?_
    by_contra hcon
    apply hm
    rw [Rect.mem_set_unit]
    intro b
    match b with
    | ⟨0, _⟩ => show 11 ≤ (y 0).val ∧ (y 0).val < 11 + 1; omega
    | ⟨1, _⟩ => show 0 ≤ (y 1).val ∧ (y 1).val < 0 + 21; have h1 : (y 1).val < 21 := (y 1).isLt; omega

end Cert.KernelIdeal.Gen

end
-- ==== Proof.KiPiecesA0c.lean ====
/- The reset case of the kernel body, accumulator by accumulator, store by store: a table of 3 x 16 steps laid out from ONE hand-written step.
   A first row tile zeroes the three accumulators and then, for blob s = 0 … 15 in turn, loads row s, adds the tile's sum for blob s and stores
   it back. After k of these stores: every entry is covered by some store (Cov), the rows k … 15 still hold zero (Z), and the rows 0 … k-1
   hold the tile's sum for their blob and class (CA). Step k + 1: the load of row k reads zero (Z at k), so the stored row is the tile's sum. -/
import proofs.«400420_j429496730161_3_alg».proof.Proof.KiPiecesA0b
import proofs.«400420_j429496730161_3_alg».proof.Proof.KerIter0
import proofs.«400420_j429496730161_3_alg».proof.Proof.KerIter6
import proofs.«400420_j429496730161_3_alg».proof.Proof.KerIter11

set_option maxRecDepth 16384

noncomputable section

namespace Cert.KernelIdeal.Gen

open Idealize.ShloMosaic Idealize.ShloMosaic.TcCoe Idealize.ShloMosaic.Tactic Idealize.ShloMosaic.ValueIdx
open Cert.SegSpec Cert.KerTile

/-! ## Accumulator 0 at a first tile, store by store -/

theorem Cov0_14 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_14 (F := Ideal) c arg2 harg2 arg3 harg3 arg7 x0 x1, y ∈ p.1.set := by
  unfold kernelRun0_A.sl.HS0_14
  intro y
  obtain ⟨p, hp, hy⟩ := Cov0_13 c arg2 harg2 arg3 harg3 arg7 x0 x1 y
  exact ⟨p, List.mem_cons_of_mem _ hp, hy⟩
theorem Z0_14 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 13 ≤ (y 0).val → View.canon (kernelRun0_A.sl.HS0_14 (F := Ideal) c arg2 harg2 arg3 harg3 arg7 x0 x1) y = 0 := by
  unfold kernelRun0_A.sl.HS0_14
  intro y hy
  rw [View.canon_cons_of_not_mem _ _ (fun hm => by
    rw [Rect.mem_set_unit] at hm
    have h0 : 12 ≤ (y 0).val ∧ (y 0).val < 12 + 1 := hm 0
    omega)]
  exact Z0_13 c arg2 harg2 arg3 harg3 arg7 x0 x1 y (by omega)
set_option maxHeartbeats 4000000 in
theorem CA0_14 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 13 → View.canon (kernelRun0_A.sl.HS0_14 (F := Ideal) c arg2 harg2 arg3 harg3 arg7 x0 x1) y = tileSum (k0_pay8 (F := Ideal) x0) (k0_pay4 (F := Ideal) x1) (y 0) (y 1) := by
  unfold kernelRun0_A.sl.HS0_14
  intro y hy
  by_cases hm : y ∈ (Rect.unit (s := S16x21) ![12, 0] S1x21.size inb_S16x21_S1x21_12_0).set
  · obtain ⟨x, rfl⟩ := (Rect.unit (s := S16x21) ![12, 0] S1x21.size inb_S16x21_S1x21_12_0).exists_idx_of_mem hm
    rw [show (Rect.unit (s := S16x21) ![12, 0] S1x21.size inb_S16x21_S1x21_12_0).idx x = (Rect.unit (s := S16x21) ![12, 0] S1x21.size inb_S16x21_S1x21_12_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_25, kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter11.acc7_12 _ _ _ q).trans ?_
    unfold kernelRun0_A.sl.v443
    rw [View.readCov_eq_canon_ld _ _ _ (Cov0_13 c arg2 harg2 arg3 harg3 arg7 x0 x1)]
    dsimp only [View.ld]
    rw [Z0_13 c arg2 harg2 arg3 harg3 arg7 x0 x1 _ (by show 12 ≤ 12 + 1 * 0; omega), zero_add]
    exact congrArg₂ (tileSum _ _) (Fin.ext rfl) (Fin.ext (by show q.val = 0 + 1 * q.val; omega))
  · rw [View.canon_cons_of_not_mem _ _ hm]
    refine CA0_13 c arg2 harg2 arg3 harg3 arg7 x0 x1 y ?_
    by_contra hcon
    apply hm
    rw [Rect.mem_set_unit]
    intro b
    match b with
    | ⟨0, _⟩ => show 12 ≤ (y 0).val ∧ (y 0).val < 12 + 1; omega
    | ⟨1, _⟩ => show 0 ≤ (y 1).val ∧ (y 1).val < 0 + 21; have h1 : (y 1).val < 21 := (y 1).isLt; omega

theorem Cov0_15 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_15 (F := Ideal) c arg2 harg2 arg3 harg3 arg7 x0 x1, y ∈ p.1.set := by
  unfold kernelRun0_A.sl.HS0_15
  intro y
  obtain ⟨p, hp, hy⟩ := Cov0_14 c arg2 harg2 arg3 harg3 arg7 x0 x1 y
  exact ⟨p, List.mem_cons_of_mem _ hp, hy⟩
theorem Z0_15 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 14 ≤ (y 0).val → View.canon (kernelRun0_A.sl.HS0_15 (F := Ideal) c arg2 harg2 arg3 harg3 arg7 x0 x1) y = 0 := by
  unfold kernelRun0_A.sl.HS0_15
  intro y hy
  rw [View.canon_cons_of_not_mem _ _ (fun hm => by
    rw [Rect.mem_set_unit] at hm
    have h0 : 13 ≤ (y 0).val ∧ (y 0).val < 13 + 1 := hm 0
    omega)]
  exact Z0_14 c arg2 harg2 arg3 harg3 arg7 x0 x1 y (by omega)
set_option maxHeartbeats 4000000 in
theorem CA0_15 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 14 → View.canon (kernelRun0_A.sl.HS0_15 (F := Ideal) c arg2 harg2 arg3 harg3 arg7 x0 x1) y = tileSum (k0_pay8 (F := Ideal) x0) (k0_pay4 (F := Ideal) x1) (y 0) (y 1) := by
  unfold kernelRun0_A.sl.HS0_15
  intro y hy
  by_cases hm : y ∈ (Rect.unit (s := S16x21) ![13, 0] S1x21.size inb_S16x21_S1x21_13_0).set
  · obtain ⟨x, rfl⟩ := (Rect.unit (s := S16x21) ![13, 0] S1x21.size inb_S16x21_S1x21_13_0).exists_idx_of_mem hm
    rw [show (Rect.unit (s := S16x21) ![13, 0] S1x21.size inb_S16x21_S1x21_13_0).idx x = (Rect.unit (s := S16x21) ![13, 0] S1x21.size inb_S16x21_S1x21_13_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_28, kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter11.acc7_13 _ _ _ q).trans ?_
    unfold kernelRun0_A.sl.v477
    rw [View.readCov_eq_canon_ld _ _ _ (Cov0_14 c arg2 harg2 arg3 harg3 arg7 x0 x1)]
    dsimp only [View.ld]
    rw [Z0_14 c arg2 harg2 arg3 harg3 arg7 x0 x1 _ (by show 13 ≤ 13 + 1 * 0; omega), zero_add]
    exact congrArg₂ (tileSum _ _) (Fin.ext rfl) (Fin.ext (by show q.val = 0 + 1 * q.val; omega))
  · rw [View.canon_cons_of_not_mem _ _ hm]
    refine CA0_14 c arg2 harg2 arg3 harg3 arg7 x0 x1 y ?_
    by_contra hcon
    apply hm
    rw [Rect.mem_set_unit]
    intro b
    match b with
    | ⟨0, _⟩ => show 13 ≤ (y 0).val ∧ (y 0).val < 13 + 1; omega
    | ⟨1, _⟩ => show 0 ≤ (y 1).val ∧ (y 1).val < 0 + 21; have h1 : (y 1).val < 21 := (y 1).isLt; omega

theorem Cov0_16 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_16 (F := Ideal) c arg2 harg2 arg3 harg3 arg7 x0 x1, y ∈ p.1.set := by
  unfold kernelRun0_A.sl.HS0_16
  intro y
  obtain ⟨p, hp, hy⟩ := Cov0_15 c arg2 harg2 arg3 harg3 arg7 x0 x1 y
  exact ⟨p, List.mem_cons_of_mem _ hp, hy⟩
theorem Z0_16 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 15 ≤ (y 0).val → View.canon (kernelRun0_A.sl.HS0_16 (F := Ideal) c arg2 harg2 arg3 harg3 arg7 x0 x1) y = 0 := by
  unfold kernelRun0_A.sl.HS0_16
  intro y hy
  rw [View.canon_cons_of_not_mem _ _ (fun hm => by
    rw [Rect.mem_set_unit] at hm
    have h0 : 14 ≤ (y 0).val ∧ (y 0).val < 14 + 1 := hm 0
    omega)]
  exact Z0_15 c arg2 harg2 arg3 harg3 arg7 x0 x1 y (by omega)
set_option maxHeartbeats 4000000 in
theorem CA0_16 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 15 → View.canon (kernelRun0_A.sl.HS0_16 (F := Ideal) c arg2 harg2 arg3 harg3 arg7 x0 x1) y = tileSum (k0_pay8 (F := Ideal) x0) (k0_pay4 (F := Ideal) x1) (y 0) (y 1) := by
  unfold kernelRun0_A.sl.HS0_16
  intro y hy
  by_cases hm : y ∈ (Rect.unit (s := S16x21) ![14, 0] S1x21.size inb_S16x21_S1x21_14_0).set
  · obtain ⟨x, rfl⟩ := (Rect.unit (s := S16x21) ![14, 0] S1x21.size inb_S16x21_S1x21_14_0).exists_idx_of_mem hm
    rw [show (Rect.unit (s := S16x21) ![14, 0] S1x21.size inb_S16x21_S1x21_14_0).idx x = (Rect.unit (s := S16x21) ![14, 0] S1x21.size inb_S16x21_S1x21_14_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_30, kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter11.acc7_14 _ _ _ q).trans ?_
    unfold kernelRun0_A.sl.v511
    rw [View.readCov_eq_canon_ld _ _ _ (Cov0_15 c arg2 harg2 arg3 harg3 arg7 x0 x1)]
    dsimp only [View.ld]
    rw [Z0_15 c arg2 harg2 arg3 harg3 arg7 x0 x1 _ (by show 14 ≤ 14 + 1 * 0; omega), zero_add]
    exact congrArg₂ (tileSum _ _) (Fin.ext rfl) (Fin.ext (by show q.val = 0 + 1 * q.val; omega))
  · rw [View.canon_cons_of_not_mem _ _ hm]
    refine CA0_15 c arg2 harg2 arg3 harg3 arg7 x0 x1 y ?_
    by_contra hcon
    apply hm
    rw [Rect.mem_set_unit]
    intro b
    match b with
    | ⟨0, _⟩ => show 14 ≤ (y 0).val ∧ (y 0).val < 14 + 1; omega
    | ⟨1, _⟩ => show 0 ≤ (y 1).val ∧ (y 1).val < 0 + 21; have h1 : (y 1).val < 21 := (y 1).isLt; omega

theorem Cov0_17 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, ∃ p ∈ kernelRun0_A.sl.HS0_17 (F := Ideal) c arg2 harg2 arg3 harg3 arg7 x0 x1, y ∈ p.1.set := by
  unfold kernelRun0_A.sl.HS0_17
  intro y
  obtain ⟨p, hp, hy⟩ := Cov0_16 c arg2 harg2 arg3 harg3 arg7 x0 x1 y
  exact ⟨p, List.mem_cons_of_mem _ hp, hy⟩
theorem Z0_17 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, 16 ≤ (y 0).val → View.canon (kernelRun0_A.sl.HS0_17 (F := Ideal) c arg2 harg2 arg3 harg3 arg7 x0 x1) y = 0 := by
  unfold kernelRun0_A.sl.HS0_17
  intro y hy
  rw [View.canon_cons_of_not_mem _ _ (fun hm => by
    rw [Rect.mem_set_unit] at hm
    have h0 : 15 ≤ (y 0).val ∧ (y 0).val < 15 + 1 := hm 0
    omega)]
  exact Z0_16 c arg2 harg2 arg3 harg3 arg7 x0 x1 y (by omega)
set_option maxHeartbeats 4000000 in
theorem CA0_17 (c : Dev nD) (arg2 : Memref sig .tc .vmem S1x21x64x512 .f32) (harg2 : arg2.IsWhole) (arg3 : Memref sig .tc .vmem S1x1x64x512 .i32) (harg3 : arg3.IsWhole) (arg7 : Memref sig .tc .vmem S16x21 .f32) (x0 : Vec Ideal S1x21x64x512 .f32) (x1 : Vec Ideal S1x1x64x512 .i32) : ∀ y : S16x21.Idx, (y 0).val < 16 → View.canon (kernelRun0_A.sl.HS0_17 (F := Ideal) c arg2 harg2 arg3 harg3 arg7 x0 x1) y = tileSum (k0_pay8 (F := Ideal) x0) (k0_pay4 (F := Ideal) x1) (y 0) (y 1) := by
  unfold kernelRun0_A.sl.HS0_17
  intro y hy
  by_cases hm : y ∈ (Rect.unit (s := S16x21) ![15, 0] S1x21.size inb_S16x21_S1x21_15_0).set
  · obtain ⟨x, rfl⟩ := (Rect.unit (s := S16x21) ![15, 0] S1x21.size inb_S16x21_S1x21_15_0).exists_idx_of_mem hm
    rw [show (Rect.unit (s := S16x21) ![15, 0] S1x21.size inb_S16x21_S1x21_15_0).idx x = (Rect.unit (s := S16x21) ![15, 0] S1x21.size inb_S16x21_S1x21_15_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_33, kernelRun0_A.sl.r, kernelRun0_A.sl.r_1]
    simp only [View.readAt_eq_ld, harg3.read_unread, harg2.read_unread, View.ld_unit_zero (S := S1x21x64x512) hz4, View.ld_unit_zero (S := S1x1x64x512) hz4]
    refine (Cert.KerIter11.acc7_15 _ _ _ q).trans ?_
    unfold kernelRun0_A.sl.v545
    rw [View.readCov_eq_canon_ld _ _ _ (Cov0_16 c arg2 harg2 arg3 harg3 arg7 x0 x1)]
    dsimp only [View.ld]
    rw [Z0_16 c arg2 harg2 arg3 harg3 arg7 x0 x1 _ (by show 15 ≤ 15 + 1 * 0; omega), zero_add]
    exact congrArg₂ (tileSum _ _) (Fin.ext rfl) (Fin.ext (by show q.val = 0 + 1 * q.val; omega))
  · rw [View.canon_cons_of_not_mem _ _ hm]
    refine CA0_16 c arg2 harg2 arg3 harg3 arg7 x0 x1 y ?_
    by_contra hcon
    apply hm
    rw [Rect.mem_set_unit]
    intro b
    match b with
    | ⟨0, _⟩ => show 15 ≤ (y 0).val ∧ (y 0).val < 15 + 1; omega
    | ⟨1, _⟩ => show 0 ≤ (y 1).val ∧ (y 1).val < 0 + 21; have h1 : (y 1).val < 21 := (y 1).isLt; omega

end Cert.KernelIdeal.Gen

end
-- ==== Proof.KiPiecesA1a.lean ====
/- The reset case of the kernel body, accumulator by accumulator, store by store: a table of 3 x 16 steps laid out from ONE hand-written step.
   A first row tile zeroes the three accumulators and then, for blob s = 0 … 15 in turn, loads row s, adds the tile's sum for blob s and stores
   it back. After k of these stores: every entry is covered by some store (Cov), the rows k … 15 still hold zero (Z), and the rows 0 … k-1
   hold the tile's sum for their blob and class (CA). Step k + 1: the load of row k reads zero (Z at k), so the stored row is the tile's sum. -/
import proofs.«400420_j429496730161_3_alg».proof.Proof.KiPiecesPre
import proofs.«400420_j429496730161_3_alg».proof.Proof.KerIter0
import proofs.«400420_j429496730161_3_alg».proof.Proof.KerIter6
import proofs.«400420_j429496730161_3_alg».proof.Proof.KerIter11

set_option maxRecDepth 16384

noncomputable section

namespace Cert.KernelIdeal.Gen

open Idealize.ShloMosaic Idealize.ShloMosaic.TcCoe Idealize.ShloMosaic.Tactic Idealize.ShloMosaic.ValueIdx
open Cert.SegSpec Cert.KerTile

/-! ## Accumulator 1 at a first tile, store by store -/

theorem Cov1_1 : ∀ y : S16x21.Idx, ∃ p ∈ kernelRun0_A.sl.HS1_1 (F := Ideal), y ∈ p.1.set := by
  unfold kernelRun0_A.sl.HS1_1
  exact fun y => ⟨_, List.mem_singleton_self _, View.mem_set_unit_zero hz2 inb_S16x21_S16x21_0_0 y⟩
theorem Z1_1 : ∀ y : S16x21.Idx, 0 ≤ (y 0).val → View.canon (kernelRun0_A.sl.HS1_1 (F := Ideal)) y = 0 := by
  unfold kernelRun0_A.sl.HS1_1
  intro y _
  rw [View.canon_unit_zero hz2]
  exact pay2_apply y
theorem CA1_1 (x0 : Vec Ideal S1x21x64x512 .f32) (x1 : Vec Ideal S1x1x64x512 .i32) : ∀ y : S16x21.Idx, (y 0).val < 0 → View.canon (kernelRun0_A.sl.HS1_1 (F := Ideal)) y = tileSum (k0_pay9 (F := Ideal) x0) (k0_pay4 (F := Ideal) x1) (y 0) (y 1) :=
  fun y h => absurd h (Nat.not_lt_zero _)

theorem Cov1_2 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_2 (F := Ideal) c arg2 harg2 arg3 harg3 arg8 x0 x1, y ∈ p.1.set := by
  unfold kernelRun0_A.sl.HS1_2
  intro y
  obtain ⟨p, hp, hy⟩ := Cov1_1 y
  exact ⟨p, List.mem_cons_of_mem _ hp, hy⟩
theorem Z1_2 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 1 ≤ (y 0).val → View.canon (kernelRun0_A.sl.HS1_2 (F := Ideal) c arg2 harg2 arg3 harg3 arg8 x0 x1) y = 0 := by
  unfold kernelRun0_A.sl.HS1_2
  intro y hy
  rw [View.canon_cons_of_not_mem _ _ (fun hm => by
    rw [Rect.mem_set_unit] at hm
    have h0 : 0 ≤ (y 0).val ∧ (y 0).val < 0 + 1 := hm 0
    omega)]
  exact Z1_1 y (by omega)
set_option maxHeartbeats 4000000 in
theorem CA1_2 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 1 → View.canon (kernelRun0_A.sl.HS1_2 (F := Ideal) c arg2 harg2 arg3 harg3 arg8 x0 x1) y = tileSum (k0_pay9 (F := Ideal) x0) (k0_pay4 (F := Ideal) x1) (y 0) (y 1) := by
  unfold kernelRun0_A.sl.HS1_2
  intro y hy
  by_cases hm : y ∈ (Rect.unit (s := S16x21) ![0, 0] S1x21.size inb_S16x21_S1x21_0_0).set
  · obtain ⟨x, rfl⟩ := (Rect.unit (s := S16x21) ![0, 0] S1x21.size inb_S16x21_S1x21_0_0).exists_idx_of_mem hm
    rw [show (Rect.unit (s := S16x21) ![0, 0] S1x21.size inb_S16x21_S1x21_0_0).idx x = (Rect.unit (s := S16x21) ![0, 0] S1x21.size inb_S16x21_S1x21_0_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_4]
    simp only [View.readAt_eq_ld, harg3.read_unread, harg2.read_unread, View.ld_unit_zero (S := S1x21x64x512) hz4, View.ld_unit_zero (S := S1x1x64x512) hz4]
    refine (Cert.KerIter0.acc8_0 _ _ _ q).trans ?_
    unfold kernelRun0_A.sl.v41
    rw [View.readCov_eq_canon_ld _ _ _ (Cov1_1)]
    dsimp only [View.ld]
    rw [Z1_1 _ (by show 0 ≤ 0 + 1 * 0; omega), zero_add]
    exact congrArg₂ (tileSum _ _) (Fin.ext rfl) (Fin.ext (by show q.val = 0 + 1 * q.val; omega))
  · rw [View.canon_cons_of_not_mem _ _ hm]
    refine CA1_1 x0 x1 y ?_
    by_contra hcon
    apply hm
    rw [Rect.mem_set_unit]
    intro b
    match b with
    | ⟨0, _⟩ => show 0 ≤ (y 0).val ∧ (y 0).val < 0 + 1; omega
    | ⟨1, _⟩ => show 0 ≤ (y 1).val ∧ (y 1).val < 0 + 21; have h1 : (y 1).val < 21 := (y 1).isLt; omega

theorem Cov1_3 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_3 (F := Ideal) c arg2 harg2 arg3 harg3 arg8 x0 x1, y ∈ p.1.set := by
  unfold kernelRun0_A.sl.HS1_3
  intro y
  obtain ⟨p, hp, hy⟩ := Cov1_2 c arg2 harg2 arg3 harg3 arg8 x0 x1 y
  exact ⟨p, List.mem_cons_of_mem _ hp, hy⟩
theorem Z1_3 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 2 ≤ (y 0).val → View.canon (kernelRun0_A.sl.HS1_3 (F := Ideal) c arg2 harg2 arg3 harg3 arg8 x0 x1) y = 0 := by
  unfold kernelRun0_A.sl.HS1_3
  intro y hy
  rw [View.canon_cons_of_not_mem _ _ (fun hm => by
    rw [Rect.mem_set_unit] at hm
    have h0 : 1 ≤ (y 0).val ∧ (y 0).val < 1 + 1 := hm 0
    omega)]
  exact Z1_2 c arg2 harg2 arg3 harg3 arg8 x0 x1 y (by omega)
set_option maxHeartbeats 4000000 in
theorem CA1_3 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 2 → View.canon (kernelRun0_A.sl.HS1_3 (F := Ideal) c arg2 harg2 arg3 harg3 arg8 x0 x1) y = tileSum (k0_pay9 (F := Ideal) x0) (k0_pay4 (F := Ideal) x1) (y 0) (y 1) := by
  unfold kernelRun0_A.sl.HS1_3
  intro y hy
  by_cases hm : y ∈ (Rect.unit (s := S16x21) ![1, 0] S1x21.size inb_S16x21_S1x21_1_0).set
  · obtain ⟨x, rfl⟩ := (Rect.unit (s := S16x21) ![1, 0] S1x21.size inb_S16x21_S1x21_1_0).exists_idx_of_mem hm
    rw [show (Rect.unit (s := S16x21) ![1, 0] S1x21.size inb_S16x21_S1x21_1_0).idx x = (Rect.unit (s := S16x21) ![1, 0] S1x21.size inb_S16x21_S1x21_1_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_6, kernelRun0_A.sl.r, kernelRun0_A.sl.r_2]
    simp only [View.readAt_eq_ld, harg3.read_unread, harg2.read_unread, View.ld_unit_zero (S := S1x21x64x512) hz4, View.ld_unit_zero (S := S1x1x64x512) hz4]
    refine (Cert.KerIter0.acc8_1 _ _ _ q).trans ?_
    unfold kernelRun0_A.sl.v75
    rw [View.readCov_eq_canon_ld _ _ _ (Cov1_2 c arg2 harg2 arg3 harg3 arg8 x0 x1)]
    dsimp only [View.ld]
    rw [Z1_2 c arg2 harg2 arg3 harg3 arg8 x0 x1 _ (by show 1 ≤ 1 + 1 * 0; omega), zero_add]
    exact congrArg₂ (tileSum _ _) (Fin.ext rfl) (Fin.ext (by show q.val = 0 + 1 * q.val; omega))
  · rw [View.canon_cons_of_not_mem _ _ hm]
    refine CA1_2 c arg2 harg2 arg3 harg3 arg8 x0 x1 y ?_
    by_contra hcon
    apply hm
    rw [Rect.mem_set_unit]
    intro b
    match b with
    | ⟨0, _⟩ => show 1 ≤ (y 0).val ∧ (y 0).val < 1 + 1; omega
    | ⟨1, _⟩ => show 0 ≤ (y 1).val ∧ (y 1).val < 0 + 21; have h1 : (y 1).val < 21 := (y 1).isLt; omega

theorem Cov1_4 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_4 (F := Ideal) c arg2 harg2 arg3 harg3 arg8 x0 x1, y ∈ p.1.set := by
  unfold kernelRun0_A.sl.HS1_4
  intro y
  obtain ⟨p, hp, hy⟩ := Cov1_3 c arg2 harg2 arg3 harg3 arg8 x0 x1 y
  exact ⟨p, List.mem_cons_of_mem _ hp, hy⟩
theorem Z1_4 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 3 ≤ (y 0).val → View.canon (kernelRun0_A.sl.HS1_4 (F := Ideal) c arg2 harg2 arg3 harg3 arg8 x0 x1) y = 0 := by
  unfold kernelRun0_A.sl.HS1_4
  intro y hy
  rw [View.canon_cons_of_not_mem _ _ (fun hm => by
    rw [Rect.mem_set_unit] at hm
    have h0 : 2 ≤ (y 0).val ∧ (y 0).val < 2 + 1 := hm 0
    omega)]
  exact Z1_3 c arg2 harg2 arg3 harg3 arg8 x0 x1 y (by omega)
set_option maxHeartbeats 4000000 in
theorem CA1_4 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 3 → View.canon (kernelRun0_A.sl.HS1_4 (F := Ideal) c arg2 harg2 arg3 harg3 arg8 x0 x1) y = tileSum (k0_pay9 (F := Ideal) x0) (k0_pay4 (F := Ideal) x1) (y 0) (y 1) := by
  unfold kernelRun0_A.sl.HS1_4
  intro y hy
  by_cases hm : y ∈ (Rect.unit (s := S16x21) ![2, 0] S1x21.size inb_S16x21_S1x21_2_0).set
  · obtain ⟨x, rfl⟩ := (Rect.unit (s := S16x21) ![2, 0] S1x21.size inb_S16x21_S1x21_2_0).exists_idx_of_mem hm
    rw [show (Rect.unit (s := S16x21) ![2, 0] S1x21.size inb_S16x21_S1x21_2_0).idx x = (Rect.unit (s := S16x21) ![2, 0] S1x21.size inb_S16x21_S1x21_2_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_9, kernelRun0_A.sl.r, kernelRun0_A.sl.r_2]
    simp only [View.readAt_eq_ld, harg3.read_unread, harg2.read_unread, View.ld_unit_zero (S := S1x21x64x512) hz4, View.ld_unit_zero (S := S1x1x64x512) hz4]
    refine (Cert.KerIter0.acc8_2 _ _ _ q).trans ?_
    unfold kernelRun0_A.sl.v109
    rw [View.readCov_eq_canon_ld _ _ _ (Cov1_3 c arg2 harg2 arg3 harg3 arg8 x0 x1)]
    dsimp only [View.ld]
    rw [Z1_3 c arg2 harg2 arg3 harg3 arg8 x0 x1 _ (by show 2 ≤ 2 + 1 * 0; omega), zero_add]
    exact congrArg₂ (tileSum _ _) (Fin.ext rfl) (Fin.ext (by show q.val = 0 + 1 * q.val; omega))
  · rw [View.canon_cons_of_not_mem _ _ hm]
    refine CA1_3 c arg2 harg2 arg3 harg3 arg8 x0 x1 y ?_
    by_contra hcon
    apply hm
    rw [Rect.mem_set_unit]
    intro b
    match b with
    | ⟨0, _⟩ => show 2 ≤ (y 0).val ∧ (y 0).val < 2 + 1; omega
    | ⟨1, _⟩ => show 0 ≤ (y 1).val ∧ (y 1).val < 0 + 21; have h1 : (y 1).val < 21 := (y 1).isLt; omega

theorem Cov1_5 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_5 (F := Ideal) c arg2 harg2 arg3 harg3 arg8 x0 x1, y ∈ p.1.set := by
  unfold kernelRun0_A.sl.HS1_5
  intro y
  obtain ⟨p, hp, hy⟩ := Cov1_4 c arg2 harg2 arg3 harg3 arg8 x0 x1 y
  exact ⟨p, List.mem_cons_of_mem _ hp, hy⟩
theorem Z1_5 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 4 ≤ (y 0).val → View.canon (kernelRun0_A.sl.HS1_5 (F := Ideal) c arg2 harg2 arg3 harg3 arg8 x0 x1) y = 0 := by
  unfold kernelRun0_A.sl.HS1_5
  intro y hy
  rw [View.canon_cons_of_not_mem _ _ (fun hm => by
    rw [Rect.mem_set_unit] at hm
    have h0 : 3 ≤ (y 0).val ∧ (y 0).val < 3 + 1 := hm 0
    omega)]
  exact Z1_4 c arg2 harg2 arg3 harg3 arg8 x0 x1 y (by omega)
set_option maxHeartbeats 4000000 in
theorem CA1_5 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 4 → View.canon (kernelRun0_A.sl.HS1_5 (F := Ideal) c arg2 harg2 arg3 harg3 arg8 x0 x1) y = tileSum (k0_pay9 (F := Ideal) x0) (k0_pay4 (F := Ideal) x1) (y 0) (y 1) := by
  unfold kernelRun0_A.sl.HS1_5
  intro y hy
  by_cases hm : y ∈ (Rect.unit (s := S16x21) ![3, 0] S1x21.size inb_S16x21_S1x21_3_0).set
  · obtain ⟨x, rfl⟩ := (Rect.unit (s := S16x21) ![3, 0] S1x21.size inb_S16x21_S1x21_3_0).exists_idx_of_mem hm
    rw [show (Rect.unit (s := S16x21) ![3, 0] S1x21.size inb_S16x21_S1x21_3_0).idx x = (Rect.unit (s := S16x21) ![3, 0] S1x21.size inb_S16x21_S1x21_3_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_11, kernelRun0_A.sl.r, kernelRun0_A.sl.r_2, kernelRun0_A.sl.r_13]
    simp only [View.readAt_eq_ld, harg3.read_unread, harg2.read_unread, View.ld_unit_zero (S := S1x21x64x512) hz4, View.ld_unit_zero (S := S1x1x64x512) hz4]
    refine (Cert.KerIter0.acc8_3 _ _ _ q).trans ?_
    unfold kernelRun0_A.sl.v143
    rw [View.readCov_eq_canon_ld _ _ _ (Cov1_4 c arg2 harg2 arg3 harg3 arg8 x0 x1)]
    dsimp only [View.ld]
    rw [Z1_4 c arg2 harg2 arg3 harg3 arg8 x0 x1 _ (by show 3 ≤ 3 + 1 * 0; omega), zero_add]
    exact congrArg₂ (tileSum _ _) (Fin.ext rfl) (Fin.ext (by show q.val = 0 + 1 * q.val; omega))
  · rw [View.canon_cons_of_not_mem _ _ hm]
    refine CA1_4 c arg2 harg2 arg3 harg3 arg8 x0 x1 y ?_
    by_contra hcon
    apply hm
    rw [Rect.mem_set_unit]
    intro b
    match b with
    | ⟨0, _⟩ => show 3 ≤ (y 0).val ∧ (y 0).val < 3 + 1; omega
    | ⟨1, _⟩ => show 0 ≤ (y 1).val ∧ (y 1).val < 0 + 21; have h1 : (y 1).val < 21 := (y 1).isLt; omega

theorem Cov1_6 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_6 (F := Ideal) c arg2 harg2 arg3 harg3 arg8 x0 x1, y ∈ p.1.set := by
  unfold kernelRun0_A.sl.HS1_6
  intro y
  obtain ⟨p, hp, hy⟩ := Cov1_5 c arg2 harg2 arg3 harg3 arg8 x0 x1 y
  exact ⟨p, List.mem_cons_of_mem _ hp, hy⟩
theorem Z1_6 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 5 ≤ (y 0).val → View.canon (kernelRun0_A.sl.HS1_6 (F := Ideal) c arg2 harg2 arg3 harg3 arg8 x0 x1) y = 0 := by
  unfold kernelRun0_A.sl.HS1_6
  intro y hy
  rw [View.canon_cons_of_not_mem _ _ (fun hm => by
    rw [Rect.mem_set_unit] at hm
    have h0 : 4 ≤ (y 0).val ∧ (y 0).val < 4 + 1 := hm 0
    omega)]
  exact Z1_5 c arg2 harg2 arg3 harg3 arg8 x0 x1 y (by omega)
set_option maxHeartbeats 4000000 in
theorem CA1_6 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 5 → View.canon (kernelRun0_A.sl.HS1_6 (F := Ideal) c arg2 harg2 arg3 harg3 arg8 x0 x1) y = tileSum (k0_pay9 (F := Ideal) x0) (k0_pay4 (F := Ideal) x1) (y 0) (y 1) := by
  unfold kernelRun0_A.sl.HS1_6
  intro y hy
  by_cases hm : y ∈ (Rect.unit (s := S16x21) ![4, 0] S1x21.size inb_S16x21_S1x21_4_0).set
  · obtain ⟨x, rfl⟩ := (Rect.unit (s := S16x21) ![4, 0] S1x21.size inb_S16x21_S1x21_4_0).exists_idx_of_mem hm
    rw [show (Rect.unit (s := S16x21) ![4, 0] S1x21.size inb_S16x21_S1x21_4_0).idx x = (Rect.unit (s := S16x21) ![4, 0] S1x21.size inb_S16x21_S1x21_4_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_15, kernelRun0_A.sl.r, kernelRun0_A.sl.r_2]
    simp only [View.readAt_eq_ld, harg3.read_unread, harg2.read_unread, View.ld_unit_zero (S := S1x21x64x512) hz4, View.ld_unit_zero (S := S1x1x64x512) hz4]
    refine (Cert.KerIter0.acc8_4 _ _ _ q).trans ?_
    unfold kernelRun0_A.sl.v177
    rw [View.readCov_eq_canon_ld _ _ _ (Cov1_5 c arg2 harg2 arg3 harg3 arg8 x0 x1)]
    dsimp only [View.ld]
    rw [Z1_5 c arg2 harg2 arg3 harg3 arg8 x0 x1 _ (by show 4 ≤ 4 + 1 * 0; omega), zero_add]
    exact congrArg₂ (tileSum _ _) (Fin.ext rfl) (Fin.ext (by show q.val = 0 + 1 * q.val; omega))
  · rw [View.canon_cons_of_not_mem _ _ hm]
    refine CA1_5 c arg2 harg2 arg3 harg3 arg8 x0 x1 y ?_
    by_contra hcon
    apply hm
    rw [Rect.mem_set_unit]
    intro b
    match b with
    | ⟨0, _⟩ => show 4 ≤ (y 0).val ∧ (y 0).val < 4 + 1; omega
    | ⟨1, _⟩ => show 0 ≤ (y 1).val ∧ (y 1).val < 0 + 21; have h1 : (y 1).val < 21 := (y 1).isLt; omega

theorem Cov1_7 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_7 (F := Ideal) c arg2 harg2 arg3 harg3 arg8 x0 x1, y ∈ p.1.set := by
  unfold kernelRun0_A.sl.HS1_7
  intro y
  obtain ⟨p, hp, hy⟩ := Cov1_6 c arg2 harg2 arg3 harg3 arg8 x0 x1 y
  exact ⟨p, List.mem_cons_of_mem _ hp, hy⟩
theorem Z1_7 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 6 ≤ (y 0).val → View.canon (kernelRun0_A.sl.HS1_7 (F := Ideal) c arg2 harg2 arg3 harg3 arg8 x0 x1) y = 0 := by
  unfold kernelRun0_A.sl.HS1_7
  intro y hy
  rw [View.canon_cons_of_not_mem _ _ (fun hm => by
    rw [Rect.mem_set_unit] at hm
    have h0 : 5 ≤ (y 0).val ∧ (y 0).val < 5 + 1 := hm 0
    omega)]
  exact Z1_6 c arg2 harg2 arg3 harg3 arg8 x0 x1 y (by omega)
set_option maxHeartbeats 4000000 in
theorem CA1_7 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 6 → View.canon (kernelRun0_A.sl.HS1_7 (F := Ideal) c arg2 harg2 arg3 harg3 arg8 x0 x1) y = tileSum (k0_pay9 (F := Ideal) x0) (k0_pay4 (F := Ideal) x1) (y 0) (y 1) := by
  unfold kernelRun0_A.sl.HS1_7
  intro y hy
  by_cases hm : y ∈ (Rect.unit (s := S16x21) ![5, 0] S1x21.size inb_S16x21_S1x21_5_0).set
  · obtain ⟨x, rfl⟩ := (Rect.unit (s := S16x21) ![5, 0] S1x21.size inb_S16x21_S1x21_5_0).exists_idx_of_mem hm
    rw [show (Rect.unit (s := S16x21) ![5, 0] S1x21.size inb_S16x21_S1x21_5_0).idx x = (Rect.unit (s := S16x21) ![5, 0] S1x21.size inb_S16x21_S1x21_5_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_2]
    simp only [View.readAt_eq_ld, harg3.read_unread, harg2.read_unread, View.ld_unit_zero (S := S1x21x64x512) hz4, View.ld_unit_zero (S := S1x1x64x512) hz4]
    refine (Cert.KerIter0.acc8_5 _ _ _ q).trans ?_
    unfold kernelRun0_A.sl.v211
    rw [View.readCov_eq_canon_ld _ _ _ (Cov1_6 c arg2 harg2 arg3 harg3 arg8 x0 x1)]
    dsimp only [View.ld]
    rw [Z1_6 c arg2 harg2 arg3 harg3 arg8 x0 x1 _ (by show 5 ≤ 5 + 1 * 0; omega), zero_add]
    exact congrArg₂ (tileSum _ _) (Fin.ext rfl) (Fin.ext (by show q.val = 0 + 1 * q.val; omega))
  · rw [View.canon_cons_of_not_mem _ _ hm]
    refine CA1_6 c arg2 harg2 arg3 harg3 arg8 x0 x1 y ?_
    by_contra hcon
    apply hm
    rw [Rect.mem_set_unit]
    intro b
    match b with
    | ⟨0, _⟩ => show 5 ≤ (y 0).val ∧ (y 0).val < 5 + 1; omega
    | ⟨1, _⟩ => show 0 ≤ (y 1).val ∧ (y 1).val < 0 + 21; have h1 : (y 1).val < 21 := (y 1).isLt; omega

theorem Cov1_8 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_8 (F := Ideal) c arg2 harg2 arg3 harg3 arg8 x0 x1, y ∈ p.1.set := by
  unfold kernelRun0_A.sl.HS1_8
  intro y
  obtain ⟨p, hp, hy⟩ := Cov1_7 c arg2 harg2 arg3 harg3 arg8 x0 x1 y
  exact ⟨p, List.mem_cons_of_mem _ hp, hy⟩
theorem Z1_8 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 7 ≤ (y 0).val → View.canon (kernelRun0_A.sl.HS1_8 (F := Ideal) c arg2 harg2 arg3 harg3 arg8 x0 x1) y = 0 := by
  unfold kernelRun0_A.sl.HS1_8
  intro y hy
  rw [View.canon_cons_of_not_mem _ _ (fun hm => by
    rw [Rect.mem_set_unit] at hm
    have h0 : 6 ≤ (y 0).val ∧ (y 0).val < 6 + 1 := hm 0
    omega)]
  exact Z1_7 c arg2 harg2 arg3 harg3 arg8 x0 x1 y (by omega)
set_option maxHeartbeats 4000000 in
theorem CA1_8 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 7 → View.canon (kernelRun0_A.sl.HS1_8 (F := Ideal) c arg2 harg2 arg3 harg3 arg8 x0 x1) y = tileSum (k0_pay9 (F := Ideal) x0) (k0_pay4 (F := Ideal) x1) (y 0) (y 1) := by
  unfold kernelRun0_A.sl.HS1_8
  intro y hy
  by_cases hm : y ∈ (Rect.unit (s := S16x21) ![6, 0] S1x21.size inb_S16x21_S1x21_6_0).set
  · obtain ⟨x, rfl⟩ := (Rect.unit (s := S16x21) ![6, 0] S1x21.size inb_S16x21_S1x21_6_0).exists_idx_of_mem hm
    rw [show (Rect.unit (s := S16x21) ![6, 0] S1x21.size inb_S16x21_S1x21_6_0).idx x = (Rect.unit (s := S16x21) ![6, 0] S1x21.size inb_S16x21_S1x21_6_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_2]
    simp only [View.readAt_eq_ld, harg3.read_unread, harg2.read_unread, View.ld_unit_zero (S := S1x21x64x512) hz4, View.ld_unit_zero (S := S1x1x64x512) hz4]
    refine (Cert.KerIter6.acc8_6 _ _ _ q).trans ?_
    unfold kernelRun0_A.sl.v245
    rw [View.readCov_eq_canon_ld _ _ _ (Cov1_7 c arg2 harg2 arg3 harg3 arg8 x0 x1)]
    dsimp only [View.ld]
    rw [Z1_7 c arg2 harg2 arg3 harg3 arg8 x0 x1 _ (by show 6 ≤ 6 + 1 * 0; omega), zero_add]
    exact congrArg₂ (tileSum _ _) (Fin.ext rfl) (Fin.ext (by show q.val = 0 + 1 * q.val; omega))
  · rw [View.canon_cons_of_not_mem _ _ hm]
    refine CA1_7 c arg2 harg2 arg3 harg3 arg8 x0 x1 y ?_
    by_contra hcon
    apply hm
    rw [Rect.mem_set_unit]
    intro b
    match b with
    | ⟨0, _⟩ => show 6 ≤ (y 0).val ∧ (y 0).val < 6 + 1; omega
    | ⟨1, _⟩ => show 0 ≤ (y 1).val ∧ (y 1).val < 0 + 21; have h1 : (y 1).val < 21 := (y 1).isLt; omega

theorem Cov1_9 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_9 (F := Ideal) c arg2 harg2 arg3 harg3 arg8 x0 x1, y ∈ p.1.set := by
  unfold kernelRun0_A.sl.HS1_9
  intro y
  obtain ⟨p, hp, hy⟩ := Cov1_8 c arg2 harg2 arg3 harg3 arg8 x0 x1 y
  exact ⟨p, List.mem_cons_of_mem _ hp, hy⟩
theorem Z1_9 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 8 ≤ (y 0).val → View.canon (kernelRun0_A.sl.HS1_9 (F := Ideal) c arg2 harg2 arg3 harg3 arg8 x0 x1) y = 0 := by
  unfold kernelRun0_A.sl.HS1_9
  intro y hy
  rw [View.canon_cons_of_not_mem _ _ (fun hm => by
    rw [Rect.mem_set_unit] at hm
    have h0 : 7 ≤ (y 0).val ∧ (y 0).val < 7 + 1 := hm 0
    omega)]
  exact Z1_8 c arg2 harg2 arg3 harg3 arg8 x0 x1 y (by omega)
set_option maxHeartbeats 4000000 in
theorem CA1_9 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 8 → View.canon (kernelRun0_A.sl.HS1_9 (F := Ideal) c arg2 harg2 arg3 harg3 arg8 x0 x1) y = tileSum (k0_pay9 (F := Ideal) x0) (k0_pay4 (F := Ideal) x1) (y 0) (y 1) := by
  unfold kernelRun0_A.sl.HS1_9
  intro y hy
  by_cases hm : y ∈ (Rect.unit (s := S16x21) ![7, 0] S1x21.size inb_S16x21_S1x21_7_0).set
  · obtain ⟨x, rfl⟩ := (Rect.unit (s := S16x21) ![7, 0] S1x21.size inb_S16x21_S1x21_7_0).exists_idx_of_mem hm
    rw [show (Rect.unit (s := S16x21) ![7, 0] S1x21.size inb_S16x21_S1x21_7_0).idx x = (Rect.unit (s := S16x21) ![7, 0] S1x21.size inb_S16x21_S1x21_7_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_2]
    simp only [View.readAt_eq_ld, harg3.read_unread, harg2.read_unread, View.ld_unit_zero (S := S1x21x64x512) hz4, View.ld_unit_zero (S := S1x1x64x512) hz4]
    refine (Cert.KerIter6.acc8_7 _ _ _ q).trans ?_
    unfold kernelRun0_A.sl.v279
    rw [View.readCov_eq_canon_ld _ _ _ (Cov1_8 c arg2 harg2 arg3 harg3 arg8 x0 x1)]
    dsimp only [View.ld]
    rw [Z1_8 c arg2 harg2 arg3 harg3 arg8 x0 x1 _ (by show 7 ≤ 7 + 1 * 0; omega), zero_add]
    exact congrArg₂ (tileSum _ _) (Fin.ext rfl) (Fin.ext (by show q.val = 0 + 1 * q.val; omega))
  · rw [View.canon_cons_of_not_mem _ _ hm]
    refine CA1_8 c arg2 harg2 arg3 harg3 arg8 x0 x1 y ?_
    by_contra hcon
    apply hm
    rw [Rect.mem_set_unit]
    intro b
    match b with
    | ⟨0, _⟩ => show 7 ≤ (y 0).val ∧ (y 0).val < 7 + 1; omega
    | ⟨1, _⟩ => show 0 ≤ (y 1).val ∧ (y 1).val < 0 + 21; have h1 : (y 1).val < 21 := (y 1).isLt; omega

end Cert.KernelIdeal.Gen

end
-- ==== Proof.KiPiecesA1b.lean ====
/- The reset case of the kernel body, accumulator by accumulator, store by store: a table of 3 x 16 steps laid out from ONE hand-written step.
   A first row tile zeroes the three accumulators and then, for blob s = 0 … 15 in turn, loads row s, adds the tile's sum for blob s and stores
   it back. After k of these stores: every entry is covered by some store (Cov), the rows k … 15 still hold zero (Z), and the rows 0 … k-1
   hold the tile's sum for their blob and class (CA). Step k + 1: the load of row k reads zero (Z at k), so the stored row is the tile's sum. -/
import proofs.«400420_j429496730161_3_alg».proof.Proof.KiPiecesA1a
import proofs.«400420_j429496730161_3_alg».proof.Proof.KerIter0
import proofs.«400420_j429496730161_3_alg».proof.Proof.KerIter6
import proofs.«400420_j429496730161_3_alg».proof.Proof.KerIter11

set_option maxRecDepth 16384

noncomputable section

namespace Cert.KernelIdeal.Gen

open Idealize.ShloMosaic Idealize.ShloMosaic.TcCoe Idealize.ShloMosaic.Tactic Idealize.ShloMosaic.ValueIdx
open Cert.SegSpec Cert.KerTile

/-! ## Accumulator 1 at a first tile, store by store -/

theorem Cov1_10 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_10 (F := Ideal) c arg2 harg2 arg3 harg3 arg8 x0 x1, y ∈ p.1.set := by
  unfold kernelRun0_A.sl.HS1_10
  intro y
  obtain ⟨p, hp, hy⟩ := Cov1_9 c arg2 harg2 arg3 harg3 arg8 x0 x1 y
  exact ⟨p, List.mem_cons_of_mem _ hp, hy⟩
theorem Z1_10 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 9 ≤ (y 0).val → View.canon (kernelRun0_A.sl.HS1_10 (F := Ideal) c arg2 harg2 arg3 harg3 arg8 x0 x1) y = 0 := by
  unfold kernelRun0_A.sl.HS1_10
  intro y hy
  rw [View.canon_cons_of_not_mem _ _ (fun hm => by
    rw [Rect.mem_set_unit] at hm
    have h0 : 8 ≤ (y 0).val ∧ (y 0).val < 8 + 1 := hm 0
    omega)]
  exact Z1_9 c arg2 harg2 arg3 harg3 arg8 x0 x1 y (by omega)
set_option maxHeartbeats 4000000 in
theorem CA1_10 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 9 → View.canon (kernelRun0_A.sl.HS1_10 (F := Ideal) c arg2 harg2 arg3 harg3 arg8 x0 x1) y = tileSum (k0_pay9 (F := Ideal) x0) (k0_pay4 (F := Ideal) x1) (y 0) (y 1) := by
  unfold kernelRun0_A.sl.HS1_10
  intro y hy
  by_cases hm : y ∈ (Rect.unit (s := S16x21) ![8, 0] S1x21.size inb_S16x21_S1x21_8_0).set
  · obtain ⟨x, rfl⟩ := (Rect.unit (s := S16x21) ![8, 0] S1x21.size inb_S16x21_S1x21_8_0).exists_idx_of_mem hm
    rw [show (Rect.unit (s := S16x21) ![8, 0] S1x21.size inb_S16x21_S1x21_8_0).idx x = (Rect.unit (s := S16x21) ![8, 0] S1x21.size inb_S16x21_S1x21_8_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_2]
    simp only [View.readAt_eq_ld, harg3.read_unread, harg2.read_unread, View.ld_unit_zero (S := S1x21x64x512) hz4, View.ld_unit_zero (S := S1x1x64x512) hz4]
    refine (Cert.KerIter6.acc8_8 _ _ _ q).trans ?_
    unfold kernelRun0_A.sl.v313
    rw [View.readCov_eq_canon_ld _ _ _ (Cov1_9 c arg2 harg2 arg3 harg3 arg8 x0 x1)]
    dsimp only [View.ld]
    rw [Z1_9 c arg2 harg2 arg3 harg3 arg8 x0 x1 _ (by show 8 ≤ 8 + 1 * 0; omega), zero_add]
    exact congrArg₂ (tileSum _ _) (Fin.ext rfl) (Fin.ext (by show q.val = 0 + 1 * q.val; omega))
  · rw [View.canon_cons_of_not_mem _ _ hm]
    refine CA1_9 c arg2 harg2 arg3 harg3 arg8 x0 x1 y ?_
    by_contra hcon
    apply hm
    rw [Rect.mem_set_unit]
    intro b
    match b with
    | ⟨0, _⟩ => show 8 ≤ (y 0).val ∧ (y 0).val < 8 + 1; omega
    | ⟨1, _⟩ => show 0 ≤ (y 1).val ∧ (y 1).val < 0 + 21; have h1 : (y 1).val < 21 := (y 1).isLt; omega

theorem Cov1_11 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_11 (F := Ideal) c arg2 harg2 arg3 harg3 arg8 x0 x1, y ∈ p.1.set := by
  unfold kernelRun0_A.sl.HS1_11
  intro y
  obtain ⟨p, hp, hy⟩ := Cov1_10 c arg2 harg2 arg3 harg3 arg8 x0 x1 y
  exact ⟨p, List.mem_cons_of_mem _ hp, hy⟩
theorem Z1_11 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 10 ≤ (y 0).val → View.canon (kernelRun0_A.sl.HS1_11 (F := Ideal) c arg2 harg2 arg3 harg3 arg8 x0 x1) y = 0 := by
  unfold kernelRun0_A.sl.HS1_11
  intro y hy
  rw [View.canon_cons_of_not_mem _ _ (fun hm => by
    rw [Rect.mem_set_unit] at hm
    have h0 : 9 ≤ (y 0).val ∧ (y 0).val < 9 + 1 := hm 0
    omega)]
  exact Z1_10 c arg2 harg2 arg3 harg3 arg8 x0 x1 y (by omega)
set_option maxHeartbeats 4000000 in
theorem CA1_11 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 10 → View.canon (kernelRun0_A.sl.HS1_11 (F := Ideal) c arg2 harg2 arg3 harg3 arg8 x0 x1) y = tileSum (k0_pay9 (F := Ideal) x0) (k0_pay4 (F := Ideal) x1) (y 0) (y 1) := by
  unfold kernelRun0_A.sl.HS1_11
  intro y hy
  by_cases hm : y ∈ (Rect.unit (s := S16x21) ![9, 0] S1x21.size inb_S16x21_S1x21_9_0).set
  · obtain ⟨x, rfl⟩ := (Rect.unit (s := S16x21) ![9, 0] S1x21.size inb_S16x21_S1x21_9_0).exists_idx_of_mem hm
    rw [show (Rect.unit (s := S16x21) ![9, 0] S1x21.size inb_S16x21_S1x21_9_0).idx x = (Rect.unit (s := S16x21) ![9, 0] S1x21.size inb_S16x21_S1x21_9_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r, kernelRun0_A.sl.r_2]
    simp only [View.readAt_eq_ld, harg3.read_unread, harg2.read_unread, View.ld_unit_zero (S := S1x21x64x512) hz4, View.ld_unit_zero (S := S1x1x64x512) hz4]
    refine (Cert.KerIter6.acc8_9 _ _ _ q).trans ?_
    unfold kernelRun0_A.sl.v347
    rw [View.readCov_eq_canon_ld _ _ _ (Cov1_10 c arg2 harg2 arg3 harg3 arg8 x0 x1)]
    dsimp only [View.ld]
    rw [Z1_10 c arg2 harg2 arg3 harg3 arg8 x0 x1 _ (by show 9 ≤ 9 + 1 * 0; omega), zero_add]
    exact congrArg₂ (tileSum _ _) (Fin.ext rfl) (Fin.ext (by show q.val = 0 + 1 * q.val; omega))
  · rw [View.canon_cons_of_not_mem _ _ hm]
    refine CA1_10 c arg2 harg2 arg3 harg3 arg8 x0 x1 y ?_
    by_contra hcon
    apply hm
    rw [Rect.mem_set_unit]
    intro b
    match b with
    | ⟨0, _⟩ => show 9 ≤ (y 0).val ∧ (y 0).val < 9 + 1; omega
    | ⟨1, _⟩ => show 0 ≤ (y 1).val ∧ (y 1).val < 0 + 21; have h1 : (y 1).val < 21 := (y 1).isLt; omega

theorem Cov1_12 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_12 (F := Ideal) c arg2 harg2 arg3 harg3 arg8 x0 x1, y ∈ p.1.set := by
  unfold kernelRun0_A.sl.HS1_12
  intro y
  obtain ⟨p, hp, hy⟩ := Cov1_11 c arg2 harg2 arg3 harg3 arg8 x0 x1 y
  exact ⟨p, List.mem_cons_of_mem _ hp, hy⟩
theorem Z1_12 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 11 ≤ (y 0).val → View.canon (kernelRun0_A.sl.HS1_12 (F := Ideal) c arg2 harg2 arg3 harg3 arg8 x0 x1) y = 0 := by
  unfold kernelRun0_A.sl.HS1_12
  intro y hy
  rw [View.canon_cons_of_not_mem _ _ (fun hm => by
    rw [Rect.mem_set_unit] at hm
    have h0 : 10 ≤ (y 0).val ∧ (y 0).val < 10 + 1 := hm 0
    omega)]
  exact Z1_11 c arg2 harg2 arg3 harg3 arg8 x0 x1 y (by omega)
set_option maxHeartbeats 4000000 in
theorem CA1_12 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 11 → View.canon (kernelRun0_A.sl.HS1_12 (F := Ideal) c arg2 harg2 arg3 harg3 arg8 x0 x1) y = tileSum (k0_pay9 (F := Ideal) x0) (k0_pay4 (F := Ideal) x1) (y 0) (y 1) := by
  unfold kernelRun0_A.sl.HS1_12
  intro y hy
  by_cases hm : y ∈ (Rect.unit (s := S16x21) ![10, 0] S1x21.size inb_S16x21_S1x21_10_0).set
  · obtain ⟨x, rfl⟩ := (Rect.unit (s := S16x21) ![10, 0] S1x21.size inb_S16x21_S1x21_10_0).exists_idx_of_mem hm
    rw [show (Rect.unit (s := S16x21) ![10, 0] S1x21.size inb_S16x21_S1x21_10_0).idx x = (Rect.unit (s := S16x21) ![10, 0] S1x21.size inb_S16x21_S1x21_10_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_2, kernelRun0_A.sl.r_20, kernelRun0_A.sl.r]
    simp only [View.readAt_eq_ld, harg3.read_unread, harg2.read_unread, View.ld_unit_zero (S := S1x21x64x512) hz4, View.ld_unit_zero (S := S1x1x64x512) hz4]
    refine (Cert.KerIter6.acc8_10 _ _ _ q).trans ?_
    unfold kernelRun0_A.sl.v381
    rw [View.readCov_eq_canon_ld _ _ _ (Cov1_11 c arg2 harg2 arg3 harg3 arg8 x0 x1)]
    dsimp only [View.ld]
    rw [Z1_11 c arg2 harg2 arg3 harg3 arg8 x0 x1 _ (by show 10 ≤ 10 + 1 * 0; omega), zero_add]
    exact congrArg₂ (tileSum _ _) (Fin.ext rfl) (Fin.ext (by show q.val = 0 + 1 * q.val; omega))
  · rw [View.canon_cons_of_not_mem _ _ hm]
    refine CA1_11 c arg2 harg2 arg3 harg3 arg8 x0 x1 y ?_
    by_contra hcon
    apply hm
    rw [Rect.mem_set_unit]
    intro b
    match b with
    | ⟨0, _⟩ => show 10 ≤ (y 0).val ∧ (y 0).val < 10 + 1; omega
    | ⟨1, _⟩ => show 0 ≤ (y 1).val ∧ (y 1).val < 0 + 21; have h1 : (y 1).val < 21 := (y 1).isLt; omega

theorem Cov1_13 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_13 (F := Ideal) c arg2 harg2 arg3 harg3 arg8 x0 x1, y ∈ p.1.set := by
  unfold kernelRun0_A.sl.HS1_13
  intro y
  obtain ⟨p, hp, hy⟩ := Cov1_12 c arg2 harg2 arg3 harg3 arg8 x0 x1 y
  exact ⟨p, List.mem_cons_of_mem _ hp, hy⟩
theorem Z1_13 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 12 ≤ (y 0).val → View.canon (kernelRun0_A.sl.HS1_13 (F := Ideal) c arg2 harg2 arg3 harg3 arg8 x0 x1) y = 0 := by
  unfold kernelRun0_A.sl.HS1_13
  intro y hy
  rw [View.canon_cons_of_not_mem _ _ (fun hm => by
    rw [Rect.mem_set_unit] at hm
    have h0 : 11 ≤ (y 0).val ∧ (y 0).val < 11 + 1 := hm 0
    omega)]
  exact Z1_12 c arg2 harg2 arg3 harg3 arg8 x0 x1 y (by omega)
set_option maxHeartbeats 4000000 in
theorem CA1_13 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 12 → View.canon (kernelRun0_A.sl.HS1_13 (F := Ideal) c arg2 harg2 arg3 harg3 arg8 x0 x1) y = tileSum (k0_pay9 (F := Ideal) x0) (k0_pay4 (F := Ideal) x1) (y 0) (y 1) := by
  unfold kernelRun0_A.sl.HS1_13
  intro y hy
  by_cases hm : y ∈ (Rect.unit (s := S16x21) ![11, 0] S1x21.size inb_S16x21_S1x21_11_0).set
  · obtain ⟨x, rfl⟩ := (Rect.unit (s := S16x21) ![11, 0] S1x21.size inb_S16x21_S1x21_11_0).exists_idx_of_mem hm
    rw [show (Rect.unit (s := S16x21) ![11, 0] S1x21.size inb_S16x21_S1x21_11_0).idx x = (Rect.unit (s := S16x21) ![11, 0] S1x21.size inb_S16x21_S1x21_11_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_2, kernelRun0_A.sl.r_22, kernelRun0_A.sl.r]
    simp only [View.readAt_eq_ld, harg3.read_unread, harg2.read_unread, View.ld_unit_zero (S := S1x21x64x512) hz4, View.ld_unit_zero (S := S1x1x64x512) hz4]
    refine (Cert.KerIter11.acc8_11 _ _ _ q).trans ?_
    unfold kernelRun0_A.sl.v415
    rw [View.readCov_eq_canon_ld _ _ _ (Cov1_12 c arg2 harg2 arg3 harg3 arg8 x0 x1)]
    dsimp only [View.ld]
    rw [Z1_12 c arg2 harg2 arg3 harg3 arg8 x0 x1 _ (by show 11 ≤ 11 + 1 * 0; omega), zero_add]
    exact congrArg₂ (tileSum _ _) (Fin.ext rfl) (Fin.ext (by show q.val = 0 + 1 * q.val; omega))
  · rw [View.canon_cons_of_not_mem _ _ hm]
    refine CA1_12 c arg2 harg2 arg3 harg3 arg8 x0 x1 y ?_
    by_contra hcon
    apply hm
    rw [Rect.mem_set_unit]
    intro b
    match b with
    | ⟨0, _⟩ => show 11 ≤ (y 0).val ∧ (y 0).val < 11 + 1; omega
    | ⟨1, _⟩ => show 0 ≤ (y 1).val ∧ (y 1).val < 0 + 21; have h1 : (y 1).val < 21 := (y 1).isLt; omega

end Cert.KernelIdeal.Gen

end
-- ==== Proof.KiPiecesA1c.lean ====
/- The reset case of the kernel body, accumulator by accumulator, store by store: a table of 3 x 16 steps laid out from ONE hand-written step.
   A first row tile zeroes the three accumulators and then, for blob s = 0 … 15 in turn, loads row s, adds the tile's sum for blob s and stores
   it back. After k of these stores: every entry is covered by some store (Cov), the rows k … 15 still hold zero (Z), and the rows 0 … k-1
   hold the tile's sum for their blob and class (CA). Step k + 1: the load of row k reads zero (Z at k), so the stored row is the tile's sum. -/
import proofs.«400420_j429496730161_3_alg».proof.Proof.KiPiecesA1b
import proofs.«400420_j429496730161_3_alg».proof.Proof.KerIter0
import proofs.«400420_j429496730161_3_alg».proof.Proof.KerIter6
import proofs.«400420_j429496730161_3_alg».proof.Proof.KerIter11

set_option maxRecDepth 16384

noncomputable section

namespace Cert.KernelIdeal.Gen

open Idealize.ShloMosaic Idealize.ShloMosaic.TcCoe Idealize.ShloMosaic.Tactic Idealize.ShloMosaic.ValueIdx
open Cert.SegSpec Cert.KerTile

/-! ## Accumulator 1 at a first tile, store by store -/

theorem Cov1_14 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_14 (F := Ideal) c arg2 harg2 arg3 harg3 arg8 x0 x1, y ∈ p.1.set := by
  unfold kernelRun0_A.sl.HS1_14
  intro y
  obtain ⟨p, hp, hy⟩ := Cov1_13 c arg2 harg2 arg3 harg3 arg8 x0 x1 y
  exact ⟨p, List.mem_cons_of_mem _ hp, hy⟩
theorem Z1_14 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 13 ≤ (y 0).val → View.canon (kernelRun0_A.sl.HS1_14 (F := Ideal) c arg2 harg2 arg3 harg3 arg8 x0 x1) y = 0 := by
  unfold kernelRun0_A.sl.HS1_14
  intro y hy
  rw [View.canon_cons_of_not_mem _ _ (fun hm => by
    rw [Rect.mem_set_unit] at hm
    have h0 : 12 ≤ (y 0).val ∧ (y 0).val < 12 + 1 := hm 0
    omega)]
  exact Z1_13 c arg2 harg2 arg3 harg3 arg8 x0 x1 y (by omega)
set_option maxHeartbeats 4000000 in
theorem CA1_14 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 13 → View.canon (kernelRun0_A.sl.HS1_14 (F := Ideal) c arg2 harg2 arg3 harg3 arg8 x0 x1) y = tileSum (k0_pay9 (F := Ideal) x0) (k0_pay4 (F := Ideal) x1) (y 0) (y 1) := by
  unfold kernelRun0_A.sl.HS1_14
  intro y hy
  by_cases hm : y ∈ (Rect.unit (s := S16x21) ![12, 0] S1x21.size inb_S16x21_S1x21_12_0).set
  · obtain ⟨x, rfl⟩ := (Rect.unit (s := S16x21) ![12, 0] S1x21.size inb_S16x21_S1x21_12_0).exists_idx_of_mem hm
    rw [show (Rect.unit (s := S16x21) ![12, 0] S1x21.size inb_S16x21_S1x21_12_0).idx x = (Rect.unit (s := S16x21) ![12, 0] S1x21.size inb_S16x21_S1x21_12_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_26, kernelRun0_A.sl.r, kernelRun0_A.sl.r_2]
    simp only [View.readAt_eq_ld, harg3.read_unread, harg2.read_unread, View.ld_unit_zero (S := S1x21x64x512) hz4, View.ld_unit_zero (S := S1x1x64x512) hz4]
    refine (Cert.KerIter11.acc8_12 _ _ _ q).trans ?_
    unfold kernelRun0_A.sl.v449
    rw [View.readCov_eq_canon_ld _ _ _ (Cov1_13 c arg2 harg2 arg3 harg3 arg8 x0 x1)]
    dsimp only [View.ld]
    rw [Z1_13 c arg2 harg2 arg3 harg3 arg8 x0 x1 _ (by show 12 ≤ 12 + 1 * 0; omega), zero_add]
    exact congrArg₂ (tileSum _ _) (Fin.ext rfl) (Fin.ext (by show q.val = 0 + 1 * q.val; omega))
  · rw [View.canon_cons_of_not_mem _ _ hm]
    refine CA1_13 c arg2 harg2 arg3 harg3 arg8 x0 x1 y ?_
    by_contra hcon
    apply hm
    rw [Rect.mem_set_unit]
    intro b
    match b with
    | ⟨0, _⟩ => show 12 ≤ (y 0).val ∧ (y 0).val < 12 + 1; omega
    | ⟨1, _⟩ => show 0 ≤ (y 1).val ∧ (y 1).val < 0 + 21; have h1 : (y 1).val < 21 := (y 1).isLt; omega

theorem Cov1_15 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_15 (F := Ideal) c arg2 harg2 arg3 harg3 arg8 x0 x1, y ∈ p.1.set := by
  unfold kernelRun0_A.sl.HS1_15
  intro y
  obtain ⟨p, hp, hy⟩ := Cov1_14 c arg2 harg2 arg3 harg3 arg8 x0 x1 y
  exact ⟨p, List.mem_cons_of_mem _ hp, hy⟩
theorem Z1_15 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 14 ≤ (y 0).val → View.canon (kernelRun0_A.sl.HS1_15 (F := Ideal) c arg2 harg2 arg3 harg3 arg8 x0 x1) y = 0 := by
  unfold kernelRun0_A.sl.HS1_15
  intro y hy
  rw [View.canon_cons_of_not_mem _ _ (fun hm => by
    rw [Rect.mem_set_unit] at hm
    have h0 : 13 ≤ (y 0).val ∧ (y 0).val < 13 + 1 := hm 0
    omega)]
  exact Z1_14 c arg2 harg2 arg3 harg3 arg8 x0 x1 y (by omega)
set_option maxHeartbeats 4000000 in
theorem CA1_15 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 14 → View.canon (kernelRun0_A.sl.HS1_15 (F := Ideal) c arg2 harg2 arg3 harg3 arg8 x0 x1) y = tileSum (k0_pay9 (F := Ideal) x0) (k0_pay4 (F := Ideal) x1) (y 0) (y 1) := by
  unfold kernelRun0_A.sl.HS1_15
  intro y hy
  by_cases hm : y ∈ (Rect.unit (s := S16x21) ![13, 0] S1x21.size inb_S16x21_S1x21_13_0).set
  · obtain ⟨x, rfl⟩ := (Rect.unit (s := S16x21) ![13, 0] S1x21.size inb_S16x21_S1x21_13_0).exists_idx_of_mem hm
    rw [show (Rect.unit (s := S16x21) ![13, 0] S1x21.size inb_S16x21_S1x21_13_0).idx x = (Rect.unit (s := S16x21) ![13, 0] S1x21.size inb_S16x21_S1x21_13_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_29, kernelRun0_A.sl.r, kernelRun0_A.sl.r_2]
    simp only [View.readAt_eq_ld, harg3.read_unread, harg2.read_unread, View.ld_unit_zero (S := S1x21x64x512) hz4, View.ld_unit_zero (S := S1x1x64x512) hz4]
    refine (Cert.KerIter11.acc8_13 _ _ _ q).trans ?_
    unfold kernelRun0_A.sl.v483
    rw [View.readCov_eq_canon_ld _ _ _ (Cov1_14 c arg2 harg2 arg3 harg3 arg8 x0 x1)]
    dsimp only [View.ld]
    rw [Z1_14 c arg2 harg2 arg3 harg3 arg8 x0 x1 _ (by show 13 ≤ 13 + 1 * 0; omega), zero_add]
    exact congrArg₂ (tileSum _ _) (Fin.ext rfl) (Fin.ext (by show q.val = 0 + 1 * q.val; omega))
  · rw [View.canon_cons_of_not_mem _ _ hm]
    refine CA1_14 c arg2 harg2 arg3 harg3 arg8 x0 x1 y ?_
    by_contra hcon
    apply hm
    rw [Rect.mem_set_unit]
    intro b
    match b with
    | ⟨0, _⟩ => show 13 ≤ (y 0).val ∧ (y 0).val < 13 + 1; omega
    | ⟨1, _⟩ => show 0 ≤ (y 1).val ∧ (y 1).val < 0 + 21; have h1 : (y 1).val < 21 := (y 1).isLt; omega

theorem Cov1_16 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_16 (F := Ideal) c arg2 harg2 arg3 harg3 arg8 x0 x1, y ∈ p.1.set := by
  unfold kernelRun0_A.sl.HS1_16
  intro y
  obtain ⟨p, hp, hy⟩ := Cov1_15 c arg2 harg2 arg3 harg3 arg8 x0 x1 y
  exact ⟨p, List.mem_cons_of_mem _ hp, hy⟩
theorem Z1_16 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 15 ≤ (y 0).val → View.canon (kernelRun0_A.sl.HS1_16 (F := Ideal) c arg2 harg2 arg3 harg3 arg8 x0 x1) y = 0 := by
  unfold kernelRun0_A.sl.HS1_16
  intro y hy
  rw [View.canon_cons_of_not_mem _ _ (fun hm => by
    rw [Rect.mem_set_unit] at hm
    have h0 : 14 ≤ (y 0).val ∧ (y 0).val < 14 + 1 := hm 0
    omega)]
  exact Z1_15 c arg2 harg2 arg3 harg3 arg8 x0 x1 y (by omega)
set_option maxHeartbeats 4000000 in
theorem CA1_16 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 15 → View.canon (kernelRun0_A.sl.HS1_16 (F := Ideal) c arg2 harg2 arg3 harg3 arg8 x0 x1) y = tileSum (k0_pay9 (F := Ideal) x0) (k0_pay4 (F := Ideal) x1) (y 0) (y 1) := by
  unfold kernelRun0_A.sl.HS1_16
  intro y hy
  by_cases hm : y ∈ (Rect.unit (s := S16x21) ![14, 0] S1x21.size inb_S16x21_S1x21_14_0).set
  · obtain ⟨x, rfl⟩ := (Rect.unit (s := S16x21) ![14, 0] S1x21.size inb_S16x21_S1x21_14_0).exists_idx_of_mem hm
    rw [show (Rect.unit (s := S16x21) ![14, 0] S1x21.size inb_S16x21_S1x21_14_0).idx x = (Rect.unit (s := S16x21) ![14, 0] S1x21.size inb_S16x21_S1x21_14_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_31, kernelRun0_A.sl.r, kernelRun0_A.sl.r_2]
    simp only [View.readAt_eq_ld, harg3.read_unread, harg2.read_unread, View.ld_unit_zero (S := S1x21x64x512) hz4, View.ld_unit_zero (S := S1x1x64x512) hz4]
    refine (Cert.KerIter11.acc8_14 _ _ _ q).trans ?_
    unfold kernelRun0_A.sl.v517
    rw [View.readCov_eq_canon_ld _ _ _ (Cov1_15 c arg2 harg2 arg3 harg3 arg8 x0 x1)]
    dsimp only [View.ld]
    rw [Z1_15 c arg2 harg2 arg3 harg3 arg8 x0 x1 _ (by show 14 ≤ 14 + 1 * 0; omega), zero_add]
    exact congrArg₂ (tileSum _ _) (Fin.ext rfl) (Fin.ext (by show q.val = 0 + 1 * q.val; omega))
  · rw [View.canon_cons_of_not_mem _ _ hm]
    refine CA1_15 c arg2 harg2 arg3 harg3 arg8 x0 x1 y ?_
    by_contra hcon
    apply hm
    rw [Rect.mem_set_unit]
    intro b
    match b with
    | ⟨0, _⟩ => show 14 ≤ (y 0).val ∧ (y 0).val < 14 + 1; omega
    | ⟨1, _⟩ => show 0 ≤ (y 1).val ∧ (y 1).val < 0 + 21; have h1 : (y 1).val < 21 := (y 1).isLt; omega

theorem Cov1_17 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, ∃ p ∈ kernelRun0_A.sl.HS1_17 (F := Ideal) c arg2 harg2 arg3 harg3 arg8 x0 x1, y ∈ p.1.set := by
  unfold kernelRun0_A.sl.HS1_17
  intro y
  obtain ⟨p, hp, hy⟩ := Cov1_16 c arg2 harg2 arg3 harg3 arg8 x0 x1 y
  exact ⟨p, List.mem_cons_of_mem _ hp, hy⟩
theorem Z1_17 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, 16 ≤ (y 0).val → View.canon (kernelRun0_A.sl.HS1_17 (F := Ideal) c arg2 harg2 arg3 harg3 arg8 x0 x1) y = 0 := by
  unfold kernelRun0_A.sl.HS1_17
  intro y hy
  rw [View.canon_cons_of_not_mem _ _ (fun hm => by
    rw [Rect.mem_set_unit] at hm
    have h0 : 15 ≤ (y 0).val ∧ (y 0).val < 15 + 1 := hm 0
    omega)]
  exact Z1_16 c arg2 harg2 arg3 harg3 arg8 x0 x1 y (by omega)
set_option maxHeartbeats 4000000 in
theorem CA1_17 (c : Dev nD) (arg2 : Memref sig .tc .vmem S1x21x64x512 .f32) (harg2 : arg2.IsWhole) (arg3 : Memref sig .tc .vmem S1x1x64x512 .i32) (harg3 : arg3.IsWhole) (arg8 : Memref sig .tc .vmem S16x21 .f32) (x0 : Vec Ideal S1x21x64x512 .f32) (x1 : Vec Ideal S1x1x64x512 .i32) : ∀ y : S16x21.Idx, (y 0).val < 16 → View.canon (kernelRun0_A.sl.HS1_17 (F := Ideal) c arg2 harg2 arg3 harg3 arg8 x0 x1) y = tileSum (k0_pay9 (F := Ideal) x0) (k0_pay4 (F := Ideal) x1) (y 0) (y 1) := by
  unfold kernelRun0_A.sl.HS1_17
  intro y hy
  by_cases hm : y ∈ (Rect.unit (s := S16x21) ![15, 0] S1x21.size inb_S16x21_S1x21_15_0).set
  · obtain ⟨x, rfl⟩ := (Rect.unit (s := S16x21) ![15, 0] S1x21.size inb_S16x21_S1x21_15_0).exists_idx_of_mem hm
    rw [show (Rect.unit (s := S16x21) ![15, 0] S1x21.size inb_S16x21_S1x21_15_0).idx x = (Rect.unit (s := S16x21) ![15, 0] S1x21.size inb_S16x21_S1x21_15_0).emb x from rfl, View.canon_cons_emb]
    obtain ⟨a, q, rfl⟩ : ∃ (a : Fin 1) (q : Fin 21), x = ix2 a q := ⟨x 0, x 1, eq_ix2 x⟩
    obtain rfl : a = 0 := Subsingleton.elim _ _
    simp only [kernelRun0_A.sl.r_34, kernelRun0_A.sl.r, kernelRun0_A.sl.r_2]
    simp only [View.readAt_eq_ld, harg3.read_unread, harg2.read_unread, View.ld_unit_zero (S := S1x21x64x512) hz4, View.ld_unit_zero (S := S1x1x64x512) hz4]
    refine (Cert.KerIter11.acc8_15 _ _ _ q).trans ?_
    unfold kernelRun0_A.sl.v551
    rw [View.readCov_eq_canon_ld _ _ _ (Cov1_16 c arg2 harg2 arg3 harg3 arg8 x0 x1)]
    dsimp only [View.ld]
    rw [Z1_16 c arg2 harg2 arg3 harg3 arg8 x0 x1 _ (by show 15 ≤ 15 + 1 * 0; omega), zero_add]
    exact congrArg₂ (tileSum _ _) (Fin.ext rfl) (Fin.ext (by show q.val = 0 + 1 * q.val; omega))
  · rw [View.canon_cons_of_not_mem _ _ hm]
    refine CA1_16 c arg2 harg2 arg3 harg3 arg8 x0 x1 y ?_
    by_contra hcon
    apply hm
    rw [Rect.mem_set_unit]
    intro b
    match b with
    | ⟨0, _⟩ => show 15 ≤ (y 0).val ∧ (y 0).val < 15 + 1; omega
    | ⟨1, _⟩ => show 0 ≤ (y 1).val ∧ (y 1).val < 0 + 21; have h1 : (y 1).val < 21 := (y 1).isLt; omega

end Cert.KernelIdeal.Gen

end
-- ==== Proof.KiPiecesA2a.lean ====
/- The reset case of the kernel body, accumulator by accumulator, store by store: a table of 3 x 16 steps laid out from ONE hand-written step.
   A first row tile zeroes the three accumulators and then, for blob s = 0 … 15 in turn, loads row s, adds the tile's sum for blob s and stores
   it back. After k of these stores: every entry is covered by some store (Cov), the rows k … 15 still hold zero (Z), and the rows 0 … k-1
   hold the tile's sum for their blob and class (CA). Step k + 1: the load of row k reads zero (Z at k), so the stored row is the tile's sum. -/
import proofs.«400420_j429496730161_3_alg».proof.Proof.KiPiecesPre
import proofs.«400420_j429496730161_3_alg».proof.Proof.KerIter0
import proofs.«400420_j429496730161_3_alg».proof.Proof.KerIter6
import proofs.«400420_j429496730161_3_alg».proof.Proof.KerIter11

set_option maxRecDepth 16384

noncomputable section

namespace Cert.KernelIdeal.Gen

open Idealize.ShloMosaic Idealize.ShloMosaic.TcCoe Idealize.ShloMosaic.Tactic Idealize.ShloMosaic.ValueIdx
open Cert.SegSpec Cert.KerTile

/-! ## Accumulator 2 at a first tile, store by store -/

theorem Cov2_1 : ∀ y : S16x1.Idx, ∃ p ∈ kernelRun0_A.sl.HS2_1 (F := Ideal), y ∈ p.1.set := by
  unfold kernelRun0_A.sl.HS2_1
  exact fun y => ⟨_, List.mem_singleton_self _, View.mem_set_unit_zero hz2 inb_S16x1_S16x1_0_0 y⟩
theorem Z2_1 : ∀ y : S16x1.Idx, 0 ≤ (y 0).val → View.canon (kernelRun0_A.sl.HS2_1 (F := Ideal)) y = 0 := by
  unfold kernelRun0_A.sl.HS2_1
  intro y _
  rw [View.canon_unit_zero hz2]
  exact pay3_apply y
theorem CA2_1 (x1 : Vec Ideal S1x1x64x512 .i32) : ∀ y : S16x1.Idx, (y 0).val < 0 → View.canon (kernelRun0_A.sl.HS2_1 (F := Ideal)) y = tileCnt (k0_pay4 (F := Ideal) x1) (y 0) :=
  fun y h => absurd h (Nat.not_lt_zero _)

theorem Cov2_2 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_2 (F := Ideal) c arg3 harg3 arg9 x1, y ∈ p.1.set := by
  unfold kernelRun0_A.sl.HS2_2
  intro y
  obtain ⟨p, hp, hy⟩ := Cov2_1 y
  exact ⟨p, List.mem_cons_of_mem _ hp, hy⟩
theorem Z2_2 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 1 ≤ (y 0).val → View.canon (kernelRun0_A.sl.HS2_2 (F := Ideal) c arg3 harg3 arg9 x1) y = 0 := by
  unfold kernelRun0_A.sl.HS2_2
  intro y hy
  rw [View.canon_cons_of_not_mem _ _ (fun hm => by
    rw [Rect.mem_set_unit] at hm
    have h0 : 0 ≤ (y 0).val ∧ (y 0).val < 0 + 1 := hm 0
    omega)]
  exact Z2_1 y (by omega)
set_option maxHeartbeats 4000000 in
theorem CA2_2 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 1 → View.canon (kernelRun0_A.sl.HS2_2 (F := Ideal) c arg3 harg3 arg9 x1) y = tileCnt (k0_pay4 (F := Ideal) x1) (y 0) := by
  unfold kernelRun0_A.sl.HS2_2
  intro y hy
  by_cases hm : y ∈ (Rect.unit (s := S16x1) ![0, 0] S1x1.size inb_S16x1_S1x1_0_0).set
  · obtain ⟨x, rfl⟩ := (Rect.unit (s := S16x1) ![0, 0] S1x1.size inb_S16x1_S1x1_0_0).exists_idx_of_mem hm
    rw [show (Rect.unit (s := S16x1) ![0, 0] S1x1.size inb_S16x1_S1x1_0_0).idx x = (Rect.unit (s := S16x1) ![0, 0] S1x1.size inb_S16x1_S1x1_0_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_5]
    simp only [View.readAt_eq_ld, harg3.read_unread, View.ld_unit_zero (S := S1x1x64x512) hz4]
    refine (Cert.KerIter0.acc9_0 _ _).trans ?_
    unfold kernelRun0_A.sl.v47
    rw [View.readCov_eq_canon_ld _ _ _ (Cov2_1)]
    dsimp only [View.ld]
    rw [Z2_1 _ (by show 0 ≤ 0 + 1 * 0; omega), zero_add]
    exact congrArg (tileCnt _) (Fin.ext rfl)
  · rw [View.canon_cons_of_not_mem _ _ hm]
    refine CA2_1 x1 y ?_
    by_contra hcon
    apply hm
    rw [Rect.mem_set_unit]
    intro b
    match b with
    | ⟨0, _⟩ => show 0 ≤ (y 0).val ∧ (y 0).val < 0 + 1; omega
    | ⟨1, _⟩ => show 0 ≤ (y 1).val ∧ (y 1).val < 0 + 1; have h1 : (y 1).val < 1 := (y 1).isLt; omega

theorem Cov2_3 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_3 (F := Ideal) c arg3 harg3 arg9 x1, y ∈ p.1.set := by
  unfold kernelRun0_A.sl.HS2_3
  intro y
  obtain ⟨p, hp, hy⟩ := Cov2_2 c arg3 harg3 arg9 x1 y
  exact ⟨p, List.mem_cons_of_mem _ hp, hy⟩
theorem Z2_3 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 2 ≤ (y 0).val → View.canon (kernelRun0_A.sl.HS2_3 (F := Ideal) c arg3 harg3 arg9 x1) y = 0 := by
  unfold kernelRun0_A.sl.HS2_3
  intro y hy
  rw [View.canon_cons_of_not_mem _ _ (fun hm => by
    rw [Rect.mem_set_unit] at hm
    have h0 : 1 ≤ (y 0).val ∧ (y 0).val < 1 + 1 := hm 0
    omega)]
  exact Z2_2 c arg3 harg3 arg9 x1 y (by omega)
set_option maxHeartbeats 4000000 in
theorem CA2_3 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 2 → View.canon (kernelRun0_A.sl.HS2_3 (F := Ideal) c arg3 harg3 arg9 x1) y = tileCnt (k0_pay4 (F := Ideal) x1) (y 0) := by
  unfold kernelRun0_A.sl.HS2_3
  intro y hy
  by_cases hm : y ∈ (Rect.unit (s := S16x1) ![1, 0] S1x1.size inb_S16x1_S1x1_1_0).set
  · obtain ⟨x, rfl⟩ := (Rect.unit (s := S16x1) ![1, 0] S1x1.size inb_S16x1_S1x1_1_0).exists_idx_of_mem hm
    rw [show (Rect.unit (s := S16x1) ![1, 0] S1x1.size inb_S16x1_S1x1_1_0).idx x = (Rect.unit (s := S16x1) ![1, 0] S1x1.size inb_S16x1_S1x1_1_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_7, kernelRun0_A.sl.r]
    simp only [View.readAt_eq_ld, harg3.read_unread, View.ld_unit_zero (S := S1x1x64x512) hz4]
    refine (Cert.KerIter0.acc9_1 _ _).trans ?_
    unfold kernelRun0_A.sl.v81
    rw [View.readCov_eq_canon_ld _ _ _ (Cov2_2 c arg3 harg3 arg9 x1)]
    dsimp only [View.ld]
    rw [Z2_2 c arg3 harg3 arg9 x1 _ (by show 1 ≤ 1 + 1 * 0; omega), zero_add]
    exact congrArg (tileCnt _) (Fin.ext rfl)
  · rw [View.canon_cons_of_not_mem _ _ hm]
    refine CA2_2 c arg3 harg3 arg9 x1 y ?_
    by_contra hcon
    apply hm
    rw [Rect.mem_set_unit]
    intro b
    match b with
    | ⟨0, _⟩ => show 1 ≤ (y 0).val ∧ (y 0).val < 1 + 1; omega
    | ⟨1, _⟩ => show 0 ≤ (y 1).val ∧ (y 1).val < 0 + 1; have h1 : (y 1).val < 1 := (y 1).isLt; omega

theorem Cov2_4 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_4 (F := Ideal) c arg3 harg3 arg9 x1, y ∈ p.1.set := by
  unfold kernelRun0_A.sl.HS2_4
  intro y
  obtain ⟨p, hp, hy⟩ := Cov2_3 c arg3 harg3 arg9 x1 y
  exact ⟨p, List.mem_cons_of_mem _ hp, hy⟩
theorem Z2_4 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 3 ≤ (y 0).val → View.canon (kernelRun0_A.sl.HS2_4 (F := Ideal) c arg3 harg3 arg9 x1) y = 0 := by
  unfold kernelRun0_A.sl.HS2_4
  intro y hy
  rw [View.canon_cons_of_not_mem _ _ (fun hm => by
    rw [Rect.mem_set_unit] at hm
    have h0 : 2 ≤ (y 0).val ∧ (y 0).val < 2 + 1 := hm 0
    omega)]
  exact Z2_3 c arg3 harg3 arg9 x1 y (by omega)
set_option maxHeartbeats 4000000 in
theorem CA2_4 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 3 → View.canon (kernelRun0_A.sl.HS2_4 (F := Ideal) c arg3 harg3 arg9 x1) y = tileCnt (k0_pay4 (F := Ideal) x1) (y 0) := by
  unfold kernelRun0_A.sl.HS2_4
  intro y hy
  by_cases hm : y ∈ (Rect.unit (s := S16x1) ![2, 0] S1x1.size inb_S16x1_S1x1_2_0).set
  · obtain ⟨x, rfl⟩ := (Rect.unit (s := S16x1) ![2, 0] S1x1.size inb_S16x1_S1x1_2_0).exists_idx_of_mem hm
    rw [show (Rect.unit (s := S16x1) ![2, 0] S1x1.size inb_S16x1_S1x1_2_0).idx x = (Rect.unit (s := S16x1) ![2, 0] S1x1.size inb_S16x1_S1x1_2_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_10, kernelRun0_A.sl.r]
    simp only [View.readAt_eq_ld, harg3.read_unread, View.ld_unit_zero (S := S1x1x64x512) hz4]
    refine (Cert.KerIter0.acc9_2 _ _).trans ?_
    unfold kernelRun0_A.sl.v115
    rw [View.readCov_eq_canon_ld _ _ _ (Cov2_3 c arg3 harg3 arg9 x1)]
    dsimp only [View.ld]
    rw [Z2_3 c arg3 harg3 arg9 x1 _ (by show 2 ≤ 2 + 1 * 0; omega), zero_add]
    exact congrArg (tileCnt _) (Fin.ext rfl)
  · rw [View.canon_cons_of_not_mem _ _ hm]
    refine CA2_3 c arg3 harg3 arg9 x1 y ?_
    by_contra hcon
    apply hm
    rw [Rect.mem_set_unit]
    intro b
    match b with
    | ⟨0, _⟩ => show 2 ≤ (y 0).val ∧ (y 0).val < 2 + 1; omega
    | ⟨1, _⟩ => show 0 ≤ (y 1).val ∧ (y 1).val < 0 + 1; have h1 : (y 1).val < 1 := (y 1).isLt; omega

theorem Cov2_5 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_5 (F := Ideal) c arg3 harg3 arg9 x1, y ∈ p.1.set := by
  unfold kernelRun0_A.sl.HS2_5
  intro y
  obtain ⟨p, hp, hy⟩ := Cov2_4 c arg3 harg3 arg9 x1 y
  exact ⟨p, List.mem_cons_of_mem _ hp, hy⟩
theorem Z2_5 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 4 ≤ (y 0).val → View.canon (kernelRun0_A.sl.HS2_5 (F := Ideal) c arg3 harg3 arg9 x1) y = 0 := by
  unfold kernelRun0_A.sl.HS2_5
  intro y hy
  rw [View.canon_cons_of_not_mem _ _ (fun hm => by
    rw [Rect.mem_set_unit] at hm
    have h0 : 3 ≤ (y 0).val ∧ (y 0).val < 3 + 1 := hm 0
    omega)]
  exact Z2_4 c arg3 harg3 arg9 x1 y (by omega)
set_option maxHeartbeats 4000000 in
theorem CA2_5 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 4 → View.canon (kernelRun0_A.sl.HS2_5 (F := Ideal) c arg3 harg3 arg9 x1) y = tileCnt (k0_pay4 (F := Ideal) x1) (y 0) := by
  unfold kernelRun0_A.sl.HS2_5
  intro y hy
  by_cases hm : y ∈ (Rect.unit (s := S16x1) ![3, 0] S1x1.size inb_S16x1_S1x1_3_0).set
  · obtain ⟨x, rfl⟩ := (Rect.unit (s := S16x1) ![3, 0] S1x1.size inb_S16x1_S1x1_3_0).exists_idx_of_mem hm
    rw [show (Rect.unit (s := S16x1) ![3, 0] S1x1.size inb_S16x1_S1x1_3_0).idx x = (Rect.unit (s := S16x1) ![3, 0] S1x1.size inb_S16x1_S1x1_3_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_12, kernelRun0_A.sl.r]
    simp only [View.readAt_eq_ld, harg3.read_unread, View.ld_unit_zero (S := S1x1x64x512) hz4]
    refine (Cert.KerIter0.acc9_3 _ _).trans ?_
    unfold kernelRun0_A.sl.v149
    rw [View.readCov_eq_canon_ld _ _ _ (Cov2_4 c arg3 harg3 arg9 x1)]
    dsimp only [View.ld]
    rw [Z2_4 c arg3 harg3 arg9 x1 _ (by show 3 ≤ 3 + 1 * 0; omega), zero_add]
    exact congrArg (tileCnt _) (Fin.ext rfl)
  · rw [View.canon_cons_of_not_mem _ _ hm]
    refine CA2_4 c arg3 harg3 arg9 x1 y ?_
    by_contra hcon
    apply hm
    rw [Rect.mem_set_unit]
    intro b
    match b with
    | ⟨0, _⟩ => show 3 ≤ (y 0).val ∧ (y 0).val < 3 + 1; omega
    | ⟨1, _⟩ => show 0 ≤ (y 1).val ∧ (y 1).val < 0 + 1; have h1 : (y 1).val < 1 := (y 1).isLt; omega

theorem Cov2_6 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_6 (F := Ideal) c arg3 harg3 arg9 x1, y ∈ p.1.set := by
  unfold kernelRun0_A.sl.HS2_6
  intro y
  obtain ⟨p, hp, hy⟩ := Cov2_5 c arg3 harg3 arg9 x1 y
  exact ⟨p, List.mem_cons_of_mem _ hp, hy⟩
theorem Z2_6 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 5 ≤ (y 0).val → View.canon (kernelRun0_A.sl.HS2_6 (F := Ideal) c arg3 harg3 arg9 x1) y = 0 := by
  unfold kernelRun0_A.sl.HS2_6
  intro y hy
  rw [View.canon_cons_of_not_mem _ _ (fun hm => by
    rw [Rect.mem_set_unit] at hm
    have h0 : 4 ≤ (y 0).val ∧ (y 0).val < 4 + 1 := hm 0
    omega)]
  exact Z2_5 c arg3 harg3 arg9 x1 y (by omega)
set_option maxHeartbeats 4000000 in
theorem CA2_6 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 5 → View.canon (kernelRun0_A.sl.HS2_6 (F := Ideal) c arg3 harg3 arg9 x1) y = tileCnt (k0_pay4 (F := Ideal) x1) (y 0) := by
  unfold kernelRun0_A.sl.HS2_6
  intro y hy
  by_cases hm : y ∈ (Rect.unit (s := S16x1) ![4, 0] S1x1.size inb_S16x1_S1x1_4_0).set
  · obtain ⟨x, rfl⟩ := (Rect.unit (s := S16x1) ![4, 0] S1x1.size inb_S16x1_S1x1_4_0).exists_idx_of_mem hm
    rw [show (Rect.unit (s := S16x1) ![4, 0] S1x1.size inb_S16x1_S1x1_4_0).idx x = (Rect.unit (s := S16x1) ![4, 0] S1x1.size inb_S16x1_S1x1_4_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_14, kernelRun0_A.sl.r]
    simp only [View.readAt_eq_ld, harg3.read_unread, View.ld_unit_zero (S := S1x1x64x512) hz4]
    refine (Cert.KerIter0.acc9_4 _ _).trans ?_
    unfold kernelRun0_A.sl.v183
    rw [View.readCov_eq_canon_ld _ _ _ (Cov2_5 c arg3 harg3 arg9 x1)]
    dsimp only [View.ld]
    rw [Z2_5 c arg3 harg3 arg9 x1 _ (by show 4 ≤ 4 + 1 * 0; omega), zero_add]
    exact congrArg (tileCnt _) (Fin.ext rfl)
  · rw [View.canon_cons_of_not_mem _ _ hm]
    refine CA2_5 c arg3 harg3 arg9 x1 y ?_
    by_contra hcon
    apply hm
    rw [Rect.mem_set_unit]
    intro b
    match b with
    | ⟨0, _⟩ => show 4 ≤ (y 0).val ∧ (y 0).val < 4 + 1; omega
    | ⟨1, _⟩ => show 0 ≤ (y 1).val ∧ (y 1).val < 0 + 1; have h1 : (y 1).val < 1 := (y 1).isLt; omega

theorem Cov2_7 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_7 (F := Ideal) c arg3 harg3 arg9 x1, y ∈ p.1.set := by
  unfold kernelRun0_A.sl.HS2_7
  intro y
  obtain ⟨p, hp, hy⟩ := Cov2_6 c arg3 harg3 arg9 x1 y
  exact ⟨p, List.mem_cons_of_mem _ hp, hy⟩
theorem Z2_7 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 6 ≤ (y 0).val → View.canon (kernelRun0_A.sl.HS2_7 (F := Ideal) c arg3 harg3 arg9 x1) y = 0 := by
  unfold kernelRun0_A.sl.HS2_7
  intro y hy
  rw [View.canon_cons_of_not_mem _ _ (fun hm => by
    rw [Rect.mem_set_unit] at hm
    have h0 : 5 ≤ (y 0).val ∧ (y 0).val < 5 + 1 := hm 0
    omega)]
  exact Z2_6 c arg3 harg3 arg9 x1 y (by omega)
set_option maxHeartbeats 4000000 in
theorem CA2_7 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 6 → View.canon (kernelRun0_A.sl.HS2_7 (F := Ideal) c arg3 harg3 arg9 x1) y = tileCnt (k0_pay4 (F := Ideal) x1) (y 0) := by
  unfold kernelRun0_A.sl.HS2_7
  intro y hy
  by_cases hm : y ∈ (Rect.unit (s := S16x1) ![5, 0] S1x1.size inb_S16x1_S1x1_5_0).set
  · obtain ⟨x, rfl⟩ := (Rect.unit (s := S16x1) ![5, 0] S1x1.size inb_S16x1_S1x1_5_0).exists_idx_of_mem hm
    rw [show (Rect.unit (s := S16x1) ![5, 0] S1x1.size inb_S16x1_S1x1_5_0).idx x = (Rect.unit (s := S16x1) ![5, 0] S1x1.size inb_S16x1_S1x1_5_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_16, kernelRun0_A.sl.r]
    simp only [View.readAt_eq_ld, harg3.read_unread, View.ld_unit_zero (S := S1x1x64x512) hz4]
    refine (Cert.KerIter0.acc9_5 _ _).trans ?_
    unfold kernelRun0_A.sl.v217
    rw [View.readCov_eq_canon_ld _ _ _ (Cov2_6 c arg3 harg3 arg9 x1)]
    dsimp only [View.ld]
    rw [Z2_6 c arg3 harg3 arg9 x1 _ (by show 5 ≤ 5 + 1 * 0; omega), zero_add]
    exact congrArg (tileCnt _) (Fin.ext rfl)
  · rw [View.canon_cons_of_not_mem _ _ hm]
    refine CA2_6 c arg3 harg3 arg9 x1 y ?_
    by_contra hcon
    apply hm
    rw [Rect.mem_set_unit]
    intro b
    match b with
    | ⟨0, _⟩ => show 5 ≤ (y 0).val ∧ (y 0).val < 5 + 1; omega
    | ⟨1, _⟩ => show 0 ≤ (y 1).val ∧ (y 1).val < 0 + 1; have h1 : (y 1).val < 1 := (y 1).isLt; omega

theorem Cov2_8 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_8 (F := Ideal) c arg3 harg3 arg9 x1, y ∈ p.1.set := by
  unfold kernelRun0_A.sl.HS2_8
  intro y
  obtain ⟨p, hp, hy⟩ := Cov2_7 c arg3 harg3 arg9 x1 y
  exact ⟨p, List.mem_cons_of_mem _ hp, hy⟩
theorem Z2_8 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 7 ≤ (y 0).val → View.canon (kernelRun0_A.sl.HS2_8 (F := Ideal) c arg3 harg3 arg9 x1) y = 0 := by
  unfold kernelRun0_A.sl.HS2_8
  intro y hy
  rw [View.canon_cons_of_not_mem _ _ (fun hm => by
    rw [Rect.mem_set_unit] at hm
    have h0 : 6 ≤ (y 0).val ∧ (y 0).val < 6 + 1 := hm 0
    omega)]
  exact Z2_7 c arg3 harg3 arg9 x1 y (by omega)
set_option maxHeartbeats 4000000 in
theorem CA2_8 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 7 → View.canon (kernelRun0_A.sl.HS2_8 (F := Ideal) c arg3 harg3 arg9 x1) y = tileCnt (k0_pay4 (F := Ideal) x1) (y 0) := by
  unfold kernelRun0_A.sl.HS2_8
  intro y hy
  by_cases hm : y ∈ (Rect.unit (s := S16x1) ![6, 0] S1x1.size inb_S16x1_S1x1_6_0).set
  · obtain ⟨x, rfl⟩ := (Rect.unit (s := S16x1) ![6, 0] S1x1.size inb_S16x1_S1x1_6_0).exists_idx_of_mem hm
    rw [show (Rect.unit (s := S16x1) ![6, 0] S1x1.size inb_S16x1_S1x1_6_0).idx x = (Rect.unit (s := S16x1) ![6, 0] S1x1.size inb_S16x1_S1x1_6_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_17, kernelRun0_A.sl.r]
    simp only [View.readAt_eq_ld, harg3.read_unread, View.ld_unit_zero (S := S1x1x64x512) hz4]
    refine (Cert.KerIter6.acc9_6 _ _).trans ?_
    unfold kernelRun0_A.sl.v251
    rw [View.readCov_eq_canon_ld _ _ _ (Cov2_7 c arg3 harg3 arg9 x1)]
    dsimp only [View.ld]
    rw [Z2_7 c arg3 harg3 arg9 x1 _ (by show 6 ≤ 6 + 1 * 0; omega), zero_add]
    exact congrArg (tileCnt _) (Fin.ext rfl)
  · rw [View.canon_cons_of_not_mem _ _ hm]
    refine CA2_7 c arg3 harg3 arg9 x1 y ?_
    by_contra hcon
    apply hm
    rw [Rect.mem_set_unit]
    intro b
    match b with
    | ⟨0, _⟩ => show 6 ≤ (y 0).val ∧ (y 0).val < 6 + 1; omega
    | ⟨1, _⟩ => show 0 ≤ (y 1).val ∧ (y 1).val < 0 + 1; have h1 : (y 1).val < 1 := (y 1).isLt; omega

theorem Cov2_9 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_9 (F := Ideal) c arg3 harg3 arg9 x1, y ∈ p.1.set := by
  unfold kernelRun0_A.sl.HS2_9
  intro y
  obtain ⟨p, hp, hy⟩ := Cov2_8 c arg3 harg3 arg9 x1 y
  exact ⟨p, List.mem_cons_of_mem _ hp, hy⟩
theorem Z2_9 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 8 ≤ (y 0).val → View.canon (kernelRun0_A.sl.HS2_9 (F := Ideal) c arg3 harg3 arg9 x1) y = 0 := by
  unfold kernelRun0_A.sl.HS2_9
  intro y hy
  rw [View.canon_cons_of_not_mem _ _ (fun hm => by
    rw [Rect.mem_set_unit] at hm
    have h0 : 7 ≤ (y 0).val ∧ (y 0).val < 7 + 1 := hm 0
    omega)]
  exact Z2_8 c arg3 harg3 arg9 x1 y (by omega)
set_option maxHeartbeats 4000000 in
theorem CA2_9 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 8 → View.canon (kernelRun0_A.sl.HS2_9 (F := Ideal) c arg3 harg3 arg9 x1) y = tileCnt (k0_pay4 (F := Ideal) x1) (y 0) := by
  unfold kernelRun0_A.sl.HS2_9
  intro y hy
  by_cases hm : y ∈ (Rect.unit (s := S16x1) ![7, 0] S1x1.size inb_S16x1_S1x1_7_0).set
  · obtain ⟨x, rfl⟩ := (Rect.unit (s := S16x1) ![7, 0] S1x1.size inb_S16x1_S1x1_7_0).exists_idx_of_mem hm
    rw [show (Rect.unit (s := S16x1) ![7, 0] S1x1.size inb_S16x1_S1x1_7_0).idx x = (Rect.unit (s := S16x1) ![7, 0] S1x1.size inb_S16x1_S1x1_7_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_18, kernelRun0_A.sl.r]
    simp only [View.readAt_eq_ld, harg3.read_unread, View.ld_unit_zero (S := S1x1x64x512) hz4]
    refine (Cert.KerIter6.acc9_7 _ _).trans ?_
    unfold kernelRun0_A.sl.v285
    rw [View.readCov_eq_canon_ld _ _ _ (Cov2_8 c arg3 harg3 arg9 x1)]
    dsimp only [View.ld]
    rw [Z2_8 c arg3 harg3 arg9 x1 _ (by show 7 ≤ 7 + 1 * 0; omega), zero_add]
    exact congrArg (tileCnt _) (Fin.ext rfl)
  · rw [View.canon_cons_of_not_mem _ _ hm]
    refine CA2_8 c arg3 harg3 arg9 x1 y ?_
    by_contra hcon
    apply hm
    rw [Rect.mem_set_unit]
    intro b
    match b with
    | ⟨0, _⟩ => show 7 ≤ (y 0).val ∧ (y 0).val < 7 + 1; omega
    | ⟨1, _⟩ => show 0 ≤ (y 1).val ∧ (y 1).val < 0 + 1; have h1 : (y 1).val < 1 := (y 1).isLt; omega

end Cert.KernelIdeal.Gen

end
-- ==== Proof.KiPiecesA2b.lean ====
/- The reset case of the kernel body, accumulator by accumulator, store by store: a table of 3 x 16 steps laid out from ONE hand-written step.
   A first row tile zeroes the three accumulators and then, for blob s = 0 … 15 in turn, loads row s, adds the tile's sum for blob s and stores
   it back. After k of these stores: every entry is covered by some store (Cov), the rows k … 15 still hold zero (Z), and the rows 0 … k-1
   hold the tile's sum for their blob and class (CA). Step k + 1: the load of row k reads zero (Z at k), so the stored row is the tile's sum. -/
import proofs.«400420_j429496730161_3_alg».proof.Proof.KiPiecesA2a
import proofs.«400420_j429496730161_3_alg».proof.Proof.KerIter0
import proofs.«400420_j429496730161_3_alg».proof.Proof.KerIter6
import proofs.«400420_j429496730161_3_alg».proof.Proof.KerIter11

set_option maxRecDepth 16384

noncomputable section

namespace Cert.KernelIdeal.Gen

open Idealize.ShloMosaic Idealize.ShloMosaic.TcCoe Idealize.ShloMosaic.Tactic Idealize.ShloMosaic.ValueIdx
open Cert.SegSpec Cert.KerTile

/-! ## Accumulator 2 at a first tile, store by store -/

theorem Cov2_10 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_10 (F := Ideal) c arg3 harg3 arg9 x1, y ∈ p.1.set := by
  unfold kernelRun0_A.sl.HS2_10
  intro y
  obtain ⟨p, hp, hy⟩ := Cov2_9 c arg3 harg3 arg9 x1 y
  exact ⟨p, List.mem_cons_of_mem _ hp, hy⟩
theorem Z2_10 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 9 ≤ (y 0).val → View.canon (kernelRun0_A.sl.HS2_10 (F := Ideal) c arg3 harg3 arg9 x1) y = 0 := by
  unfold kernelRun0_A.sl.HS2_10
  intro y hy
  rw [View.canon_cons_of_not_mem _ _ (fun hm => by
    rw [Rect.mem_set_unit] at hm
    have h0 : 8 ≤ (y 0).val ∧ (y 0).val < 8 + 1 := hm 0
    omega)]
  exact Z2_9 c arg3 harg3 arg9 x1 y (by omega)
set_option maxHeartbeats 4000000 in
theorem CA2_10 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 9 → View.canon (kernelRun0_A.sl.HS2_10 (F := Ideal) c arg3 harg3 arg9 x1) y = tileCnt (k0_pay4 (F := Ideal) x1) (y 0) := by
  unfold kernelRun0_A.sl.HS2_10
  intro y hy
  by_cases hm : y ∈ (Rect.unit (s := S16x1) ![8, 0] S1x1.size inb_S16x1_S1x1_8_0).set
  · obtain ⟨x, rfl⟩ := (Rect.unit (s := S16x1) ![8, 0] S1x1.size inb_S16x1_S1x1_8_0).exists_idx_of_mem hm
    rw [show (Rect.unit (s := S16x1) ![8, 0] S1x1.size inb_S16x1_S1x1_8_0).idx x = (Rect.unit (s := S16x1) ![8, 0] S1x1.size inb_S16x1_S1x1_8_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r]
    simp only [View.readAt_eq_ld, harg3.read_unread, View.ld_unit_zero (S := S1x1x64x512) hz4]
    refine (Cert.KerIter6.acc9_8 _ _).trans ?_
    unfold kernelRun0_A.sl.v319
    rw [View.readCov_eq_canon_ld _ _ _ (Cov2_9 c arg3 harg3 arg9 x1)]
    dsimp only [View.ld]
    rw [Z2_9 c arg3 harg3 arg9 x1 _ (by show 8 ≤ 8 + 1 * 0; omega), zero_add]
    exact congrArg (tileCnt _) (Fin.ext rfl)
  · rw [View.canon_cons_of_not_mem _ _ hm]
    refine CA2_9 c arg3 harg3 arg9 x1 y ?_
    by_contra hcon
    apply hm
    rw [Rect.mem_set_unit]
    intro b
    match b with
    | ⟨0, _⟩ => show 8 ≤ (y 0).val ∧ (y 0).val < 8 + 1; omega
    | ⟨1, _⟩ => show 0 ≤ (y 1).val ∧ (y 1).val < 0 + 1; have h1 : (y 1).val < 1 := (y 1).isLt; omega

theorem Cov2_11 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_11 (F := Ideal) c arg3 harg3 arg9 x1, y ∈ p.1.set := by
  unfold kernelRun0_A.sl.HS2_11
  intro y
  obtain ⟨p, hp, hy⟩ := Cov2_10 c arg3 harg3 arg9 x1 y
  exact ⟨p, List.mem_cons_of_mem _ hp, hy⟩
theorem Z2_11 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 10 ≤ (y 0).val → View.canon (kernelRun0_A.sl.HS2_11 (F := Ideal) c arg3 harg3 arg9 x1) y = 0 := by
  unfold kernelRun0_A.sl.HS2_11
  intro y hy
  rw [View.canon_cons_of_not_mem _ _ (fun hm => by
    rw [Rect.mem_set_unit] at hm
    have h0 : 9 ≤ (y 0).val ∧ (y 0).val < 9 + 1 := hm 0
    omega)]
  exact Z2_10 c arg3 harg3 arg9 x1 y (by omega)
set_option maxHeartbeats 4000000 in
theorem CA2_11 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 10 → View.canon (kernelRun0_A.sl.HS2_11 (F := Ideal) c arg3 harg3 arg9 x1) y = tileCnt (k0_pay4 (F := Ideal) x1) (y 0) := by
  unfold kernelRun0_A.sl.HS2_11
  intro y hy
  by_cases hm : y ∈ (Rect.unit (s := S16x1) ![9, 0] S1x1.size inb_S16x1_S1x1_9_0).set
  · obtain ⟨x, rfl⟩ := (Rect.unit (s := S16x1) ![9, 0] S1x1.size inb_S16x1_S1x1_9_0).exists_idx_of_mem hm
    rw [show (Rect.unit (s := S16x1) ![9, 0] S1x1.size inb_S16x1_S1x1_9_0).idx x = (Rect.unit (s := S16x1) ![9, 0] S1x1.size inb_S16x1_S1x1_9_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r]
    simp only [View.readAt_eq_ld, harg3.read_unread, View.ld_unit_zero (S := S1x1x64x512) hz4]
    refine (Cert.KerIter6.acc9_9 _ _).trans ?_
    unfold kernelRun0_A.sl.v353
    rw [View.readCov_eq_canon_ld _ _ _ (Cov2_10 c arg3 harg3 arg9 x1)]
    dsimp only [View.ld]
    rw [Z2_10 c arg3 harg3 arg9 x1 _ (by show 9 ≤ 9 + 1 * 0; omega), zero_add]
    exact congrArg (tileCnt _) (Fin.ext rfl)
  · rw [View.canon_cons_of_not_mem _ _ hm]
    refine CA2_10 c arg3 harg3 arg9 x1 y ?_
    by_contra hcon
    apply hm
    rw [Rect.mem_set_unit]
    intro b
    match b with
    | ⟨0, _⟩ => show 9 ≤ (y 0).val ∧ (y 0).val < 9 + 1; omega
    | ⟨1, _⟩ => show 0 ≤ (y 1).val ∧ (y 1).val < 0 + 1; have h1 : (y 1).val < 1 := (y 1).isLt; omega

theorem Cov2_12 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_12 (F := Ideal) c arg3 harg3 arg9 x1, y ∈ p.1.set := by
  unfold kernelRun0_A.sl.HS2_12
  intro y
  obtain ⟨p, hp, hy⟩ := Cov2_11 c arg3 harg3 arg9 x1 y
  exact ⟨p, List.mem_cons_of_mem _ hp, hy⟩
theorem Z2_12 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 11 ≤ (y 0).val → View.canon (kernelRun0_A.sl.HS2_12 (F := Ideal) c arg3 harg3 arg9 x1) y = 0 := by
  unfold kernelRun0_A.sl.HS2_12
  intro y hy
  rw [View.canon_cons_of_not_mem _ _ (fun hm => by
    rw [Rect.mem_set_unit] at hm
    have h0 : 10 ≤ (y 0).val ∧ (y 0).val < 10 + 1 := hm 0
    omega)]
  exact Z2_11 c arg3 harg3 arg9 x1 y (by omega)
set_option maxHeartbeats 4000000 in
theorem CA2_12 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 11 → View.canon (kernelRun0_A.sl.HS2_12 (F := Ideal) c arg3 harg3 arg9 x1) y = tileCnt (k0_pay4 (F := Ideal) x1) (y 0) := by
  unfold kernelRun0_A.sl.HS2_12
  intro y hy
  by_cases hm : y ∈ (Rect.unit (s := S16x1) ![10, 0] S1x1.size inb_S16x1_S1x1_10_0).set
  · obtain ⟨x, rfl⟩ := (Rect.unit (s := S16x1) ![10, 0] S1x1.size inb_S16x1_S1x1_10_0).exists_idx_of_mem hm
    rw [show (Rect.unit (s := S16x1) ![10, 0] S1x1.size inb_S16x1_S1x1_10_0).idx x = (Rect.unit (s := S16x1) ![10, 0] S1x1.size inb_S16x1_S1x1_10_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_19, kernelRun0_A.sl.r]
    simp only [View.readAt_eq_ld, harg3.read_unread, View.ld_unit_zero (S := S1x1x64x512) hz4]
    refine (Cert.KerIter6.acc9_10 _ _).trans ?_
    unfold kernelRun0_A.sl.v387
    rw [View.readCov_eq_canon_ld _ _ _ (Cov2_11 c arg3 harg3 arg9 x1)]
    dsimp only [View.ld]
    rw [Z2_11 c arg3 harg3 arg9 x1 _ (by show 10 ≤ 10 + 1 * 0; omega), zero_add]
    exact congrArg (tileCnt _) (Fin.ext rfl)
  · rw [View.canon_cons_of_not_mem _ _ hm]
    refine CA2_11 c arg3 harg3 arg9 x1 y ?_
    by_contra hcon
    apply hm
    rw [Rect.mem_set_unit]
    intro b
    match b with
    | ⟨0, _⟩ => show 10 ≤ (y 0).val ∧ (y 0).val < 10 + 1; omega
    | ⟨1, _⟩ => show 0 ≤ (y 1).val ∧ (y 1).val < 0 + 1; have h1 : (y 1).val < 1 := (y 1).isLt; omega

theorem Cov2_13 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_13 (F := Ideal) c arg3 harg3 arg9 x1, y ∈ p.1.set := by
  unfold kernelRun0_A.sl.HS2_13
  intro y
  obtain ⟨p, hp, hy⟩ := Cov2_12 c arg3 harg3 arg9 x1 y
  exact ⟨p, List.mem_cons_of_mem _ hp, hy⟩
theorem Z2_13 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 12 ≤ (y 0).val → View.canon (kernelRun0_A.sl.HS2_13 (F := Ideal) c arg3 harg3 arg9 x1) y = 0 := by
  unfold kernelRun0_A.sl.HS2_13
  intro y hy
  rw [View.canon_cons_of_not_mem _ _ (fun hm => by
    rw [Rect.mem_set_unit] at hm
    have h0 : 11 ≤ (y 0).val ∧ (y 0).val < 11 + 1 := hm 0
    omega)]
  exact Z2_12 c arg3 harg3 arg9 x1 y (by omega)
set_option maxHeartbeats 4000000 in
theorem CA2_13 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 12 → View.canon (kernelRun0_A.sl.HS2_13 (F := Ideal) c arg3 harg3 arg9 x1) y = tileCnt (k0_pay4 (F := Ideal) x1) (y 0) := by
  unfold kernelRun0_A.sl.HS2_13
  intro y hy
  by_cases hm : y ∈ (Rect.unit (s := S16x1) ![11, 0] S1x1.size inb_S16x1_S1x1_11_0).set
  · obtain ⟨x, rfl⟩ := (Rect.unit (s := S16x1) ![11, 0] S1x1.size inb_S16x1_S1x1_11_0).exists_idx_of_mem hm
    rw [show (Rect.unit (s := S16x1) ![11, 0] S1x1.size inb_S16x1_S1x1_11_0).idx x = (Rect.unit (s := S16x1) ![11, 0] S1x1.size inb_S16x1_S1x1_11_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_21, kernelRun0_A.sl.r]
    simp only [View.readAt_eq_ld, harg3.read_unread, View.ld_unit_zero (S := S1x1x64x512) hz4]
    refine (Cert.KerIter11.acc9_11 _ _).trans ?_
    unfold kernelRun0_A.sl.v421
    rw [View.readCov_eq_canon_ld _ _ _ (Cov2_12 c arg3 harg3 arg9 x1)]
    dsimp only [View.ld]
    rw [Z2_12 c arg3 harg3 arg9 x1 _ (by show 11 ≤ 11 + 1 * 0; omega), zero_add]
    exact congrArg (tileCnt _) (Fin.ext rfl)
  · rw [View.canon_cons_of_not_mem _ _ hm]
    refine CA2_12 c arg3 harg3 arg9 x1 y ?_
    by_contra hcon
    apply hm
    rw [Rect.mem_set_unit]
    intro b
    match b with
    | ⟨0, _⟩ => show 11 ≤ (y 0).val ∧ (y 0).val < 11 + 1; omega
    | ⟨1, _⟩ => show 0 ≤ (y 1).val ∧ (y 1).val < 0 + 1; have h1 : (y 1).val < 1 := (y 1).isLt; omega

theorem Cov2_14 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_14 (F := Ideal) c arg3 harg3 arg9 x1, y ∈ p.1.set := by
  unfold kernelRun0_A.sl.HS2_14
  intro y
  obtain ⟨p, hp, hy⟩ := Cov2_13 c arg3 harg3 arg9 x1 y
  exact ⟨p, List.mem_cons_of_mem _ hp, hy⟩
theorem Z2_14 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 13 ≤ (y 0).val → View.canon (kernelRun0_A.sl.HS2_14 (F := Ideal) c arg3 harg3 arg9 x1) y = 0 := by
  unfold kernelRun0_A.sl.HS2_14
  intro y hy
  rw [View.canon_cons_of_not_mem _ _ (fun hm => by
    rw [Rect.mem_set_unit] at hm
    have h0 : 12 ≤ (y 0).val ∧ (y 0).val < 12 + 1 := hm 0
    omega)]
  exact Z2_13 c arg3 harg3 arg9 x1 y (by omega)
set_option maxHeartbeats 4000000 in
theorem CA2_14 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 13 → View.canon (kernelRun0_A.sl.HS2_14 (F := Ideal) c arg3 harg3 arg9 x1) y = tileCnt (k0_pay4 (F := Ideal) x1) (y 0) := by
  unfold kernelRun0_A.sl.HS2_14
  intro y hy
  by_cases hm : y ∈ (Rect.unit (s := S16x1) ![12, 0] S1x1.size inb_S16x1_S1x1_12_0).set
  · obtain ⟨x, rfl⟩ := (Rect.unit (s := S16x1) ![12, 0] S1x1.size inb_S16x1_S1x1_12_0).exists_idx_of_mem hm
    rw [show (Rect.unit (s := S16x1) ![12, 0] S1x1.size inb_S16x1_S1x1_12_0).idx x = (Rect.unit (s := S16x1) ![12, 0] S1x1.size inb_S16x1_S1x1_12_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_24, kernelRun0_A.sl.r]
    simp only [View.readAt_eq_ld, harg3.read_unread, View.ld_unit_zero (S := S1x1x64x512) hz4]
    refine (Cert.KerIter11.acc9_12 _ _).trans ?_
    unfold kernelRun0_A.sl.v455
    rw [View.readCov_eq_canon_ld _ _ _ (Cov2_13 c arg3 harg3 arg9 x1)]
    dsimp only [View.ld]
    rw [Z2_13 c arg3 harg3 arg9 x1 _ (by show 12 ≤ 12 + 1 * 0; omega), zero_add]
    exact congrArg (tileCnt _) (Fin.ext rfl)
  · rw [View.canon_cons_of_not_mem _ _ hm]
    refine CA2_13 c arg3 harg3 arg9 x1 y ?_
    by_contra hcon
    apply hm
    rw [Rect.mem_set_unit]
    intro b
    match b with
    | ⟨0, _⟩ => show 12 ≤ (y 0).val ∧ (y 0).val < 12 + 1; omega
    | ⟨1, _⟩ => show 0 ≤ (y 1).val ∧ (y 1).val < 0 + 1; have h1 : (y 1).val < 1 := (y 1).isLt; omega

theorem Cov2_15 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_15 (F := Ideal) c arg3 harg3 arg9 x1, y ∈ p.1.set := by
  unfold kernelRun0_A.sl.HS2_15
  intro y
  obtain ⟨p, hp, hy⟩ := Cov2_14 c arg3 harg3 arg9 x1 y
  exact ⟨p, List.mem_cons_of_mem _ hp, hy⟩
theorem Z2_15 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 14 ≤ (y 0).val → View.canon (kernelRun0_A.sl.HS2_15 (F := Ideal) c arg3 harg3 arg9 x1) y = 0 := by
  unfold kernelRun0_A.sl.HS2_15
  intro y hy
  rw [View.canon_cons_of_not_mem _ _ (fun hm => by
    rw [Rect.mem_set_unit] at hm
    have h0 : 13 ≤ (y 0).val ∧ (y 0).val < 13 + 1 := hm 0
    omega)]
  exact Z2_14 c arg3 harg3 arg9 x1 y (by omega)
set_option maxHeartbeats 4000000 in
theorem CA2_15 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 14 → View.canon (kernelRun0_A.sl.HS2_15 (F := Ideal) c arg3 harg3 arg9 x1) y = tileCnt (k0_pay4 (F := Ideal) x1) (y 0) := by
  unfold kernelRun0_A.sl.HS2_15
  intro y hy
  by_cases hm : y ∈ (Rect.unit (s := S16x1) ![13, 0] S1x1.size inb_S16x1_S1x1_13_0).set
  · obtain ⟨x, rfl⟩ := (Rect.unit (s := S16x1) ![13, 0] S1x1.size inb_S16x1_S1x1_13_0).exists_idx_of_mem hm
    rw [show (Rect.unit (s := S16x1) ![13, 0] S1x1.size inb_S16x1_S1x1_13_0).idx x = (Rect.unit (s := S16x1) ![13, 0] S1x1.size inb_S16x1_S1x1_13_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_27, kernelRun0_A.sl.r]
    simp only [View.readAt_eq_ld, harg3.read_unread, View.ld_unit_zero (S := S1x1x64x512) hz4]
    refine (Cert.KerIter11.acc9_13 _ _).trans ?_
    unfold kernelRun0_A.sl.v489
    rw [View.readCov_eq_canon_ld _ _ _ (Cov2_14 c arg3 harg3 arg9 x1)]
    dsimp only [View.ld]
    rw [Z2_14 c arg3 harg3 arg9 x1 _ (by show 13 ≤ 13 + 1 * 0; omega), zero_add]
    exact congrArg (tileCnt _) (Fin.ext rfl)
  · rw [View.canon_cons_of_not_mem _ _ hm]
    refine CA2_14 c arg3 harg3 arg9 x1 y ?_
    by_contra hcon
    apply hm
    rw [Rect.mem_set_unit]
    intro b
    match b with
    | ⟨0, _⟩ => show 13 ≤ (y 0).val ∧ (y 0).val < 13 + 1; omega
    | ⟨1, _⟩ => show 0 ≤ (y 1).val ∧ (y 1).val < 0 + 1; have h1 : (y 1).val < 1 := (y 1).isLt; omega

theorem Cov2_16 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_16 (F := Ideal) c arg3 harg3 arg9 x1, y ∈ p.1.set := by
  unfold kernelRun0_A.sl.HS2_16
  intro y
  obtain ⟨p, hp, hy⟩ := Cov2_15 c arg3 harg3 arg9 x1 y
  exact ⟨p, List.mem_cons_of_mem _ hp, hy⟩
theorem Z2_16 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 15 ≤ (y 0).val → View.canon (kernelRun0_A.sl.HS2_16 (F := Ideal) c arg3 harg3 arg9 x1) y = 0 := by
  unfold kernelRun0_A.sl.HS2_16
  intro y hy
  rw [View.canon_cons_of_not_mem _ _ (fun hm => by
    rw [Rect.mem_set_unit] at hm
    have h0 : 14 ≤ (y 0).val ∧ (y 0).val < 14 + 1 := hm 0
    omega)]
  exact Z2_15 c arg3 harg3 arg9 x1 y (by omega)
set_option maxHeartbeats 4000000 in
theorem CA2_16 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 15 → View.canon (kernelRun0_A.sl.HS2_16 (F := Ideal) c arg3 harg3 arg9 x1) y = tileCnt (k0_pay4 (F := Ideal) x1) (y 0) := by
  unfold kernelRun0_A.sl.HS2_16
  intro y hy
  by_cases hm : y ∈ (Rect.unit (s := S16x1) ![14, 0] S1x1.size inb_S16x1_S1x1_14_0).set
  · obtain ⟨x, rfl⟩ := (Rect.unit (s := S16x1) ![14, 0] S1x1.size inb_S16x1_S1x1_14_0).exists_idx_of_mem hm
    rw [show (Rect.unit (s := S16x1) ![14, 0] S1x1.size inb_S16x1_S1x1_14_0).idx x = (Rect.unit (s := S16x1) ![14, 0] S1x1.size inb_S16x1_S1x1_14_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_32, kernelRun0_A.sl.r]
    simp only [View.readAt_eq_ld, harg3.read_unread, View.ld_unit_zero (S := S1x1x64x512) hz4]
    refine (Cert.KerIter11.acc9_14 _ _).trans ?_
    unfold kernelRun0_A.sl.v523
    rw [View.readCov_eq_canon_ld _ _ _ (Cov2_15 c arg3 harg3 arg9 x1)]
    dsimp only [View.ld]
    rw [Z2_15 c arg3 harg3 arg9 x1 _ (by show 14 ≤ 14 + 1 * 0; omega), zero_add]
    exact congrArg (tileCnt _) (Fin.ext rfl)
  · rw [View.canon_cons_of_not_mem _ _ hm]
    refine CA2_15 c arg3 harg3 arg9 x1 y ?_
    by_contra hcon
    apply hm
    rw [Rect.mem_set_unit]
    intro b
    match b with
    | ⟨0, _⟩ => show 14 ≤ (y 0).val ∧ (y 0).val < 14 + 1; omega
    | ⟨1, _⟩ => show 0 ≤ (y 1).val ∧ (y 1).val < 0 + 1; have h1 : (y 1).val < 1 := (y 1).isLt; omega

theorem Cov2_17 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, ∃ p ∈ kernelRun0_A.sl.HS2_17 (F := Ideal) c arg3 harg3 arg9 x1, y ∈ p.1.set := by
  unfold kernelRun0_A.sl.HS2_17
  intro y
  obtain ⟨p, hp, hy⟩ := Cov2_16 c arg3 harg3 arg9 x1 y
  exact ⟨p, List.mem_cons_of_mem _ hp, hy⟩
theorem Z2_17 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, 16 ≤ (y 0).val → View.canon (kernelRun0_A.sl.HS2_17 (F := Ideal) c arg3 harg3 arg9 x1) y = 0 := by
  unfold kernelRun0_A.sl.HS2_17
  intro y hy
  rw [View.canon_cons_of_not_mem _ _ (fun hm => by
    rw [Rect.mem_set_unit] at hm
    have h0 : 15 ≤ (y 0).val ∧ (y 0).val < 15 + 1 := hm 0
    omega)]
  exact Z2_16 c arg3 harg3 arg9 x1 y (by omega)
set_option maxHeartbeats 4000000 in
theorem CA2_17 (c : Dev nD) (arg3 : Memref sig .tc .vmem S1x1x64x512 .i32) (harg3 : arg3.IsWhole) (arg9 : Memref sig .tc .vmem S16x1 .f32) (x1 : Vec Ideal S1x1x64x512 .i32) : ∀ y : S16x1.Idx, (y 0).val < 16 → View.canon (kernelRun0_A.sl.HS2_17 (F := Ideal) c arg3 harg3 arg9 x1) y = tileCnt (k0_pay4 (F := Ideal) x1) (y 0) := by
  unfold kernelRun0_A.sl.HS2_17
  intro y hy
  by_cases hm : y ∈ (Rect.unit (s := S16x1) ![15, 0] S1x1.size inb_S16x1_S1x1_15_0).set
  · obtain ⟨x, rfl⟩ := (Rect.unit (s := S16x1) ![15, 0] S1x1.size inb_S16x1_S1x1_15_0).exists_idx_of_mem hm
    rw [show (Rect.unit (s := S16x1) ![15, 0] S1x1.size inb_S16x1_S1x1_15_0).idx x = (Rect.unit (s := S16x1) ![15, 0] S1x1.size inb_S16x1_S1x1_15_0).emb x from rfl, View.canon_cons_emb]
    obtain ⟨a, q, rfl⟩ : ∃ (a : Fin 1) (q : Fin 1), x = ix2 a q := ⟨x 0, x 1, eq_ix2 x⟩
    obtain rfl : a = 0 := Subsingleton.elim _ _
    obtain rfl : q = 0 := Subsingleton.elim _ _
    simp only [kernelRun0_A.sl.r_35, kernelRun0_A.sl.r]
    simp only [View.readAt_eq_ld, harg3.read_unread, View.ld_unit_zero (S := S1x1x64x512) hz4]
    refine (Cert.KerIter11.acc9_15 _ _).trans ?_
    unfold kernelRun0_A.sl.v557
    rw [View.readCov_eq_canon_ld _ _ _ (Cov2_16 c arg3 harg3 arg9 x1)]
    dsimp only [View.ld]
    rw [Z2_16 c arg3 harg3 arg9 x1 _ (by show 15 ≤ 15 + 1 * 0; omega), zero_add]
    exact congrArg (tileCnt _) (Fin.ext rfl)
  · rw [View.canon_cons_of_not_mem _ _ hm]
    refine CA2_16 c arg3 harg3 arg9 x1 y ?_
    by_contra hcon
    apply hm
    rw [Rect.mem_set_unit]
    intro b
    match b with
    | ⟨0, _⟩ => show 15 ≤ (y 0).val ∧ (y 0).val < 15 + 1; omega
    | ⟨1, _⟩ => show 0 ≤ (y 1).val ∧ (y 1).val < 0 + 1; have h1 : (y 1).val < 1 := (y 1).isLt; omega

end Cert.KernelIdeal.Gen

end
-- ==== Proof.KiPieces.lean ====
/-
  What one grid point leaves in the accumulators, entry by entry.

  At a later row tile (the accumulators carried): entry `(s, k)` of the first accumulator is what the tile before left
  plus the tile's sum, over its pixels in blob `s`, of the class-`k` probability; of the second, the same sum of the
  log-probabilities; entry `(s, 0)` of the third, what was there plus the number of the tile's pixels in blob `s`.
  At a first row tile the same with zero in place of what was there.  The three outputs are copies of the accumulators.
-/
import proofs.«400420_j429496730161_3_alg».proof.Proof.KiPiecesA0c
import proofs.«400420_j429496730161_3_alg».proof.Proof.KiPiecesA1c
import proofs.«400420_j429496730161_3_alg».proof.Proof.KiPiecesA2b

set_option maxRecDepth 16384

noncomputable section

namespace Cert.KernelIdeal.Gen

open Idealize.ShloMosaic Idealize.ShloMosaic.TcCoe Idealize.ShloMosaic.Tactic Idealize.ShloMosaic.ValueIdx
open Cert.SegSpec Cert.KerTile

set_option maxHeartbeats 4000000 in
/-- A later tile, accumulator 0: every entry is what was there plus the tile's sum for its blob and class. -/
theorem sB0_apply (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i)
    (x0 : Vec Ideal S1x21x64x512 .f32) (x1 : Vec Ideal S1x1x64x512 .i32) (xs0 : Vec Ideal S16x21 .f32) (xs1 : Vec Ideal S16x21 .f32) (xs2 : Vec Ideal S16x1 .f32) (y : S16x21.Idx) :
    sout0_B_0 (F := Ideal) c i arg2 harg2 arg3 harg3 arg4 harg4 arg5 harg5 arg6 harg6 arg7 harg7 arg8 harg8 arg9 harg9 hc0 x0 x1 xs0 xs1 xs2 y
      = xs0 y + tileSum (k0_pay8 (F := Ideal) x0) (k0_pay4 (F := Ideal) x1) (y 0) (y 1) := by
  unfold sout0_B_0
  rw [View.read_writes_eq_canon _ _ _ (scover0_B_0 c i arg2 harg2 arg3 harg3 arg4 harg4 arg5 harg5 arg6 harg6 arg7 harg7 arg8 harg8 arg9 harg9 hc0 x0 x1 xs0 xs1 xs2)]
  refine View.canon_apply_of_pieces (fun y => xs0 y + tileSum (k0_pay8 (F := Ideal) x0) (k0_pay4 (F := Ideal) x1) (y 0) (y 1)) _ ?_ y
    (scover0_B_0 c i arg2 harg2 arg3 harg3 arg4 harg4 arg5 harg5 arg6 harg6 arg7 harg7 arg8 harg8 arg9 harg9 hc0 x0 x1 xs0 xs1 xs2 y)
  unfold kernelRun0_B
  dsimp only
  sl_unfold_words
  simp only [View.readAt_eq_ld, harg2.read_unread, harg3.read_unread, harg7.read_unread, harg8.read_unread, harg9.read_unread,
    View.ld_unit_zero (S := S1x21x64x512) hz4, View.ld_unit_zero (S := S1x1x64x512) hz4]
  intro p hp
  simp only [List.mem_cons, List.mem_nil_iff, or_false] at hp
  rcases hp with rfl | rfl | rfl | rfl | rfl | rfl | rfl | rfl | rfl | rfl | rfl | rfl | rfl | rfl | rfl | rfl
  · intro x
    obtain ⟨a, k, rfl⟩ : ∃ (a : Fin 1) (k : Fin 21), x = ix2 a k := ⟨x 0, x 1, eq_ix2 x⟩
    obtain rfl : a = 0 := Subsingleton.elim _ _
    refine (Cert.KerIter11.acc7_15 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter11.acc7_14 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter11.acc7_13 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter11.acc7_12 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter11.acc7_11 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter6.acc7_10 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter6.acc7_9 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter6.acc7_8 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter6.acc7_7 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter6.acc7_6 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter0.acc7_5 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter0.acc7_4 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter0.acc7_3 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter0.acc7_2 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter0.acc7_1 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter0.acc7_0 _ _ _ k).trans ?_
    refine congrArg₂ (· + ·) rfl ?_
    exact congrArg₂ (tileSum _ _) (Fin.ext rfl) (Fin.ext (by show k.val = 0 + 1 * k.val; omega))

set_option maxHeartbeats 4000000 in
/-- A later tile, accumulator 1: every entry is what was there plus the tile's sum for its blob and class. -/
theorem sB1_apply (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i)
    (x0 : Vec Ideal S1x21x64x512 .f32) (x1 : Vec Ideal S1x1x64x512 .i32) (xs0 : Vec Ideal S16x21 .f32) (xs1 : Vec Ideal S16x21 .f32) (xs2 : Vec Ideal S16x1 .f32) (y : S16x21.Idx) :
    sout0_B_1 (F := Ideal) c i arg2 harg2 arg3 harg3 arg4 harg4 arg5 harg5 arg6 harg6 arg7 harg7 arg8 harg8 arg9 harg9 hc0 x0 x1 xs0 xs1 xs2 y
      = xs1 y + tileSum (k0_pay9 (F := Ideal) x0) (k0_pay4 (F := Ideal) x1) (y 0) (y 1) := by
  unfold sout0_B_1
  rw [View.read_writes_eq_canon _ _ _ (scover0_B_1 c i arg2 harg2 arg3 harg3 arg4 harg4 arg5 harg5 arg6 harg6 arg7 harg7 arg8 harg8 arg9 harg9 hc0 x0 x1 xs0 xs1 xs2)]
  refine View.canon_apply_of_pieces (fun y => xs1 y + tileSum (k0_pay9 (F := Ideal) x0) (k0_pay4 (F := Ideal) x1) (y 0) (y 1)) _ ?_ y
    (scover0_B_1 c i arg2 harg2 arg3 harg3 arg4 harg4 arg5 harg5 arg6 harg6 arg7 harg7 arg8 harg8 arg9 harg9 hc0 x0 x1 xs0 xs1 xs2 y)
  unfold kernelRun0_B
  dsimp only
  sl_unfold_words
  simp only [View.readAt_eq_ld, harg2.read_unread, harg3.read_unread, harg7.read_unread, harg8.read_unread, harg9.read_unread,
    View.ld_unit_zero (S := S1x21x64x512) hz4, View.ld_unit_zero (S := S1x1x64x512) hz4]
  intro p hp
  simp only [List.mem_cons, List.mem_nil_iff, or_false] at hp
  rcases hp with rfl | rfl | rfl | rfl | rfl | rfl | rfl | rfl | rfl | rfl | rfl | rfl | rfl | rfl | rfl | rfl
  · intro x
    obtain ⟨a, k, rfl⟩ : ∃ (a : Fin 1) (k : Fin 21), x = ix2 a k := ⟨x 0, x 1, eq_ix2 x⟩
    obtain rfl : a = 0 := Subsingleton.elim _ _
    refine (Cert.KerIter11.acc8_15 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter11.acc8_14 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter11.acc8_13 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter11.acc8_12 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter11.acc8_11 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter6.acc8_10 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter6.acc8_9 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter6.acc8_8 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter6.acc8_7 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter6.acc8_6 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter0.acc8_5 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter0.acc8_4 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter0.acc8_3 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter0.acc8_2 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter0.acc8_1 _ _ _ k).trans ?_
    refine congrArg₂ (· + ·) rfl ?_
    exact congrArg₂ (tileSum _ _) (Fin.ext rfl) (Fin.ext (by show k.val = 0 + 1 * k.val; omega))
  · intro x
    obtain ⟨a, k, rfl⟩ : ∃ (a : Fin 1) (k : Fin 21), x = ix2 a k := ⟨x 0, x 1, eq_ix2 x⟩
    obtain rfl : a = 0 := Subsingleton.elim _ _
    refine (Cert.KerIter0.acc8_0 _ _ _ k).trans ?_
    refine congrArg₂ (· + ·) rfl ?_
    exact congrArg₂ (tileSum _ _) (Fin.ext rfl) (Fin.ext (by show k.val = 0 + 1 * k.val; omega))

set_option maxHeartbeats 4000000 in
/-- A later tile, accumulator 2: every entry is what was there plus the tile's count for its blob. -/
theorem sB2_apply (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i)
    (x0 : Vec Ideal S1x21x64x512 .f32) (x1 : Vec Ideal S1x1x64x512 .i32) (xs0 : Vec Ideal S16x21 .f32) (xs1 : Vec Ideal S16x21 .f32) (xs2 : Vec Ideal S16x1 .f32) (y : S16x1.Idx) :
    sout0_B_2 (F := Ideal) c i arg2 harg2 arg3 harg3 arg4 harg4 arg5 harg5 arg6 harg6 arg7 harg7 arg8 harg8 arg9 harg9 hc0 x0 x1 xs0 xs1 xs2 y
      = xs2 y + tileCnt (k0_pay4 (F := Ideal) x1) (y 0) := by
  unfold sout0_B_2
  rw [View.read_writes_eq_canon _ _ _ (scover0_B_2 c i arg2 harg2 arg3 harg3 arg4 harg4 arg5 harg5 arg6 harg6 arg7 harg7 arg8 harg8 arg9 harg9 hc0 x0 x1 xs0 xs1 xs2)]
  refine View.canon_apply_of_pieces (fun y => xs2 y + tileCnt (k0_pay4 (F := Ideal) x1) (y 0)) _ ?_ y
    (scover0_B_2 c i arg2 harg2 arg3 harg3 arg4 harg4 arg5 harg5 arg6 harg6 arg7 harg7 arg8 harg8 arg9 harg9 hc0 x0 x1 xs0 xs1 xs2 y)
  unfold kernelRun0_B
  dsimp only
  sl_unfold_words
  simp only [View.readAt_eq_ld, harg2.read_unread, harg3.read_unread, harg7.read_unread, harg8.read_unread, harg9.read_unread,
    View.ld_unit_zero (S := S1x21x64x512) hz4, View.ld_unit_zero (S := S1x1x64x512) hz4]
  intro p hp
  simp only [List.mem_cons, List.mem_nil_iff, or_false] at hp
  rcases hp with rfl | rfl | rfl | rfl | rfl | rfl | rfl | rfl | rfl | rfl | rfl | rfl | rfl | rfl | rfl | rfl
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter11.acc9_15 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter11.acc9_14 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter11.acc9_13 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter11.acc9_12 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter11.acc9_11 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter6.acc9_10 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter6.acc9_9 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter6.acc9_8 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter6.acc9_7 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter6.acc9_6 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter0.acc9_5 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter0.acc9_4 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter0.acc9_3 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter0.acc9_2 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter0.acc9_1 _ _).trans ?_
    refine congrArg₂ (· + ·) rfl ?_
    exact congrArg (tileCnt _) (Fin.ext rfl)
  · intro x
    obtain ⟨a, k, rfl⟩ : ∃ (a : Fin 1) (k : Fin 1), x = ix2 a k := ⟨x 0, x 1, eq_ix2 x⟩
    obtain rfl : a = 0 := Subsingleton.elim _ _
    obtain rfl : k = 0 := Subsingleton.elim _ _
    refine (Cert.KerIter0.acc9_0 _ _).trans ?_
    refine congrArg₂ (· + ·) rfl ?_
    exact congrArg (tileCnt _) (Fin.ext rfl)

set_option maxHeartbeats 4000000 in
/-- A first tile, accumulator 0: every entry is the tile's sum for its blob and class (what was there is overwritten by zero first). -/
theorem sA0_apply (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec Ideal S1x21x64x512 .f32) (x1 : Vec Ideal S1x1x64x512 .i32) (y : S16x21.Idx) :
    sout0_A_0 (F := Ideal) c i arg2 harg2 arg3 harg3 arg4 harg4 arg5 harg5 arg6 harg6 arg7 harg7 arg8 harg8 arg9 harg9 hc0 x0 x1 y = tileSum (k0_pay8 (F := Ideal) x0) (k0_pay4 (F := Ideal) x1) (y 0) (y 1) := by
  unfold sout0_A_0
  rw [View.read_writes_eq_canon _ _ _ (scover0_A_0 c i arg2 harg2 arg3 harg3 arg4 harg4 arg5 harg5 arg6 harg6 arg7 harg7 arg8 harg8 arg9 harg9 hc0 x0 x1)]
  unfold kernelRun0_A
  dsimp only
  exact CA0_17 c arg2 harg2 arg3 harg3 arg7 x0 x1 y (y 0).isLt

set_option maxHeartbeats 4000000 in
/-- A first tile, accumulator 1: every entry is the tile's sum for its blob and class (what was there is overwritten by zero first). -/
theorem sA1_apply (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec Ideal S1x21x64x512 .f32) (x1 : Vec Ideal S1x1x64x512 .i32) (y : S16x21.Idx) :
    sout0_A_1 (F := Ideal) c i arg2 harg2 arg3 harg3 arg4 harg4 arg5 harg5 arg6 harg6 arg7 harg7 arg8 harg8 arg9 harg9 hc0 x0 x1 y = tileSum (k0_pay9 (F := Ideal) x0) (k0_pay4 (F := Ideal) x1) (y 0) (y 1) := by
  unfold sout0_A_1
  rw [View.read_writes_eq_canon _ _ _ (scover0_A_1 c i arg2 harg2 arg3 harg3 arg4 harg4 arg5 harg5 arg6 harg6 arg7 harg7 arg8 harg8 arg9 harg9 hc0 x0 x1)]
  unfold kernelRun0_A
  dsimp only
  exact CA1_17 c arg2 harg2 arg3 harg3 arg8 x0 x1 y (y 0).isLt

set_option maxHeartbeats 4000000 in
/-- A first tile, accumulator 2: every entry is the tile's count for its blob (what was there is overwritten by zero first). -/
theorem sA2_apply (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec Ideal S1x21x64x512 .f32) (x1 : Vec Ideal S1x1x64x512 .i32) (y : S16x1.Idx) :
    sout0_A_2 (F := Ideal) c i arg2 harg2 arg3 harg3 arg4 harg4 arg5 harg5 arg6 harg6 arg7 harg7 arg8 harg8 arg9 harg9 hc0 x0 x1 y = tileCnt (k0_pay4 (F := Ideal) x1) (y 0) := by
  unfold sout0_A_2
  rw [View.read_writes_eq_canon _ _ _ (scover0_A_2 c i arg2 harg2 arg3 harg3 arg4 harg4 arg5 harg5 arg6 harg6 arg7 harg7 arg8 harg8 arg9 harg9 hc0 x0 x1)]
  unfold kernelRun0_A
  dsimp only
  exact CA2_17 c arg3 harg3 arg9 x1 y (y 0).isLt

set_option maxHeartbeats 4000000 in
/-- Output window 2 is a copy of accumulator 0. -/
theorem oB2_apply (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec Ideal S1x21x64x512 .f32) (x1 : Vec Ideal S1x1x64x512 .i32) (xs0 : Vec Ideal S16x21 .f32) (xs1 : Vec Ideal S16x21 .f32) (xs2 : Vec Ideal S16x1 .f32) (y : S1x16x21.Idx) :
    out0_B_2 (F := Ideal) c i arg2 harg2 arg3 harg3 arg4 harg4 arg5 harg5 arg6 harg6 arg7 harg7 arg8 harg8 arg9 harg9 hc0 x0 x1 xs0 xs1 xs2 y = sout0_B_0 (F := Ideal) c i arg2 harg2 arg3 harg3 arg4 harg4 arg5 harg5 arg6 harg6 arg7 harg7 arg8 harg8 arg9 harg9 hc0 x0 x1 xs0 xs1 xs2 (fun a => y a.succ) := by
  unfold out0_B_2 sout0_B_0
  rw [View.read_writes_eq_canon _ _ _ (cover0_B_2 c i arg2 harg2 arg3 harg3 arg4 harg4 arg5 harg5 arg6 harg6 arg7 harg7 arg8 harg8 arg9 harg9 hc0 x0 x1 xs0 xs1 xs2), View.read_writes_eq_canon _ _ _ (scover0_B_0 c i arg2 harg2 arg3 harg3 arg4 harg4 arg5 harg5 arg6 harg6 arg7 harg7 arg8 harg8 arg9 harg9 hc0 x0 x1 xs0 xs1 xs2)]
  have hc := scover0_B_0 (F := Ideal) c i arg2 harg2 arg3 harg3 arg4 harg4 arg5 harg5 arg6 harg6 arg7 harg7 arg8 harg8 arg9 harg9 hc0 x0 x1 xs0 xs1 xs2
  revert hc
  unfold kernelRun0_B
  dsimp only
  intro hc
  rw [View.canon_unit_zero hz3]
  unfold kernelRun0_B.sl.v563
  rw [View.readCov_eq_canon_ld _ _ _ hc, View.ld_unit_zero (S := S16x21) hz2]
  unfold k0_pay118
  exact shapeCast_addUnit_apply _ _ _ y

set_option maxHeartbeats 4000000 in
/-- Output window 3 is a copy of accumulator 1. -/
theorem oB3_apply (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec Ideal S1x21x64x512 .f32) (x1 : Vec Ideal S1x1x64x512 .i32) (xs0 : Vec Ideal S16x21 .f32) (xs1 : Vec Ideal S16x21 .f32) (xs2 : Vec Ideal S16x1 .f32) (y : S1x16x21.Idx) :
    out0_B_3 (F := Ideal) c i arg2 harg2 arg3 harg3 arg4 harg4 arg5 harg5 arg6 harg6 arg7 harg7 arg8 harg8 arg9 harg9 hc0 x0 x1 xs0 xs1 xs2 y = sout0_B_1 (F := Ideal) c i arg2 harg2 arg3 harg3 arg4 harg4 arg5 harg5 arg6 harg6 arg7 harg7 arg8 harg8 arg9 harg9 hc0 x0 x1 xs0 xs1 xs2 (fun a => y a.succ) := by
  unfold out0_B_3 sout0_B_1
  rw [View.read_writes_eq_canon _ _ _ (cover0_B_3 c i arg2 harg2 arg3 harg3 arg4 harg4 arg5 harg5 arg6 harg6 arg7 harg7 arg8 harg8 arg9 harg9 hc0 x0 x1 xs0 xs1 xs2), View.read_writes_eq_canon _ _ _ (scover0_B_1 c i arg2 harg2 arg3 harg3 arg4 harg4 arg5 harg5 arg6 harg6 arg7 harg7 arg8 harg8 arg9 harg9 hc0 x0 x1 xs0 xs1 xs2)]
  have hc := scover0_B_1 (F := Ideal) c i arg2 harg2 arg3 harg3 arg4 harg4 arg5 harg5 arg6 harg6 arg7 harg7 arg8 harg8 arg9 harg9 hc0 x0 x1 xs0 xs1 xs2
  revert hc
  unfold kernelRun0_B
  dsimp only
  intro hc
  rw [View.canon_unit_zero hz3]
  unfold kernelRun0_B.sl.v567
  rw [View.readCov_eq_canon_ld _ _ _ hc, View.ld_unit_zero (S := S16x21) hz2]
  unfold k0_pay119
  exact shapeCast_addUnit_apply _ _ _ y

set_option maxHeartbeats 4000000 in
/-- Output window 4 is a copy of accumulator 2. -/
theorem oB4_apply (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : ¬cond0_0 i) (x0 : Vec Ideal S1x21x64x512 .f32) (x1 : Vec Ideal S1x1x64x512 .i32) (xs0 : Vec Ideal S16x21 .f32) (xs1 : Vec Ideal S16x21 .f32) (xs2 : Vec Ideal S16x1 .f32) (y : S1x16x1.Idx) :
    out0_B_4 (F := Ideal) c i arg2 harg2 arg3 harg3 arg4 harg4 arg5 harg5 arg6 harg6 arg7 harg7 arg8 harg8 arg9 harg9 hc0 x0 x1 xs0 xs1 xs2 y = sout0_B_2 (F := Ideal) c i arg2 harg2 arg3 harg3 arg4 harg4 arg5 harg5 arg6 harg6 arg7 harg7 arg8 harg8 arg9 harg9 hc0 x0 x1 xs0 xs1 xs2 (fun a => y a.succ) := by
  unfold out0_B_4 sout0_B_2
  rw [View.read_writes_eq_canon _ _ _ (cover0_B_4 c i arg2 harg2 arg3 harg3 arg4 harg4 arg5 harg5 arg6 harg6 arg7 harg7 arg8 harg8 arg9 harg9 hc0 x0 x1 xs0 xs1 xs2), View.read_writes_eq_canon _ _ _ (scover0_B_2 c i arg2 harg2 arg3 harg3 arg4 harg4 arg5 harg5 arg6 harg6 arg7 harg7 arg8 harg8 arg9 harg9 hc0 x0 x1 xs0 xs1 xs2)]
  have hc := scover0_B_2 (F := Ideal) c i arg2 harg2 arg3 harg3 arg4 harg4 arg5 harg5 arg6 harg6 arg7 harg7 arg8 harg8 arg9 harg9 hc0 x0 x1 xs0 xs1 xs2
  revert hc
  unfold kernelRun0_B
  dsimp only
  intro hc
  rw [View.canon_unit_zero hz3]
  unfold kernelRun0_B.sl.v571
  rw [View.readCov_eq_canon_ld _ _ _ hc, View.ld_unit_zero (S := S16x1) hz2]
  unfold k0_pay120
  exact shapeCast_addUnit_apply _ _ _ y

set_option maxHeartbeats 4000000 in
/-- Output window 2 is a copy of accumulator 0. -/
theorem oA2_apply (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec Ideal S1x21x64x512 .f32) (x1 : Vec Ideal S1x1x64x512 .i32) (y : S1x16x21.Idx) :
    out0_A_2 (F := Ideal) c i arg2 harg2 arg3 harg3 arg4 harg4 arg5 harg5 arg6 harg6 arg7 harg7 arg8 harg8 arg9 harg9 hc0 x0 x1 y = sout0_A_0 (F := Ideal) c i arg2 harg2 arg3 harg3 arg4 harg4 arg5 harg5 arg6 harg6 arg7 harg7 arg8 harg8 arg9 harg9 hc0 x0 x1 (fun a => y a.succ) := by
  unfold out0_A_2 sout0_A_0
  rw [View.read_writes_eq_canon _ _ _ (cover0_A_2 c i arg2 harg2 arg3 harg3 arg4 harg4 arg5 harg5 arg6 harg6 arg7 harg7 arg8 harg8 arg9 harg9 hc0 x0 x1), View.read_writes_eq_canon _ _ _ (scover0_A_0 c i arg2 harg2 arg3 harg3 arg4 harg4 arg5 harg5 arg6 harg6 arg7 harg7 arg8 harg8 arg9 harg9 hc0 x0 x1)]
  have hc := scover0_A_0 (F := Ideal) c i arg2 harg2 arg3 harg3 arg4 harg4 arg5 harg5 arg6 harg6 arg7 harg7 arg8 harg8 arg9 harg9 hc0 x0 x1
  revert hc
  unfold kernelRun0_A
  dsimp only
  intro hc
  rw [View.canon_unit_zero hz3]
  unfold kernelRun0_A.sl.v563
  rw [View.readCov_eq_canon_ld _ _ _ hc, View.ld_unit_zero (S := S16x21) hz2]
  unfold k0_pay118
  exact shapeCast_addUnit_apply _ _ _ y

set_option maxHeartbeats 4000000 in
/-- Output window 3 is a copy of accumulator 1. -/
theorem oA3_apply (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec Ideal S1x21x64x512 .f32) (x1 : Vec Ideal S1x1x64x512 .i32) (y : S1x16x21.Idx) :
    out0_A_3 (F := Ideal) c i arg2 harg2 arg3 harg3 arg4 harg4 arg5 harg5 arg6 harg6 arg7 harg7 arg8 harg8 arg9 harg9 hc0 x0 x1 y = sout0_A_1 (F := Ideal) c i arg2 harg2 arg3 harg3 arg4 harg4 arg5 harg5 arg6 harg6 arg7 harg7 arg8 harg8 arg9 harg9 hc0 x0 x1 (fun a => y a.succ) := by
  unfold out0_A_3 sout0_A_1
  rw [View.read_writes_eq_canon _ _ _ (cover0_A_3 c i arg2 harg2 arg3 harg3 arg4 harg4 arg5 harg5 arg6 harg6 arg7 harg7 arg8 harg8 arg9 harg9 hc0 x0 x1), View.read_writes_eq_canon _ _ _ (scover0_A_1 c i arg2 harg2 arg3 harg3 arg4 harg4 arg5 harg5 arg6 harg6 arg7 harg7 arg8 harg8 arg9 harg9 hc0 x0 x1)]
  have hc := scover0_A_1 (F := Ideal) c i arg2 harg2 arg3 harg3 arg4 harg4 arg5 harg5 arg6 harg6 arg7 harg7 arg8 harg8 arg9 harg9 hc0 x0 x1
  revert hc
  unfold kernelRun0_A
  dsimp only
  intro hc
  rw [View.canon_unit_zero hz3]
  unfold kernelRun0_A.sl.v567
  rw [View.readCov_eq_canon_ld _ _ _ hc, View.ld_unit_zero (S := S16x21) hz2]
  unfold k0_pay119
  exact shapeCast_addUnit_apply _ _ _ y

set_option maxHeartbeats 4000000 in
/-- Output window 4 is a copy of accumulator 2. -/
theorem oA4_apply (c : Dev nD) (i : grid0.Coords) (arg2 : Memref sig .tc .vmem S1x21x64x512 .f32) (harg2 : arg2.IsWhole) (arg3 : Memref sig .tc .vmem S1x1x64x512 .i32) (harg3 : arg3.IsWhole) (arg4 : Memref sig .tc .vmem S1x16x21 .f32) (harg4 : arg4.IsWhole) (arg5 : Memref sig .tc .vmem S1x16x21 .f32) (harg5 : arg5.IsWhole) (arg6 : Memref sig .tc .vmem S1x16x1 .f32) (harg6 : arg6.IsWhole) (arg7 : Memref sig .tc .vmem S16x21 .f32) (harg7 : arg7.IsWhole) (arg8 : Memref sig .tc .vmem S16x21 .f32) (harg8 : arg8.IsWhole) (arg9 : Memref sig .tc .vmem S16x1 .f32) (harg9 : arg9.IsWhole) (hc0 : cond0_0 i) (x0 : Vec Ideal S1x21x64x512 .f32) (x1 : Vec Ideal S1x1x64x512 .i32) (y : S1x16x1.Idx) :
    out0_A_4 (F := Ideal) c i arg2 harg2 arg3 harg3 arg4 harg4 arg5 harg5 arg6 harg6 arg7 harg7 arg8 harg8 arg9 harg9 hc0 x0 x1 y = sout0_A_2 (F := Ideal) c i arg2 harg2 arg3 harg3 arg4 harg4 arg5 harg5 arg6 harg6 arg7 harg7 arg8 harg8 arg9 harg9 hc0 x0 x1 (fun a => y a.succ) := by
  unfold out0_A_4 sout0_A_2
  rw [View.read_writes_eq_canon _ _ _ (cover0_A_4 c i arg2 harg2 arg3 harg3 arg4 harg4 arg5 harg5 arg6 harg6 arg7 harg7 arg8 harg8 arg9 harg9 hc0 x0 x1), View.read_writes_eq_canon _ _ _ (scover0_A_2 c i arg2 harg2 arg3 harg3 arg4 harg4 arg5 harg5 arg6 harg6 arg7 harg7 arg8 harg8 arg9 harg9 hc0 x0 x1)]
  have hc := scover0_A_2 (F := Ideal) c i arg2 harg2 arg3 harg3 arg4 harg4 arg5 harg5 arg6 harg6 arg7 harg7 arg8 harg8 arg9 harg9 hc0 x0 x1
  revert hc
  unfold kernelRun0_A
  dsimp only
  intro hc
  rw [View.canon_unit_zero hz3]
  unfold kernelRun0_A.sl.v571
  rw [View.readCov_eq_canon_ld _ _ _ hc, View.ld_unit_zero (S := S16x1) hz2]
  unfold k0_pay120
  exact shapeCast_addUnit_apply _ _ _ y

end Cert.KernelIdeal.Gen

end
-- ==== Proof.Rows.lean ====
/-
  A sample's 512 rows as 8 tiles of 64: row `th` of tile `h` is row `64 h + th`, and a sum over the tiles and,
  within each, over its rows is the sum over all rows.
-/
import Mathlib.Algebra.BigOperators.Fin
import Mathlib.Algebra.BigOperators.Group.Finset.Basic
import Mathlib.Logic.Equiv.Fin.Basic
import Mathlib.Data.Fintype.BigOperators

namespace Cert.SegSpec

/-- Row `th` of row tile `h`. -/
def rowOf (h : Fin 8) (th : Fin 64) : Fin 512 := ⟨64 * h.val + th.val, by have := h.isLt; have := th.isLt; omega⟩

/-- Tiles and rows within a tile enumerate the rows. -/
def rowEquiv : Fin 8 × Fin 64 ≃ Fin 512 where
  toFun p := rowOf p.1 p.2
  invFun y := (⟨y.val / 64, by have := y.isLt; omega⟩, ⟨y.val % 64, Nat.mod_lt _ (by decide)⟩)
  left_inv p := by
    obtain ⟨h, th⟩ := p
    have := h.isLt; have := th.isLt
    simp only [rowOf, Prod.mk.injEq]
    exact ⟨Fin.ext (by show (64 * h.val + th.val) / 64 = h.val; omega), Fin.ext (by show (64 * h.val + th.val) % 64 = th.val; omega)⟩
  right_inv y := by
    have := y.isLt
    exact Fin.ext (by show 64 * (y.val / 64) + y.val % 64 = y.val; omega)

/-- A sum over the tiles and the rows of each is the sum over all rows. -/
theorem sum_rows {M : Type*} [AddCommMonoid M] (f : Fin 512 → M) :
    ∑ h : Fin 8, ∑ th : Fin 64, f (rowOf h th) = ∑ y : Fin 512, f y := by
  rw [← Fintype.sum_prod_type' (f := fun h th => f (rowOf h th))]
  exact Equiv.sum_comp rowEquiv f

end Cert.SegSpec
-- ==== Proof.KiBlocks.lean ====
/-
  The kernel's input blocks read at a pixel.

  Grid point `t` of the 8 x 8 grid is row tile `t % 8` of sample `t / 8`.  Its score block is the 21 classes of
  rows `64 (t % 8) … 64 (t % 8) + 63` of that sample, its blob-id block the blob ids of the same rows: entry
  `(0, c, th, w)` of the block is entry `(t / 8, c, 64 (t % 8) + th, w)` of the array.
-/
import proofs.«400420_j429496730161_3_alg».proof.Proof.KiRuns
import Idealize.ShloMosaic.Lib.ValueIdx
import proofs.«400420_j429496730161_3_alg».proof.Proof.Rows

set_option maxRecDepth 16384

noncomputable section

namespace Cert.KernelIdeal.Gen

open Idealize.ShloMosaic Idealize.ShloMosaic.TcCoe Idealize.ShloMosaic.ValueIdx Cert.SegSpec
open Idealize.ShloMosaic.Pipeline (Dat Cfg Window)

variable {F : FTy → Type} [FloatOps F]
variable (m : (ℓ : Loc nD τ sig) → Buf (Elt F) ℓ)

/-- The sample of grid point `t`. -/
def ptN (t : Fin cfg0.N) : Fin 8 := ⟨t.val / 8, by have : t.val < 64 := lt_of_lt_of_eq t.isLt (show cfg0.N = 64 from N_0); omega⟩
/-- The row tile of grid point `t`. -/
def ptH (t : Fin cfg0.N) : Fin 8 := ⟨t.val % 8, Nat.mod_lt _ (by decide)⟩

/-- Where the windows' blocks sit, decided over the grid. -/
theorem idx_facts0 : ∀ t : Fin cfg0.N, win0_0.index t (0 : Fin 4) = t.val / 8 ∧ win0_0.index t (1 : Fin 4) = 0
    ∧ win0_0.index t (2 : Fin 4) = t.val % 8 ∧ win0_0.index t (3 : Fin 4) = 0 :=
  (by decide +kernel : ∀ t : Fin grid0.N, _)
theorem idx_facts1 : ∀ t : Fin cfg0.N, win0_1.index t (0 : Fin 4) = t.val / 8 ∧ win0_1.index t (1 : Fin 4) = 0
    ∧ win0_1.index t (2 : Fin 4) = t.val % 8 ∧ win0_1.index t (3 : Fin 4) = 0 :=
  (by decide +kernel : ∀ t : Fin grid0.N, _)
theorem idx_facts2 : ∀ t : Fin cfg0.N, win0_2.index t (0 : Fin 3) = t.val / 8 ∧ win0_2.index t (1 : Fin 3) = 0
    ∧ win0_2.index t (2 : Fin 3) = 0 :=
  (by decide +kernel : ∀ t : Fin grid0.N, _)
theorem idx_facts3 : ∀ t : Fin cfg0.N, win0_3.index t (0 : Fin 3) = t.val / 8 ∧ win0_3.index t (1 : Fin 3) = 0
    ∧ win0_3.index t (2 : Fin 3) = 0 :=
  (by decide +kernel : ∀ t : Fin grid0.N, _)
theorem idx_facts4 : ∀ t : Fin cfg0.N, win0_4.index t (0 : Fin 3) = t.val / 8 ∧ win0_4.index t (1 : Fin 3) = 0
    ∧ win0_4.index t (2 : Fin 3) = 0 :=
  (by decide +kernel : ∀ t : Fin grid0.N, _)

/-- The score block at a pixel. -/
theorem iblk0_apply (c : Dev nD) (t : Fin cfg0.N) (k : Fin 21) (th : Fin 64) (w : Fin 512) :
    iblk m c 0 t (ix4 (0 : Fin 1) k th w) = V m c main_arg0 (ix4 (ptN t) k (rowOf (ptH t) th) w) := by
  unfold iblk
  show V m c main_arg0 (((cfg0.win 0).blk t).view.emb (ix4 (0 : Fin 1) k th w)) = V m c main_arg0 _
  congr 1
  funext a
  obtain ⟨h0, h1, h2, h3⟩ := idx_facts0 t
  match a with
  | ⟨0, _⟩ => exact Fin.ext (by show win0_0.index t (0 : Fin 4) * 1 + 1 * 0 = t.val / 8; omega)
  | ⟨1, _⟩ => exact Fin.ext (by show win0_0.index t (1 : Fin 4) * 21 + 1 * k.val = k.val; omega)
  | ⟨2, _⟩ => exact Fin.ext (by show win0_0.index t (2 : Fin 4) * 64 + 1 * th.val = 64 * (t.val % 8) + th.val; omega)
  | ⟨3, _⟩ => exact Fin.ext (by show win0_0.index t (3 : Fin 4) * 512 + 1 * w.val = w.val; omega)

/-- The blob-id block at a pixel. -/
theorem iblk1_apply (c : Dev nD) (t : Fin cfg0.N) (th : Fin 64) (w : Fin 512) :
    iblk m c 1 t (ix4 (0 : Fin 1) (0 : Fin 1) th w) = V m c main_arg1 (ix4 (ptN t) (0 : Fin 1) (rowOf (ptH t) th) w) := by
  unfold iblk
  show V m c main_arg1 (((cfg0.win 1).blk t).view.emb (ix4 (0 : Fin 1) (0 : Fin 1) th w)) = V m c main_arg1 _
  congr 1
  funext a
  obtain ⟨h0, h1, h2, h3⟩ := idx_facts1 t
  match a with
  | ⟨0, _⟩ => exact Fin.ext (by show win0_1.index t (0 : Fin 4) * 1 + 1 * 0 = t.val / 8; omega)
  | ⟨1, _⟩ => exact Fin.ext (by show win0_1.index t (1 : Fin 4) * 1 + 1 * 0 = 0; omega)
  | ⟨2, _⟩ => exact Fin.ext (by show win0_1.index t (2 : Fin 4) * 64 + 1 * th.val = 64 * (t.val % 8) + th.val; omega)
  | ⟨3, _⟩ => exact Fin.ext (by show win0_1.index t (3 : Fin 4) * 512 + 1 * w.val = w.val; omega)

end Cert.KernelIdeal.Gen

end
-- ==== Proof.KerSoft.lean ====
/-
  The softmax values of one tile, read at a pixel.

  A tile holds, for each of its 64 x 512 pixels, a column of 21 class scores `x`.  The tile's arithmetic
  takes the largest score `M` of each column, the shifted scores `x c - M`, their exponentials, the sum
  `D` of those over the 21 classes, the quotients `exp (x c - M) / D` and the differences
  `(x c - M) - log D`.  Read at class `c` and pixel `(th, w)`, the last two are the specification's
  `smProb` and `smLogp` of that pixel's column.  Nothing here needs the scores finite: the formulas
  are the specification's own, and the work is reading each layout step at an index and the two
  reductions over the class axis as a maximum and a sum over `Fin 21`.
-/
import proofs.«400420_j429496730161_3_alg».proof.Proof.Spec
import proofs.«400420_j429496730161_3_alg».proof.Proof.Gen.KernelIdeal.Skeleton
import Idealize.ShloMosaic.PureOps.Ideal.Laws
import Idealize.ShloMosaic.Lib.ValueLayout

noncomputable section

namespace Cert.KerSoft

open Cert.SegSpec Cert.KernelIdeal Cert.KernelIdeal.Gen Idealize.ShloMosaic Idealize.ShloMosaic.ValueIdx

/-! ## Layout steps read at an index given by coordinates -/

/-- A `[1, 1, a, b]` array cast to `[a, b]` reads, at `(i, j)`, the operand at `(0, 0, i, j)`: both
    row-major positions are `i * b + j`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A `[1, a, b]` array broadcast to `[m, a, b]` reads, at `(k, i, j)`, the operand's one slab at
    `(0, i, j)`: the unit axis reads coordinate `0`, the other two their own coordinate (which is `0`
    too when that axis has extent one). -/
theorem broadcastTo_1ab_mab_apply {α : Type} {m a b : ℕ} (v : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Over a reduction of the leading axis of an `[m, a, b]` array, the source index above `(i, j)` with
    coordinate `k` on the reduced axis is `(k, i, j)`. -/
theorem lift0_ix2 {m a b : ℕ} (h : (⟨3, ![m, a, b]⟩ : Shape).Reduces [0] ⟨2, ![a, b]⟩)
    (i : Fin a) (j : Fin b) (k : Fin m) : h.lift (ix2 i j) k = ix3 k i j := by
  funext c
  apply Fin.ext
  match c with
  | ⟨0, _⟩ => rfl
  | ⟨1, _⟩ => rfl
  | ⟨2, _⟩ => rfl

/-! ## The maximum over the classes -/

/-- The pattern the maximum starts from denotes the least extended real. -/
theorem ofBits_negInf_f32 : Ideal.ofBits .f32 0xFF800000#32 = (⊥ : EReal) := by
  simp [Ideal.ofBits, Ideal.ieee]

/-- The fold of `max` from `⊥` over the 21 classes is the column's largest score. -/
theorem fold_max_bot (col : Fin 21 → EReal) :
    (Finset.univ : Finset (Fin 21)).fold max (⊥ : EReal) col = colMax col :=
  (Finset.sup'_eq_sup (s := (Finset.univ : Finset (Fin 21))) ⟨0, Finset.mem_univ _⟩ col).symm

/-- The column of the 21 scores of pixel `(th, w)` of the tile. -/
def tcol (v3 : Vec Ideal S1x21x64x512 .f32) (th : Fin 64) (w : Fin 512) : Fin 21 → EReal :=
  fun c' => v3 (ix4 (0 : Fin 1) c' th w)

/-- The largest score of pixel `(th, w)`: the reduction by `max` over the leading axis of a `[21, 64, 512]`
    block, started from `-∞`, is the supremum of the pixel's 21 values. -/
theorem max0_apply (v : FVec Ideal S21x64x512 .f32) (h : S21x64x512.Reduces [0] S64x512) (hφ : FKind.Formats .f32)
    (hacc : (0xFF800000#32 : BitVec 32) = FKind.maximumf.neutral .f32 hφ) (th : Fin 64) (w : Fin 512) :
    multiReduction .maximumf [0] S64x512 v 0xFF800000#32 h hφ hacc (ix2 th w)
      = colMax (fun c' : Fin 21 => v (ix3 c' th w)) := by
  refine (Ideal.multiReduction_maximumf_single v _ h hφ hacc (ix2 th w)).trans ?_
  have hf : (v ∘ h.lift (ix2 th w)) = fun c' : Fin 21 => v (ix3 c' th w) :=
    funext fun c' => congrArg v (lift0_ix2 h th w c')
  show (Finset.univ : Finset (Fin 21)).fold max (Ideal.ofBits .f32 0xFF800000#32) (v ∘ h.lift (ix2 th w)) = _
  rw [hf, ofBits_negInf_f32]
  exact fold_max_bot _

/-! ## The sum over the classes -/

/-- The reduction by `+` over the leading axis of a `[21, 64, 512]` block, at pixel `(th, w)`, is the sum of the
    pixel's 21 values. -/
theorem sum0_apply (v : FVec Ideal S21x64x512 .f32) (h : S21x64x512.Reduces [0] S64x512) (hφ : FKind.Formats .f32)
    (hacc : (0x00000000#32 : BitVec 32) = FKind.add.neutral .f32 hφ) (th : Fin 64) (w : Fin 512) :
    multiReduction .add [0] S64x512 v 0x00000000#32 h hφ hacc (ix2 th w) = ∑ c' : Fin 21, v (ix3 c' th w) := by
  refine (Ideal.multiReduction_add_single v _ h hφ hacc (ix2 th w)).trans ?_
  exact Finset.sum_congr rfl fun c' _ => congrArg v (lift0_ix2 h th w c')

/-! ## The tile's payloads at a pixel -/

/-- The blob-id block with its two unit axes dropped reads the block at `(0, 0, th, w)`. -/
theorem tile_blob (v5 : Vec Ideal S1x1x64x512 .i32) (th : Fin 64) (w : Fin 512) :
    k0_pay4 (F := Ideal) v5 (ix2 th w) = v5 (ix4 (0 : Fin 1) (0 : Fin 1) th w) := by
  unfold k0_pay4
  exact shapeCast_11ab_ab_apply v5 _ th w

/-- The score block with its unit axis dropped reads the block at `(0, c, th, w)`. -/
theorem v4_apply (v3 : Vec Ideal S1x21x64x512 .f32) (c : Fin 21) (th : Fin 64) (w : Fin 512) :
    shapeCast S21x64x512 v3 shapeCasts_S1x21x64x512_S21x64x512 (ix3 c th w) = tcol v3 th w c :=
  shapeCast_1abc_abc_apply v3 _ c th w

/-- The shifted score `x c - M` of class `c` at pixel `(th, w)`. -/
theorem pay5_apply (v3 : Vec Ideal S1x21x64x512 .f32) (c : Fin 21) (th : Fin 64) (w : Fin 512) :
    k0_pay5 (F := Ideal) v3 (ix3 c th w) = tcol v3 th w c - colMax (tcol v3 th w) := by
  unfold k0_pay5
  refine (subf_apply _ _ _).trans ?_
  rw [v4_apply, broadcastTo_1ab_mab_apply, shapeCast_ab_1ab_apply]
  exact congrArg (fun m => tcol v3 th w c - m)
    ((max0_apply _ _ _ _ th w).trans (congrArg colMax (funext fun c' => v4_apply v3 c' th w)))

/-- The exponential of the shifted score. -/
theorem pay6_apply (v3 : Vec Ideal S1x21x64x512 .f32) (c : Fin 21) (th : Fin 64) (w : Fin 512) :
    k0_pay6 (F := Ideal) v3 (ix3 c th w) = Ideal.exp (tcol v3 th w c - colMax (tcol v3 th w)) := by
  unfold k0_pay6
  exact congrArg Ideal.exp (pay5_apply v3 c th w)

/-- The softmax denominator of pixel `(th, w)`, at the one coordinate of its unit axis: the sum over the 21
    classes of the exponentials of the shifted scores. -/
theorem pay7_apply (v3 : Vec Ideal S1x21x64x512 .f32) (u : Fin 1) (th : Fin 64) (w : Fin 512) :
    k0_pay7 (F := Ideal) v3 (ix3 u th w) = colDen (tcol v3 th w) := by
  unfold k0_pay7
  refine (shapeCast_ab_1ab_apply _ _ u th w).trans ?_
  refine (sum0_apply _ _ _ _ th w).trans ?_
  exact Finset.sum_congr rfl fun c' _ => pay6_apply v3 c' th w

/-- The tile's probability of class `c` at pixel `(th, w)` is the softmax probability of that pixel's column:
    the exponential of the shifted score over the denominator. -/
theorem tile_prob (v3 : Vec Ideal S1x21x64x512 .f32) (c : Fin 21) (th : Fin 64) (w : Fin 512) :
    k0_pay8 (F := Ideal) v3 (ix3 c th w) = smProb (fun c' : Fin 21 => v3 (ix4 (0 : Fin 1) c' th w)) c := by
  unfold k0_pay8
  refine (divf_apply _ _ _).trans ?_
  rw [broadcastTo_1ab_mab_apply, pay6_apply, pay7_apply]
  rfl

/-- The tile's log-probability of class `c` at pixel `(th, w)` is that column's, in the shifted form: the shifted
    score minus the logarithm of the denominator. -/
theorem tile_logp (v3 : Vec Ideal S1x21x64x512 .f32) (c : Fin 21) (th : Fin 64) (w : Fin 512) :
    k0_pay9 (F := Ideal) v3 (ix3 c th w) = smLogp (fun c' : Fin 21 => v3 (ix4 (0 : Fin 1) c' th w)) c := by
  unfold k0_pay9
  refine (subf_apply _ _ _).trans ?_
  rw [broadcastTo_1ab_mab_apply, pay5_apply]
  show _ - Ideal.log (k0_pay7 v3 (ix3 (0 : Fin 1) th w)) = _
  rw [pay7_apply]
  rfl

end Cert.KerSoft

end
-- ==== Proof.KiAcc.lean ====
/-
  What the kernel's accumulators hold at the last row tile of a sample, and that its outputs are copies of them.

  The grid's 64 points run through the samples one after another, eight row tiles each.  The first tile of a sample
  overwrites the three accumulators with its own contribution; each later tile adds its contribution to what the tile
  before left.  So after point `n` an accumulator entry is the sum of the contributions of the tiles `n - n % 8 … n`,
  and at the sample's last tile (`n % 8 = 7`) that is the sum over all eight tiles: over the sample's 512 rows and 512
  columns, of the pixel's class-`k` probability (or log-probability, or of one) over the pixels whose blob id is `s` —
  the specification's `sumsAt`, `slogpAt` and `cntAt`.  At every point each output block is its accumulator with a
  unit axis in front.
-/
import proofs.«400420_j429496730161_3_alg».proof.Proof.KiPieces
import proofs.«400420_j429496730161_3_alg».proof.Proof.KiBlocks
import proofs.«400420_j429496730161_3_alg».proof.Proof.KerSoft
import proofs.«400420_j429496730161_3_alg».proof.Proof.KerSpec
import proofs.«400420_j429496730161_3_alg».proof.Proof.Rows
import Mathlib.Algebra.BigOperators.Intervals
import Mathlib.Algebra.BigOperators.Fin
import Mathlib.Order.Interval.Finset.Nat

set_option maxRecDepth 16384

noncomputable section

namespace Cert.KernelIdeal.Gen

open Idealize.ShloMosaic Idealize.ShloMosaic.TcCoe Idealize.ShloMosaic.ValueIdx
open Cert.SegSpec Cert.KerTile Cert.KerSoft
open Idealize.ShloMosaic.Pipeline (Dat Cfg Window)

variable (m : (ℓ : Loc nD τ sig) → Buf (Elt Ideal) ℓ)

/-! ## The two cases of a point, read entry by entry -/

/-- After a first row tile, entry `y` of the first accumulator is the tile's own sum of probabilities. -/
theorem tupA_acc0 (c : Dev nD) (t : Fin cfg0.N) (h0 : t.val % 8 = 0) (y : S16x21.Idx) :
    (tupA m c t h0).2.2.2.1 y
      = tileSum (k0_pay8 (F := Ideal) (iblk m c 0 t)) (k0_pay4 (F := Ideal) (iblk m c 1 t)) (y 0) (y 1) := by
  unfold tupA; dsimp only
  exact sA0_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) y

/-- After a first row tile, entry `y` of the second accumulator is the tile's own sum of log-probabilities. -/
theorem tupA_acc1 (c : Dev nD) (t : Fin cfg0.N) (h0 : t.val % 8 = 0) (y : S16x21.Idx) :
    (tupA m c t h0).2.2.2.2.1 y
      = tileSum (k0_pay9 (F := Ideal) (iblk m c 0 t)) (k0_pay4 (F := Ideal) (iblk m c 1 t)) (y 0) (y 1) := by
  unfold tupA; dsimp only
  exact sA1_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) y

/-- After a first row tile, entry `y` of the third accumulator is the tile's own count. -/
theorem tupA_acc2 (c : Dev nD) (t : Fin cfg0.N) (h0 : t.val % 8 = 0) (y : S16x1.Idx) :
    (tupA m c t h0).2.2.2.2.2 y = tileCnt (k0_pay4 (F := Ideal) (iblk m c 1 t)) (y 0) := by
  unfold tupA; dsimp only
  exact sA2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) y

/-- After a later row tile, entry `y` of the first accumulator is what it held plus the tile's sum of probabilities. -/
theorem tupB_acc0 (c : Dev nD) (t : Fin cfg0.N) (h0 : ¬t.val % 8 = 0) (xs0 : Vec Ideal S16x21 .f32)
    (xs1 : Vec Ideal S16x21 .f32) (xs2 : Vec Ideal S16x1 .f32) (y : S16x21.Idx) :
    (tupB m c t h0 xs0 xs1 xs2).2.2.2.1 y
      = xs0 y + tileSum (k0_pay8 (F := Ideal) (iblk m c 0 t)) (k0_pay4 (F := Ideal) (iblk m c 1 t)) (y 0) (y 1) := by
  unfold tupB; dsimp only
  exact sB0_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2 y

/-- After a later row tile, entry `y` of the second accumulator is what it held plus the tile's sum of
    log-probabilities. -/
theorem tupB_acc1 (c : Dev nD) (t : Fin cfg0.N) (h0 : ¬t.val % 8 = 0) (xs0 : Vec Ideal S16x21 .f32)
    (xs1 : Vec Ideal S16x21 .f32) (xs2 : Vec Ideal S16x1 .f32) (y : S16x21.Idx) :
    (tupB m c t h0 xs0 xs1 xs2).2.2.2.2.1 y
      = xs1 y + tileSum (k0_pay9 (F := Ideal) (iblk m c 0 t)) (k0_pay4 (F := Ideal) (iblk m c 1 t)) (y 0) (y 1) := by
  unfold tupB; dsimp only
  exact sB1_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2 y

/-- After a later row tile, entry `y` of the third accumulator is what it held plus the tile's count. -/
theorem tupB_acc2 (c : Dev nD) (t : Fin cfg0.N) (h0 : ¬t.val % 8 = 0) (xs0 : Vec Ideal S16x21 .f32)
    (xs1 : Vec Ideal S16x21 .f32) (xs2 : Vec Ideal S16x1 .f32) (y : S16x1.Idx) :
    (tupB m c t h0 xs0 xs1 xs2).2.2.2.2.2 y = xs2 y + tileCnt (k0_pay4 (F := Ideal) (iblk m c 1 t)) (y 0) := by
  unfold tupB; dsimp only
  exact sB2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2 y

/-- After a first row tile the first output is a copy of the first accumulator. -/
theorem tupA_out2 (c : Dev nD) (t : Fin cfg0.N) (h0 : t.val % 8 = 0) (y : S1x16x21.Idx) :
    (tupA m c t h0).1 y = (tupA m c t h0).2.2.2.1 (fun a => y a.succ) := by
  unfold tupA; dsimp only
  exact oA2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) y

/-- After a first row tile the second output is a copy of the second accumulator. -/
theorem tupA_out3 (c : Dev nD) (t : Fin cfg0.N) (h0 : t.val % 8 = 0) (y : S1x16x21.Idx) :
    (tupA m c t h0).2.1 y = (tupA m c t h0).2.2.2.2.1 (fun a => y a.succ) := by
  unfold tupA; dsimp only
  exact oA3_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) y

/-- After a first row tile the third output is a copy of the third accumulator. -/
theorem tupA_out4 (c : Dev nD) (t : Fin cfg0.N) (h0 : t.val % 8 = 0) (y : S1x16x1.Idx) :
    (tupA m c t h0).2.2.1 y = (tupA m c t h0).2.2.2.2.2 (fun a => y a.succ) := by
  unfold tupA; dsimp only
  exact oA4_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) y

/-- After a later row tile the first output is a copy of the first accumulator. -/
theorem tupB_out2 (c : Dev nD) (t : Fin cfg0.N) (h0 : ¬t.val % 8 = 0) (xs0 : Vec Ideal S16x21 .f32)
    (xs1 : Vec Ideal S16x21 .f32) (xs2 : Vec Ideal S16x1 .f32) (y : S1x16x21.Idx) :
    (tupB m c t h0 xs0 xs1 xs2).1 y = (tupB m c t h0 xs0 xs1 xs2).2.2.2.1 (fun a => y a.succ) := by
  unfold tupB; dsimp only
  exact oB2_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2 y

/-- After a later row tile the second output is a copy of the second accumulator. -/
theorem tupB_out3 (c : Dev nD) (t : Fin cfg0.N) (h0 : ¬t.val % 8 = 0) (xs0 : Vec Ideal S16x21 .f32)
    (xs1 : Vec Ideal S16x21 .f32) (xs2 : Vec Ideal S16x1 .f32) (y : S1x16x21.Idx) :
    (tupB m c t h0 xs0 xs1 xs2).2.1 y = (tupB m c t h0 xs0 xs1 xs2).2.2.2.2.1 (fun a => y a.succ) := by
  unfold tupB; dsimp only
  exact oB3_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2 y

/-- After a later row tile the third output is a copy of the third accumulator. -/
theorem tupB_out4 (c : Dev nD) (t : Fin cfg0.N) (h0 : ¬t.val % 8 = 0) (xs0 : Vec Ideal S16x21 .f32)
    (xs1 : Vec Ideal S16x21 .f32) (xs2 : Vec Ideal S16x1 .f32) (y : S1x16x1.Idx) :
    (tupB m c t h0 xs0 xs1 xs2).2.2.1 y = (tupB m c t h0 xs0 xs1 xs2).2.2.2.2.2 (fun a => y a.succ) := by
  unfold tupB; dsimp only
  exact oB4_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) xs0 xs1 xs2 y

/-! ## The outputs are copies of the accumulators

  At every point, whichever case it is in, each output block is its accumulator with a unit axis in front. -/

theorem out2_copy (c : Dev nD) (n : ℕ) (hn : n < cfg0.N) (y : S1x16x21.Idx) :
    (outsAt0 m c n hn).1 y = (outsAt0 m c n hn).2.2.2.1 (fun a => y a.succ) := by
  by_cases h0 : n % 8 = 0
  · rw [show outsAt0 m c n hn = _ from outsAt0_A m c ⟨n, hn⟩ h0]
    exact tupA_out2 m c ⟨n, hn⟩ h0 y
  · rw [show outsAt0 m c n hn = _ from outsAt0_B m c ⟨n, hn⟩ h0]
    exact tupB_out2 m c ⟨n, hn⟩ h0 _ _ _ y

theorem out3_copy (c : Dev nD) (n : ℕ) (hn : n < cfg0.N) (y : S1x16x21.Idx) :
    (outsAt0 m c n hn).2.1 y = (outsAt0 m c n hn).2.2.2.2.1 (fun a => y a.succ) := by
  by_cases h0 : n % 8 = 0
  · rw [show outsAt0 m c n hn = _ from outsAt0_A m c ⟨n, hn⟩ h0]
    exact tupA_out3 m c ⟨n, hn⟩ h0 y
  · rw [show outsAt0 m c n hn = _ from outsAt0_B m c ⟨n, hn⟩ h0]
    exact tupB_out3 m c ⟨n, hn⟩ h0 _ _ _ y

theorem out4_copy (c : Dev nD) (n : ℕ) (hn : n < cfg0.N) (y : S1x16x1.Idx) :
    (outsAt0 m c n hn).2.2.1 y = (outsAt0 m c n hn).2.2.2.2.2 (fun a => y a.succ) := by
  by_cases h0 : n % 8 = 0
  · rw [show outsAt0 m c n hn = _ from outsAt0_A m c ⟨n, hn⟩ h0]
    exact tupA_out4 m c ⟨n, hn⟩ h0 y
  · rw [show outsAt0 m c n hn = _ from outsAt0_B m c ⟨n, hn⟩ h0]
    exact tupB_out4 m c ⟨n, hn⟩ h0 _ _ _ y

/-! ## The accumulators as sums over the tiles since the last reset -/

/-- What the tile at position `j` of the grid adds to entry `(s, k)` of the first accumulator: the sum, over the tile's
    pixels in blob `s`, of the class-`k` probability (zero past the grid's end). -/
def T0 (c : Dev nD) (j : ℕ) (s : Fin 16) (k : Fin 21) : EReal :=
  if h : j < cfg0.N then
    tileSum (k0_pay8 (F := Ideal) (iblk m c 0 ⟨j, h⟩)) (k0_pay4 (F := Ideal) (iblk m c 1 ⟨j, h⟩)) s k
  else 0

/-- The same for the second accumulator: the sum of the class-`k` log-probability. -/
def T1 (c : Dev nD) (j : ℕ) (s : Fin 16) (k : Fin 21) : EReal :=
  if h : j < cfg0.N then
    tileSum (k0_pay9 (F := Ideal) (iblk m c 0 ⟨j, h⟩)) (k0_pay4 (F := Ideal) (iblk m c 1 ⟨j, h⟩)) s k
  else 0

/-- The same for the third accumulator: the number of the tile's pixels in blob `s`. -/
def T2 (c : Dev nD) (j : ℕ) (s : Fin 16) : EReal :=
  if h : j < cfg0.N then tileCnt (k0_pay4 (F := Ideal) (iblk m c 1 ⟨j, h⟩)) s else 0

/-- After point `n` the first accumulator holds the sum of the tiles' contributions from the sample's first tile
    `n - n % 8` up to `n`: a first tile starts the sum anew, a later one adds its term to what the tile before left. -/
theorem acc0_ico (c : Dev nD) (n : ℕ) (hn : n < cfg0.N) (s : Fin 16) (k : Fin 21) :
    (outsAt0 m c n hn).2.2.2.1 (ix2 s k) = ∑ j ∈ Finset.Ico (n - n % 8) (n + 1), T0 m c j s k := by
  induction n with
  | zero =>
    rw [show outsAt0 m c 0 hn = _ from outsAt0_A m c ⟨0, hn⟩ (Nat.zero_mod _)]
    refine (tupA_acc0 m c ⟨0, hn⟩ (Nat.zero_mod _) (ix2 s k)).trans ?_
    rw [show 0 - 0 % 8 = 0 from rfl, Nat.Ico_succ_singleton, Finset.sum_singleton]
    unfold T0
    rw [dif_pos hn]
  | succ n ih =>
    by_cases h0 : (n + 1) % 8 = 0
    · rw [show outsAt0 m c (n + 1) hn = _ from outsAt0_A m c ⟨n + 1, hn⟩ h0]
      refine (tupA_acc0 m c ⟨n + 1, hn⟩ h0 (ix2 s k)).trans ?_
      rw [show n + 1 - (n + 1) % 8 = n + 1 from by omega, Nat.Ico_succ_singleton, Finset.sum_singleton]
      unfold T0
      rw [dif_pos hn]
    · rw [show outsAt0 m c (n + 1) hn = _ from outsAt0_B m c ⟨n + 1, hn⟩ h0]
      refine (tupB_acc0 m c ⟨n + 1, hn⟩ h0 _ _ _ (ix2 s k)).trans ?_
      rw [show n + 1 - (n + 1) % 8 = n - n % 8 from by omega,
        Finset.sum_Ico_succ_top (show n - n % 8 ≤ n + 1 from by omega)]
      refine congrArg₂ (· + ·) (ih (Nat.lt_of_succ_lt hn)) ?_
      unfold T0
      rw [dif_pos hn]

/-- The second accumulator likewise, with the log-probabilities. -/
theorem acc1_ico (c : Dev nD) (n : ℕ) (hn : n < cfg0.N) (s : Fin 16) (k : Fin 21) :
    (outsAt0 m c n hn).2.2.2.2.1 (ix2 s k) = ∑ j ∈ Finset.Ico (n - n % 8) (n + 1), T1 m c j s k := by
  induction n with
  | zero =>
    rw [show outsAt0 m c 0 hn = _ from outsAt0_A m c ⟨0, hn⟩ (Nat.zero_mod _)]
    refine (tupA_acc1 m c ⟨0, hn⟩ (Nat.zero_mod _) (ix2 s k)).trans ?_
    rw [show 0 - 0 % 8 = 0 from rfl, Nat.Ico_succ_singleton, Finset.sum_singleton]
    unfold T1
    rw [dif_pos hn]
  | succ n ih =>
    by_cases h0 : (n + 1) % 8 = 0
    · rw [show outsAt0 m c (n + 1) hn = _ from outsAt0_A m c ⟨n + 1, hn⟩ h0]
      refine (tupA_acc1 m c ⟨n + 1, hn⟩ h0 (ix2 s k)).trans ?_
      rw [show n + 1 - (n + 1) % 8 = n + 1 from by omega, Nat.Ico_succ_singleton, Finset.sum_singleton]
      unfold T1
      rw [dif_pos hn]
    · rw [show outsAt0 m c (n + 1) hn = _ from outsAt0_B m c ⟨n + 1, hn⟩ h0]
      refine (tupB_acc1 m c ⟨n + 1, hn⟩ h0 _ _ _ (ix2 s k)).trans ?_
      rw [show n + 1 - (n + 1) % 8 = n - n % 8 from by omega,
        Finset.sum_Ico_succ_top (show n - n % 8 ≤ n + 1 from by omega)]
      refine congrArg₂ (· + ·) (ih (Nat.lt_of_succ_lt hn)) ?_
      unfold T1
      rw [dif_pos hn]

/-- The third accumulator likewise, with the counts. -/
theorem acc2_ico (c : Dev nD) (n : ℕ) (hn : n < cfg0.N) (s : Fin 16) :
    (outsAt0 m c n hn).2.2.2.2.2 (ix2 s (0 : Fin 1)) = ∑ j ∈ Finset.Ico (n - n % 8) (n + 1), T2 m c j s := by
  induction n with
  | zero =>
    rw [show outsAt0 m c 0 hn = _ from outsAt0_A m c ⟨0, hn⟩ (Nat.zero_mod _)]
    refine (tupA_acc2 m c ⟨0, hn⟩ (Nat.zero_mod _) (ix2 s (0 : Fin 1))).trans ?_
    rw [show 0 - 0 % 8 = 0 from rfl, Nat.Ico_succ_singleton, Finset.sum_singleton]
    unfold T2
    rw [dif_pos hn]
  | succ n ih =>
    by_cases h0 : (n + 1) % 8 = 0
    · rw [show outsAt0 m c (n + 1) hn = _ from outsAt0_A m c ⟨n + 1, hn⟩ h0]
      refine (tupA_acc2 m c ⟨n + 1, hn⟩ h0 (ix2 s (0 : Fin 1))).trans ?_
      rw [show n + 1 - (n + 1) % 8 = n + 1 from by omega, Nat.Ico_succ_singleton, Finset.sum_singleton]
      unfold T2
      rw [dif_pos hn]
    · rw [show outsAt0 m c (n + 1) hn = _ from outsAt0_B m c ⟨n + 1, hn⟩ h0]
      refine (tupB_acc2 m c ⟨n + 1, hn⟩ h0 _ _ _ (ix2 s (0 : Fin 1))).trans ?_
      rw [show n + 1 - (n + 1) % 8 = n - n % 8 from by omega,
        Finset.sum_Ico_succ_top (show n - n % 8 ≤ n + 1 from by omega)]
      refine congrArg₂ (· + ·) (ih (Nat.lt_of_succ_lt hn)) ?_
      unfold T2
      rw [dif_pos hn]

/-! ## The last tile of a sample: the whole sample's sum -/

/-- The contribution of the tile at point `t` in the specification's terms: its pixels are rows `64 (t % 8) + th` of
    sample `t / 8`, the tile's probability at a pixel is the softmax of that pixel's column of scores, and its blob-id
    word is the array's. -/
theorem T0_point (c : Dev nD) (t : Fin cfg0.N) (s : Fin 16) (k : Fin 21) :
    T0 m c t.val s k = ∑ th : Fin 64, ∑ w : Fin 512,
      smProb (colOf (V m c main_arg0) (ptN t) (rowOf (ptH t) th) w) k
        * maskf (blobOf (V m c main_arg1) (ptN t) (rowOf (ptH t) th) w) s := by
  unfold T0
  rw [dif_pos t.isLt]
  unfold tileSum
  refine Finset.sum_congr rfl fun th _ => Finset.sum_congr rfl fun w _ => ?_
  refine (congrArg₂ (· * ·) (tile_prob (iblk m c 0 t) k th w)
    (congrArg (fun v => maskf v s) (tile_blob (iblk m c 1 t) th w))).trans ?_
  exact congrArg₂ (· * ·) (congrArg (fun col => smProb col k) (funext fun c' => iblk0_apply m c t c' th w))
    (congrArg (fun v => maskf v s) (iblk1_apply m c t th w))

/-- The same with the log-probabilities. -/
theorem T1_point (c : Dev nD) (t : Fin cfg0.N) (s : Fin 16) (k : Fin 21) :
    T1 m c t.val s k = ∑ th : Fin 64, ∑ w : Fin 512,
      smLogp (colOf (V m c main_arg0) (ptN t) (rowOf (ptH t) th) w) k
        * maskf (blobOf (V m c main_arg1) (ptN t) (rowOf (ptH t) th) w) s := by
  unfold T1
  rw [dif_pos t.isLt]
  unfold tileSum
  refine Finset.sum_congr rfl fun th _ => Finset.sum_congr rfl fun w _ => ?_
  refine (congrArg₂ (· * ·) (tile_logp (iblk m c 0 t) k th w)
    (congrArg (fun v => maskf v s) (tile_blob (iblk m c 1 t) th w))).trans ?_
  exact congrArg₂ (· * ·) (congrArg (fun col => smLogp col k) (funext fun c' => iblk0_apply m c t c' th w))
    (congrArg (fun v => maskf v s) (iblk1_apply m c t th w))

/-- The same with the counts. -/
theorem T2_point (c : Dev nD) (t : Fin cfg0.N) (s : Fin 16) :
    T2 m c t.val s = ∑ th : Fin 64, ∑ w : Fin 512,
      maskf (blobOf (V m c main_arg1) (ptN t) (rowOf (ptH t) th) w) s := by
  unfold T2
  rw [dif_pos t.isLt]
  unfold tileCnt
  refine Finset.sum_congr rfl fun th _ => Finset.sum_congr rfl fun w _ => ?_
  refine (congrArg (fun v => maskf v s) (tile_blob (iblk m c 1 t) th w)).trans ?_
  exact congrArg (fun v => maskf v s) (iblk1_apply m c t th w)

/-- Point `8 q + h` is row tile `h` of sample `q`. -/
theorem ptN_tile (t : Fin cfg0.N) (h : Fin 8) (hlt : 8 * (t.val / 8) + h.val < cfg0.N) :
    ptN ⟨8 * (t.val / 8) + h.val, hlt⟩ = ptN t :=
  Fin.ext (by show (8 * (t.val / 8) + h.val) / 8 = t.val / 8; have := h.isLt; omega)
theorem ptH_tile (t : Fin cfg0.N) (h : Fin 8) (hlt : 8 * (t.val / 8) + h.val < cfg0.N) :
    ptH ⟨8 * (t.val / 8) + h.val, hlt⟩ = h :=
  Fin.ext (by show (8 * (t.val / 8) + h.val) % 8 = h.val; have := h.isLt; omega)
theorem tile_lt (t : Fin cfg0.N) (h : Fin 8) : 8 * (t.val / 8) + h.val < cfg0.N :=
  lt_of_lt_of_eq
    (show 8 * (t.val / 8) + h.val < 64 from by
      have := h.isLt; have := lt_of_lt_of_eq t.isLt (show cfg0.N = 64 from N_0); omega)
    (show cfg0.N = 64 from N_0).symm

/-- At the last row tile of a sample the sum runs over the sample's eight tiles, that is over all its rows. -/
theorem acc0_full (c : Dev nD) (t : Fin cfg0.N) (h7 : t.val % 8 = 7) (s : Fin 16) (k : Fin 21) :
    (outsAt0 m c t.val t.isLt).2.2.2.1 (ix2 s k) = sumsAt (V m c main_arg0) (V m c main_arg1) (ptN t) s k := by
  rw [acc0_ico m c t.val t.isLt s k, show t.val - t.val % 8 = 8 * (t.val / 8) from by omega,
    Finset.sum_Ico_eq_sum_range, show t.val + 1 - 8 * (t.val / 8) = 8 from by omega, Finset.sum_range]
  unfold sumsAt
  refine Eq.trans ?_ (sum_rows fun y => ∑ w : Fin 512,
    smProb (colOf (V m c main_arg0) (ptN t) y w) k * maskf (blobOf (V m c main_arg1) (ptN t) y w) s)
  refine Finset.sum_congr rfl fun h _ => ?_
  refine (T0_point m c ⟨8 * (t.val / 8) + h.val, tile_lt t h⟩ s k).trans ?_
  rw [ptN_tile t h (tile_lt t h), ptH_tile t h (tile_lt t h)]

theorem acc1_full (c : Dev nD) (t : Fin cfg0.N) (h7 : t.val % 8 = 7) (s : Fin 16) (k : Fin 21) :
    (outsAt0 m c t.val t.isLt).2.2.2.2.1 (ix2 s k) = slogpAt (V m c main_arg0) (V m c main_arg1) (ptN t) s k := by
  rw [acc1_ico m c t.val t.isLt s k, show t.val - t.val % 8 = 8 * (t.val / 8) from by omega,
    Finset.sum_Ico_eq_sum_range, show t.val + 1 - 8 * (t.val / 8) = 8 from by omega, Finset.sum_range]
  unfold slogpAt
  refine Eq.trans ?_ (sum_rows fun y => ∑ w : Fin 512,
    smLogp (colOf (V m c main_arg0) (ptN t) y w) k * maskf (blobOf (V m c main_arg1) (ptN t) y w) s)
  refine Finset.sum_congr rfl fun h _ => ?_
  refine (T1_point m c ⟨8 * (t.val / 8) + h.val, tile_lt t h⟩ s k).trans ?_
  rw [ptN_tile t h (tile_lt t h), ptH_tile t h (tile_lt t h)]

theorem acc2_full (c : Dev nD) (t : Fin cfg0.N) (h7 : t.val % 8 = 7) (s : Fin 16) :
    (outsAt0 m c t.val t.isLt).2.2.2.2.2 (ix2 s (0 : Fin 1)) = cntAt (V m c main_arg1) (ptN t) s := by
  rw [acc2_ico m c t.val t.isLt s, show t.val - t.val % 8 = 8 * (t.val / 8) from by omega,
    Finset.sum_Ico_eq_sum_range, show t.val + 1 - 8 * (t.val / 8) = 8 from by omega, Finset.sum_range]
  unfold cntAt
  refine Eq.trans ?_ (sum_rows fun y => ∑ w : Fin 512, maskf (blobOf (V m c main_arg1) (ptN t) y w) s)
  refine Finset.sum_congr rfl fun h _ => ?_
  refine (T2_point m c ⟨8 * (t.val / 8) + h.val, tile_lt t h⟩ s).trans ?_
  rw [ptN_tile t h (tile_lt t h), ptH_tile t h (tile_lt t h)]

end Cert.KernelIdeal.Gen

end
-- ==== Proof.KiFinal.lean ====
/-
  The three result arrays after the region.

  Each result array is written back one block per sample, at the sample's last row tile; the block holds the
  accumulator of that sample, which by then is the sum over all 512 rows.  The eight blocks tile the array, so
  the array ends holding the per-blob statistics of every sample.
-/
import proofs.«400420_j429496730161_3_alg».proof.Proof.KiAcc
import proofs.«400420_j429496730161_3_alg».proof.Proof.KiFrame
import proofs.«400420_j429496730161_3_alg».proof.Proof.KiBlocks
import proofs.«400420_j429496730161_3_alg».proof.Proof.Spec
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx Cert.SegSpec
open Idealize.ShloMosaic.Pipeline (Dat Cfg Window)

variable (m : (ℓ : Loc nD τ sig) → Buf (Elt Ideal) ℓ)

/-! ## Output window 2: the sums of probabilities -/

/-- WHAT A SAMPLE'S LAST ROW TILE WRITES BACK to the array of sums of probabilities is that sample's block of it:
    the output block is a copy of the accumulator, which after the eighth tile holds the sum over all 512 rows; and
    entry `(0, s, k)` of the block of sample `n` is entry `(n, s, k)` of the array. -/
theorem kflushed2 (c : Dev nD) (t : Fin cfg0.N) (hf : (cfg0.win 2).flush t = true) :
    (dats m 0 c).flushed 2 t = ((cfg0.win 2).blk t).view.read (Elt Ideal) (sumsArr (V m c main_arg0) (V m c main_arg1)) := by
  have h7 : t.val % 8 = 7 := (flush0_2 t).mp hf
  show (cfg0.win 2).cut (grid0.coords t) ((dats m 0 c).after 2 t) = _
  rw [after0_2]
  funext y
  show (outsAt0 m c t.val t.isLt).1 y = sumsArr (V m c main_arg0) (V m c main_arg1) (((cfg0.win 2).blk t).view.emb y)
  obtain ⟨a, s, k, rfl⟩ : ∃ (a : Fin 1) (s : Fin 16) (k : Fin 21), y = ix3 a s k := ⟨y 0, y 1, y 2, eq_ix3 y⟩
  obtain rfl : a = 0 := Subsingleton.elim _ _
  rw [out2_copy m c t.val t.isLt (ix3 (0 : Fin 1) s k)]
  rw [show (fun a : Fin 2 => (ix3 (0 : Fin 1) s k) a.succ) = ix2 s k from by
    funext a; match a with | ⟨0, _⟩ => rfl | ⟨1, _⟩ => rfl]
  rw [acc0_full m c t h7 s k]
  unfold sumsArr
  obtain ⟨e0, e1, e2⟩ := idx_facts2 t
  have c0 : ((cfg0.win 2).blk t).view.emb (ix3 (0 : Fin 1) s k) 0 = ptN t :=
    Fin.ext (by show win0_2.index t (0 : Fin 3) * 1 + 1 * 0 = t.val / 8; omega)
  have c1 : ((cfg0.win 2).blk t).view.emb (ix3 (0 : Fin 1) s k) 1 = s :=
    Fin.ext (by show win0_2.index t (1 : Fin 3) * 16 + 1 * s.val = s.val; omega)
  have c2 : ((cfg0.win 2).blk t).view.emb (ix3 (0 : Fin 1) s k) 2 = k :=
    Fin.ext (by show win0_2.index t (2 : Fin 3) * 21 + 1 * k.val = k.val; omega)
  rw [c0, c1, c2]

/-- An index of the array is in point `t`'s block iff each coordinate is in the block's range on its axis. -/
theorem kmem_blk2 (t : Fin cfg0.N) (i : S8x16x21.Idx) :
    i ∈ ((cfg0.win 2).blk t).view.set ↔ ∀ a : Fin 3, win0_2.index t a * S1x16x21.size a ≤ (i a).val ∧ (i a).val < win0_2.index t a * S1x16x21.size a + S1x16x21.size a := by
  show i ∈ ((View.whole main_v0_0).slice (win0_2.rect t)).set ↔ _
  rw [View.set_slice_whole, Rect.mem_set_unit]
  exact Iff.rfl

/-- Every index of the array is in the block written back at the last row tile of its sample. -/
theorem kcover2 (i : S8x16x21.Idx) :
    ∃ t : Fin cfg0.N, (cfg0.win 2).flush t = true ∧ i ∈ ((cfg0.win 2).blk t).view.set := by
  have hi0 : (i 0).val < 8 := (i 0).isLt
  have hi1 : (i 1).val < 16 := (i 1).isLt
  have hi2 : (i 2).val < 21 := (i 2).isLt
  have hN : cfg0.N = 64 := N_0
  have ht : 8 * (i 0).val + 7 < cfg0.N := by rw [hN]; omega
  refine ⟨⟨8 * (i 0).val + 7, ht⟩, (flush0_2 _).mpr (by show (8 * (i 0).val + 7) % 8 = 7; omega), ?_⟩
  rw [kmem_blk2]
  obtain ⟨e0, e1, e2⟩ := idx_facts2 ⟨8 * (i 0).val + 7, ht⟩
  have e0' : win0_2.index ⟨8 * (i 0).val + 7, ht⟩ (0 : Fin 3) = (8 * (i 0).val + 7) / 8 := e0
  intro a
  match a with
  | ⟨0, _⟩ => show win0_2.index ⟨8 * (i 0).val + 7, ht⟩ (0 : Fin 3) * 1 ≤ (i 0).val ∧ (i 0).val < win0_2.index ⟨8 * (i 0).val + 7, ht⟩ (0 : Fin 3) * 1 + 1; omega
  | ⟨1, _⟩ => show win0_2.index ⟨8 * (i 0).val + 7, ht⟩ (1 : Fin 3) * 16 ≤ (i 1).val ∧ (i 1).val < win0_2.index ⟨8 * (i 0).val + 7, ht⟩ (1 : Fin 3) * 16 + 16; omega
  | ⟨2, _⟩ => show win0_2.index ⟨8 * (i 0).val + 7, ht⟩ (2 : Fin 3) * 21 ≤ (i 2).val ∧ (i 2).val < win0_2.index ⟨8 * (i 0).val + 7, ht⟩ (2 : Fin 3) * 21 + 21; omega

/-- THE ARRAY after the region: the sums of probabilities of every sample, blob and class. -/
theorem kval2 (c : Dev nD) : (dats m 0 c).arrAt 2 cfg0.N = sumsArr (V m c main_arg0) (V m c main_arg1) :=
  (dats m 0 c).arrAt_eq_of_cover 2 (sumsArr (V m c main_arg0) (V m c main_arg1)) (fun t hf => kflushed2 m c t hf) (fun i => kcover2 i)

/-! ## Output window 3: the sums of log-probabilities -/

/-- WHAT A SAMPLE'S LAST ROW TILE WRITES BACK to the array of sums of log-probabilities is that sample's block of it:
    the output block is a copy of the accumulator, which after the eighth tile holds the sum over all 512 rows; and
    entry `(0, s, k)` of the block of sample `n` is entry `(n, s, k)` of the array. -/
theorem kflushed3 (c : Dev nD) (t : Fin cfg0.N) (hf : (cfg0.win 3).flush t = true) :
    (dats m 0 c).flushed 3 t = ((cfg0.win 3).blk t).view.read (Elt Ideal) (slogpArr (V m c main_arg0) (V m c main_arg1)) := by
  have h7 : t.val % 8 = 7 := (flush0_3 t).mp hf
  show (cfg0.win 3).cut (grid0.coords t) ((dats m 0 c).after 3 t) = _
  rw [after0_3]
  funext y
  show (outsAt0 m c t.val t.isLt).2.1 y = slogpArr (V m c main_arg0) (V m c main_arg1) (((cfg0.win 3).blk t).view.emb y)
  obtain ⟨a, s, k, rfl⟩ : ∃ (a : Fin 1) (s : Fin 16) (k : Fin 21), y = ix3 a s k := ⟨y 0, y 1, y 2, eq_ix3 y⟩
  obtain rfl : a = 0 := Subsingleton.elim _ _
  rw [out3_copy m c t.val t.isLt (ix3 (0 : Fin 1) s k)]
  rw [show (fun a : Fin 2 => (ix3 (0 : Fin 1) s k) a.succ) = ix2 s k from by
    funext a; match a with | ⟨0, _⟩ => rfl | ⟨1, _⟩ => rfl]
  rw [acc1_full m c t h7 s k]
  unfold slogpArr
  obtain ⟨e0, e1, e2⟩ := idx_facts3 t
  have c0 : ((cfg0.win 3).blk t).view.emb (ix3 (0 : Fin 1) s k) 0 = ptN t :=
    Fin.ext (by show win0_3.index t (0 : Fin 3) * 1 + 1 * 0 = t.val / 8; omega)
  have c1 : ((cfg0.win 3).blk t).view.emb (ix3 (0 : Fin 1) s k) 1 = s :=
    Fin.ext (by show win0_3.index t (1 : Fin 3) * 16 + 1 * s.val = s.val; omega)
  have c2 : ((cfg0.win 3).blk t).view.emb (ix3 (0 : Fin 1) s k) 2 = k :=
    Fin.ext (by show win0_3.index t (2 : Fin 3) * 21 + 1 * k.val = k.val; omega)
  rw [c0, c1, c2]

/-- An index of the array is in point `t`'s block iff each coordinate is in the block's range on its axis. -/
theorem kmem_blk3 (t : Fin cfg0.N) (i : S8x16x21.Idx) :
    i ∈ ((cfg0.win 3).blk t).view.set ↔ ∀ a : Fin 3, win0_3.index t a * S1x16x21.size a ≤ (i a).val ∧ (i a).val < win0_3.index t a * S1x16x21.size a + S1x16x21.size a := by
  show i ∈ ((View.whole main_v0_1).slice (win0_3.rect t)).set ↔ _
  rw [View.set_slice_whole, Rect.mem_set_unit]
  exact Iff.rfl

/-- Every index of the array is in the block written back at the last row tile of its sample. -/
theorem kcover3 (i : S8x16x21.Idx) :
    ∃ t : Fin cfg0.N, (cfg0.win 3).flush t = true ∧ i ∈ ((cfg0.win 3).blk t).view.set := by
  have hi0 : (i 0).val < 8 := (i 0).isLt
  have hi1 : (i 1).val < 16 := (i 1).isLt
  have hi2 : (i 2).val < 21 := (i 2).isLt
  have hN : cfg0.N = 64 := N_0
  have ht : 8 * (i 0).val + 7 < cfg0.N := by rw [hN]; omega
  refine ⟨⟨8 * (i 0).val + 7, ht⟩, (flush0_3 _).mpr (by show (8 * (i 0).val + 7) % 8 = 7; omega), ?_⟩
  rw [kmem_blk3]
  obtain ⟨e0, e1, e2⟩ := idx_facts3 ⟨8 * (i 0).val + 7, ht⟩
  have e0' : win0_3.index ⟨8 * (i 0).val + 7, ht⟩ (0 : Fin 3) = (8 * (i 0).val + 7) / 8 := e0
  intro a
  match a with
  | ⟨0, _⟩ => show win0_3.index ⟨8 * (i 0).val + 7, ht⟩ (0 : Fin 3) * 1 ≤ (i 0).val ∧ (i 0).val < win0_3.index ⟨8 * (i 0).val + 7, ht⟩ (0 : Fin 3) * 1 + 1; omega
  | ⟨1, _⟩ => show win0_3.index ⟨8 * (i 0).val + 7, ht⟩ (1 : Fin 3) * 16 ≤ (i 1).val ∧ (i 1).val < win0_3.index ⟨8 * (i 0).val + 7, ht⟩ (1 : Fin 3) * 16 + 16; omega
  | ⟨2, _⟩ => show win0_3.index ⟨8 * (i 0).val + 7, ht⟩ (2 : Fin 3) * 21 ≤ (i 2).val ∧ (i 2).val < win0_3.index ⟨8 * (i 0).val + 7, ht⟩ (2 : Fin 3) * 21 + 21; omega

/-- THE ARRAY after the region: the sums of log-probabilities of every sample, blob and class. -/
theorem kval3 (c : Dev nD) : (dats m 0 c).arrAt 3 cfg0.N = slogpArr (V m c main_arg0) (V m c main_arg1) :=
  (dats m 0 c).arrAt_eq_of_cover 3 (slogpArr (V m c main_arg0) (V m c main_arg1)) (fun t hf => kflushed3 m c t hf) (fun i => kcover3 i)

/-! ## Output window 4: the pixel counts -/

/-- WHAT A SAMPLE'S LAST ROW TILE WRITES BACK to the array of pixel counts is that sample's block of it:
    the output block is a copy of the accumulator, which after the eighth tile holds the count over all 512 rows; and
    entry `(0, s, 0)` of the block of sample `n` is entry `(n, s, 0)` of the array. -/
theorem kflushed4 (c : Dev nD) (t : Fin cfg0.N) (hf : (cfg0.win 4).flush t = true) :
    (dats m 0 c).flushed 4 t = ((cfg0.win 4).blk t).view.read (Elt Ideal) (cntArr3 (V m c main_arg1)) := by
  have h7 : t.val % 8 = 7 := (flush0_4 t).mp hf
  show (cfg0.win 4).cut (grid0.coords t) ((dats m 0 c).after 4 t) = _
  rw [after0_4]
  funext y
  show (outsAt0 m c t.val t.isLt).2.2.1 y = cntArr3 (V m c main_arg1) (((cfg0.win 4).blk t).view.emb y)
  obtain ⟨a, s, k, rfl⟩ : ∃ (a : Fin 1) (s : Fin 16) (k : Fin 1), y = ix3 a s k := ⟨y 0, y 1, y 2, eq_ix3 y⟩
  obtain rfl : a = 0 := Subsingleton.elim _ _
  obtain rfl : k = 0 := Subsingleton.elim _ _
  rw [out4_copy m c t.val t.isLt (ix3 (0 : Fin 1) s (0 : Fin 1))]
  rw [show (fun a : Fin 2 => (ix3 (0 : Fin 1) s (0 : Fin 1)) a.succ) = ix2 s (0 : Fin 1) from by
    funext a; match a with | ⟨0, _⟩ => rfl | ⟨1, _⟩ => rfl]
  rw [acc2_full m c t h7 s]
  unfold cntArr3
  obtain ⟨e0, e1, e2⟩ := idx_facts4 t
  have c0 : ((cfg0.win 4).blk t).view.emb (ix3 (0 : Fin 1) s (0 : Fin 1)) 0 = ptN t :=
    Fin.ext (by show win0_4.index t (0 : Fin 3) * 1 + 1 * 0 = t.val / 8; omega)
  have c1 : ((cfg0.win 4).blk t).view.emb (ix3 (0 : Fin 1) s (0 : Fin 1)) 1 = s :=
    Fin.ext (by show win0_4.index t (1 : Fin 3) * 16 + 1 * s.val = s.val; omega)
  rw [c0, c1]

/-- An index of the array is in point `t`'s block iff each coordinate is in the block's range on its axis. -/
theorem kmem_blk4 (t : Fin cfg0.N) (i : S8x16x1.Idx) :
    i ∈ ((cfg0.win 4).blk t).view.set ↔ ∀ a : Fin 3, win0_4.index t a * S1x16x1.size a ≤ (i a).val ∧ (i a).val < win0_4.index t a * S1x16x1.size a + S1x16x1.size a := by
  show i ∈ ((View.whole main_v0_2).slice (win0_4.rect t)).set ↔ _
  rw [View.set_slice_whole, Rect.mem_set_unit]
  exact Iff.rfl

/-- Every index of the array is in the block written back at the last row tile of its sample. -/
theorem kcover4 (i : S8x16x1.Idx) :
    ∃ t : Fin cfg0.N, (cfg0.win 4).flush t = true ∧ i ∈ ((cfg0.win 4).blk t).view.set := by
  have hi0 : (i 0).val < 8 := (i 0).isLt
  have hi1 : (i 1).val < 16 := (i 1).isLt
  have hi2 : (i 2).val < 1 := (i 2).isLt
  have hN : cfg0.N = 64 := N_0
  have ht : 8 * (i 0).val + 7 < cfg0.N := by rw [hN]; omega
  refine ⟨⟨8 * (i 0).val + 7, ht⟩, (flush0_4 _).mpr (by show (8 * (i 0).val + 7) % 8 = 7; omega), ?_⟩
  rw [kmem_blk4]
  obtain ⟨e0, e1, e2⟩ := idx_facts4 ⟨8 * (i 0).val + 7, ht⟩
  have e0' : win0_4.index ⟨8 * (i 0).val + 7, ht⟩ (0 : Fin 3) = (8 * (i 0).val + 7) / 8 := e0
  intro a
  match a with
  | ⟨0, _⟩ => show win0_4.index ⟨8 * (i 0).val + 7, ht⟩ (0 : Fin 3) * 1 ≤ (i 0).val ∧ (i 0).val < win0_4.index ⟨8 * (i 0).val + 7, ht⟩ (0 : Fin 3) * 1 + 1; omega
  | ⟨1, _⟩ => show win0_4.index ⟨8 * (i 0).val + 7, ht⟩ (1 : Fin 3) * 16 ≤ (i 1).val ∧ (i 1).val < win0_4.index ⟨8 * (i 0).val + 7, ht⟩ (1 : Fin 3) * 16 + 16; omega
  | ⟨2, _⟩ => show win0_4.index ⟨8 * (i 0).val + 7, ht⟩ (2 : Fin 3) * 1 ≤ (i 2).val ∧ (i 2).val < win0_4.index ⟨8 * (i 0).val + 7, ht⟩ (2 : Fin 3) * 1 + 1; omega

/-- THE ARRAY after the region: the pixel count of every sample and blob. -/
theorem kval4 (c : Dev nD) : (dats m 0 c).arrAt 4 cfg0.N = cntArr3 (V m c main_arg1) :=
  (dats m 0 c).arrAt_eq_of_cover 4 (cntArr3 (V m c main_arg1)) (fun t hf => kflushed4 m c t hf) (fun i => kcover4 i)

end Cert.KernelIdeal.Gen

end
-- ==== Proof.TailEntry.lean ====
/-
  Where the kernel program's lines after its region start from.

  The frame run states the result buffer as the lines after the region, run in order, from the buffer contents the
  region leaves: every array a window stages at its final contents (the blob-id argument, which is only read, and
  the three result arrays after the last point's write-back), every other buffer as @main was entered with it.
  Here that starting valuation is named, the frame run's term is restated as the lines run from it, and the
  valuation is read at the five buffers the lines take their inputs from: the three result arrays and the blob-id
  argument at the staged arrays' final contents, the target argument (no window stages it) at @main's own.
-/
import proofs.«400420_j429496730161_3_alg».proof.Proof.KiRuns

set_option maxRecDepth 16384

noncomputable section

namespace Cert.TailV

open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat)
open Cert.KernelIdeal Cert.KernelIdeal.Gen

variable {F : FTy → Type} [FloatOps F]

variable (m : (ℓ : Loc nD τ sig) → Buf (Elt F) ℓ)
  (dats : (p : Fin 1) → (c : Dev nD) → Dat τ (Elt F) Unit ℕ (UR sig nD τ) ℕ (cfgs p) c) (c : Dev nD)

/-- Core `c`'s buffer contents when the region is left: each staged array at its contents after the last grid
    point, every other buffer at what @main was entered with. -/
def tailW : Valuation τ sig (Elt F) :=
  Pipeline.withArrays (cfgs 0).spec c (V0 m c) (fun w => (dats 0 c).arrAt w (cfgs 0).N)

/-- The frame run's term for a buffer after the whole program is the lines after the region run from `tailW`. -/
theorem afterTail_eq (b : Ref sig .tc) :
    Pipeline.afterTail₀ cfgs dats 0 (V0 m) tailOps c b
      = StableHlo.after (tailOps (F := F)).flatten (tailW m dats c) (Proc.devRef .tc b) := by
  unfold Pipeline.afterTail₀ tailW
  rfl

/-- The first result array (window 2: the summed probabilities) is at its final contents. -/
theorem tailW_v0_0 : tailW m dats c (Proc.devRef .tc main_v0_0) = (dats 0 c).arrAt 2 cfg0.N :=
  Pipeline.withArrays_arr spec0 launch0.win.arr_inj c _ _ 2

/-- The second result array (window 3: the summed log-probabilities) is at its final contents. -/
theorem tailW_v0_1 : tailW m dats c (Proc.devRef .tc main_v0_1) = (dats 0 c).arrAt 3 cfg0.N :=
  Pipeline.withArrays_arr spec0 launch0.win.arr_inj c _ _ 3

/-- The third result array (window 4: the pixel counts) is at its final contents. -/
theorem tailW_v0_2 : tailW m dats c (Proc.devRef .tc main_v0_2) = (dats 0 c).arrAt 4 cfg0.N :=
  Pipeline.withArrays_arr spec0 launch0.win.arr_inj c _ _ 4

/-- The blob-id argument (window 1, an input array) is at its final contents. -/
theorem tailW_arg1 : tailW m dats c (Proc.devRef .tc main_arg1) = (dats 0 c).arrAt 1 cfg0.N :=
  Pipeline.withArrays_arr spec0 launch0.win.arr_inj c _ _ 1

/-- The target argument is no window's array: it is what @main was entered with. -/
theorem tailW_arg2 : tailW m dats c (Proc.devRef .tc main_arg2) = m ((c.tc : Thread nD τ).loc main_arg2) :=
  (Pipeline.withArrays_of_ne _ c (V0 m c) _ main_arg2 (by decide)).trans rfl

end Cert.TailV

end
-- ==== Proof.TailChunks.lean ====
import proofs.«400420_j429496730161_3_alg».proof.Proof.KiRuns
import proofs.«400420_j429496730161_3_alg».proof.Proof.RefRead

/-! The kernel program's 101 host operations after its pallas_call, cut into 14 consecutive stretches. They are, one for
one and in order, the reference's operations from its segment counts on (and the two reshapes of its integer arguments),
over buffers of other names: so every buffer of the tail has a reference stage it should hold. For each stretch: its
operations as a list, and the statement that if every buffer read from the stretch's first operation on holds its
reference stage before the stretch, then every buffer read from the next stretch's first operation on holds its
reference stage after it. The pallas_call's three results enter holding the reference's segment sums of the softmax, of
its logarithm, and (reshaped) the segment counts. An operation writes its function of its operands' contents to its
result buffer and leaves every other buffer; a stage is by definition that function of the operands' stages. -/

noncomputable section

namespace Cert.TailChunks

open Cert.KernelIdeal Cert.KernelIdeal.Gen Cert.ReferenceIdeal.ReadP Idealize.ShloMosaic Idealize.ShloMosaic.TcCoe Idealize.SL.Sem Idealize.ShloMosaic.StableHlo

variable {F : FTy → Type} [FloatOps F]

/-- Operations 0 to 0 of the tail, in order. -/
abbrev t0 : List (HloOp τ sig (Elt F)) :=
  [ StableHlo.reshape main_v0_2 main_v1 rfl shapeCasts_S8x16x1_S8x16 ]

/-- If the buffers read from operation 0 on hold their reference stages before operations 0 to 0, the buffers read from operation 1 on hold theirs after them. -/
theorem tchunk0 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v0_0 : W (Proc.devRef .tc main_v0_0) = val_main_v26 (F := F) x0 x1)
    (h_main_v0_1 : W (Proc.devRef .tc main_v0_1) = val_main_v30 (F := F) x0 x1)
    (h_main_v0_2 : shapeCast S8x16 (W (Proc.devRef .tc main_v0_2)) shapeCasts_S8x16x1_S8x16 = val_main_v35 (F := F) x1)
    (h_main_arg1 : W (Proc.devRef .tc main_arg1) = x1)
    (h_main_arg2 : W (Proc.devRef .tc main_arg2) = x2)
    :
    after (t0 (F := F)) W (Proc.devRef .tc main_v0_0) = val_main_v26 (F := F) x0 x1
    ∧ after (t0 (F := F)) W (Proc.devRef .tc main_v0_1) = val_main_v30 (F := F) x0 x1
    ∧ after (t0 (F := F)) W (Proc.devRef .tc main_arg1) = x1
    ∧ after (t0 (F := F)) W (Proc.devRef .tc main_arg2) = x2
    ∧ after (t0 (F := F)) W (Proc.devRef .tc main_v1) = val_main_v35 (F := F) x1 := by
  refine ⟨?_, ?_, ?_, ?_, ?_⟩
  · after_results_simp
    exact h_main_v0_0
  · after_results_simp
    exact h_main_v0_1
  · after_results_simp
    exact h_main_arg1
  · after_results_simp
    exact h_main_arg2
  · after_results_simp
    exact h_main_v0_2

/-- Operations 1 to 7 of the tail, in order. -/
abbrev t1 : List (HloOp τ sig (Elt F)) :=
  [ StableHlo.nullary main_cst (constant S_ .f32 0x00000000#32),
    StableHlo.unary main_cst main_v2 (broadcastInDim S8x16 ![] bcast_S_S8x16 : (⟨S_, .f32⟩ : BufTy).Contents (Elt F) → (⟨S8x16, .f32⟩ : BufTy).Contents (Elt F)),
    StableHlo.binary main_v1 main_v2 main_v3 (cmpf .ogt : (⟨S8x16, .f32⟩ : BufTy).Contents (Elt F) → (⟨S8x16, .f32⟩ : BufTy).Contents (Elt F) → (⟨S8x16, .i1⟩ : BufTy).Contents (Elt F)),
    StableHlo.nullary main_cst_0 (constant S_ .f32 0x3F800000#32),
    StableHlo.TRef.unary (.of main_cst_0 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S8x16, .f32⟩) (broadcastInDim S8x16 ![] bcast_S_S8x16),
    StableHlo.TRef.ternary (.of main_v3 : StableHlo.TRef sig ⟨S8x16, .i1⟩) (.of main_v1 : StableHlo.TRef sig ⟨S8x16, .f32⟩) (.of main_call0_v1 : StableHlo.TRef sig ⟨S8x16, .f32⟩) (.of main_v4 : StableHlo.TRef sig ⟨S8x16, .f32⟩) select ]

/-- If the buffers read from operation 1 on hold their reference stages before operations 1 to 7, the buffers read from operation 8 on hold theirs after them. -/
theorem tchunk1 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v0_0 : W (Proc.devRef .tc main_v0_0) = val_main_v26 (F := F) x0 x1)
    (h_main_v0_1 : W (Proc.devRef .tc main_v0_1) = val_main_v30 (F := F) x0 x1)
    (h_main_arg1 : W (Proc.devRef .tc main_arg1) = x1)
    (h_main_arg2 : W (Proc.devRef .tc main_arg2) = x2)
    (h_main_v1 : W (Proc.devRef .tc main_v1) = val_main_v35 (F := F) x1)
    :
    after (t1 (F := F)) W (Proc.devRef .tc main_v0_0) = val_main_v26 (F := F) x0 x1
    ∧ after (t1 (F := F)) W (Proc.devRef .tc main_v0_1) = val_main_v30 (F := F) x0 x1
    ∧ after (t1 (F := F)) W (Proc.devRef .tc main_arg1) = x1
    ∧ after (t1 (F := F)) W (Proc.devRef .tc main_arg2) = x2
    ∧ after (t1 (F := F)) W (Proc.devRef .tc main_v1) = val_main_v35 (F := F) x1
    ∧ after (t1 (F := F)) W (Proc.devRef .tc main_v3) = val_main_v37 (F := F) x1
    ∧ after (t1 (F := F)) W (Proc.devRef .tc main_v4) = val_main_v38 (F := F) x1 := by
  refine ⟨?_, ?_, ?_, ?_, ?_, ?_, ?_⟩
  · after_results_simp
    exact h_main_v0_0
  · after_results_simp
    exact h_main_v0_1
  · after_results_simp
    exact h_main_arg1
  · after_results_simp
    exact h_main_arg2
  · after_results_simp
    exact h_main_v1
  · after_results_simp
    rw [h_main_v1]
    rfl
  · after_results_simp
    simp only [TRef.ofBuf, TRef.toBuf, cast_eq]
    rw [h_main_v1]
    rfl

/-- Operations 8 to 16 of the tail, in order. -/
abbrev t2 : List (HloOp τ sig (Elt F)) :=
  [ StableHlo.unary main_v3 main_v5 (broadcastInDim S8x16x1 ![0, 1] bcast_S8x16_S8x16x1_0_1 : (⟨S8x16, .i1⟩ : BufTy).Contents (Elt F) → (⟨S8x16x1, .i1⟩ : BufTy).Contents (Elt F)),
    StableHlo.unary main_v4 main_v6 (broadcastInDim S8x16x1 ![0, 1] bcast_S8x16_S8x16x1_0_1 : (⟨S8x16, .f32⟩ : BufTy).Contents (Elt F) → (⟨S8x16x1, .f32⟩ : BufTy).Contents (Elt F)),
    StableHlo.unary main_v6 main_v7 (broadcastInDim S8x16x21 ![0, 1, 2] bcast_S8x16x1_S8x16x21_0_1_2 : (⟨S8x16x1, .f32⟩ : BufTy).Contents (Elt F) → (⟨S8x16x21, .f32⟩ : BufTy).Contents (Elt F)),
    StableHlo.binary main_v0_0 main_v7 main_v8 (Host.divf : (⟨S8x16x21, .f32⟩ : BufTy).Contents (Elt F) → (⟨S8x16x21, .f32⟩ : BufTy).Contents (Elt F) → (⟨S8x16x21, .f32⟩ : BufTy).Contents (Elt F)),
    StableHlo.nullary main_cst_1 (constant S_ .f32 0x00000000#32),
    StableHlo.TRef.unary (.of main_cst_1 : StableHlo.TRef sig ⟨S_, .f32⟩) (.of main_call1_v0 : StableHlo.TRef sig ⟨S_, .f32⟩) id,
    StableHlo.TRef.unary (.of main_v5 : StableHlo.TRef sig ⟨S8x16x1, .i1⟩) (.of main_call1_v1 : StableHlo.TRef sig ⟨S8x16x21, .i1⟩) (broadcastInDim S8x16x21 ![0, 1, 2] bcast_S8x16x1_S8x16x21_0_1_2),
    StableHlo.TRef.unary (.of main_call1_v0 : StableHlo.TRef sig ⟨S_, .f32⟩) (.of main_call1_v2 : StableHlo.TRef sig ⟨S8x16x21, .f32⟩) (broadcastInDim S8x16x21 ![] bcast_S_S8x16x21),
    StableHlo.TRef.ternary (.of main_call1_v1 : StableHlo.TRef sig ⟨S8x16x21, .i1⟩) (.of main_v8 : StableHlo.TRef sig ⟨S8x16x21, .f32⟩) (.of main_call1_v2 : StableHlo.TRef sig ⟨S8x16x21, .f32⟩) (.of main_v9 : StableHlo.TRef sig ⟨S8x16x21, .f32⟩) select ]

/-- If the buffers read from operation 8 on hold their reference stages before operations 8 to 16, the buffers read from operation 17 on hold theirs after them. -/
theorem tchunk2 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v0_0 : W (Proc.devRef .tc main_v0_0) = val_main_v26 (F := F) x0 x1)
    (h_main_v0_1 : W (Proc.devRef .tc main_v0_1) = val_main_v30 (F := F) x0 x1)
    (h_main_arg1 : W (Proc.devRef .tc main_arg1) = x1)
    (h_main_arg2 : W (Proc.devRef .tc main_arg2) = x2)
    (h_main_v1 : W (Proc.devRef .tc main_v1) = val_main_v35 (F := F) x1)
    (h_main_v3 : W (Proc.devRef .tc main_v3) = val_main_v37 (F := F) x1)
    (h_main_v4 : W (Proc.devRef .tc main_v4) = val_main_v38 (F := F) x1)
    :
    after (t2 (F := F)) W (Proc.devRef .tc main_v0_1) = val_main_v30 (F := F) x0 x1
    ∧ after (t2 (F := F)) W (Proc.devRef .tc main_arg1) = x1
    ∧ after (t2 (F := F)) W (Proc.devRef .tc main_arg2) = x2
    ∧ after (t2 (F := F)) W (Proc.devRef .tc main_v1) = val_main_v35 (F := F) x1
    ∧ after (t2 (F := F)) W (Proc.devRef .tc main_v3) = val_main_v37 (F := F) x1
    ∧ after (t2 (F := F)) W (Proc.devRef .tc main_v9) = val_main_v43 (F := F) x0 x1 := by
  refine ⟨?_, ?_, ?_, ?_, ?_, ?_⟩
  · after_results_simp
    exact h_main_v0_1
  · after_results_simp
    exact h_main_arg1
  · after_results_simp
    exact h_main_arg2
  · after_results_simp
    exact h_main_v1
  · after_results_simp
    exact h_main_v3
  · after_results_simp
    simp only [TRef.ofBuf, TRef.toBuf, cast_eq]
    rw [h_main_v3, h_main_v0_0, h_main_v4]
    rfl

/-- Operations 17 to 24 of the tail, in order. -/
abbrev t3 : List (HloOp τ sig (Elt F)) :=
  [ StableHlo.reshape main_arg1 main_v10 rfl shapeCasts_S8x1x512x512_S8x262144,
    StableHlo.reshape main_arg2 main_v11 rfl shapeCasts_S8x1x512x512_S8x262144,
    StableHlo.reshape main_v11 main_v12 rfl shapeCasts_S8x262144_S2097152,
    StableHlo.reshape main_v10 main_v13 rfl shapeCasts_S8x262144_S2097152,
    StableHlo.nullary main_c (constantI S_ 32 2147483648#32),
    StableHlo.unary main_c main_v14 (broadcastInDim S16 ![] bcast_S_S16 : (⟨S_, .i32⟩ : BufTy).Contents (Elt F) → (⟨S16, .i32⟩ : BufTy).Contents (Elt F)),
    StableHlo.unary main_v13 main_v15 (broadcastInDim S2097152x1 ![0] bcast_S2097152_S2097152x1_0 : (⟨S2097152, .i32⟩ : BufTy).Contents (Elt F) → (⟨S2097152x1, .i32⟩ : BufTy).Contents (Elt F)),
    StableHlo.ternary main_v14 main_v15 main_v12 main_v16 ((fun x i u => Host.scatter scatter_S16_S2097152x1_S2097152_n_0_0_1 IntOp.maxsi x i u) : (⟨S16, .i32⟩ : BufTy).Contents (Elt F) → (⟨S2097152x1, .i32⟩ : BufTy).Contents (Elt F) → (⟨S2097152, .i32⟩ : BufTy).Contents (Elt F) → (⟨S16, .i32⟩ : BufTy).Contents (Elt F)) ]

/-- If the buffers read from operation 17 on hold their reference stages before operations 17 to 24, the buffers read from operation 25 on hold theirs after them. -/
theorem tchunk3 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v0_1 : W (Proc.devRef .tc main_v0_1) = val_main_v30 (F := F) x0 x1)
    (h_main_arg1 : W (Proc.devRef .tc main_arg1) = x1)
    (h_main_arg2 : W (Proc.devRef .tc main_arg2) = x2)
    (h_main_v1 : W (Proc.devRef .tc main_v1) = val_main_v35 (F := F) x1)
    (h_main_v3 : W (Proc.devRef .tc main_v3) = val_main_v37 (F := F) x1)
    (h_main_v9 : W (Proc.devRef .tc main_v9) = val_main_v43 (F := F) x0 x1)
    :
    after (t3 (F := F)) W (Proc.devRef .tc main_v0_1) = val_main_v30 (F := F) x0 x1
    ∧ after (t3 (F := F)) W (Proc.devRef .tc main_v1) = val_main_v35 (F := F) x1
    ∧ after (t3 (F := F)) W (Proc.devRef .tc main_v3) = val_main_v37 (F := F) x1
    ∧ after (t3 (F := F)) W (Proc.devRef .tc main_v9) = val_main_v43 (F := F) x0 x1
    ∧ after (t3 (F := F)) W (Proc.devRef .tc main_v16) = val_main_v48 (F := F) x1 x2 := by
  refine ⟨?_, ?_, ?_, ?_, ?_⟩
  · after_results_simp
    exact h_main_v0_1
  · after_results_simp
    exact h_main_v1
  · after_results_simp
    exact h_main_v3
  · after_results_simp
    exact h_main_v9
  · after_results_simp
    rw [h_main_arg1, h_main_arg2]
    rfl

/-- Operations 25 to 32 of the tail, in order. -/
abbrev t4 : List (HloOp τ sig (Elt F)) :=
  [ StableHlo.nullary main_v17 (iotaInDim S16 32 0),
    StableHlo.nullary main_c_2 (constantI S_ 32 0#32),
    StableHlo.unary main_c_2 main_v18 (broadcastInDim S16 ![] bcast_S_S16 : (⟨S_, .i32⟩ : BufTy).Contents (Elt F) → (⟨S16, .i32⟩ : BufTy).Contents (Elt F)),
    StableHlo.binary main_v17 main_v18 main_v19 (cmpi .slt : (⟨S16, .i32⟩ : BufTy).Contents (Elt F) → (⟨S16, .i32⟩ : BufTy).Contents (Elt F) → (⟨S16, .i1⟩ : BufTy).Contents (Elt F)),
    StableHlo.nullary main_c_3 (constantI S_ 32 16#32),
    StableHlo.unary main_c_3 main_v20 (broadcastInDim S16 ![] bcast_S_S16 : (⟨S_, .i32⟩ : BufTy).Contents (Elt F) → (⟨S16, .i32⟩ : BufTy).Contents (Elt F)),
    StableHlo.binary main_v17 main_v20 main_v21 (addi : (⟨S16, .i32⟩ : BufTy).Contents (Elt F) → (⟨S16, .i32⟩ : BufTy).Contents (Elt F) → (⟨S16, .i32⟩ : BufTy).Contents (Elt F)),
    StableHlo.ternary main_v19 main_v21 main_v17 main_v22 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ]

/-- If the buffers read from operation 25 on hold their reference stages before operations 25 to 32, the buffers read from operation 33 on hold theirs after them. -/
theorem tchunk4 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v0_1 : W (Proc.devRef .tc main_v0_1) = val_main_v30 (F := F) x0 x1)
    (h_main_v1 : W (Proc.devRef .tc main_v1) = val_main_v35 (F := F) x1)
    (h_main_v3 : W (Proc.devRef .tc main_v3) = val_main_v37 (F := F) x1)
    (h_main_v9 : W (Proc.devRef .tc main_v9) = val_main_v43 (F := F) x0 x1)
    (h_main_v16 : W (Proc.devRef .tc main_v16) = val_main_v48 (F := F) x1 x2)
    :
    after (t4 (F := F)) W (Proc.devRef .tc main_v0_1) = val_main_v30 (F := F) x0 x1
    ∧ after (t4 (F := F)) W (Proc.devRef .tc main_v1) = val_main_v35 (F := F) x1
    ∧ after (t4 (F := F)) W (Proc.devRef .tc main_v3) = val_main_v37 (F := F) x1
    ∧ after (t4 (F := F)) W (Proc.devRef .tc main_v9) = val_main_v43 (F := F) x0 x1
    ∧ after (t4 (F := F)) W (Proc.devRef .tc main_v16) = val_main_v48 (F := F) x1 x2
    ∧ after (t4 (F := F)) W (Proc.devRef .tc main_v22) = val_main_v54 (F := F) := by
  refine ⟨?_, ?_, ?_, ?_, ?_, ?_⟩
  · after_results_simp
    exact h_main_v0_1
  · after_results_simp
    exact h_main_v1
  · after_results_simp
    exact h_main_v3
  · after_results_simp
    exact h_main_v9
  · after_results_simp
    exact h_main_v16
  · after_results_simp
    rfl

/-- Operations 33 to 41 of the tail, in order. -/
abbrev t5 : List (HloOp τ sig (Elt F)) :=
  [ StableHlo.nullary main_c_4 (constantI S_ 32 0#32),
    StableHlo.unary main_c_4 main_v23 (broadcastInDim S16 ![] bcast_S_S16 : (⟨S_, .i32⟩ : BufTy).Contents (Elt F) → (⟨S16, .i32⟩ : BufTy).Contents (Elt F)),
    StableHlo.binary main_v16 main_v23 main_v24 (cmpi .slt : (⟨S16, .i32⟩ : BufTy).Contents (Elt F) → (⟨S16, .i32⟩ : BufTy).Contents (Elt F) → (⟨S16, .i1⟩ : BufTy).Contents (Elt F)),
    StableHlo.nullary main_c_5 (constantI S_ 32 21#32),
    StableHlo.unary main_c_5 main_v25 (broadcastInDim S16 ![] bcast_S_S16 : (⟨S_, .i32⟩ : BufTy).Contents (Elt F) → (⟨S16, .i32⟩ : BufTy).Contents (Elt F)),
    StableHlo.binary main_v16 main_v25 main_v26 (addi : (⟨S16, .i32⟩ : BufTy).Contents (Elt F) → (⟨S16, .i32⟩ : BufTy).Contents (Elt F) → (⟨S16, .i32⟩ : BufTy).Contents (Elt F)),
    StableHlo.ternary main_v24 main_v26 main_v16 main_v27 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v22 main_v28 (broadcastInDim S16x1 ![0] bcast_S16_S16x1_0 : (⟨S16, .i32⟩ : BufTy).Contents (Elt F) → (⟨S16x1, .i32⟩ : BufTy).Contents (Elt F)),
    StableHlo.unary main_v27 main_v29 (broadcastInDim S16x1 ![0] bcast_S16_S16x1_0 : (⟨S16, .i32⟩ : BufTy).Contents (Elt F) → (⟨S16x1, .i32⟩ : BufTy).Contents (Elt F)) ]

/-- If the buffers read from operation 33 on hold their reference stages before operations 33 to 41, the buffers read from operation 42 on hold theirs after them. -/
theorem tchunk5 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v0_1 : W (Proc.devRef .tc main_v0_1) = val_main_v30 (F := F) x0 x1)
    (h_main_v1 : W (Proc.devRef .tc main_v1) = val_main_v35 (F := F) x1)
    (h_main_v3 : W (Proc.devRef .tc main_v3) = val_main_v37 (F := F) x1)
    (h_main_v9 : W (Proc.devRef .tc main_v9) = val_main_v43 (F := F) x0 x1)
    (h_main_v16 : W (Proc.devRef .tc main_v16) = val_main_v48 (F := F) x1 x2)
    (h_main_v22 : W (Proc.devRef .tc main_v22) = val_main_v54 (F := F))
    :
    after (t5 (F := F)) W (Proc.devRef .tc main_v0_1) = val_main_v30 (F := F) x0 x1
    ∧ after (t5 (F := F)) W (Proc.devRef .tc main_v1) = val_main_v35 (F := F) x1
    ∧ after (t5 (F := F)) W (Proc.devRef .tc main_v3) = val_main_v37 (F := F) x1
    ∧ after (t5 (F := F)) W (Proc.devRef .tc main_v9) = val_main_v43 (F := F) x0 x1
    ∧ after (t5 (F := F)) W (Proc.devRef .tc main_v28) = val_main_v60 (F := F)
    ∧ after (t5 (F := F)) W (Proc.devRef .tc main_v29) = val_main_v61 (F := F) x1 x2 := by
  refine ⟨?_, ?_, ?_, ?_, ?_, ?_⟩
  · after_results_simp
    exact h_main_v0_1
  · after_results_simp
    exact h_main_v1
  · after_results_simp
    exact h_main_v3
  · after_results_simp
    exact h_main_v9
  · after_results_simp
    rw [h_main_v22]
    rfl
  · after_results_simp
    rw [h_main_v16]
    rfl

/-- Operations 42 to 47 of the tail, in order. -/
abbrev t6 : List (HloOp τ sig (Elt F)) :=
  [ StableHlo.binary main_v28 main_v29 main_v30 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    StableHlo.binary main_v9 main_v30 main_v31 ((fun x i => Host.gather gather_S8x16x21_S16x2_S8x16_0_12_n_n_12_1_811 x i) : (⟨S8x16x21, .f32⟩ : BufTy).Contents (Elt F) → (⟨S16x2, .i32⟩ : BufTy).Contents (Elt F) → (⟨S8x16, .f32⟩ : BufTy).Contents (Elt F)),
    StableHlo.nullary main_cst_6 (constant S_ .f32 0x3F800000#32),
    StableHlo.TRef.unary (.of main_cst_6 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S8x16, .f32⟩) (broadcastInDim S8x16 ![] bcast_S_S8x16),
    StableHlo.TRef.ternary (.of main_v3 : StableHlo.TRef sig ⟨S8x16, .i1⟩) (.of main_v31 : StableHlo.TRef sig ⟨S8x16, .f32⟩) (.of main_call2_v1 : StableHlo.TRef sig ⟨S8x16, .f32⟩) (.of main_v32 : StableHlo.TRef sig ⟨S8x16, .f32⟩) select ]

/-- If the buffers read from operation 42 on hold their reference stages before operations 42 to 47, the buffers read from operation 48 on hold theirs after them. -/
theorem tchunk6 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v0_1 : W (Proc.devRef .tc main_v0_1) = val_main_v30 (F := F) x0 x1)
    (h_main_v1 : W (Proc.devRef .tc main_v1) = val_main_v35 (F := F) x1)
    (h_main_v3 : W (Proc.devRef .tc main_v3) = val_main_v37 (F := F) x1)
    (h_main_v9 : W (Proc.devRef .tc main_v9) = val_main_v43 (F := F) x0 x1)
    (h_main_v28 : W (Proc.devRef .tc main_v28) = val_main_v60 (F := F))
    (h_main_v29 : W (Proc.devRef .tc main_v29) = val_main_v61 (F := F) x1 x2)
    :
    after (t6 (F := F)) W (Proc.devRef .tc main_v0_1) = val_main_v30 (F := F) x0 x1
    ∧ after (t6 (F := F)) W (Proc.devRef .tc main_v1) = val_main_v35 (F := F) x1
    ∧ after (t6 (F := F)) W (Proc.devRef .tc main_v3) = val_main_v37 (F := F) x1
    ∧ after (t6 (F := F)) W (Proc.devRef .tc main_v9) = val_main_v43 (F := F) x0 x1
    ∧ after (t6 (F := F)) W (Proc.devRef .tc main_v32) = val_main_v64 (F := F) x0 x1 x2 := by
  refine ⟨?_, ?_, ?_, ?_, ?_⟩
  · after_results_simp
    exact h_main_v0_1
  · after_results_simp
    exact h_main_v1
  · after_results_simp
    exact h_main_v3
  · after_results_simp
    exact h_main_v9
  · after_results_simp
    simp only [TRef.ofBuf, TRef.toBuf, cast_eq]
    rw [h_main_v3, h_main_v9, h_main_v28, h_main_v29]
    rfl

/-- Operations 48 to 53 of the tail, in order. -/
abbrev t7 : List (HloOp τ sig (Elt F)) :=
  [ StableHlo.unary main_v32 main_v33 (Host.log : (⟨S8x16, .f32⟩ : BufTy).Contents (Elt F) → (⟨S8x16, .f32⟩ : BufTy).Contents (Elt F)),
    StableHlo.unary main_v33 main_v34 (Host.negf : (⟨S8x16, .f32⟩ : BufTy).Contents (Elt F) → (⟨S8x16, .f32⟩ : BufTy).Contents (Elt F)),
    StableHlo.nullary main_cst_7 (constant S_ .f32 0x00000000#32),
    StableHlo.TRef.unary (.of main_cst_7 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S8x16, .f32⟩) (broadcastInDim S8x16 ![] bcast_S_S8x16),
    StableHlo.TRef.ternary (.of main_v3 : StableHlo.TRef sig ⟨S8x16, .i1⟩) (.of main_v34 : StableHlo.TRef sig ⟨S8x16, .f32⟩) (.of main_call3_v1 : StableHlo.TRef sig ⟨S8x16, .f32⟩) (.of main_v35 : StableHlo.TRef sig ⟨S8x16, .f32⟩) select ]

/-- If the buffers read from operation 48 on hold their reference stages before operations 48 to 53, the buffers read from operation 54 on hold theirs after them. -/
theorem tchunk7 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v0_1 : W (Proc.devRef .tc main_v0_1) = val_main_v30 (F := F) x0 x1)
    (h_main_v1 : W (Proc.devRef .tc main_v1) = val_main_v35 (F := F) x1)
    (h_main_v3 : W (Proc.devRef .tc main_v3) = val_main_v37 (F := F) x1)
    (h_main_v9 : W (Proc.devRef .tc main_v9) = val_main_v43 (F := F) x0 x1)
    (h_main_v32 : W (Proc.devRef .tc main_v32) = val_main_v64 (F := F) x0 x1 x2)
    :
    after (t7 (F := F)) W (Proc.devRef .tc main_v0_1) = val_main_v30 (F := F) x0 x1
    ∧ after (t7 (F := F)) W (Proc.devRef .tc main_v1) = val_main_v35 (F := F) x1
    ∧ after (t7 (F := F)) W (Proc.devRef .tc main_v9) = val_main_v43 (F := F) x0 x1
    ∧ after (t7 (F := F)) W (Proc.devRef .tc main_v35) = val_main_v67 (F := F) x0 x1 x2 := by
  refine ⟨?_, ?_, ?_, ?_⟩
  · after_results_simp
    exact h_main_v0_1
  · after_results_simp
    exact h_main_v1
  · after_results_simp
    exact h_main_v9
  · after_results_simp
    simp only [TRef.ofBuf, TRef.toBuf, cast_eq]
    rw [h_main_v3, h_main_v32]
    rfl

/-- Operations 54 to 61 of the tail, in order. -/
abbrev t8 : List (HloOp τ sig (Elt F)) :=
  [ StableHlo.nullary main_cst_8 (constant S_ .f32 0x00000000#32),
    StableHlo.binary main_v35 main_cst_8 main_v36 ((fun x v => Host.reduceAdd x v reducesTo_S8x16_S16_d0 h_S_) : (⟨S8x16, .f32⟩ : BufTy).Contents (Elt F) → (⟨S_, .f32⟩ : BufTy).Contents (Elt F) → (⟨S16, .f32⟩ : BufTy).Contents (Elt F)),
    StableHlo.nullary main_cst_9 (constant S_ .f32 0x41000000#32),
    StableHlo.unary main_cst_9 main_v37 (broadcastInDim S16 ![] bcast_S_S16 : (⟨S_, .f32⟩ : BufTy).Contents (Elt F) → (⟨S16, .f32⟩ : BufTy).Contents (Elt F)),
    StableHlo.binary main_v36 main_v37 main_v38 (Host.divf : (⟨S16, .f32⟩ : BufTy).Contents (Elt F) → (⟨S16, .f32⟩ : BufTy).Contents (Elt F) → (⟨S16, .f32⟩ : BufTy).Contents (Elt F)),
    StableHlo.nullary main_cst_10 (constant S_ .f32 0x00000000#32),
    StableHlo.unary main_cst_10 main_v39 (broadcastInDim S8x16x21 ![] bcast_S_S8x16x21 : (⟨S_, .f32⟩ : BufTy).Contents (Elt F) → (⟨S8x16x21, .f32⟩ : BufTy).Contents (Elt F)),
    StableHlo.binary main_v9 main_v39 main_v40 (cmpf .ogt : (⟨S8x16x21, .f32⟩ : BufTy).Contents (Elt F) → (⟨S8x16x21, .f32⟩ : BufTy).Contents (Elt F) → (⟨S8x16x21, .i1⟩ : BufTy).Contents (Elt F)) ]

/-- If the buffers read from operation 54 on hold their reference stages before operations 54 to 61, the buffers read from operation 62 on hold theirs after them. -/
theorem tchunk8 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v0_1 : W (Proc.devRef .tc main_v0_1) = val_main_v30 (F := F) x0 x1)
    (h_main_v1 : W (Proc.devRef .tc main_v1) = val_main_v35 (F := F) x1)
    (h_main_v9 : W (Proc.devRef .tc main_v9) = val_main_v43 (F := F) x0 x1)
    (h_main_v35 : W (Proc.devRef .tc main_v35) = val_main_v67 (F := F) x0 x1 x2)
    :
    after (t8 (F := F)) W (Proc.devRef .tc main_v0_1) = val_main_v30 (F := F) x0 x1
    ∧ after (t8 (F := F)) W (Proc.devRef .tc main_v1) = val_main_v35 (F := F) x1
    ∧ after (t8 (F := F)) W (Proc.devRef .tc main_v9) = val_main_v43 (F := F) x0 x1
    ∧ after (t8 (F := F)) W (Proc.devRef .tc main_v38) = val_main_v70 (F := F) x0 x1 x2
    ∧ after (t8 (F := F)) W (Proc.devRef .tc main_v40) = val_main_v72 (F := F) x0 x1 := by
  refine ⟨?_, ?_, ?_, ?_, ?_⟩
  · after_results_simp
    exact h_main_v0_1
  · after_results_simp
    exact h_main_v1
  · after_results_simp
    exact h_main_v9
  · after_results_simp
    rw [h_main_v35]
    rfl
  · after_results_simp
    rw [h_main_v9]
    rfl

/-- Operations 62 to 68 of the tail, in order. -/
abbrev t9 : List (HloOp τ sig (Elt F)) :=
  [ StableHlo.nullary main_cst_11 (constant S_ .f32 0x00000000#32),
    StableHlo.unary main_cst_11 main_v41 (broadcastInDim S8x16x21 ![] bcast_S_S8x16x21 : (⟨S_, .f32⟩ : BufTy).Contents (Elt F) → (⟨S8x16x21, .f32⟩ : BufTy).Contents (Elt F)),
    StableHlo.binary main_v9 main_v41 main_v42 (cmpf .ogt : (⟨S8x16x21, .f32⟩ : BufTy).Contents (Elt F) → (⟨S8x16x21, .f32⟩ : BufTy).Contents (Elt F) → (⟨S8x16x21, .i1⟩ : BufTy).Contents (Elt F)),
    StableHlo.nullary main_cst_12 (constant S_ .f32 0x3F800000#32),
    StableHlo.TRef.unary (.of main_cst_12 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S8x16x21, .f32⟩) (broadcastInDim S8x16x21 ![] bcast_S_S8x16x21),
    StableHlo.TRef.ternary (.of main_v42 : StableHlo.TRef sig ⟨S8x16x21, .i1⟩) (.of main_v9 : StableHlo.TRef sig ⟨S8x16x21, .f32⟩) (.of main_call4_v1 : StableHlo.TRef sig ⟨S8x16x21, .f32⟩) (.of main_v43 : StableHlo.TRef sig ⟨S8x16x21, .f32⟩) select ]

/-- If the buffers read from operation 62 on hold their reference stages before operations 62 to 68, the buffers read from operation 69 on hold theirs after them. -/
theorem tchunk9 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v0_1 : W (Proc.devRef .tc main_v0_1) = val_main_v30 (F := F) x0 x1)
    (h_main_v1 : W (Proc.devRef .tc main_v1) = val_main_v35 (F := F) x1)
    (h_main_v9 : W (Proc.devRef .tc main_v9) = val_main_v43 (F := F) x0 x1)
    (h_main_v38 : W (Proc.devRef .tc main_v38) = val_main_v70 (F := F) x0 x1 x2)
    (h_main_v40 : W (Proc.devRef .tc main_v40) = val_main_v72 (F := F) x0 x1)
    :
    after (t9 (F := F)) W (Proc.devRef .tc main_v0_1) = val_main_v30 (F := F) x0 x1
    ∧ after (t9 (F := F)) W (Proc.devRef .tc main_v1) = val_main_v35 (F := F) x1
    ∧ after (t9 (F := F)) W (Proc.devRef .tc main_v9) = val_main_v43 (F := F) x0 x1
    ∧ after (t9 (F := F)) W (Proc.devRef .tc main_v38) = val_main_v70 (F := F) x0 x1 x2
    ∧ after (t9 (F := F)) W (Proc.devRef .tc main_v40) = val_main_v72 (F := F) x0 x1
    ∧ after (t9 (F := F)) W (Proc.devRef .tc main_v43) = val_main_v75 (F := F) x0 x1 := by
  refine ⟨?_, ?_, ?_, ?_, ?_, ?_⟩
  · after_results_simp
    exact h_main_v0_1
  · after_results_simp
    exact h_main_v1
  · after_results_simp
    exact h_main_v9
  · after_results_simp
    exact h_main_v38
  · after_results_simp
    exact h_main_v40
  · after_results_simp
    simp only [TRef.ofBuf, TRef.toBuf, cast_eq]
    rw [h_main_v9]
    rfl

/-- Operations 69 to 74 of the tail, in order. -/
abbrev t10 : List (HloOp τ sig (Elt F)) :=
  [ StableHlo.unary main_v43 main_v44 (Host.log : (⟨S8x16x21, .f32⟩ : BufTy).Contents (Elt F) → (⟨S8x16x21, .f32⟩ : BufTy).Contents (Elt F)),
    StableHlo.binary main_v9 main_v44 main_v45 (mulf : (⟨S8x16x21, .f32⟩ : BufTy).Contents (Elt F) → (⟨S8x16x21, .f32⟩ : BufTy).Contents (Elt F) → (⟨S8x16x21, .f32⟩ : BufTy).Contents (Elt F)),
    StableHlo.nullary main_cst_13 (constant S_ .f32 0x00000000#32),
    StableHlo.TRef.unary (.of main_cst_13 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S8x16x21, .f32⟩) (broadcastInDim S8x16x21 ![] bcast_S_S8x16x21),
    StableHlo.TRef.ternary (.of main_v40 : StableHlo.TRef sig ⟨S8x16x21, .i1⟩) (.of main_v45 : StableHlo.TRef sig ⟨S8x16x21, .f32⟩) (.of main_call5_v1 : StableHlo.TRef sig ⟨S8x16x21, .f32⟩) (.of main_v46 : StableHlo.TRef sig ⟨S8x16x21, .f32⟩) select ]

/-- If the buffers read from operation 69 on hold their reference stages before operations 69 to 74, the buffers read from operation 75 on hold theirs after them. -/
theorem tchunk10 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v0_1 : W (Proc.devRef .tc main_v0_1) = val_main_v30 (F := F) x0 x1)
    (h_main_v1 : W (Proc.devRef .tc main_v1) = val_main_v35 (F := F) x1)
    (h_main_v9 : W (Proc.devRef .tc main_v9) = val_main_v43 (F := F) x0 x1)
    (h_main_v38 : W (Proc.devRef .tc main_v38) = val_main_v70 (F := F) x0 x1 x2)
    (h_main_v40 : W (Proc.devRef .tc main_v40) = val_main_v72 (F := F) x0 x1)
    (h_main_v43 : W (Proc.devRef .tc main_v43) = val_main_v75 (F := F) x0 x1)
    :
    after (t10 (F := F)) W (Proc.devRef .tc main_v0_1) = val_main_v30 (F := F) x0 x1
    ∧ after (t10 (F := F)) W (Proc.devRef .tc main_v1) = val_main_v35 (F := F) x1
    ∧ after (t10 (F := F)) W (Proc.devRef .tc main_v9) = val_main_v43 (F := F) x0 x1
    ∧ after (t10 (F := F)) W (Proc.devRef .tc main_v38) = val_main_v70 (F := F) x0 x1 x2
    ∧ after (t10 (F := F)) W (Proc.devRef .tc main_v46) = val_main_v78 (F := F) x0 x1 := by
  refine ⟨?_, ?_, ?_, ?_, ?_⟩
  · after_results_simp
    exact h_main_v0_1
  · after_results_simp
    exact h_main_v1
  · after_results_simp
    exact h_main_v9
  · after_results_simp
    exact h_main_v38
  · after_results_simp
    simp only [TRef.ofBuf, TRef.toBuf, cast_eq]
    rw [h_main_v40, h_main_v9, h_main_v43]
    rfl

/-- Operations 75 to 81 of the tail, in order. -/
abbrev t11 : List (HloOp τ sig (Elt F)) :=
  [ StableHlo.nullary main_cst_14 (constant S_ .f32 0x00000000#32),
    StableHlo.binary main_v46 main_cst_14 main_v47 ((fun x v => Host.reduceAdd x v reducesTo_S8x16x21_S8x16_d2 h_S_) : (⟨S8x16x21, .f32⟩ : BufTy).Contents (Elt F) → (⟨S_, .f32⟩ : BufTy).Contents (Elt F) → (⟨S8x16, .f32⟩ : BufTy).Contents (Elt F)),
    StableHlo.binary main_v1 main_v47 main_v48 (mulf : (⟨S8x16, .f32⟩ : BufTy).Contents (Elt F) → (⟨S8x16, .f32⟩ : BufTy).Contents (Elt F) → (⟨S8x16, .f32⟩ : BufTy).Contents (Elt F)),
    StableHlo.binary main_v9 main_v0_1 main_v49 (mulf : (⟨S8x16x21, .f32⟩ : BufTy).Contents (Elt F) → (⟨S8x16x21, .f32⟩ : BufTy).Contents (Elt F) → (⟨S8x16x21, .f32⟩ : BufTy).Contents (Elt F)),
    StableHlo.nullary main_cst_15 (constant S_ .f32 0x00000000#32),
    StableHlo.binary main_v49 main_cst_15 main_v50 ((fun x v => Host.reduceAdd x v reducesTo_S8x16x21_S8x16_d2 h_S_) : (⟨S8x16x21, .f32⟩ : BufTy).Contents (Elt F) → (⟨S_, .f32⟩ : BufTy).Contents (Elt F) → (⟨S8x16, .f32⟩ : BufTy).Contents (Elt F)),
    StableHlo.binary main_v48 main_v50 main_v51 (subf : (⟨S8x16, .f32⟩ : BufTy).Contents (Elt F) → (⟨S8x16, .f32⟩ : BufTy).Contents (Elt F) → (⟨S8x16, .f32⟩ : BufTy).Contents (Elt F)) ]

/-- If the buffers read from operation 75 on hold their reference stages before operations 75 to 81, the buffers read from operation 82 on hold theirs after them. -/
theorem tchunk11 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v0_1 : W (Proc.devRef .tc main_v0_1) = val_main_v30 (F := F) x0 x1)
    (h_main_v1 : W (Proc.devRef .tc main_v1) = val_main_v35 (F := F) x1)
    (h_main_v9 : W (Proc.devRef .tc main_v9) = val_main_v43 (F := F) x0 x1)
    (h_main_v38 : W (Proc.devRef .tc main_v38) = val_main_v70 (F := F) x0 x1 x2)
    (h_main_v46 : W (Proc.devRef .tc main_v46) = val_main_v78 (F := F) x0 x1)
    :
    after (t11 (F := F)) W (Proc.devRef .tc main_v1) = val_main_v35 (F := F) x1
    ∧ after (t11 (F := F)) W (Proc.devRef .tc main_v38) = val_main_v70 (F := F) x0 x1 x2
    ∧ after (t11 (F := F)) W (Proc.devRef .tc main_v51) = val_main_v83 (F := F) x0 x1 := by
  refine ⟨?_, ?_, ?_⟩
  · after_results_simp
    exact h_main_v1
  · after_results_simp
    exact h_main_v38
  · after_results_simp
    rw [h_main_v1, h_main_v46, h_main_v9, h_main_v0_1]
    rfl

/-- Operations 82 to 89 of the tail, in order. -/
abbrev t12 : List (HloOp τ sig (Elt F)) :=
  [ StableHlo.nullary main_cst_16 (constant S_ .f32 0x00000000#32),
    StableHlo.binary main_v51 main_cst_16 main_v52 ((fun x v => Host.reduceAdd x v reducesTo_S8x16_S16_d0 h_S_) : (⟨S8x16, .f32⟩ : BufTy).Contents (Elt F) → (⟨S_, .f32⟩ : BufTy).Contents (Elt F) → (⟨S16, .f32⟩ : BufTy).Contents (Elt F)),
    StableHlo.nullary main_cst_17 (constant S_ .f32 0x00000000#32),
    StableHlo.binary main_v1 main_cst_17 main_v53 ((fun x v => Host.reduceAdd x v reducesTo_S8x16_S16_d0 h_S_) : (⟨S8x16, .f32⟩ : BufTy).Contents (Elt F) → (⟨S_, .f32⟩ : BufTy).Contents (Elt F) → (⟨S16, .f32⟩ : BufTy).Contents (Elt F)),
    StableHlo.nullary main_cst_18 (constant S_ .f32 0x41A80000#32),
    StableHlo.unary main_cst_18 main_v54 (broadcastInDim S16 ![] bcast_S_S16 : (⟨S_, .f32⟩ : BufTy).Contents (Elt F) → (⟨S16, .f32⟩ : BufTy).Contents (Elt F)),
    StableHlo.binary main_v54 main_v53 main_v55 (mulf : (⟨S16, .f32⟩ : BufTy).Contents (Elt F) → (⟨S16, .f32⟩ : BufTy).Contents (Elt F) → (⟨S16, .f32⟩ : BufTy).Contents (Elt F)),
    StableHlo.binary main_v52 main_v55 main_v56 (Host.divf : (⟨S16, .f32⟩ : BufTy).Contents (Elt F) → (⟨S16, .f32⟩ : BufTy).Contents (Elt F) → (⟨S16, .f32⟩ : BufTy).Contents (Elt F)) ]

/-- If the buffers read from operation 82 on hold their reference stages before operations 82 to 89, the buffers read from operation 90 on hold theirs after them. -/
theorem tchunk12 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v1 : W (Proc.devRef .tc main_v1) = val_main_v35 (F := F) x1)
    (h_main_v38 : W (Proc.devRef .tc main_v38) = val_main_v70 (F := F) x0 x1 x2)
    (h_main_v51 : W (Proc.devRef .tc main_v51) = val_main_v83 (F := F) x0 x1)
    :
    after (t12 (F := F)) W (Proc.devRef .tc main_v38) = val_main_v70 (F := F) x0 x1 x2
    ∧ after (t12 (F := F)) W (Proc.devRef .tc main_v56) = val_main_v88 (F := F) x0 x1 := by
  refine ⟨?_, ?_⟩
  · after_results_simp
    exact h_main_v38
  · after_results_simp
    rw [h_main_v51, h_main_v1]
    rfl

/-- Operations 90 to 100 of the tail, in order. -/
abbrev t13 : List (HloOp τ sig (Elt F)) :=
  [ StableHlo.nullary main_cst_19 (constant S_ .f32 0x41200000#32),
    StableHlo.unary main_cst_19 main_v57 (broadcastInDim S16 ![] bcast_S_S16 : (⟨S_, .f32⟩ : BufTy).Contents (Elt F) → (⟨S16, .f32⟩ : BufTy).Contents (Elt F)),
    StableHlo.binary main_v57 main_v38 main_v58 (mulf : (⟨S16, .f32⟩ : BufTy).Contents (Elt F) → (⟨S16, .f32⟩ : BufTy).Contents (Elt F) → (⟨S16, .f32⟩ : BufTy).Contents (Elt F)),
    StableHlo.nullary main_cst_20 (constant S_ .f32 0x40A00000#32),
    StableHlo.unary main_cst_20 main_v59 (broadcastInDim S16 ![] bcast_S_S16 : (⟨S_, .f32⟩ : BufTy).Contents (Elt F) → (⟨S16, .f32⟩ : BufTy).Contents (Elt F)),
    StableHlo.binary main_v59 main_v56 main_v60 (mulf : (⟨S16, .f32⟩ : BufTy).Contents (Elt F) → (⟨S16, .f32⟩ : BufTy).Contents (Elt F) → (⟨S16, .f32⟩ : BufTy).Contents (Elt F)),
    StableHlo.binary main_v58 main_v60 main_v61 (addf : (⟨S16, .f32⟩ : BufTy).Contents (Elt F) → (⟨S16, .f32⟩ : BufTy).Contents (Elt F) → (⟨S16, .f32⟩ : BufTy).Contents (Elt F)),
    StableHlo.nullary main_cst_21 (constant S_ .f32 0x00000000#32),
    StableHlo.binary main_v61 main_cst_21 main_v62 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_22 (constant S_ .f32 0x41800000#32),
    StableHlo.binary main_v62 main_cst_22 main_v63 (Host.divf : (⟨S_, .f32⟩ : BufTy).Contents (Elt F) → (⟨S_, .f32⟩ : BufTy).Contents (Elt F) → (⟨S_, .f32⟩ : BufTy).Contents (Elt F)) ]

/-- If the buffers read from operation 90 on hold their reference stages before operations 90 to 100, the buffers read from operation 101 on hold theirs after them. -/
theorem tchunk13 (W : Valuation τ sig (Elt F)) (x0 : (⟨Cert.ReferenceIdeal.S8x21x512x512, .f32⟩ : BufTy).Contents (Elt F)) (x1 : (⟨Cert.ReferenceIdeal.S8x1x512x512, .i32⟩ : BufTy).Contents (Elt F)) (x2 : (⟨Cert.ReferenceIdeal.S8x1x512x512, .i32⟩ : BufTy).Contents (Elt F))
    (h_main_v38 : W (Proc.devRef .tc main_v38) = val_main_v70 (F := F) x0 x1 x2)
    (h_main_v56 : W (Proc.devRef .tc main_v56) = val_main_v88 (F := F) x0 x1)
    :
    after (t13 (F := F)) W (Proc.devRef .tc main_v63) = val_main_v95 (F := F) x0 x1 x2 := by
  after_results_simp
  rw [h_main_v38, h_main_v56]
  rfl

end Cert.TailChunks

end
-- ==== Proof.Tail.lean ====
import proofs.«400420_j429496730161_3_alg».proof.Proof.TailChunks

/-! The kernel program's host tail computes the reference's last stage. After its pallas_call the kernel program runs
101 host operations; they are the concatenation of fourteen consecutive stretches, and running a concatenation is
running its parts in turn. Each stretch carries, across it, the reference stages of the buffers still to be read. The
tail is entered with the pallas_call's three results holding the reference's segment sums of the softmax, of its
logarithm and (reshaped) its segment counts, and the two integer arguments in their buffers; chaining the fourteen
facts gives the result buffer the reference's last stage. -/

noncomputable section

namespace Cert.TailV

open Cert.KernelIdeal Cert.KernelIdeal.Gen Cert.ReferenceIdeal.ReadP Cert.TailChunks Idealize.ShloMosaic Idealize.ShloMosaic.TcCoe Idealize.SL.Sem Idealize.ShloMosaic.StableHlo

variable {F : FTy → Type} [FloatOps F]

/-- Running a concatenation of two stretches is running the first, then the second from what it leaves. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
/-- The tail's 101 operations are the fourteen stretches, one after the other. -/
theorem tail_split : (tailOps (F := F)).flatten =
    t0 ++ (t1 ++ (t2 ++ (t3 ++ (t4 ++ (t5 ++ (t6 ++ (t7 ++ (t8 ++ (t9 ++ (t10 ++ (t11 ++ (t12 ++ t13)))))))))))) := rfl

/-- Entered with the pallas_call's results at the reference's segment sums and counts and the integer arguments in
    their buffers, the tail leaves the reference's last stage in the result buffer. -/
theorem tail_stages (W : Valuation Cert.KernelIdeal.τ Cert.KernelIdeal.sig (Elt F))
    (x0 : FVec F Cert.ReferenceIdeal.S8x21x512x512 .f32) (x1 x2 : IVec Cert.ReferenceIdeal.S8x1x512x512 32)
    (h0 : W (Proc.devRef .tc Cert.KernelIdeal.main_v0_0) = Cert.ReferenceIdeal.ReadP.val_main_v26 (F := F) x0 x1)
    (h1 : W (Proc.devRef .tc Cert.KernelIdeal.main_v0_1) = Cert.ReferenceIdeal.ReadP.val_main_v30 (F := F) x0 x1)
    (h2 : shapeCast Cert.KernelIdeal.S8x16 (W (Proc.devRef .tc Cert.KernelIdeal.main_v0_2)) Cert.KernelIdeal.Gen.shapeCasts_S8x16x1_S8x16
        = Cert.ReferenceIdeal.ReadP.val_main_v35 (F := F) x1)
    (ha1 : W (Proc.devRef .tc Cert.KernelIdeal.main_arg1) = x1) (ha2 : W (Proc.devRef .tc Cert.KernelIdeal.main_arg2) = x2) :
    StableHlo.after (Cert.KernelIdeal.Gen.tailOps (F := F)).flatten W (Proc.devRef .tc Cert.KernelIdeal.main_v63)
      = Cert.ReferenceIdeal.ReadP.val_main_v95 (F := F) x0 x1 x2 := by
  rw [tail_split]
  simp only [after_app]
  obtain ⟨r0, r1, a1, a2, v1⟩ := tchunk0 W x0 x1 x2 h0 h1 h2 ha1 ha2
  obtain ⟨r0, r1, a1, a2, v1, v3, v4⟩ := tchunk1 _ x0 x1 x2 r0 r1 a1 a2 v1
  obtain ⟨r1, a1, a2, v1, v3, v9⟩ := tchunk2 _ x0 x1 x2 r0 r1 a1 a2 v1 v3 v4
  obtain ⟨r1, v1, v3, v9, v16⟩ := tchunk3 _ x0 x1 x2 r1 a1 a2 v1 v3 v9
  obtain ⟨r1, v1, v3, v9, v16, v22⟩ := tchunk4 _ x0 x1 x2 r1 v1 v3 v9 v16
  obtain ⟨r1, v1, v3, v9, v28, v29⟩ := tchunk5 _ x0 x1 x2 r1 v1 v3 v9 v16 v22
  obtain ⟨r1, v1, v3, v9, v32⟩ := tchunk6 _ x0 x1 x2 r1 v1 v3 v9 v28 v29
  obtain ⟨r1, v1, v9, v35⟩ := tchunk7 _ x0 x1 x2 r1 v1 v3 v9 v32
  obtain ⟨r1, v1, v9, v38, v40⟩ := tchunk8 _ x0 x1 x2 r1 v1 v9 v35
  obtain ⟨r1, v1, v9, v38, v40, v43⟩ := tchunk9 _ x0 x1 x2 r1 v1 v9 v38 v40
  obtain ⟨r1, v1, v9, v38, v46⟩ := tchunk10 _ x0 x1 x2 r1 v1 v9 v38 v40 v43
  obtain ⟨v1, v38, v51⟩ := tchunk11 _ x0 x1 x2 r1 v1 v9 v38 v46
  obtain ⟨v38, v56⟩ := tchunk12 _ x0 x1 x2 v1 v38 v51
  exact tchunk13 _ x0 x1 x2 v38 v56

end Cert.TailV

end
-- ==== Proof.RefChunks.lean ====
import proofs.«400420_j429496730161_3_alg».proof.Proof.RefRead

/-! The reference's 142 operations cut into 16 consecutive stretches. For each stretch: its operations as a list, and the
statement that if every buffer read from the stretch's first operation on holds its stage (the value the reference
computes for it, as a function of the three arguments) before the stretch, then every buffer read from the next
stretch's first operation on holds its stage after it. An operation writes its function of its operands' contents to
its result buffer and leaves every other buffer; a stage is by definition that function of the operands' stages. -/

noncomputable section

namespace Cert.RefChunks

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Operations 0 to 9 of the reference, in order. -/
abbrev c0 : List (HloOp τ sig (Elt F)) :=
  [ reshape main_arg1 main_v0 rfl shapeCasts_S8x1x512x512_S8x262144,
    reshape main_arg2 main_v1 rfl shapeCasts_S8x1x512x512_S8x262144,
    nullary main_v2 (iotaInDim S8 32 0),
    unary main_v2 main_v3 (broadcastInDim S8x1 ![0] bcast_S8_S8x1_0 : (⟨S8, .i32⟩ : BufTy).Contents (Elt F) → (⟨S8x1, .i32⟩ : BufTy).Contents (Elt F)),
    nullary main_c (constantI S_ 32 16#32),
    unary main_c main_v4 (broadcastInDim S8x1 ![] bcast_S_S8x1 : (⟨S_, .i32⟩ : BufTy).Contents (Elt F) → (⟨S8x1, .i32⟩ : BufTy).Contents (Elt F)),
    binary main_v3 main_v4 main_v5 (muli : (⟨S8x1, .i32⟩ : BufTy).Contents (Elt F) → (⟨S8x1, .i32⟩ : BufTy).Contents (Elt F) → (⟨S8x1, .i32⟩ : BufTy).Contents (Elt F)),
    unary main_v5 main_v6 (broadcastInDim S8x262144 ![0, 1] bcast_S8x1_S8x262144_0_1 : (⟨S8x1, .i32⟩ : BufTy).Contents (Elt F) → (⟨S8x262144, .i32⟩ : BufTy).Contents (Elt F)),
    binary main_v6 main_v0 main_v7 (addi : (⟨S8x262144, .i32⟩ : BufTy).Contents (Elt F) → (⟨S8x262144, .i32⟩ : BufTy).Contents (Elt F) → (⟨S8x262144, .i32⟩ : BufTy).Contents (Elt F)),
    reshape main_v7 main_v8 rfl shapeCasts_S8x262144_S2097152 ]

/-- If the buffers read from operation 0 on hold their stages before operations 0 to 9, the buffers read from operation 10 on hold theirs after them. -/
theorem chunk0 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_arg0 : W (Proc.devRef .tc main_arg0) = x0)
    (h_main_arg1 : W (Proc.devRef .tc main_arg1) = x1)
    (h_main_arg2 : W (Proc.devRef .tc main_arg2) = x2)
    :
    after (c0 (F := F)) W (Proc.devRef .tc main_arg0) = x0
    ∧ after (c0 (F := F)) W (Proc.devRef .tc main_v0) = val_main_v0 (F := F) x1
    ∧ after (c0 (F := F)) W (Proc.devRef .tc main_v1) = val_main_v1 (F := F) x2
    ∧ after (c0 (F := F)) W (Proc.devRef .tc main_v8) = val_main_v8 (F := F) x1 := by
  refine ⟨?_, ?_, ?_, ?_⟩
  · after_results_simp
    exact h_main_arg0
  · after_results_simp
    rw [h_main_arg1]
    rfl
  · after_results_simp
    rw [h_main_arg2]
    rfl
  · after_results_simp
    rw [h_main_arg1]
    rfl

/-- Operations 10 to 18 of the reference, in order. -/
abbrev c1 : List (HloOp τ sig (Elt F)) :=
  [ nullary main_cst (constant S_ .f32 0xFF800000#32),
    binary main_arg0 main_cst main_v9 ((fun x v => Host.reduce FloatOps.maximumf x v reducesTo_S8x21x512x512_S8x512x512_d1 h_S_) : (⟨S8x21x512x512, .f32⟩ : BufTy).Contents (Elt F) → (⟨S_, .f32⟩ : BufTy).Contents (Elt F) → (⟨S8x512x512, .f32⟩ : BufTy).Contents (Elt F)),
    nullary main_cst_0 (constant S_ .f32 0xFF800000#32),
    unary main_cst_0 main_v10 (broadcastInDim S8x512x512 ![] bcast_S_S8x512x512 : (⟨S_, .f32⟩ : BufTy).Contents (Elt F) → (⟨S8x512x512, .f32⟩ : BufTy).Contents (Elt F)),
    binary main_v10 main_v9 main_v11 (maximumf : (⟨S8x512x512, .f32⟩ : BufTy).Contents (Elt F) → (⟨S8x512x512, .f32⟩ : BufTy).Contents (Elt F) → (⟨S8x512x512, .f32⟩ : BufTy).Contents (Elt F)),
    unary main_v11 main_v12 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    unary main_v12 main_v13 (broadcastInDim S8x21x512x512 ![0, 1, 2, 3] bcast_S8x1x512x512_S8x21x512x512_0_1_2_3 : (⟨S8x1x512x512, .f32⟩ : BufTy).Contents (Elt F) → (⟨S8x21x512x512, .f32⟩ : BufTy).Contents (Elt F)),
    binary main_arg0 main_v13 main_v14 (subf : (⟨S8x21x512x512, .f32⟩ : BufTy).Contents (Elt F) → (⟨S8x21x512x512, .f32⟩ : BufTy).Contents (Elt F) → (⟨S8x21x512x512, .f32⟩ : BufTy).Contents (Elt F)),
    unary main_v14 main_v15 (Host.exp : (⟨S8x21x512x512, .f32⟩ : BufTy).Contents (Elt F) → (⟨S8x21x512x512, .f32⟩ : BufTy).Contents (Elt F)) ]

/-- If the buffers read from operation 10 on hold their stages before operations 10 to 18, the buffers read from operation 19 on hold theirs after them. -/
theorem chunk1 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_arg0 : W (Proc.devRef .tc main_arg0) = x0)
    (h_main_v0 : W (Proc.devRef .tc main_v0) = val_main_v0 (F := F) x1)
    (h_main_v1 : W (Proc.devRef .tc main_v1) = val_main_v1 (F := F) x2)
    (h_main_v8 : W (Proc.devRef .tc main_v8) = val_main_v8 (F := F) x1)
    :
    after (c1 (F := F)) W (Proc.devRef .tc main_v0) = val_main_v0 (F := F) x1
    ∧ after (c1 (F := F)) W (Proc.devRef .tc main_v1) = val_main_v1 (F := F) x2
    ∧ after (c1 (F := F)) W (Proc.devRef .tc main_v8) = val_main_v8 (F := F) x1
    ∧ after (c1 (F := F)) W (Proc.devRef .tc main_v15) = val_main_v15 (F := F) x0 := by
  refine ⟨?_, ?_, ?_, ?_⟩
  · after_results_simp
    exact h_main_v0
  · after_results_simp
    exact h_main_v1
  · after_results_simp
    exact h_main_v8
  · after_results_simp
    rw [h_main_arg0]
    rfl

/-- Operations 19 to 25 of the reference, in order. -/
abbrev c2 : List (HloOp τ sig (Elt F)) :=
  [ nullary main_cst_1 (constant S_ .f32 0x00000000#32),
    binary main_v15 main_cst_1 main_v16 ((fun x v => Host.reduceAdd x v reducesTo_S8x21x512x512_S8x512x512_d1 h_S_) : (⟨S8x21x512x512, .f32⟩ : BufTy).Contents (Elt F) → (⟨S_, .f32⟩ : BufTy).Contents (Elt F) → (⟨S8x512x512, .f32⟩ : BufTy).Contents (Elt F)),
    unary main_v16 main_v17 (broadcastInDim S8x1x512x512 ![0, 2, 3] bcast_S8x512x512_S8x1x512x512_0_2_3 : (⟨S8x512x512, .f32⟩ : BufTy).Contents (Elt F) → (⟨S8x1x512x512, .f32⟩ : BufTy).Contents (Elt F)),
    unary main_v17 main_v18 (broadcastInDim S8x21x512x512 ![0, 1, 2, 3] bcast_S8x1x512x512_S8x21x512x512_0_1_2_3 : (⟨S8x1x512x512, .f32⟩ : BufTy).Contents (Elt F) → (⟨S8x21x512x512, .f32⟩ : BufTy).Contents (Elt F)),
    binary main_v15 main_v18 main_v19 (Host.divf : (⟨S8x21x512x512, .f32⟩ : BufTy).Contents (Elt F) → (⟨S8x21x512x512, .f32⟩ : BufTy).Contents (Elt F) → (⟨S8x21x512x512, .f32⟩ : BufTy).Contents (Elt F)),
    unary main_v19 main_v20 ((transpose S8x512x512x21 [0, 2, 3, 1] · transposes_S8x21x512x512_S8x512x512x21_0_2_3_1) : (⟨S8x21x512x512, .f32⟩ : BufTy).Contents (Elt F) → (⟨S8x512x512x21, .f32⟩ : BufTy).Contents (Elt F)),
    reshape main_v20 main_v21 rfl shapeCasts_S8x512x512x21_S2097152x21 ]

/-- If the buffers read from operation 19 on hold their stages before operations 19 to 25, the buffers read from operation 26 on hold theirs after them. -/
theorem chunk2 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v0 : W (Proc.devRef .tc main_v0) = val_main_v0 (F := F) x1)
    (h_main_v1 : W (Proc.devRef .tc main_v1) = val_main_v1 (F := F) x2)
    (h_main_v8 : W (Proc.devRef .tc main_v8) = val_main_v8 (F := F) x1)
    (h_main_v15 : W (Proc.devRef .tc main_v15) = val_main_v15 (F := F) x0)
    :
    after (c2 (F := F)) W (Proc.devRef .tc main_v0) = val_main_v0 (F := F) x1
    ∧ after (c2 (F := F)) W (Proc.devRef .tc main_v1) = val_main_v1 (F := F) x2
    ∧ after (c2 (F := F)) W (Proc.devRef .tc main_v8) = val_main_v8 (F := F) x1
    ∧ after (c2 (F := F)) W (Proc.devRef .tc main_v21) = val_main_v21 (F := F) x0 := by
  refine ⟨?_, ?_, ?_, ?_⟩
  · after_results_simp
    exact h_main_v0
  · after_results_simp
    exact h_main_v1
  · after_results_simp
    exact h_main_v8
  · after_results_simp
    rw [h_main_v15]
    rfl

/-- Operations 26 to 35 of the reference, in order. -/
abbrev c3 : List (HloOp τ sig (Elt F)) :=
  [ unary main_v21 main_v22 (Host.log : (⟨S2097152x21, .f32⟩ : BufTy).Contents (Elt F) → (⟨S2097152x21, .f32⟩ : BufTy).Contents (Elt F)),
    nullary main_cst_2 (constant S_ .f32 0x00000000#32),
    unary main_cst_2 main_v23 (broadcastInDim S128x21 ![] bcast_S_S128x21 : (⟨S_, .f32⟩ : BufTy).Contents (Elt F) → (⟨S128x21, .f32⟩ : BufTy).Contents (Elt F)),
    unary main_v8 main_v24 (broadcastInDim S2097152x1 ![0] bcast_S2097152_S2097152x1_0 : (⟨S2097152, .i32⟩ : BufTy).Contents (Elt F) → (⟨S2097152x1, .i32⟩ : BufTy).Contents (Elt F)),
    ternary main_v23 main_v24 main_v21 main_v25 ((fun x i u => Host.scatterAdd scatter_S128x21_S2097152x1_S2097152x21_1_0_0_1 x i u) : (⟨S128x21, .f32⟩ : BufTy).Contents (Elt F) → (⟨S2097152x1, .i32⟩ : BufTy).Contents (Elt F) → (⟨S2097152x21, .f32⟩ : BufTy).Contents (Elt F) → (⟨S128x21, .f32⟩ : BufTy).Contents (Elt F)),
    reshape main_v25 main_v26 rfl shapeCasts_S128x21_S8x16x21,
    nullary main_cst_3 (constant S_ .f32 0x00000000#32),
    unary main_cst_3 main_v27 (broadcastInDim S128x21 ![] bcast_S_S128x21 : (⟨S_, .f32⟩ : BufTy).Contents (Elt F) → (⟨S128x21, .f32⟩ : BufTy).Contents (Elt F)),
    unary main_v8 main_v28 (broadcastInDim S2097152x1 ![0] bcast_S2097152_S2097152x1_0 : (⟨S2097152, .i32⟩ : BufTy).Contents (Elt F) → (⟨S2097152x1, .i32⟩ : BufTy).Contents (Elt F)),
    ternary main_v27 main_v28 main_v22 main_v29 ((fun x i u => Host.scatterAdd scatter_S128x21_S2097152x1_S2097152x21_1_0_0_1 x i u) : (⟨S128x21, .f32⟩ : BufTy).Contents (Elt F) → (⟨S2097152x1, .i32⟩ : BufTy).Contents (Elt F) → (⟨S2097152x21, .f32⟩ : BufTy).Contents (Elt F) → (⟨S128x21, .f32⟩ : BufTy).Contents (Elt F)) ]

/-- If the buffers read from operation 26 on hold their stages before operations 26 to 35, the buffers read from operation 36 on hold theirs after them. -/
theorem chunk3 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v0 : W (Proc.devRef .tc main_v0) = val_main_v0 (F := F) x1)
    (h_main_v1 : W (Proc.devRef .tc main_v1) = val_main_v1 (F := F) x2)
    (h_main_v8 : W (Proc.devRef .tc main_v8) = val_main_v8 (F := F) x1)
    (h_main_v21 : W (Proc.devRef .tc main_v21) = val_main_v21 (F := F) x0)
    :
    after (c3 (F := F)) W (Proc.devRef .tc main_v0) = val_main_v0 (F := F) x1
    ∧ after (c3 (F := F)) W (Proc.devRef .tc main_v1) = val_main_v1 (F := F) x2
    ∧ after (c3 (F := F)) W (Proc.devRef .tc main_v8) = val_main_v8 (F := F) x1
    ∧ after (c3 (F := F)) W (Proc.devRef .tc main_v26) = val_main_v26 (F := F) x0 x1
    ∧ after (c3 (F := F)) W (Proc.devRef .tc main_v29) = val_main_v29 (F := F) x0 x1 := by
  refine ⟨?_, ?_, ?_, ?_, ?_⟩
  · after_results_simp
    exact h_main_v0
  · after_results_simp
    exact h_main_v1
  · after_results_simp
    exact h_main_v8
  · after_results_simp
    rw [h_main_v8, h_main_v21]
    rfl
  · after_results_simp
    rw [h_main_v8, h_main_v21]
    rfl

/-- Operations 36 to 43 of the reference, in order. -/
abbrev c4 : List (HloOp τ sig (Elt F)) :=
  [ reshape main_v29 main_v30 rfl shapeCasts_S128x21_S8x16x21,
    nullary main_cst_4 (constant S_ .f32 0x3F800000#32),
    unary main_cst_4 main_v31 (broadcastInDim S2097152 ![] bcast_S_S2097152 : (⟨S_, .f32⟩ : BufTy).Contents (Elt F) → (⟨S2097152, .f32⟩ : BufTy).Contents (Elt F)),
    nullary main_cst_5 (constant S_ .f32 0x00000000#32),
    unary main_cst_5 main_v32 (broadcastInDim S128 ![] bcast_S_S128 : (⟨S_, .f32⟩ : BufTy).Contents (Elt F) → (⟨S128, .f32⟩ : BufTy).Contents (Elt F)),
    unary main_v8 main_v33 (broadcastInDim S2097152x1 ![0] bcast_S2097152_S2097152x1_0 : (⟨S2097152, .i32⟩ : BufTy).Contents (Elt F) → (⟨S2097152x1, .i32⟩ : BufTy).Contents (Elt F)),
    ternary main_v32 main_v33 main_v31 main_v34 ((fun x i u => Host.scatterAdd scatter_S128_S2097152x1_S2097152_n_0_0_1 x i u) : (⟨S128, .f32⟩ : BufTy).Contents (Elt F) → (⟨S2097152x1, .i32⟩ : BufTy).Contents (Elt F) → (⟨S2097152, .f32⟩ : BufTy).Contents (Elt F) → (⟨S128, .f32⟩ : BufTy).Contents (Elt F)),
    reshape main_v34 main_v35 rfl shapeCasts_S128_S8x16 ]

/-- If the buffers read from operation 36 on hold their stages before operations 36 to 43, the buffers read from operation 44 on hold theirs after them. -/
theorem chunk4 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v0 : W (Proc.devRef .tc main_v0) = val_main_v0 (F := F) x1)
    (h_main_v1 : W (Proc.devRef .tc main_v1) = val_main_v1 (F := F) x2)
    (h_main_v8 : W (Proc.devRef .tc main_v8) = val_main_v8 (F := F) x1)
    (h_main_v26 : W (Proc.devRef .tc main_v26) = val_main_v26 (F := F) x0 x1)
    (h_main_v29 : W (Proc.devRef .tc main_v29) = val_main_v29 (F := F) x0 x1)
    :
    after (c4 (F := F)) W (Proc.devRef .tc main_v0) = val_main_v0 (F := F) x1
    ∧ after (c4 (F := F)) W (Proc.devRef .tc main_v1) = val_main_v1 (F := F) x2
    ∧ after (c4 (F := F)) W (Proc.devRef .tc main_v26) = val_main_v26 (F := F) x0 x1
    ∧ after (c4 (F := F)) W (Proc.devRef .tc main_v30) = val_main_v30 (F := F) x0 x1
    ∧ after (c4 (F := F)) W (Proc.devRef .tc main_v35) = val_main_v35 (F := F) x1 := by
  refine ⟨?_, ?_, ?_, ?_, ?_⟩
  · after_results_simp
    exact h_main_v0
  · after_results_simp
    exact h_main_v1
  · after_results_simp
    exact h_main_v26
  · after_results_simp
    rw [h_main_v29]
    rfl
  · after_results_simp
    rw [h_main_v8]
    rfl

/-- Operations 44 to 50 of the reference, in order. -/
abbrev c5 : List (HloOp τ sig (Elt F)) :=
  [ nullary main_cst_6 (constant S_ .f32 0x00000000#32),
    unary main_cst_6 main_v36 (broadcastInDim S8x16 ![] bcast_S_S8x16 : (⟨S_, .f32⟩ : BufTy).Contents (Elt F) → (⟨S8x16, .f32⟩ : BufTy).Contents (Elt F)),
    binary main_v35 main_v36 main_v37 (cmpf (F := F) .ogt : (⟨S8x16, .f32⟩ : BufTy).Contents (Elt F) → (⟨S8x16, .f32⟩ : BufTy).Contents (Elt F) → (⟨S8x16, .i1⟩ : BufTy).Contents (Elt F)),
    nullary main_cst_7 (constant S_ .f32 0x3F800000#32),
    TRef.unary (TRef.of (T := ⟨S_, .f32⟩) main_cst_7) (TRef.of (T := ⟨S_, .f32⟩) main_call0_v0) id,
    TRef.unary (TRef.of (T := ⟨S_, .f32⟩) main_call0_v0) (TRef.of (T := ⟨S8x16, .f32⟩) main_call0_v1) (broadcastInDim S8x16 ![] bcast_S_S8x16),
    TRef.ternary (TRef.of (T := ⟨S8x16, .i1⟩) main_v37) (TRef.of (T := ⟨S8x16, .f32⟩) main_v35) (TRef.of (T := ⟨S8x16, .f32⟩) main_call0_v1) (TRef.of (T := ⟨S8x16, .f32⟩) main_v38) select ]

/-- If the buffers read from operation 44 on hold their stages before operations 44 to 50, the buffers read from operation 51 on hold theirs after them. -/
theorem chunk5 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v0 : W (Proc.devRef .tc main_v0) = val_main_v0 (F := F) x1)
    (h_main_v1 : W (Proc.devRef .tc main_v1) = val_main_v1 (F := F) x2)
    (h_main_v26 : W (Proc.devRef .tc main_v26) = val_main_v26 (F := F) x0 x1)
    (h_main_v30 : W (Proc.devRef .tc main_v30) = val_main_v30 (F := F) x0 x1)
    (h_main_v35 : W (Proc.devRef .tc main_v35) = val_main_v35 (F := F) x1)
    :
    after (c5 (F := F)) W (Proc.devRef .tc main_v0) = val_main_v0 (F := F) x1
    ∧ after (c5 (F := F)) W (Proc.devRef .tc main_v1) = val_main_v1 (F := F) x2
    ∧ after (c5 (F := F)) W (Proc.devRef .tc main_v26) = val_main_v26 (F := F) x0 x1
    ∧ after (c5 (F := F)) W (Proc.devRef .tc main_v30) = val_main_v30 (F := F) x0 x1
    ∧ after (c5 (F := F)) W (Proc.devRef .tc main_v35) = val_main_v35 (F := F) x1
    ∧ after (c5 (F := F)) W (Proc.devRef .tc main_v37) = val_main_v37 (F := F) x1
    ∧ after (c5 (F := F)) W (Proc.devRef .tc main_v38) = val_main_v38 (F := F) x1 := by
  refine ⟨?_, ?_, ?_, ?_, ?_, ?_, ?_⟩
  · after_results_simp
    exact h_main_v0
  · after_results_simp
    exact h_main_v1
  · after_results_simp
    exact h_main_v26
  · after_results_simp
    exact h_main_v30
  · after_results_simp
    exact h_main_v35
  · after_results_simp
    rw [h_main_v35]
    rfl
  · after_results_simp
    simp only [TRef.ofBuf, TRef.toBuf, cast_eq]
    rw [h_main_v35]
    rfl

/-- Operations 51 to 60 of the reference, in order. -/
abbrev c6 : List (HloOp τ sig (Elt F)) :=
  [ unary main_v37 main_v39 (broadcastInDim S8x16x1 ![0, 1] bcast_S8x16_S8x16x1_0_1 : (⟨S8x16, .i1⟩ : BufTy).Contents (Elt F) → (⟨S8x16x1, .i1⟩ : BufTy).Contents (Elt F)),
    unary main_v38 main_v40 (broadcastInDim S8x16x1 ![0, 1] bcast_S8x16_S8x16x1_0_1 : (⟨S8x16, .f32⟩ : BufTy).Contents (Elt F) → (⟨S8x16x1, .f32⟩ : BufTy).Contents (Elt F)),
    unary main_v40 main_v41 (broadcastInDim S8x16x21 ![0, 1, 2] bcast_S8x16x1_S8x16x21_0_1_2 : (⟨S8x16x1, .f32⟩ : BufTy).Contents (Elt F) → (⟨S8x16x21, .f32⟩ : BufTy).Contents (Elt F)),
    binary main_v26 main_v41 main_v42 (Host.divf : (⟨S8x16x21, .f32⟩ : BufTy).Contents (Elt F) → (⟨S8x16x21, .f32⟩ : BufTy).Contents (Elt F) → (⟨S8x16x21, .f32⟩ : BufTy).Contents (Elt F)),
    nullary main_cst_8 (constant S_ .f32 0x00000000#32),
    TRef.unary (TRef.of (T := ⟨S_, .f32⟩) main_cst_8) (TRef.of (T := ⟨S_, .f32⟩) main_call1_v0) id,
    TRef.unary (TRef.of (T := ⟨S8x16x1, .i1⟩) main_v39) (TRef.of (T := ⟨S8x16x21, .i1⟩) main_call1_v1) (broadcastInDim S8x16x21 ![0, 1, 2] bcast_S8x16x1_S8x16x21_0_1_2),
    TRef.unary (TRef.of (T := ⟨S_, .f32⟩) main_call1_v0) (TRef.of (T := ⟨S8x16x21, .f32⟩) main_call1_v2) (broadcastInDim S8x16x21 ![] bcast_S_S8x16x21),
    TRef.ternary (TRef.of (T := ⟨S8x16x21, .i1⟩) main_call1_v1) (TRef.of (T := ⟨S8x16x21, .f32⟩) main_v42) (TRef.of (T := ⟨S8x16x21, .f32⟩) main_call1_v2) (TRef.of (T := ⟨S8x16x21, .f32⟩) main_v43) select,
    reshape main_v1 main_v44 rfl shapeCasts_S8x262144_S2097152 ]

/-- If the buffers read from operation 51 on hold their stages before operations 51 to 60, the buffers read from operation 61 on hold theirs after them. -/
theorem chunk6 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v0 : W (Proc.devRef .tc main_v0) = val_main_v0 (F := F) x1)
    (h_main_v1 : W (Proc.devRef .tc main_v1) = val_main_v1 (F := F) x2)
    (h_main_v26 : W (Proc.devRef .tc main_v26) = val_main_v26 (F := F) x0 x1)
    (h_main_v30 : W (Proc.devRef .tc main_v30) = val_main_v30 (F := F) x0 x1)
    (h_main_v35 : W (Proc.devRef .tc main_v35) = val_main_v35 (F := F) x1)
    (h_main_v37 : W (Proc.devRef .tc main_v37) = val_main_v37 (F := F) x1)
    (h_main_v38 : W (Proc.devRef .tc main_v38) = val_main_v38 (F := F) x1)
    :
    after (c6 (F := F)) W (Proc.devRef .tc main_v0) = val_main_v0 (F := F) x1
    ∧ after (c6 (F := F)) W (Proc.devRef .tc main_v30) = val_main_v30 (F := F) x0 x1
    ∧ after (c6 (F := F)) W (Proc.devRef .tc main_v35) = val_main_v35 (F := F) x1
    ∧ after (c6 (F := F)) W (Proc.devRef .tc main_v37) = val_main_v37 (F := F) x1
    ∧ after (c6 (F := F)) W (Proc.devRef .tc main_v43) = val_main_v43 (F := F) x0 x1
    ∧ after (c6 (F := F)) W (Proc.devRef .tc main_v44) = val_main_v44 (F := F) x2 := by
  refine ⟨?_, ?_, ?_, ?_, ?_, ?_⟩
  · after_results_simp
    exact h_main_v0
  · after_results_simp
    exact h_main_v30
  · after_results_simp
    exact h_main_v35
  · after_results_simp
    exact h_main_v37
  · after_results_simp
    simp only [TRef.ofBuf, TRef.toBuf, cast_eq]
    rw [h_main_v37, h_main_v26, h_main_v38]
    rfl
  · after_results_simp
    rw [h_main_v1]
    rfl

/-- Operations 61 to 66 of the reference, in order. -/
abbrev c7 : List (HloOp τ sig (Elt F)) :=
  [ reshape main_v0 main_v45 rfl shapeCasts_S8x262144_S2097152,
    nullary main_c_9 (constantI S_ 32 2147483648#32),
    unary main_c_9 main_v46 (broadcastInDim S16 ![] bcast_S_S16 : (⟨S_, .i32⟩ : BufTy).Contents (Elt F) → (⟨S16, .i32⟩ : BufTy).Contents (Elt F)),
    unary main_v45 main_v47 (broadcastInDim S2097152x1 ![0] bcast_S2097152_S2097152x1_0 : (⟨S2097152, .i32⟩ : BufTy).Contents (Elt F) → (⟨S2097152x1, .i32⟩ : BufTy).Contents (Elt F)),
    ternary main_v46 main_v47 main_v44 main_v48 ((fun x i u => Host.scatter scatter_S16_S2097152x1_S2097152_n_0_0_1 IntOp.maxsi x i u) : (⟨S16, .i32⟩ : BufTy).Contents (Elt F) → (⟨S2097152x1, .i32⟩ : BufTy).Contents (Elt F) → (⟨S2097152, .i32⟩ : BufTy).Contents (Elt F) → (⟨S16, .i32⟩ : BufTy).Contents (Elt F)),
    nullary main_v49 (iotaInDim S16 32 0) ]

/-- If the buffers read from operation 61 on hold their stages before operations 61 to 66, the buffers read from operation 67 on hold theirs after them. -/
theorem chunk7 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v0 : W (Proc.devRef .tc main_v0) = val_main_v0 (F := F) x1)
    (h_main_v30 : W (Proc.devRef .tc main_v30) = val_main_v30 (F := F) x0 x1)
    (h_main_v35 : W (Proc.devRef .tc main_v35) = val_main_v35 (F := F) x1)
    (h_main_v37 : W (Proc.devRef .tc main_v37) = val_main_v37 (F := F) x1)
    (h_main_v43 : W (Proc.devRef .tc main_v43) = val_main_v43 (F := F) x0 x1)
    (h_main_v44 : W (Proc.devRef .tc main_v44) = val_main_v44 (F := F) x2)
    :
    after (c7 (F := F)) W (Proc.devRef .tc main_v30) = val_main_v30 (F := F) x0 x1
    ∧ after (c7 (F := F)) W (Proc.devRef .tc main_v35) = val_main_v35 (F := F) x1
    ∧ after (c7 (F := F)) W (Proc.devRef .tc main_v37) = val_main_v37 (F := F) x1
    ∧ after (c7 (F := F)) W (Proc.devRef .tc main_v43) = val_main_v43 (F := F) x0 x1
    ∧ after (c7 (F := F)) W (Proc.devRef .tc main_v48) = val_main_v48 (F := F) x1 x2
    ∧ after (c7 (F := F)) W (Proc.devRef .tc main_v49) = val_main_v49 (F := F) := by
  refine ⟨?_, ?_, ?_, ?_, ?_, ?_⟩
  · after_results_simp
    exact h_main_v30
  · after_results_simp
    exact h_main_v35
  · after_results_simp
    exact h_main_v37
  · after_results_simp
    exact h_main_v43
  · after_results_simp
    rw [h_main_v0, h_main_v44]
    rfl
  · after_results_simp
    rfl

/-- Operations 67 to 73 of the reference, in order. -/
abbrev c8 : List (HloOp τ sig (Elt F)) :=
  [ nullary main_c_10 (constantI S_ 32 0#32),
    unary main_c_10 main_v50 (broadcastInDim S16 ![] bcast_S_S16 : (⟨S_, .i32⟩ : BufTy).Contents (Elt F) → (⟨S16, .i32⟩ : BufTy).Contents (Elt F)),
    binary main_v49 main_v50 main_v51 (cmpi .slt : (⟨S16, .i32⟩ : BufTy).Contents (Elt F) → (⟨S16, .i32⟩ : BufTy).Contents (Elt F) → (⟨S16, .i1⟩ : BufTy).Contents (Elt F)),
    nullary main_c_11 (constantI S_ 32 16#32),
    unary main_c_11 main_v52 (broadcastInDim S16 ![] bcast_S_S16 : (⟨S_, .i32⟩ : BufTy).Contents (Elt F) → (⟨S16, .i32⟩ : BufTy).Contents (Elt F)),
    binary main_v49 main_v52 main_v53 (addi : (⟨S16, .i32⟩ : BufTy).Contents (Elt F) → (⟨S16, .i32⟩ : BufTy).Contents (Elt F) → (⟨S16, .i32⟩ : BufTy).Contents (Elt F)),
    ternary main_v51 main_v53 main_v49 main_v54 (select : (⟨S16, .i1⟩ : BufTy).Contents (Elt F) → (⟨S16, .i32⟩ : BufTy).Contents (Elt F) → (⟨S16, .i32⟩ : BufTy).Contents (Elt F) → (⟨S16, .i32⟩ : BufTy).Contents (Elt F)) ]

/-- If the buffers read from operation 67 on hold their stages before operations 67 to 73, the buffers read from operation 74 on hold theirs after them. -/
theorem chunk8 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v30 : W (Proc.devRef .tc main_v30) = val_main_v30 (F := F) x0 x1)
    (h_main_v35 : W (Proc.devRef .tc main_v35) = val_main_v35 (F := F) x1)
    (h_main_v37 : W (Proc.devRef .tc main_v37) = val_main_v37 (F := F) x1)
    (h_main_v43 : W (Proc.devRef .tc main_v43) = val_main_v43 (F := F) x0 x1)
    (h_main_v48 : W (Proc.devRef .tc main_v48) = val_main_v48 (F := F) x1 x2)
    (h_main_v49 : W (Proc.devRef .tc main_v49) = val_main_v49 (F := F))
    :
    after (c8 (F := F)) W (Proc.devRef .tc main_v30) = val_main_v30 (F := F) x0 x1
    ∧ after (c8 (F := F)) W (Proc.devRef .tc main_v35) = val_main_v35 (F := F) x1
    ∧ after (c8 (F := F)) W (Proc.devRef .tc main_v37) = val_main_v37 (F := F) x1
    ∧ after (c8 (F := F)) W (Proc.devRef .tc main_v43) = val_main_v43 (F := F) x0 x1
    ∧ after (c8 (F := F)) W (Proc.devRef .tc main_v48) = val_main_v48 (F := F) x1 x2
    ∧ after (c8 (F := F)) W (Proc.devRef .tc main_v54) = val_main_v54 (F := F) := by
  refine ⟨?_, ?_, ?_, ?_, ?_, ?_⟩
  · after_results_simp
    exact h_main_v30
  · after_results_simp
    exact h_main_v35
  · after_results_simp
    exact h_main_v37
  · after_results_simp
    exact h_main_v43
  · after_results_simp
    exact h_main_v48
  · after_results_simp
    rw [h_main_v49]
    rfl

/-- Operations 74 to 82 of the reference, in order. -/
abbrev c9 : List (HloOp τ sig (Elt F)) :=
  [ nullary main_c_12 (constantI S_ 32 0#32),
    unary main_c_12 main_v55 (broadcastInDim S16 ![] bcast_S_S16 : (⟨S_, .i32⟩ : BufTy).Contents (Elt F) → (⟨S16, .i32⟩ : BufTy).Contents (Elt F)),
    binary main_v48 main_v55 main_v56 (cmpi .slt : (⟨S16, .i32⟩ : BufTy).Contents (Elt F) → (⟨S16, .i32⟩ : BufTy).Contents (Elt F) → (⟨S16, .i1⟩ : BufTy).Contents (Elt F)),
    nullary main_c_13 (constantI S_ 32 21#32),
    unary main_c_13 main_v57 (broadcastInDim S16 ![] bcast_S_S16 : (⟨S_, .i32⟩ : BufTy).Contents (Elt F) → (⟨S16, .i32⟩ : BufTy).Contents (Elt F)),
    binary main_v48 main_v57 main_v58 (addi : (⟨S16, .i32⟩ : BufTy).Contents (Elt F) → (⟨S16, .i32⟩ : BufTy).Contents (Elt F) → (⟨S16, .i32⟩ : BufTy).Contents (Elt F)),
    ternary main_v56 main_v58 main_v48 main_v59 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v54 main_v60 (broadcastInDim S16x1 ![0] bcast_S16_S16x1_0 : (⟨S16, .i32⟩ : BufTy).Contents (Elt F) → (⟨S16x1, .i32⟩ : BufTy).Contents (Elt F)),
    unary main_v59 main_v61 (broadcastInDim S16x1 ![0] bcast_S16_S16x1_0 : (⟨S16, .i32⟩ : BufTy).Contents (Elt F) → (⟨S16x1, .i32⟩ : BufTy).Contents (Elt F)) ]

/-- If the buffers read from operation 74 on hold their stages before operations 74 to 82, the buffers read from operation 83 on hold theirs after them. -/
theorem chunk9 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v30 : W (Proc.devRef .tc main_v30) = val_main_v30 (F := F) x0 x1)
    (h_main_v35 : W (Proc.devRef .tc main_v35) = val_main_v35 (F := F) x1)
    (h_main_v37 : W (Proc.devRef .tc main_v37) = val_main_v37 (F := F) x1)
    (h_main_v43 : W (Proc.devRef .tc main_v43) = val_main_v43 (F := F) x0 x1)
    (h_main_v48 : W (Proc.devRef .tc main_v48) = val_main_v48 (F := F) x1 x2)
    (h_main_v54 : W (Proc.devRef .tc main_v54) = val_main_v54 (F := F))
    :
    after (c9 (F := F)) W (Proc.devRef .tc main_v30) = val_main_v30 (F := F) x0 x1
    ∧ after (c9 (F := F)) W (Proc.devRef .tc main_v35) = val_main_v35 (F := F) x1
    ∧ after (c9 (F := F)) W (Proc.devRef .tc main_v37) = val_main_v37 (F := F) x1
    ∧ after (c9 (F := F)) W (Proc.devRef .tc main_v43) = val_main_v43 (F := F) x0 x1
    ∧ after (c9 (F := F)) W (Proc.devRef .tc main_v60) = val_main_v60 (F := F)
    ∧ after (c9 (F := F)) W (Proc.devRef .tc main_v61) = val_main_v61 (F := F) x1 x2 := by
  refine ⟨?_, ?_, ?_, ?_, ?_, ?_⟩
  · after_results_simp
    exact h_main_v30
  · after_results_simp
    exact h_main_v35
  · after_results_simp
    exact h_main_v37
  · after_results_simp
    exact h_main_v43
  · after_results_simp
    rw [h_main_v54]
    rfl
  · after_results_simp
    rw [h_main_v48]
    rfl

/-- Operations 83 to 90 of the reference, in order. -/
abbrev c10 : List (HloOp τ sig (Elt F)) :=
  [ binary main_v60 main_v61 main_v62 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    binary main_v43 main_v62 main_v63 ((fun x i => Host.gather gather_S8x16x21_S16x2_S8x16_0_12_n_n_12_1_811 x i) : (⟨S8x16x21, .f32⟩ : BufTy).Contents (Elt F) → (⟨S16x2, .i32⟩ : BufTy).Contents (Elt F) → (⟨S8x16, .f32⟩ : BufTy).Contents (Elt F)),
    nullary main_cst_14 (constant S_ .f32 0x3F800000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S8x16, .f32⟩) main_call2_v1) (broadcastInDim S8x16 ![] bcast_S_S8x16),
    TRef.ternary (TRef.of (T := ⟨S8x16, .i1⟩) main_v37) (TRef.of (T := ⟨S8x16, .f32⟩) main_v63) (TRef.of (T := ⟨S8x16, .f32⟩) main_call2_v1) (TRef.of (T := ⟨S8x16, .f32⟩) main_v64) select,
    unary main_v64 main_v65 (Host.log : (⟨S8x16, .f32⟩ : BufTy).Contents (Elt F) → (⟨S8x16, .f32⟩ : BufTy).Contents (Elt F)),
    unary main_v65 main_v66 (Host.negf : (⟨S8x16, .f32⟩ : BufTy).Contents (Elt F) → (⟨S8x16, .f32⟩ : BufTy).Contents (Elt F)) ]

/-- If the buffers read from operation 83 on hold their stages before operations 83 to 90, the buffers read from operation 91 on hold theirs after them. -/
theorem chunk10 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v30 : W (Proc.devRef .tc main_v30) = val_main_v30 (F := F) x0 x1)
    (h_main_v35 : W (Proc.devRef .tc main_v35) = val_main_v35 (F := F) x1)
    (h_main_v37 : W (Proc.devRef .tc main_v37) = val_main_v37 (F := F) x1)
    (h_main_v43 : W (Proc.devRef .tc main_v43) = val_main_v43 (F := F) x0 x1)
    (h_main_v60 : W (Proc.devRef .tc main_v60) = val_main_v60 (F := F))
    (h_main_v61 : W (Proc.devRef .tc main_v61) = val_main_v61 (F := F) x1 x2)
    :
    after (c10 (F := F)) W (Proc.devRef .tc main_v30) = val_main_v30 (F := F) x0 x1
    ∧ after (c10 (F := F)) W (Proc.devRef .tc main_v35) = val_main_v35 (F := F) x1
    ∧ after (c10 (F := F)) W (Proc.devRef .tc main_v37) = val_main_v37 (F := F) x1
    ∧ after (c10 (F := F)) W (Proc.devRef .tc main_v43) = val_main_v43 (F := F) x0 x1
    ∧ after (c10 (F := F)) W (Proc.devRef .tc main_v66) = val_main_v66 (F := F) x0 x1 x2 := by
  refine ⟨?_, ?_, ?_, ?_, ?_⟩
  · after_results_simp
    exact h_main_v30
  · after_results_simp
    exact h_main_v35
  · after_results_simp
    exact h_main_v37
  · after_results_simp
    exact h_main_v43
  · after_results_simp
    simp only [TRef.ofBuf, TRef.toBuf, cast_eq]
    rw [h_main_v37, h_main_v43, h_main_v60, h_main_v61]
    rfl

/-- Operations 91 to 99 of the reference, in order. -/
abbrev c11 : List (HloOp τ sig (Elt F)) :=
  [ nullary main_cst_15 (constant S_ .f32 0x00000000#32),
    TRef.unary (TRef.of (T := ⟨S_, .f32⟩) main_cst_15) (TRef.of (T := ⟨S_, .f32⟩) main_call3_v0) id,
    TRef.unary (TRef.of (T := ⟨S_, .f32⟩) main_call3_v0) (TRef.of (T := ⟨S8x16, .f32⟩) main_call3_v1) (broadcastInDim S8x16 ![] bcast_S_S8x16),
    TRef.ternary (TRef.of (T := ⟨S8x16, .i1⟩) main_v37) (TRef.of (T := ⟨S8x16, .f32⟩) main_v66) (TRef.of (T := ⟨S8x16, .f32⟩) main_call3_v1) (TRef.of (T := ⟨S8x16, .f32⟩) main_v67) select,
    nullary main_cst_16 (constant S_ .f32 0x00000000#32),
    binary main_v67 main_cst_16 main_v68 ((fun x v => Host.reduceAdd x v reducesTo_S8x16_S16_d0 h_S_) : (⟨S8x16, .f32⟩ : BufTy).Contents (Elt F) → (⟨S_, .f32⟩ : BufTy).Contents (Elt F) → (⟨S16, .f32⟩ : BufTy).Contents (Elt F)),
    nullary main_cst_17 (constant S_ .f32 0x41000000#32),
    unary main_cst_17 main_v69 (broadcastInDim S16 ![] bcast_S_S16 : (⟨S_, .f32⟩ : BufTy).Contents (Elt F) → (⟨S16, .f32⟩ : BufTy).Contents (Elt F)),
    binary main_v68 main_v69 main_v70 (Host.divf : (⟨S16, .f32⟩ : BufTy).Contents (Elt F) → (⟨S16, .f32⟩ : BufTy).Contents (Elt F) → (⟨S16, .f32⟩ : BufTy).Contents (Elt F)) ]

/-- If the buffers read from operation 91 on hold their stages before operations 91 to 99, the buffers read from operation 100 on hold theirs after them. -/
theorem chunk11 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v30 : W (Proc.devRef .tc main_v30) = val_main_v30 (F := F) x0 x1)
    (h_main_v35 : W (Proc.devRef .tc main_v35) = val_main_v35 (F := F) x1)
    (h_main_v37 : W (Proc.devRef .tc main_v37) = val_main_v37 (F := F) x1)
    (h_main_v43 : W (Proc.devRef .tc main_v43) = val_main_v43 (F := F) x0 x1)
    (h_main_v66 : W (Proc.devRef .tc main_v66) = val_main_v66 (F := F) x0 x1 x2)
    :
    after (c11 (F := F)) W (Proc.devRef .tc main_v30) = val_main_v30 (F := F) x0 x1
    ∧ after (c11 (F := F)) W (Proc.devRef .tc main_v35) = val_main_v35 (F := F) x1
    ∧ after (c11 (F := F)) W (Proc.devRef .tc main_v43) = val_main_v43 (F := F) x0 x1
    ∧ after (c11 (F := F)) W (Proc.devRef .tc main_v70) = val_main_v70 (F := F) x0 x1 x2 := by
  refine ⟨?_, ?_, ?_, ?_⟩
  · after_results_simp
    exact h_main_v30
  · after_results_simp
    exact h_main_v35
  · after_results_simp
    exact h_main_v43
  · after_results_simp
    simp only [TRef.ofBuf, TRef.toBuf, cast_eq]
    rw [h_main_v37, h_main_v66]
    rfl

/-- Operations 100 to 109 of the reference, in order. -/
abbrev c12 : List (HloOp τ sig (Elt F)) :=
  [ nullary main_cst_18 (constant S_ .f32 0x00000000#32),
    unary main_cst_18 main_v71 (broadcastInDim S8x16x21 ![] bcast_S_S8x16x21 : (⟨S_, .f32⟩ : BufTy).Contents (Elt F) → (⟨S8x16x21, .f32⟩ : BufTy).Contents (Elt F)),
    binary main_v43 main_v71 main_v72 (cmpf (F := F) .ogt : (⟨S8x16x21, .f32⟩ : BufTy).Contents (Elt F) → (⟨S8x16x21, .f32⟩ : BufTy).Contents (Elt F) → (⟨S8x16x21, .i1⟩ : BufTy).Contents (Elt F)),
    nullary main_cst_19 (constant S_ .f32 0x00000000#32),
    unary main_cst_19 main_v73 (broadcastInDim S8x16x21 ![] bcast_S_S8x16x21 : (⟨S_, .f32⟩ : BufTy).Contents (Elt F) → (⟨S8x16x21, .f32⟩ : BufTy).Contents (Elt F)),
    binary main_v43 main_v73 main_v74 (cmpf (F := F) .ogt : (⟨S8x16x21, .f32⟩ : BufTy).Contents (Elt F) → (⟨S8x16x21, .f32⟩ : BufTy).Contents (Elt F) → (⟨S8x16x21, .i1⟩ : BufTy).Contents (Elt F)),
    nullary main_cst_20 (constant S_ .f32 0x3F800000#32),
    TRef.unary (TRef.of (T := ⟨S_, .f32⟩) main_cst_20) (TRef.of (T := ⟨S_, .f32⟩) main_call4_v0) id,
    TRef.unary (TRef.of (T := ⟨S_, .f32⟩) main_call4_v0) (TRef.of (T := ⟨S8x16x21, .f32⟩) main_call4_v1) (broadcastInDim S8x16x21 ![] bcast_S_S8x16x21),
    TRef.ternary (TRef.of (T := ⟨S8x16x21, .i1⟩) main_v74) (TRef.of (T := ⟨S8x16x21, .f32⟩) main_v43) (TRef.of (T := ⟨S8x16x21, .f32⟩) main_call4_v1) (TRef.of (T := ⟨S8x16x21, .f32⟩) main_v75) select ]

/-- If the buffers read from operation 100 on hold their stages before operations 100 to 109, the buffers read from operation 110 on hold theirs after them. -/
theorem chunk12 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v30 : W (Proc.devRef .tc main_v30) = val_main_v30 (F := F) x0 x1)
    (h_main_v35 : W (Proc.devRef .tc main_v35) = val_main_v35 (F := F) x1)
    (h_main_v43 : W (Proc.devRef .tc main_v43) = val_main_v43 (F := F) x0 x1)
    (h_main_v70 : W (Proc.devRef .tc main_v70) = val_main_v70 (F := F) x0 x1 x2)
    :
    after (c12 (F := F)) W (Proc.devRef .tc main_v30) = val_main_v30 (F := F) x0 x1
    ∧ after (c12 (F := F)) W (Proc.devRef .tc main_v35) = val_main_v35 (F := F) x1
    ∧ after (c12 (F := F)) W (Proc.devRef .tc main_v43) = val_main_v43 (F := F) x0 x1
    ∧ after (c12 (F := F)) W (Proc.devRef .tc main_v70) = val_main_v70 (F := F) x0 x1 x2
    ∧ after (c12 (F := F)) W (Proc.devRef .tc main_v72) = val_main_v72 (F := F) x0 x1
    ∧ after (c12 (F := F)) W (Proc.devRef .tc main_v75) = val_main_v75 (F := F) x0 x1 := by
  refine ⟨?_, ?_, ?_, ?_, ?_, ?_⟩
  · after_results_simp
    exact h_main_v30
  · after_results_simp
    exact h_main_v35
  · after_results_simp
    exact h_main_v43
  · after_results_simp
    exact h_main_v70
  · after_results_simp
    rw [h_main_v43]
    rfl
  · after_results_simp
    simp only [TRef.ofBuf, TRef.toBuf, cast_eq]
    rw [h_main_v43]
    rfl

/-- Operations 110 to 119 of the reference, in order. -/
abbrev c13 : List (HloOp τ sig (Elt F)) :=
  [ unary main_v75 main_v76 (Host.log : (⟨S8x16x21, .f32⟩ : BufTy).Contents (Elt F) → (⟨S8x16x21, .f32⟩ : BufTy).Contents (Elt F)),
    binary main_v43 main_v76 main_v77 (mulf : (⟨S8x16x21, .f32⟩ : BufTy).Contents (Elt F) → (⟨S8x16x21, .f32⟩ : BufTy).Contents (Elt F) → (⟨S8x16x21, .f32⟩ : BufTy).Contents (Elt F)),
    nullary main_cst_21 (constant S_ .f32 0x00000000#32),
    TRef.unary (TRef.of (T := ⟨S_, .f32⟩) main_cst_21) (TRef.of (T := ⟨S_, .f32⟩) main_call5_v0) id,
    TRef.unary (TRef.of (T := ⟨S_, .f32⟩) main_call5_v0) (TRef.of (T := ⟨S8x16x21, .f32⟩) main_call5_v1) (broadcastInDim S8x16x21 ![] bcast_S_S8x16x21),
    TRef.ternary (TRef.of (T := ⟨S8x16x21, .i1⟩) main_v72) (TRef.of (T := ⟨S8x16x21, .f32⟩) main_v77) (TRef.of (T := ⟨S8x16x21, .f32⟩) main_call5_v1) (TRef.of (T := ⟨S8x16x21, .f32⟩) main_v78) select,
    nullary main_cst_22 (constant S_ .f32 0x00000000#32),
    binary main_v78 main_cst_22 main_v79 ((fun x v => Host.reduceAdd x v reducesTo_S8x16x21_S8x16_d2 h_S_) : (⟨S8x16x21, .f32⟩ : BufTy).Contents (Elt F) → (⟨S_, .f32⟩ : BufTy).Contents (Elt F) → (⟨S8x16, .f32⟩ : BufTy).Contents (Elt F)),
    binary main_v35 main_v79 main_v80 (mulf : (⟨S8x16, .f32⟩ : BufTy).Contents (Elt F) → (⟨S8x16, .f32⟩ : BufTy).Contents (Elt F) → (⟨S8x16, .f32⟩ : BufTy).Contents (Elt F)),
    binary main_v43 main_v30 main_v81 (mulf : (⟨S8x16x21, .f32⟩ : BufTy).Contents (Elt F) → (⟨S8x16x21, .f32⟩ : BufTy).Contents (Elt F) → (⟨S8x16x21, .f32⟩ : BufTy).Contents (Elt F)) ]

/-- If the buffers read from operation 110 on hold their stages before operations 110 to 119, the buffers read from operation 120 on hold theirs after them. -/
theorem chunk13 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v30 : W (Proc.devRef .tc main_v30) = val_main_v30 (F := F) x0 x1)
    (h_main_v35 : W (Proc.devRef .tc main_v35) = val_main_v35 (F := F) x1)
    (h_main_v43 : W (Proc.devRef .tc main_v43) = val_main_v43 (F := F) x0 x1)
    (h_main_v70 : W (Proc.devRef .tc main_v70) = val_main_v70 (F := F) x0 x1 x2)
    (h_main_v72 : W (Proc.devRef .tc main_v72) = val_main_v72 (F := F) x0 x1)
    (h_main_v75 : W (Proc.devRef .tc main_v75) = val_main_v75 (F := F) x0 x1)
    :
    after (c13 (F := F)) W (Proc.devRef .tc main_v35) = val_main_v35 (F := F) x1
    ∧ after (c13 (F := F)) W (Proc.devRef .tc main_v70) = val_main_v70 (F := F) x0 x1 x2
    ∧ after (c13 (F := F)) W (Proc.devRef .tc main_v80) = val_main_v80 (F := F) x0 x1
    ∧ after (c13 (F := F)) W (Proc.devRef .tc main_v81) = val_main_v81 (F := F) x0 x1 := by
  refine ⟨?_, ?_, ?_, ?_⟩
  · after_results_simp
    exact h_main_v35
  · after_results_simp
    exact h_main_v70
  · after_results_simp
    simp only [TRef.ofBuf, TRef.toBuf, cast_eq]
    rw [h_main_v35, h_main_v72, h_main_v43, h_main_v75]
    rfl
  · after_results_simp
    rw [h_main_v43, h_main_v30]
    rfl

/-- Operations 120 to 130 of the reference, in order. -/
abbrev c14 : List (HloOp τ sig (Elt F)) :=
  [ nullary main_cst_23 (constant S_ .f32 0x00000000#32),
    binary main_v81 main_cst_23 main_v82 ((fun x v => Host.reduceAdd x v reducesTo_S8x16x21_S8x16_d2 h_S_) : (⟨S8x16x21, .f32⟩ : BufTy).Contents (Elt F) → (⟨S_, .f32⟩ : BufTy).Contents (Elt F) → (⟨S8x16, .f32⟩ : BufTy).Contents (Elt F)),
    binary main_v80 main_v82 main_v83 (subf : (⟨S8x16, .f32⟩ : BufTy).Contents (Elt F) → (⟨S8x16, .f32⟩ : BufTy).Contents (Elt F) → (⟨S8x16, .f32⟩ : BufTy).Contents (Elt F)),
    nullary main_cst_24 (constant S_ .f32 0x00000000#32),
    binary main_v83 main_cst_24 main_v84 ((fun x v => Host.reduceAdd x v reducesTo_S8x16_S16_d0 h_S_) : (⟨S8x16, .f32⟩ : BufTy).Contents (Elt F) → (⟨S_, .f32⟩ : BufTy).Contents (Elt F) → (⟨S16, .f32⟩ : BufTy).Contents (Elt F)),
    nullary main_cst_25 (constant S_ .f32 0x00000000#32),
    binary main_v35 main_cst_25 main_v85 ((fun x v => Host.reduceAdd x v reducesTo_S8x16_S16_d0 h_S_) : (⟨S8x16, .f32⟩ : BufTy).Contents (Elt F) → (⟨S_, .f32⟩ : BufTy).Contents (Elt F) → (⟨S16, .f32⟩ : BufTy).Contents (Elt F)),
    nullary main_cst_26 (constant S_ .f32 0x41A80000#32),
    unary main_cst_26 main_v86 (broadcastInDim S16 ![] bcast_S_S16 : (⟨S_, .f32⟩ : BufTy).Contents (Elt F) → (⟨S16, .f32⟩ : BufTy).Contents (Elt F)),
    binary main_v86 main_v85 main_v87 (mulf : (⟨S16, .f32⟩ : BufTy).Contents (Elt F) → (⟨S16, .f32⟩ : BufTy).Contents (Elt F) → (⟨S16, .f32⟩ : BufTy).Contents (Elt F)),
    binary main_v84 main_v87 main_v88 (Host.divf : (⟨S16, .f32⟩ : BufTy).Contents (Elt F) → (⟨S16, .f32⟩ : BufTy).Contents (Elt F) → (⟨S16, .f32⟩ : BufTy).Contents (Elt F)) ]

/-- If the buffers read from operation 120 on hold their stages before operations 120 to 130, the buffers read from operation 131 on hold theirs after them. -/
theorem chunk14 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v35 : W (Proc.devRef .tc main_v35) = val_main_v35 (F := F) x1)
    (h_main_v70 : W (Proc.devRef .tc main_v70) = val_main_v70 (F := F) x0 x1 x2)
    (h_main_v80 : W (Proc.devRef .tc main_v80) = val_main_v80 (F := F) x0 x1)
    (h_main_v81 : W (Proc.devRef .tc main_v81) = val_main_v81 (F := F) x0 x1)
    :
    after (c14 (F := F)) W (Proc.devRef .tc main_v70) = val_main_v70 (F := F) x0 x1 x2
    ∧ after (c14 (F := F)) W (Proc.devRef .tc main_v88) = val_main_v88 (F := F) x0 x1 := by
  refine ⟨?_, ?_⟩
  · after_results_simp
    exact h_main_v70
  · after_results_simp
    rw [h_main_v80, h_main_v81, h_main_v35]
    rfl

/-- Operations 131 to 141 of the reference, in order. -/
abbrev c15 : List (HloOp τ sig (Elt F)) :=
  [ nullary main_cst_27 (constant S_ .f32 0x41200000#32),
    unary main_cst_27 main_v89 (broadcastInDim S16 ![] bcast_S_S16 : (⟨S_, .f32⟩ : BufTy).Contents (Elt F) → (⟨S16, .f32⟩ : BufTy).Contents (Elt F)),
    binary main_v89 main_v70 main_v90 (mulf : (⟨S16, .f32⟩ : BufTy).Contents (Elt F) → (⟨S16, .f32⟩ : BufTy).Contents (Elt F) → (⟨S16, .f32⟩ : BufTy).Contents (Elt F)),
    nullary main_cst_28 (constant S_ .f32 0x40A00000#32),
    unary main_cst_28 main_v91 (broadcastInDim S16 ![] bcast_S_S16 : (⟨S_, .f32⟩ : BufTy).Contents (Elt F) → (⟨S16, .f32⟩ : BufTy).Contents (Elt F)),
    binary main_v91 main_v88 main_v92 (mulf : (⟨S16, .f32⟩ : BufTy).Contents (Elt F) → (⟨S16, .f32⟩ : BufTy).Contents (Elt F) → (⟨S16, .f32⟩ : BufTy).Contents (Elt F)),
    binary main_v90 main_v92 main_v93 (addf : (⟨S16, .f32⟩ : BufTy).Contents (Elt F) → (⟨S16, .f32⟩ : BufTy).Contents (Elt F) → (⟨S16, .f32⟩ : BufTy).Contents (Elt F)),
    nullary main_cst_29 (constant S_ .f32 0x00000000#32),
    binary main_v93 main_cst_29 main_v94 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_30 (constant S_ .f32 0x41800000#32),
    binary main_v94 main_cst_30 main_v95 (Host.divf : (⟨S_, .f32⟩ : BufTy).Contents (Elt F) → (⟨S_, .f32⟩ : BufTy).Contents (Elt F) → (⟨S_, .f32⟩ : BufTy).Contents (Elt F)) ]

/-- If the buffers read from operation 131 on hold their stages before operations 131 to 141, the buffers read from operation 142 on hold theirs after them. -/
theorem chunk15 (W : Valuation τ sig (Elt F)) (x0 : (⟨S8x21x512x512, .f32⟩ : BufTy).Contents (Elt F)) (x1 : (⟨S8x1x512x512, .i32⟩ : BufTy).Contents (Elt F)) (x2 : (⟨S8x1x512x512, .i32⟩ : BufTy).Contents (Elt F))
    (h_main_v70 : W (Proc.devRef .tc main_v70) = val_main_v70 (F := F) x0 x1 x2)
    (h_main_v88 : W (Proc.devRef .tc main_v88) = val_main_v88 (F := F) x0 x1)
    :
    after (c15 (F := F)) W (Proc.devRef .tc main_v95) = val_main_v95 (F := F) x0 x1 x2 := by
  after_results_simp
  rw [h_main_v70, h_main_v88]
  rfl

end Cert.RefChunks

end
-- ==== Proof.RefStages.lean ====
import proofs.«400420_j429496730161_3_alg».proof.Proof.RefChunks

/-! The reference's run, read at its last stage. A run of the reference leaves in every buffer what its 142
operations, applied in order, make of the launch contents. The operation list is the concatenation of sixteen
consecutive stretches, and running a concatenation is running its parts in turn. Each stretch carries the stages
(the values the reference computes, as functions of its three arguments) of the buffers still to be read across it;
at the launch the three argument buffers hold the arguments, so chaining the sixteen facts gives the result buffer
the last stage of the arguments' launch contents. No operation writes an argument buffer, so the arguments are
unchanged. -/

noncomputable section

namespace Cert.RefStages

open Cert.ReferenceIdeal Cert.ReferenceIdeal.Gen Cert.ReferenceIdeal.ValueP Cert.ReferenceIdeal.ReadP Cert.RefChunks Idealize.ShloMosaic Idealize.ShloMosaic.TcCoe Idealize.SL.Sem Idealize.ShloMosaic.StableHlo

variable {F : FTy → Type} [FloatOps F]

/-- Running a concatenation of two stretches is running the first, then the second from what it leaves. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
/-- The reference's 142 operations are the sixteen stretches, one after the other. -/
theorem ops_split : (ops (F := F)) =
    c0 ++ (c1 ++ (c2 ++ (c3 ++ (c4 ++ (c5 ++ (c6 ++ (c7 ++ (c8 ++ (c9 ++ (c10 ++ (c11 ++ (c12 ++ (c13 ++ (c14 ++ c15)))))))))))))) := rfl

/-- After the whole run the result buffer holds the last stage, as a function of the three arguments' contents at the start. -/
theorem after_v95 (V : Valuation τ sig (Elt F)) :
    after (ops (F := F)) V (Proc.devRef .tc main_v95)
      = val_main_v95 (F := F) (V (Proc.devRef .tc main_arg0)) (V (Proc.devRef .tc main_arg1)) (V (Proc.devRef .tc main_arg2)) := by
  rw [ops_split]
  simp only [after_app]
  obtain ⟨a0, v0, v1, v8⟩ := chunk0 V _ _ _ rfl rfl rfl
  obtain ⟨v0, v1, v8, v15⟩ := chunk1 _ _ _ _ a0 v0 v1 v8
  obtain ⟨v0, v1, v8, v21⟩ := chunk2 _ _ _ _ v0 v1 v8 v15
  obtain ⟨v0, v1, v8, v26, v29⟩ := chunk3 _ _ _ _ v0 v1 v8 v21
  obtain ⟨v0, v1, v26, v30, v35⟩ := chunk4 _ _ _ _ v0 v1 v8 v26 v29
  obtain ⟨v0, v1, v26, v30, v35, v37, v38⟩ := chunk5 _ _ _ _ v0 v1 v26 v30 v35
  obtain ⟨v0, v30, v35, v37, v43, v44⟩ := chunk6 _ _ _ _ v0 v1 v26 v30 v35 v37 v38
  obtain ⟨v30, v35, v37, v43, v48, v49⟩ := chunk7 _ _ _ _ v0 v30 v35 v37 v43 v44
  obtain ⟨v30, v35, v37, v43, v48, v54⟩ := chunk8 _ _ _ _ v30 v35 v37 v43 v48 v49
  obtain ⟨v30, v35, v37, v43, v60, v61⟩ := chunk9 _ _ _ _ v30 v35 v37 v43 v48 v54
  obtain ⟨v30, v35, v37, v43, v66⟩ := chunk10 _ _ _ _ v30 v35 v37 v43 v60 v61
  obtain ⟨v30, v35, v43, v70⟩ := chunk11 _ _ _ _ v30 v35 v37 v43 v66
  obtain ⟨v30, v35, v43, v70, v72, v75⟩ := chunk12 _ _ _ _ v30 v35 v43 v70
  obtain ⟨v35, v70, v80, v81⟩ := chunk13 _ _ _ _ v30 v35 v43 v70 v72 v75
  obtain ⟨v70, v88⟩ := chunk14 _ _ _ _ v35 v70 v80 v81
  exact chunk15 _ _ _ _ v70 v88

/-- No operation writes the first argument's buffer. -/
theorem after_arg0 (V : Valuation τ sig (Elt F)) :
    after (ops (F := F)) V (Proc.devRef .tc main_arg0) = V (Proc.devRef .tc main_arg0) := by
  after_results_simp

/-- No operation writes the second argument's buffer. -/
theorem after_arg1 (V : Valuation τ sig (Elt F)) :
    after (ops (F := F)) V (Proc.devRef .tc main_arg1) = V (Proc.devRef .tc main_arg1) := by
  after_results_simp

/-- No operation writes the third argument's buffer. -/
theorem after_arg2 (V : Valuation τ sig (Elt F)) :
    after (ops (F := F)) V (Proc.devRef .tc main_arg2) = V (Proc.devRef .tc main_arg2) := by
  after_results_simp

/-- On every device, from any memory with zero counters: every weakly fair execution of the reference terminates with the
    result buffer at the last stage of the arguments' launch contents, and the three arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
          = val_main_v95 (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v95).trans (after_v95 (launchContents m c)),
       (h c main_arg0).trans (after_arg0 (launchContents m c)),
       (h c main_arg1).trans (after_arg1 (launchContents m c)),
       (h c main_arg2).trans (after_arg2 (launchContents m c))⟩)
    (run_raw m ρ)

end Cert.RefStages

end
-- ==== Proof.RefSoft.lean ====
/-
  The reference's per-pixel stages read at a pixel.

  Pixel `(y, w)` of sample `n` sits at position `pix n y w` of the row-major list of all pixels.  At that
  position the reference's softmax stage holds `smProb` of the pixel's 21 scores, its logarithm stage holds
  `smLogp` of them, and its segment-id stage holds `16 · n` plus the pixel's blob id.

  The softmax of a column: the largest score `M` is the fold of `max` from `-∞` over the 21 classes, the
  denominator `D` is the sum over the 21 classes of `exp (x - M)`, and the probability of class `c` is
  `exp (x c - M) / D`.  For real scores `M` is real, every `exp (x c - M)` is a positive real and so is `D`,
  hence `log (exp (x c - M) / D) = (x c - M) - log D` by the real logarithm's laws.
-/
import proofs.«400420_j429496730161_3_alg».proof.Proof.Spec
import proofs.«400420_j429496730161_3_alg».proof.Proof.RefRead
import Idealize.ShloMosaic.PureOps.Ideal
import Idealize.ShloMosaic.PureOps.Ideal.Laws
import Idealize.ShloMosaic.PureOps.Reduce
import Idealize.ShloMosaic.Lib.ValueIdx
import Mathlib.Analysis.SpecialFunctions.Log.Basic
import Mathlib.Data.EReal.Basic

noncomputable section

namespace Cert.RefSoft

open Cert.SegSpec Cert.ReferenceIdeal Cert.ReferenceIdeal.ReadP Idealize.ShloMosaic Idealize.ShloMosaic.ValueIdx

/-! ## One pixel's column of 21 scores -/

/-- The fold of `max` from `-∞` over the 21 scores, then `max (-∞) ·`, is the column's largest score. -/
theorem fold_max_eq_colMax (col : Fin 21 → EReal) :
    max (⊥ : EReal) ((Finset.univ : Finset (Fin 21)).fold max (⊥ : EReal) col) = colMax col := by
  rw [max_eq_right bot_le]
  have h : colMax col = (Finset.univ : Finset (Fin 21)).sup col := Finset.sup'_eq_sup _ col
  rw [h]
  rfl

/-- A finite sum of real numbers, read in the extended reals, is the sum of the readings. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The largest of 21 real scores is one of them, hence real. -/
theorem colMax_real (col : Fin 21 → EReal) (hcol : ∀ c, ∃ r : ℝ, col c = (r : EReal)) :
    ∃ M : ℝ, colMax col = (M : EReal) := by
  obtain ⟨i, _, hi⟩ := Finset.exists_mem_eq_sup' (s := (Finset.univ : Finset (Fin 21))) ⟨0, Finset.mem_univ _⟩ col
  obtain ⟨r, hr⟩ := hcol i
  exact ⟨r, by unfold colMax; rw [hi, hr]⟩

/-- For real scores the logarithm of the softmax probability is the shifted score less the logarithm of the
    denominator: over the reals `log (exp a / D) = a - log D` for `D > 0`. -/
theorem log_smProb (col : Fin 21 → EReal) (hcol : ∀ c, ∃ r : ℝ, col c = (r : EReal)) (c : Fin 21) :
    Ideal.log (smProb col c) = smLogp col c := by
  obtain ⟨M, hM⟩ := colMax_real col hcol
  choose r hr using hcol
  have hterm : ∀ k, Ideal.exp (col k - colMax col) = ((Real.exp (r k - M) : ℝ) : EReal) := by
    intro k
    rw [hr k, hM, ← EReal.coe_sub, Ideal.exp_coe]
  have hden : colDen col = ((∑ k : Fin 21, Real.exp (r k - M) : ℝ) : EReal) := by
    unfold colDen
    rw [coe_sum]
    exact Finset.sum_congr rfl fun k _ => hterm k
  have hDpos : 0 < ∑ k : Fin 21, Real.exp (r k - M) :=
    Finset.sum_pos (fun k _ => Real.exp_pos _) ⟨0, Finset.mem_univ _⟩
  unfold smLogp smProb
  rw [hden, hterm c, hr c, hM, Ideal.div_coe hDpos.ne', ← EReal.coe_mul, Ideal.log_coe, Ideal.log_coe,
    if_neg (not_le.mpr hDpos), if_neg (not_le.mpr (mul_pos (Real.exp_pos _) (one_div_pos.mpr hDpos))),
    ← EReal.coe_sub, ← EReal.coe_sub]
  congr 1
  rw [mul_one_div, Real.log_div (Real.exp_pos _).ne' hDpos.ne', Real.log_exp]

/-! ## The class axis of the score array -/

/-- Dropping the class axis of the score array leaves (sample, row, column). -/
theorem red1 : S8x21x512x512.Reduces [1] S8x512x512 := by decide

/-- Pixel `(n, y, w)` with class `k` put back on the class axis is `(n, k, y, w)`. -/
theorem lift_class (n : Fin 8) (y w : Fin 512) (k : Fin (S8x21x512x512.size 1)) :
    red1.lift (ix3 n y w) k = ix4 n (⟨k.val, k.isLt⟩ : Fin 21) y w := by
  funext c; apply Fin.ext
  match c with
  | ⟨0, _⟩ => rfl
  | ⟨1, _⟩ => rfl
  | ⟨2, _⟩ => rfl
  | ⟨3, _⟩ => rfl

/-- The bit pattern of `-∞` denotes the least extended real. -/
theorem ofBits_neg_inf : Ideal.ofBits .f32 0xFF800000#32 = (⊥ : EReal) := by
  simp [Ideal.ofBits, Ideal.ieee]

/-! ## Index bookkeeping: the broadcasts over the class axis and the class sum's operand index -/

/-- Entry `(n, k, y, w)` of a broadcast over the class axis reads the pixel `(n, y, w)`. -/
theorem idx12_13 (n : Fin 8) (k : Fin 21) (y w : Fin 512) :
    idx_main_v12 (idx_main_v13 (ix4 n k y w)) = ix3 n y w := by
  funext a; apply Fin.ext
  match a with
  | ⟨0, _⟩ => rfl
  | ⟨1, _⟩ => rfl
  | ⟨2, _⟩ => rfl
theorem idx17_18 (n : Fin 8) (k : Fin 21) (y w : Fin 512) :
    idx_main_v17 (idx_main_v18 (ix4 n k y w)) = ix3 n y w := by
  funext a; apply Fin.ext
  match a with
  | ⟨0, _⟩ => rfl
  | ⟨1, _⟩ => rfl
  | ⟨2, _⟩ => rfl
/-- The class sum at pixel `(n, y, w)` reads its operand at `(n, k, y, w)`. -/
theorem idx16 (n : Fin 8) (k : Fin 21) (y w : Fin 512) :
    idx_main_v16 (ix3 n y w) k = ix4 n k y w := by
  funext a; apply Fin.ext
  match a with
  | ⟨0, _⟩ => rfl
  | ⟨1, _⟩ => rfl
  | ⟨2, _⟩ => rfl
  | ⟨3, _⟩ => rfl

/-! ## The softmax stages at a pixel -/

/-- The running maximum stage at pixel `(n, y, w)`: the fold of `max` from `-∞` over the pixel's 21 scores,
    then `max (-∞) ·`, is the column's largest score. -/
theorem max_at (x0 : FVec Ideal S8x21x512x512 .f32) (n : Fin 8) (y w : Fin 512) :
    val_main_v11 (F := Ideal) x0 (ix3 n y w) = colMax (colOf x0 n y w) := by
  rw [val_main_v11_apply, val_main_v10_apply, val_main_cst_0_apply]
  unfold val_main_v9
  rw [Host.reduce_eq_fold_single (FloatOps.maximumf (F := Ideal) (φ := .f32)) x0 _ _ red1 _ (ix3 n y w), val_main_cst_apply]
  have hf : (x0 ∘ red1.lift (ix3 n y w)) = colOf x0 n y w :=
    funext fun k => congrArg x0 (lift_class n y w k)
  rw [hf]
  show max (Ideal.ofBits .f32 0xFF800000#32)
      ((Finset.univ : Finset (Fin 21)).fold max (Ideal.ofBits .f32 0xFF800000#32) (colOf x0 n y w)) = _
  rw [ofBits_neg_inf]
  exact fold_max_eq_colMax _

/-- The broadcast of that maximum back over the class axis. -/
theorem shift_at (x0 : FVec Ideal S8x21x512x512 .f32) (n : Fin 8) (k : Fin 21) (y w : Fin 512) :
    val_main_v13 (F := Ideal) x0 (ix4 n k y w) = colMax (colOf x0 n y w) := by
  rw [val_main_v13_apply, val_main_v12_apply, idx12_13]
  exact max_at x0 n y w

/-- The exponential stage: `exp` of the score less the column's largest. -/
theorem exp_at (x0 : FVec Ideal S8x21x512x512 .f32) (n : Fin 8) (k : Fin 21) (y w : Fin 512) :
    val_main_v15 (F := Ideal) x0 (ix4 n k y w)
      = Ideal.exp (colOf x0 n y w k - colMax (colOf x0 n y w)) := by
  rw [val_main_v15_apply, val_main_v14_apply, shift_at]
  rfl

/-- The denominator stage, broadcast back over the class axis: the sum over the 21 classes of those
    exponentials (the sum starts from `0`). -/
theorem den_at (x0 : FVec Ideal S8x21x512x512 .f32) (n : Fin 8) (k : Fin 21) (y w : Fin 512) :
    val_main_v18 (F := Ideal) x0 (ix4 n k y w) = colDen (colOf x0 n y w) := by
  rw [val_main_v18_apply, val_main_v17_apply, idx17_18, val_main_v16_apply, val_main_cst_1_apply]
  show Ideal.ofBits .f32 0x00000000#32 + _ = _
  rw [Ideal.ofBits_zero_f32, zero_add]
  unfold colDen
  exact Finset.sum_congr rfl fun c _ => by rw [idx16, exp_at]

/-- The softmax stage at `(n, c, y, w)`. -/
theorem soft_at (x0 : FVec Ideal S8x21x512x512 .f32) (n : Fin 8) (c : Fin 21) (y w : Fin 512) :
    val_main_v19 (F := Ideal) x0 (ix4 n c y w) = smProb (colOf x0 n y w) c := by
  rw [val_main_v19_apply, exp_at, den_at]
  rfl

/-- Position `pix n y w` of the pixel list, class `c`, is entry `(n, y, w, c)` of the transposed array,
    which is entry `(n, c, y, w)` of the softmax. -/
theorem prob_at (x0 : FVec Ideal S8x21x512x512 .f32) (hx : FiniteX x0) (n : Fin 8) (y w : Fin 512) (c : Fin 21) :
    val_main_v21 (F := Ideal) x0 (ix2 (pix n y w) c) = smProb (colOf x0 n y w) c := by
  rw [val_main_v21_apply, val_main_v20_apply]
  have hi : idx_main_v20 (idx_main_v21 (ix2 (pix n y w) c)) = ix4 n c y w := by
    have hn := n.isLt; have hy := y.isLt; have hw := w.isLt; have hc := c.isLt
    funext a; apply Fin.ext
    match a with
    | ⟨0, _⟩ =>
      show (((n.val * 512 + y.val) * 512 + w.val) * 21 + c.val) / 5505024 = n.val
      omega
    | ⟨1, _⟩ =>
      show (((n.val * 512 + y.val) * 512 + w.val) * 21 + c.val) % 21 = c.val
      omega
    | ⟨2, _⟩ =>
      show (((n.val * 512 + y.val) * 512 + w.val) * 21 + c.val) / 10752 % 512 = y.val
      omega
    | ⟨3, _⟩ =>
      show (((n.val * 512 + y.val) * 512 + w.val) * 21 + c.val) / 21 % 512 = w.val
      omega
  rw [hi]
  exact soft_at x0 n c y w

/-- The logarithm stage at the same position: for real scores the logarithm of the softmax probability is the
    shifted score less the logarithm of the denominator. -/
theorem logp_at (x0 : FVec Ideal S8x21x512x512 .f32) (hx : FiniteX x0) (n : Fin 8) (y w : Fin 512) (c : Fin 21) :
    val_main_v22 (F := Ideal) x0 (ix2 (pix n y w) c) = smLogp (colOf x0 n y w) c := by
  rw [val_main_v22_apply, prob_at x0 hx]
  exact log_smProb (colOf x0 n y w) (fun k => hx (ix4 n k y w)) c

/-! ## The segment id of a pixel -/

/-- The segment-id stage at position `pix n y w`: sample `n`'s row of the `[8, 262144]` array, the word `n`
    times the word `16`, plus the pixel's blob id. -/
theorem sid_at (x1 : IVec S8x1x512x512 32) (n : Fin 8) (y w : Fin 512) :
    val_main_v8 (F := Ideal) x1 (ix1 (pix n y w)) = BitVec.ofNat 32 (n.val * 16) + blobOf x1 n y w := by
  have hn := n.isLt; have hy := y.isLt; have hw := w.isLt
  rw [val_main_v8_apply, val_main_v7_apply, val_main_v6_apply, val_main_v5_apply, val_main_v3_apply,
    val_main_v4_apply, val_main_v2_apply, val_main_c_apply, val_main_v0_apply]
  have hb : idx_main_v0 (idx_main_v8 (ix1 (pix n y w))) = ix4 n (0 : Fin 1) y w := by
    funext a; apply Fin.ext
    match a with
    | ⟨0, _⟩ =>
      show (((n.val * 512 + y.val) * 512 + w.val) / 262144 * 262144
        + ((n.val * 512 + y.val) * 512 + w.val) % 262144) / 262144 = n.val
      omega
    | ⟨1, _⟩ => rfl
    | ⟨2, _⟩ =>
      show (((n.val * 512 + y.val) * 512 + w.val) / 262144 * 262144
        + ((n.val * 512 + y.val) * 512 + w.val) % 262144) / 512 % 512 = y.val
      omega
    | ⟨3, _⟩ =>
      show (((n.val * 512 + y.val) * 512 + w.val) / 262144 * 262144
        + ((n.val * 512 + y.val) * 512 + w.val) % 262144) % 512 = w.val
      omega
  rw [hb]
  have hs : ((n.val * 512 + y.val) * 512 + w.val) / 262144 = n.val := by omega
  show BitVec.ofNat 32 (((n.val * 512 + y.val) * 512 + w.val) / 262144) * 16#32 + x1 (ix4 n (0 : Fin 1) y w) = _
  rw [hs, ← BitVec.ofNat_mul]
  rfl

end Cert.RefSoft

end
-- ==== Proof.RefScatter.lean ====
/-
  The reference's three segment sums, read at (sample, blob, class).

  Every pixel (n, y, w) of the batch carries a start word 16 n + blob(n, y, w), and each blob word lies in
  [0, 16); so the 128 segments 16 n + s are in bijection with the pairs (sample n, blob s).  A scatter-add
  into zeros is the exact sum of the updates landing on each element: the element at row 16 n + s, column c,
  of the scatter of the per-pixel rows V is the sum, over the pixels whose start word is 16 n + s, of
  V (pixel, c).  Those pixels are exactly the pixels of sample n whose blob word is s, so the element is
    ∑ y, ∑ w, V (pix n y w, c) * [blob(n, y, w) = s],
  the filtered sum written with the 0/1 indicator.  With V the softmax probabilities, their logarithms, or
  the constant one, these are the sums, the log-sums and the counts of the specification.
-/
import proofs.«400420_j429496730161_3_alg».proof.Proof.Spec
import proofs.«400420_j429496730161_3_alg».proof.Proof.RefRead
import Idealize.ShloMosaic.PureOps.Ideal
import Idealize.ShloMosaic.PureOps.Ideal.Laws
import Idealize.ShloMosaic.Lib.ValueIdx

noncomputable section

namespace Cert.RefScatter

open Cert.SegSpec Cert.ReferenceIdeal Cert.ReferenceIdeal.ReadP Idealize.ShloMosaic Idealize.ShloMosaic.ValueIdx

/-- The dimension record of the rank-2 segment scatter ([128,21] from rows [2097152,1] and updates [2097152,21])
    and of the rank-1 one ([128] from rows [2097152,1] and updates [2097152]). -/
abbrev D2 := scatter_S128x21_S2097152x1_S2097152x21_1_0_0_1
abbrev D1 := scatter_S128_S2097152x1_S2097152_n_0_0_1

/-! ## Where an update lands -/

/-- An update lands on the element i exactly when, on every axis, start plus window coordinate is the
    coordinate of i. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := Option.some.inj e
      rw [← e']
      exact (Int.toNat_of_nonneg (h a).1).symm
    · intro H
      refine congrArg some ?_
      funext a
      refine Fin.ext ?_
      show (d.start j idx a + (d.window j a : Int)).toNat = (i a).val
      rw [H a]
      exact Int.toNat_natCast _
  · rename_i h
    constructor
    · intro e
      exact absurd e (by simp)
    · intro H
      refine absurd ?_ h
      intro a
      rw [H a]
      exact ⟨Int.natCast_nonneg _, by exact_mod_cast (i a).isLt⟩

theorem d2_start0 (j : S2097152x21.Idx) (idx : IVec S2097152x1 32) :
    D2.start j idx (0 : Fin 2) = (idx (ix2 (j 0) (0 : Fin 1))).toInt := by
  unfold ScatterDims.start
  rw [dif_pos (by decide)]
  refine congrArg (fun t => (idx t).toInt) ?_
  funext b
  match b with
  | ⟨0, _⟩ => rfl
  | ⟨1, _⟩ => rfl

theorem d2_start1 (j : S2097152x21.Idx) (idx : IVec S2097152x1 32) : D2.start j idx (1 : Fin 2) = 0 := by
  unfold ScatterDims.start
  rw [dif_neg (by decide)]

theorem d2_window0 (j : S2097152x21.Idx) : D2.window j (0 : Fin 2) = 0 := by
  unfold ScatterDims.window
  rw [dif_neg (by decide)]

theorem d2_window1 (j : S2097152x21.Idx) : D2.window j (1 : Fin 2) = (j 1).val := by
  unfold ScatterDims.window
  rw [dif_pos (by decide)]
  rfl

theorem d1_start0 (j : S2097152.Idx) (idx : IVec S2097152x1 32) :
    D1.start j idx (0 : Fin 1) = (idx (ix2 (j 0) (0 : Fin 1))).toInt := by
  unfold ScatterDims.start
  rw [dif_pos (by decide)]
  refine congrArg (fun t => (idx t).toInt) ?_
  funext b
  match b with
  | ⟨0, _⟩ => rfl
  | ⟨1, _⟩ => rfl

theorem d1_window0 (j : S2097152.Idx) : D1.window j (0 : Fin 1) = 0 := by
  unfold ScatterDims.window
  rw [dif_neg (by decide)]

/-- Update (p, c') of the rank-2 scatter lands on (r, c) exactly when the start word of row p, read signed,
    is r and c' = c. -/
theorem d2_lands (idx : IVec S2097152x1 32) (p : Fin 2097152) (c' : Fin 21) (r : Fin 128) (c : Fin 21) :
    D2.resultIdx? (ix2 p c') idx = some (ix2 r c) ↔ (idx (ix2 p (0 : Fin 1))).toInt = (r.val : Int) ∧ c' = c := by
  rw [resultIdx?_eq_some_iff, Fin.forall_fin_two, d2_start0, d2_start1, d2_window0, d2_window1]
  show (idx (ix2 p (0 : Fin 1))).toInt + ((0 : Nat) : Int) = (r.val : Int) ∧ (0 : Int) + (c'.val : Int) = (c.val : Int) ↔ _
  constructor
  · rintro ⟨h1, h2⟩
    exact ⟨by omega, Fin.ext (by omega)⟩
  · rintro ⟨h1, h2⟩
    subst h2
    exact ⟨by omega, by omega⟩

/-- Update p of the rank-1 scatter lands on r exactly when its start word, read signed, is r. -/
theorem d1_lands (idx : IVec S2097152x1 32) (p : Fin 2097152) (r : Fin 128) :
    D1.resultIdx? (ix1 p) idx = some (ix1 r) ↔ (idx (ix2 p (0 : Fin 1))).toInt = (r.val : Int) := by
  rw [resultIdx?_eq_some_iff, Fin.forall_fin_one, d1_start0, d1_window0]
  show (idx (ix2 p (0 : Fin 1))).toInt + ((0 : Nat) : Int) = (r.val : Int) ↔ _
  constructor
  · intro h; omega
  · intro h; omega

/-- A rank-1 index set is its one coordinate range. -/
def idxEquiv1 (n : Nat) : (⟨1, ![n]⟩ : Shape).Idx ≃ Fin n where
  toFun i := i 0
  invFun p := ix1 p
  left_inv i := (eq_ix1 i).symm
  right_inv _ := rfl

/-! ## The pixels in row-major order -/

/-- Sample, row and column of a pixel against its row-major position: a bijection. -/
def pixEquiv : Fin 8 × Fin 512 × Fin 512 ≃ Fin 2097152 where
  toFun t := pix t.1 t.2.1 t.2.2
  invFun p := (⟨p.val / 262144, by have := p.isLt; omega⟩, ⟨p.val / 512 % 512, Nat.mod_lt _ (by decide)⟩,
    ⟨p.val % 512, Nat.mod_lt _ (by decide)⟩)
  left_inv := by
    rintro ⟨n, y, w⟩
    have := n.isLt; have := y.isLt; have := w.isLt
    refine Prod.ext (Fin.ext ?_) (Prod.ext (Fin.ext ?_) (Fin.ext ?_))
    · show ((n.val * 512 + y.val) * 512 + w.val) / 262144 = n.val; omega
    · show ((n.val * 512 + y.val) * 512 + w.val) / 512 % 512 = y.val; omega
    · show ((n.val * 512 + y.val) * 512 + w.val) % 512 = w.val; omega
  right_inv := by
    intro p
    refine Fin.ext ?_
    show (p.val / 262144 * 512 + p.val / 512 % 512) * 512 + p.val % 512 = p.val
    omega

/-- A sum over all pixel positions is the triple sum over sample, row and column. -/
theorem sum_pix {M : Type*} [AddCommMonoid M] (g : Fin 2097152 → M) :
    ∑ p, g p = ∑ n : Fin 8, ∑ y : Fin 512, ∑ w : Fin 512, g (pix n y w) := by
  rw [← Equiv.sum_comp pixEquiv g, Fintype.sum_prod_type]
  refine Finset.sum_congr rfl fun n _ => ?_
  rw [Fintype.sum_prod_type]
  rfl

/-! ## The two scatter-adds read at an element -/

/-- Element (r, c) of the rank-2 scatter-add: the operand there plus the sum, over the rows p whose start word
    read signed is r, of the update at (p, c). -/
theorem scatter2_apply (x : FVec Ideal S128x21 .f32) (idx : IVec S2097152x1 32) (upd : FVec Ideal S2097152x21 .f32)
    (r : Fin 128) (c : Fin 21) :
    Host.scatterAdd (F := Ideal) D2 x idx upd (ix2 r c)
      = x (ix2 r c) + ∑ p : Fin 2097152,
          if (idx (ix2 p (0 : Fin 1))).toInt = (r.val : Int) then upd (ix2 p c) else 0 := by
  show x (ix2 r c) + ∑ j ∈ Finset.univ.filter (fun j => D2.resultIdx? j idx = some (ix2 r c)), upd j = _
  refine congrArg (x (ix2 r c) + ·) ?_
  rw [Finset.sum_filter, sum_idx2]
  refine Finset.sum_congr rfl fun p _ => ?_
  simp only [d2_lands]
  by_cases h : (idx (ix2 p (0 : Fin 1))).toInt = (r.val : Int)
  · simp only [h, true_and, if_true]
    exact Finset.sum_ite_eq' Finset.univ c (fun c' => upd (ix2 p c')) |>.trans (if_pos (Finset.mem_univ c))
  · simp only [h, false_and, if_false]
    exact Finset.sum_const_zero

/-- Element r of the rank-1 scatter-add: the operand there plus the sum of the updates p whose start word read
    signed is r. -/
theorem scatter1_apply (x : FVec Ideal S128 .f32) (idx : IVec S2097152x1 32) (upd : FVec Ideal S2097152 .f32)
    (r : Fin 128) :
    Host.scatterAdd (F := Ideal) D1 x idx upd (ix1 r)
      = x (ix1 r) + ∑ p : Fin 2097152,
          if (idx (ix2 p (0 : Fin 1))).toInt = (r.val : Int) then upd (ix1 p) else 0 := by
  show x (ix1 r) + ∑ j ∈ Finset.univ.filter (fun j => D1.resultIdx? j idx = some (ix1 r)), upd j = _
  refine congrArg (x (ix1 r) + ·) ?_
  rw [Finset.sum_filter]
  refine (Equiv.sum_comp (idxEquiv1 2097152).symm _).symm.trans ?_
  refine Finset.sum_congr rfl fun p _ => ?_
  show (if D1.resultIdx? (ix1 p) idx = some (ix1 r) then upd (ix1 p) else 0) = _
  simp only [d1_lands]

/-! ## The segment word -/

/-- A word whose signed reading lies in [0, 16) is below 16 unsigned. -/
theorem toNat_lt_of_range (v : BitVec 32) (h0 : 0 ≤ v.toInt) (h1 : v.toInt < 16) : v.toNat < 16 := by
  have h := BitVec.toInt_eq_toNat_cond v
  have hl := v.isLt
  split at h <;> omega

/-- For n < 8 and v < 16 the word 16 n + v does not wrap: read signed it is the number 16 n + v. -/
theorem segword_toInt (n : Fin 8) (v : BitVec 32) (hv : v.toNat < 16) :
    (BitVec.ofNat 32 (n.val * 16) + v).toInt = ((n.val * 16 + v.toNat : Nat) : Int) := by
  have hn := n.isLt
  have e : (BitVec.ofNat 32 (n.val * 16) + v).toNat = n.val * 16 + v.toNat := by
    rw [BitVec.toNat_add, BitVec.toNat_ofNat]
    omega
  have h := BitVec.toInt_eq_toNat_cond (BitVec.ofNat 32 (n.val * 16) + v)
  rw [e] at h
  split at h <;> omega

/-- With the blob word v in [0, 16): the word 16 n' + v is the segment 16 n + s exactly when n' = n and v is
    the word s. -/
theorem seg_word_iff (n' n : Fin 8) (s : Fin 16) (v : BitVec 32) (h0 : 0 ≤ v.toInt) (h1 : v.toInt < 16) :
    (BitVec.ofNat 32 (n'.val * 16) + v).toInt = ((seg n s).val : Int) ↔ n' = n ∧ v = BitVec.ofNat 32 s.val := by
  have hv := toNat_lt_of_range v h0 h1
  have hs := s.isLt
  rw [segword_toInt n' v hv]
  show ((n'.val * 16 + v.toNat : Nat) : Int) = ((n.val * 16 + s.val : Nat) : Int) ↔ _
  constructor
  · intro h
    have h' : n'.val * 16 + v.toNat = n.val * 16 + s.val := by exact_mod_cast h
    refine ⟨Fin.ext (by omega), BitVec.eq_of_toNat_eq ?_⟩
    rw [BitVec.toNat_ofNat]
    omega
  · rintro ⟨rfl, hv2⟩
    have e : v.toNat = s.val := by
      rw [hv2, BitVec.toNat_ofNat]
      omega
    rw [e]

/-- The sum over all pixels of U, kept where the start word is the segment of (n, s), is the sum over the
    pixels of sample n of U times the indicator that the blob word is s: the start word of pixel (n', y, w)
    is 16 n' + blob and every blob word lies in [0, 16), so the kept pixels are those of sample n with blob s. -/
theorem seg_sum (W : Fin 2097152 → BitVec 32) (b : Fin 8 → Fin 512 → Fin 512 → BitVec 32)
    (hb : ∀ n y w, 0 ≤ (b n y w).toInt ∧ (b n y w).toInt < 16)
    (hW : ∀ n y w, W (pix n y w) = BitVec.ofNat 32 (n.val * 16) + b n y w)
    (U : Fin 2097152 → EReal) (n : Fin 8) (s : Fin 16) :
    (∑ p, if (W p).toInt = ((seg n s).val : Int) then U p else 0)
      = ∑ y : Fin 512, ∑ w : Fin 512, U (pix n y w) * maskf (b n y w) s := by
  rw [sum_pix, Finset.sum_eq_single n]
  · refine Finset.sum_congr rfl fun y _ => Finset.sum_congr rfl fun w _ => ?_
    rw [hW]
    unfold maskf
    by_cases h : b n y w = BitVec.ofNat 32 s.val
    · rw [if_pos ((seg_word_iff n n s _ (hb n y w).1 (hb n y w).2).2 ⟨rfl, h⟩), if_pos h, mul_one]
    · rw [if_neg (fun e => h ((seg_word_iff n n s _ (hb n y w).1 (hb n y w).2).1 e).2), if_neg h, mul_zero]
  · intro n' _ hne
    refine Finset.sum_eq_zero fun y _ => Finset.sum_eq_zero fun w _ => ?_
    rw [hW]
    exact if_neg (fun e => hne ((seg_word_iff n' n s _ (hb n' y w).1 (hb n' y w).2).1 e).1)
  · intro h
    exact absurd (Finset.mem_univ n) h

/-! ## The three segment sums of the reference -/

/-- The word of the number one. -/
theorem ofBits_one_f32 : Ideal.ofBits .f32 0x3F800000#32 = 1 := by
  simp [Ideal.ofBits, Ideal.ieee, -EReal.coe_mul]; norm_num

/-- The rank-2 segment scatter into zeros, read at (segment of (n, s), c): the sum over the pixels of sample n
    of the update at (pixel, c) times the indicator that the blob word of the pixel is s. -/
theorem seg_scatter2 (x1 : IVec S8x1x512x512 32) (hb : BlobInRange x1)
    (Z : FVec Ideal S128x21 .f32) (hZ : ∀ i, Z i = 0) (I : IVec S2097152x1 32)
    (hI : ∀ (n : Fin 8) (y w : Fin 512),
      I (ix2 (pix n y w) (0 : Fin 1)) = BitVec.ofNat 32 (n.val * 16) + blobOf x1 n y w)
    (V : FVec Ideal S2097152x21 .f32) (n : Fin 8) (s : Fin 16) (c : Fin 21) :
    Host.scatterAdd (F := Ideal) D2 Z I V (ix2 (seg n s) c)
      = ∑ y : Fin 512, ∑ w : Fin 512, V (ix2 (pix n y w) c) * maskf (blobOf x1 n y w) s := by
  rw [scatter2_apply, hZ, zero_add]
  exact seg_sum (fun p => I (ix2 p (0 : Fin 1))) (blobOf x1) (fun n y w => hb _) hI (fun p => V (ix2 p c)) n s

/-- The rank-1 segment scatter into zeros, read at the segment of (n, s), likewise. -/
theorem seg_scatter1 (x1 : IVec S8x1x512x512 32) (hb : BlobInRange x1)
    (Z : FVec Ideal S128 .f32) (hZ : ∀ i, Z i = 0) (I : IVec S2097152x1 32)
    (hI : ∀ (n : Fin 8) (y w : Fin 512),
      I (ix2 (pix n y w) (0 : Fin 1)) = BitVec.ofNat 32 (n.val * 16) + blobOf x1 n y w)
    (V : FVec Ideal S2097152 .f32) (n : Fin 8) (s : Fin 16) :
    Host.scatterAdd (F := Ideal) D1 Z I V (ix1 (seg n s))
      = ∑ y : Fin 512, ∑ w : Fin 512, V (ix1 (pix n y w)) * maskf (blobOf x1 n y w) s := by
  rw [scatter1_apply, hZ, zero_add]
  exact seg_sum (fun p => I (ix2 p (0 : Fin 1))) (blobOf x1) (fun n y w => hb _) hI (fun p => V (ix1 p)) n s

/-- Element (n, s, c) of the [8,16,21] array is element (segment of (n, s), c) of the [128,21] one. -/
theorem idx26 (n : Fin 8) (s : Fin 16) (c : Fin 21) : idx_main_v26 (ix3 n s c) = ix2 (seg n s) c := by
  have := n.isLt; have := s.isLt; have := c.isLt
  funext a
  match a with
  | ⟨0, _⟩ => exact Fin.ext (by show ((n.val * 16 + s.val) * 21 + c.val) / 21 = n.val * 16 + s.val; omega)
  | ⟨1, _⟩ => exact Fin.ext (by show ((n.val * 16 + s.val) * 21 + c.val) % 21 = c.val; omega)

theorem idx30 (n : Fin 8) (s : Fin 16) (c : Fin 21) : idx_main_v30 (ix3 n s c) = ix2 (seg n s) c := idx26 n s c

/-- Element (n, s) of the [8,16] array is the element at the segment of (n, s) of the [128] one. -/
theorem idx35 (n : Fin 8) (s : Fin 16) : idx_main_v35 (ix2 n s) = ix1 (seg n s) := by
  funext a
  match a with
  | ⟨0, _⟩ => rfl

/-- Row p of a [2097152,1] row array is element p of the [2097152] array it broadcasts. -/
theorem idx24 (p : Fin 2097152) : idx_main_v24 (ix2 p (0 : Fin 1)) = ix1 p := by
  funext a
  match a with
  | ⟨0, _⟩ => rfl

theorem idx28 (p : Fin 2097152) : idx_main_v28 (ix2 p (0 : Fin 1)) = ix1 p := idx24 p

theorem idx33 (p : Fin 2097152) : idx_main_v33 (ix2 p (0 : Fin 1)) = ix1 p := idx24 p

section
variable (x1 : IVec S8x1x512x512 32)
  (hS : ∀ (n : Fin 8) (y w : Fin 512),
    val_main_v8 (F := Ideal) x1 (ix1 (pix n y w)) = BitVec.ofNat 32 (n.val * 16) + blobOf x1 n y w)
include hS

/-- The start word of pixel (n, y, w) in each of the three row arrays is its segment word. -/
theorem v24_pix (n : Fin 8) (y w : Fin 512) :
    val_main_v24 (F := Ideal) x1 (ix2 (pix n y w) (0 : Fin 1)) = BitVec.ofNat 32 (n.val * 16) + blobOf x1 n y w := by
  rw [val_main_v24_apply, idx24]
  exact hS n y w

theorem v28_pix (n : Fin 8) (y w : Fin 512) :
    val_main_v28 (F := Ideal) x1 (ix2 (pix n y w) (0 : Fin 1)) = BitVec.ofNat 32 (n.val * 16) + blobOf x1 n y w := by
  rw [val_main_v28_apply, idx28]
  exact hS n y w

theorem v33_pix (n : Fin 8) (y w : Fin 512) :
    val_main_v33 (F := Ideal) x1 (ix2 (pix n y w) (0 : Fin 1)) = BitVec.ofNat 32 (n.val * 16) + blobOf x1 n y w := by
  rw [val_main_v33_apply, idx33]
  exact hS n y w

end

/-- The reference's per-blob sums of probabilities: the scatter-add of the softmax rows at the segment words,
    reshaped, is the array of sums over each blob. -/
theorem sums_eq (x0 : FVec Ideal S8x21x512x512 .f32) (x1 : IVec S8x1x512x512 32) (hb : BlobInRange x1)
    (hP : ∀ (n : Fin 8) (y w : Fin 512) (c : Fin 21),
      val_main_v21 (F := Ideal) x0 (ix2 (pix n y w) c) = smProb (colOf x0 n y w) c)
    (hS : ∀ (n : Fin 8) (y w : Fin 512),
      val_main_v8 (F := Ideal) x1 (ix1 (pix n y w)) = BitVec.ofNat 32 (n.val * 16) + blobOf x1 n y w) :
    val_main_v26 (F := Ideal) x0 x1 = sumsArr x0 x1 := by
  funext j
  obtain ⟨n, s, c, rfl⟩ : ∃ n s c, j = ix3 n s c := ⟨j 0, j 1, j 2, eq_ix3 j⟩
  rw [val_main_v26_apply, idx26]
  unfold val_main_v25
  refine (seg_scatter2 x1 hb _ (fun i => ?_) _ (v24_pix x1 hS) _ n s c).trans ?_
  · rw [val_main_v23_apply, val_main_cst_2_apply]
    exact Ideal.ofBits_zero_f32
  · show _ = sumsAt x0 x1 n s c
    unfold sumsAt
    refine Finset.sum_congr rfl fun y _ => Finset.sum_congr rfl fun w _ => ?_
    rw [hP]

/-- The reference's per-blob sums of log-probabilities, likewise. -/
theorem slogp_eq (x0 : FVec Ideal S8x21x512x512 .f32) (x1 : IVec S8x1x512x512 32) (hb : BlobInRange x1)
    (hL : ∀ (n : Fin 8) (y w : Fin 512) (c : Fin 21),
      val_main_v22 (F := Ideal) x0 (ix2 (pix n y w) c) = smLogp (colOf x0 n y w) c)
    (hS : ∀ (n : Fin 8) (y w : Fin 512),
      val_main_v8 (F := Ideal) x1 (ix1 (pix n y w)) = BitVec.ofNat 32 (n.val * 16) + blobOf x1 n y w) :
    val_main_v30 (F := Ideal) x0 x1 = slogpArr x0 x1 := by
  funext j
  obtain ⟨n, s, c, rfl⟩ : ∃ n s c, j = ix3 n s c := ⟨j 0, j 1, j 2, eq_ix3 j⟩
  rw [val_main_v30_apply, idx30]
  unfold val_main_v29
  refine (seg_scatter2 x1 hb _ (fun i => ?_) _ (v28_pix x1 hS) _ n s c).trans ?_
  · rw [val_main_v27_apply, val_main_cst_3_apply]
    exact Ideal.ofBits_zero_f32
  · show _ = slogpAt x0 x1 n s c
    unfold slogpAt
    refine Finset.sum_congr rfl fun y _ => Finset.sum_congr rfl fun w _ => ?_
    rw [hL]

/-- The reference's per-blob pixel counts: the scatter-add of ones at the segment words, reshaped, counts the
    pixels of each blob. -/
theorem cnt_eq (x1 : IVec S8x1x512x512 32) (hb : BlobInRange x1)
    (hS : ∀ (n : Fin 8) (y w : Fin 512),
      val_main_v8 (F := Ideal) x1 (ix1 (pix n y w)) = BitVec.ofNat 32 (n.val * 16) + blobOf x1 n y w) :
    val_main_v35 (F := Ideal) x1 = cntArr x1 := by
  funext j
  obtain ⟨n, s, rfl⟩ : ∃ n s, j = ix2 n s := ⟨j 0, j 1, eq_ix2 j⟩
  rw [val_main_v35_apply, idx35]
  unfold val_main_v34
  refine (seg_scatter1 x1 hb _ (fun i => ?_) _ (v33_pix x1 hS) _ n s).trans ?_
  · rw [val_main_v32_apply, val_main_cst_5_apply]
    exact Ideal.ofBits_zero_f32
  · show _ = cntAt x1 n s
    unfold cntAt
    refine Finset.sum_congr rfl fun y _ => Finset.sum_congr rfl fun w _ => ?_
    rw [val_main_v31_apply, val_main_cst_4_apply]
    exact (congrArg (· * maskf (blobOf x1 n y w) s) ofBits_one_f32).trans (one_mul _)

end Cert.RefScatter

end
-- ==== Proof.PreDecode.lean ====
/-
  The precondition, read back.

  The precondition is the conjunction of three statements over all positions: every score has
  absolute value below +∞, every blob id read as a signed integer is at least 0, and every blob id
  read as a signed integer is below 16.  Each statement is a conjunction over all positions of a
  one-bit comparison, and the three are joined by the one-bit "and".  A conjunction of bits that
  equals 1 has every conjunct equal to 1, so each comparison holds at every position.  Over the
  extended reals, |v| = max v (-v) < +∞ excludes v = +∞ and v = -∞, which leaves a real number.
-/
import Idealize.ShloMosaic.PureOps.Ideal
import Idealize.ShloMosaic.Lib.ReduceAll
import Idealize.ShloMosaic.Lib.ValueIdx
import proofs.«400420_j429496730161_3_alg».proof.Pre_finite_inputs
import proofs.«400420_j429496730161_3_alg».proof.Proof.Spec

noncomputable section

namespace Cert.PreDecode

open Idealize.ShloMosaic

/-- A shape of rank 0 has exactly one index. -/
instance : Subsingleton Cert.Pre_finite_inputs.S_.Idx := ⟨fun a b => funext fun d => d.elim0⟩

/-- An extended real whose absolute value max v (-v) is below +∞ is a real number:
    at v = +∞ the maximum is +∞, and at v = -∞ its negation is +∞. -/
theorem real_of_abs_lt_top (v : EReal) (h : max v (-v) < ⊤) : ∃ r : ℝ, v = (r : EReal) := by
  induction v using EReal.rec with
  | bot => simp at h
  | coe r => exact ⟨r, rfl⟩
  | top => simp at h

/-- A truth value whose one-bit word is 1 is true. -/
theorem ofBool_eq_one {p : Bool} (e : BitVec.ofBool p = 1#1) : p = true := by
  cases p
  · exact absurd e (by decide)
  · rfl

/-- The 32-bit pattern with all exponent bits set and a zero fraction denotes +∞. -/
theorem f32_inf : Ideal.ofBits .f32 0x7F800000#32 = (⊤ : EReal) := by
  simp [Ideal.ofBits, Ideal.ieee]

/-- If the precondition evaluates to 1, every score is a real number and every blob id, read
    signed, lies in [0, 16). -/
theorem pre_decode [Cert.Pre_finite_inputs.Facts]
    (x : FVec Ideal Cert.Pre_finite_inputs.S8x21x512x512 .f32) (b t : IVec Cert.Pre_finite_inputs.S8x1x512x512 32)
    (h : Cert.Pre_finite_inputs.fn (F := Ideal) x b t = fun _ => 1#1) :
    Cert.SegSpec.FiniteX x ∧ Cert.SegSpec.BlobInRange b := by
  -- the value at the single index of the rank-0 result
  have h0 := congrFun h ValueIdx.ix0
  dsimp only [Cert.Pre_finite_inputs.fn] at h0
  -- (A ∧ B) ∧ C = 1 gives A = 1, B = 1, C = 1
  obtain ⟨h12, h3⟩ := IntOp.andi_eq_one.1 h0
  obtain ⟨h1, h2⟩ := IntOp.andi_eq_one.1 h12
  refine ⟨fun i => ?_, fun i => ⟨?_, ?_⟩⟩
  · -- A: the conjunction over all positions of |x i| < +∞
    have e := Host.reduce_andi_all _ _ _ _ _ h1 i
    have e1 : Ideal.cmp .olt (max (x i) (-(x i))) (Ideal.ofBits .f32 0x7F800000#32) = 1#1 := e
    rw [f32_inf] at e1
    have e2 : max (x i) (-(x i)) < (⊤ : EReal) := of_decide_eq_true (ofBool_eq_one e1)
    exact real_of_abs_lt_top (x i) e2
  · -- B: the conjunction over all positions of 0 ≤ b i, compared signed
    have e := Host.reduce_andi_all _ _ _ _ _ h2 i
    have e1 : IntOp.cmpi .sge (b i) 0#32 = 1#1 := e
    have e2 := IntOp.cmpi_sge.1 e1
    rwa [show (0#32 : BitVec 32).toInt = 0 from by decide] at e2
  · -- C: the conjunction over all positions of b i < 16, compared signed
    have e := Host.reduce_andi_all _ _ _ _ _ h3 i
    have e1 : IntOp.cmpi .slt (b i) 16#32 = 1#1 := e
    have e2 := IntOp.cmpi_slt.1 e1
    rwa [show (16#32 : BitVec 32).toInt = 16 from by decide] at e2

end Cert.PreDecode

end
-- ==== Proof.lean ====
/-
  The certificate: the kernel's two programs and the reference run to their ends with nothing faulting and their
  arguments unchanged, and at the exact extended reals the kernel and the reference return the same number.

  Both programs first compute, for every sample `n`, blob `s` and class `c`, the sum over the pixels of sample `n` whose blob
  id is `s` of the softmax probability of class `c`, the same sum of the log-probabilities, and the number of those pixels —
  the kernel tile by tile with three accumulators, the reference by three scatter-adds over all pixels with segment id
  `16 n + blob` — and then run one and the same scalar tail on those three arrays, the blob ids and the targets.
  The three arrays agree (Proof/Spec.lean states them once): the kernel's by what its accumulators hold at the last tile of
  a sample; the reference's because, with every blob id in `[0, 16)`, the segment `16 n + s` receives exactly the pixels of
  sample `n` in blob `s`, and, with every score finite, `log (exp a / D) = a - log D`.  The tail is compared one operation
  at a time: every buffer the kernel program's later lines write holds the reference's stage of the same operation.
-/
import proofs.«400420_j429496730161_3_alg».proof.Defs
import proofs.«400420_j429496730161_3_alg».proof.Proof.Gen.Kernel
import proofs.«400420_j429496730161_3_alg».proof.Proof.Gen.KernelIdeal
import proofs.«400420_j429496730161_3_alg».proof.Proof.Gen.ReferenceIdeal
import proofs.«400420_j429496730161_3_alg».proof.Proof.Gen.Pre_finite_inputs
import proofs.«400420_j429496730161_3_alg».proof.Proof.KFrame
import proofs.«400420_j429496730161_3_alg».proof.Proof.KiFinal
import proofs.«400420_j429496730161_3_alg».proof.Proof.TailEntry
import proofs.«400420_j429496730161_3_alg».proof.Proof.Tail
import proofs.«400420_j429496730161_3_alg».proof.Proof.RefStages
import proofs.«400420_j429496730161_3_alg».proof.Proof.RefSoft
import proofs.«400420_j429496730161_3_alg».proof.Proof.RefScatter
import proofs.«400420_j429496730161_3_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.SegSpec

/-- The count array with its trailing unit axis dropped. -/
theorem cnt_cast (b : SB.Idx → BitVec 32) (h : SC3.ShapeCasts SC) : shapeCast SC (cntArr3 b) h = cntArr b := by
  funext j
  obtain ⟨n, s, rfl⟩ : ∃ (n : Fin 8) (s : Fin 16), j = ix2 n s := ⟨j 0, j 1, eq_ix2 j⟩
  refine (shapeCast_apply (cntArr3 b) h (ix2 n s) (ix3 n s (0 : Fin 1)) ?_).trans rfl
  rw [Shape.rowMajor_val_three, Shape.rowMajor_val_two]
  show (n.val * 16 + s.val) * 1 + 0 = n.val * 16 + s.val
  omega

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefStages.run_stages (F := Ideal) m ρ)

open Cert.ReferenceIdeal.ReadP in
/-- The reference's three statistics are the specification's, when every score is finite and every blob id in range. -/
theorem ref_stats (x0 : FVec Ideal Cert.ReferenceIdeal.S8x21x512x512 .f32) (x1 : IVec Cert.ReferenceIdeal.S8x1x512x512 32) (hx : FiniteX x0) (hb : BlobInRange x1) :
    val_main_v26 (F := Ideal) x0 x1 = sumsArr x0 x1 ∧ val_main_v30 (F := Ideal) x0 x1 = slogpArr x0 x1 ∧ val_main_v35 (F := Ideal) x1 = cntArr x1 :=
  ⟨Cert.RefScatter.sums_eq x0 x1 hb (Cert.RefSoft.prob_at x0 hx) (Cert.RefSoft.sid_at x1),
   Cert.RefScatter.slogp_eq x0 x1 hb (Cert.RefSoft.logp_at x0 hx) (Cert.RefSoft.sid_at x1),
   Cert.RefScatter.cnt_eq x1 hb (Cert.RefSoft.sid_at x1)⟩

open Cert.KernelIdeal Cert.KernelIdeal.Gen Cert.ReferenceIdeal.ReadP in
/-- The idealized kernel's run with its result named: the reference's last stage of the kernel's own arguments. -/
theorem kernel_run (m : (ℓ : Loc Cert.KernelIdeal.nD Cert.KernelIdeal.τ Cert.KernelIdeal.sig) → Buf (Elt Ideal) ℓ) (ρ : Dev Cert.KernelIdeal.nD → PrngReg)
    (hpre : ∀ c : Dev Cert.KernelIdeal.nD, FiniteX (m ((c.tc : Thread nD τ).loc main_arg0)) ∧ BlobInRange (m ((c.tc : Thread nD τ).loc main_arg1))) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v63)
          = val_main_v95 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.KernelIdeal.defs _ _).mono (fun _ h c => by
    obtain ⟨hs, hl, hc⟩ := ref_stats _ _ (hpre c).1 (hpre c).2
    have a1 : (dats m 0 c).arrAt 1 cfg0.N = m ((c.tc : Thread nD τ).loc main_arg1) :=
      ((dats m 0 c).arrAt_in 1 rfl _).trans ((A_eq m c 1).trans (V_main_arg1 m c))
    refine ⟨((h c).2 main_v63 (by decide)).trans ((Cert.TailV.afterTail_eq m (dats m) c main_v63).trans
        (Cert.TailV.tail_stages (F := Ideal) _ _ _ _
          ((Cert.TailV.tailW_v0_0 m (dats m) c).trans ((kval2 m c).trans hs.symm))
          ((Cert.TailV.tailW_v0_1 m (dats m) c).trans ((kval3 m c).trans hl.symm))
          (by rw [Cert.TailV.tailW_v0_2 m (dats m) c, kval4 m c]; exact (cnt_cast _ _).trans hc.symm)
          ((Cert.TailV.tailW_arg1 m (dats m) c).trans a1)
          (Cert.TailV.tailW_arg2 m (dats m) c))), ?_, a1 ▸ ((h c).1 1), ?_⟩
    · exact ((h c).1 0).trans (((dats m 0 c).arrAt_in 0 rfl _).trans ((A_eq m c 0).trans (V_main_arg0 m c)))
    · exact ((h c).2 main_arg2 (by decide)).trans (afterTail_arg2 m (dats m) c))
    (run_main (F := Ideal) m ρ)

theorem algebraic : Cert.algebraic_KernelIdeal_ReferenceIdeal := by
  intro m ρ m' ρ' hpre hagree
  refine ⟨_, kernel_run m ρ (fun c => Cert.PreDecode.pre_decode _ _ _ (hpre c)), ?_⟩
  refine (θ_run Cert.ReferenceIdeal.defs _ _).mono (fun _ h c => ⟨(h c).1.trans ?_, (h c).2⟩)
    (Cert.RefStages.run_stages (F := Ideal) m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
